-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096x1024 : Shape := ⟨3, ![1, 4096, 1024]⟩
abbrev S1024x1024 : Shape := ⟨2, ![1024, 1024]⟩
abbrev S1024 : Shape := ⟨1, ![1024]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024 .f32) (main_arg8 : FVec F S1024 .f32) (main_arg9 : FVec F S1024 .f32) (main_arg10 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024x1024 .f32) (main_arg5 : FVec F S1024x1024 .f32) (main_arg6 : FVec F S1024 .f32) (main_arg7 : FVec F S1024 .f32) (main_arg8 : FVec F S1024 .f32) (main_arg9 : FVec F S1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S1x4096x1024 .f32) (main_arg1 : FVec F S1024x1024 .f32) (main_arg2 : FVec F S1024x1024 .f32) (main_arg3 : FVec F S1024x1024 .f32) (main_arg4 : FVec F S1024x1024 .f32) (main_arg5 : FVec F S1024x1024 .f32) (main_arg6 : FVec F S1024 .f32) (main_arg7 : FVec F S1024 .f32) (main_arg8 : FVec F S1024 .f32) (main_arg9 : FVec F S1024 .f32) (main_arg10 : FVec F S1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S1x4096x1024 : Shape := ⟨3, ![1, 4096, 1024]⟩
abbrev S1024x1024 : Shape := ⟨2, ![1024, 1024]⟩
abbrev S1024 : Shape := ⟨1, ![1024]⟩
abbrev S4096x1024 : Shape := ⟨2, ![4096, 1024]⟩
abbrev S512x1024 : Shape := ⟨2, ![512, 1024]⟩
abbrev S1x4096x16x64 : Shape := ⟨4, ![1, 4096, 16, 64]⟩
abbrev S1x16x4096x64 : Shape := ⟨4, ![1, 16, 4096, 64]⟩
abbrev S16x4096x64 : Shape := ⟨3, ![16, 4096, 64]⟩
abbrev S16x256x64 : Shape := ⟨3, ![16, 256, 64]⟩
abbrev S16x256 : Shape := ⟨2, ![16, 256]⟩
abbrev S16x256x256 : Shape := ⟨3, ![16, 256, 256]⟩
abbrev S16x256x1 : Shape := ⟨3, ![16, 256, 1]⟩
abbrev S1x1024 : Shape := ⟨2, ![1, 1024]⟩
abbrev S512 : Shape := ⟨1, ![512]⟩
abbrev S512x1 : Shape := ⟨2, ![512, 1]⟩

abbrev nBuf : Space → Nat
  | .hbm => 44
  | .vmem => 37
  | .smem => 0
  | _ => 0

abbrev bufTy : (tb : Table) → Fin (tcTables nBuf tb) → BufTy
  | .hbm, ⟨0, _⟩ => ⟨S1x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S4096x1024, .f32⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S1x4096x16x64, .f32⟩
  | .hbm, ⟨22, _⟩ => ⟨S1x16x4096x64, .f32⟩
  | .hbm, ⟨23, _⟩ => ⟨S16x4096x64, .f32⟩
  | .hbm, ⟨24, _⟩ => ⟨S1x4096x16x64, .f32⟩
  | .hbm, ⟨25, _⟩ => ⟨S1x16x4096x64, .f32⟩
  | .hbm, ⟨26, _⟩ => ⟨S16x4096x64, .f32⟩
  | .hbm, ⟨27, _⟩ => ⟨S16x4096x64, .bf16⟩
  | .hbm, ⟨28, _⟩ => ⟨S1x4096x16x64, .f32⟩
  | .hbm, ⟨29, _⟩ => ⟨S1x16x4096x64, .f32⟩
  | .hbm, ⟨30, _⟩ => ⟨S16x4096x64, .f32⟩
  | .hbm, ⟨31, _⟩ => ⟨S16x4096x64, .bf16⟩
  | .hbm, ⟨32, _⟩ => ⟨S16x4096x64, .f32⟩
  | .hbm, ⟨33, _⟩ => ⟨S1x16x4096x64, .f32⟩
  | .hbm, ⟨34, _⟩ => ⟨S1x4096x16x64, .f32⟩
  | .hbm, ⟨35, _⟩ => ⟨S4096x1024, .f32⟩
  | .hbm, ⟨36, _⟩ => ⟨S1x1024, .f32⟩
  | .hbm, ⟨37, _⟩ => ⟨S1x1024, .f32⟩
  | .hbm, ⟨38, _⟩ => ⟨S4096x1024, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S4096x1024, .f32⟩
  | .hbm, ⟨43, _⟩ => ⟨S1x4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S16x256x64, .f32⟩
  | .local _ .vmem, ⟨12, _⟩ => ⟨S16x256x64, .f32⟩
  | .local _ .vmem, ⟨13, _⟩ => ⟨S16x4096x64, .bf16⟩
  | .local _ .vmem, ⟨14, _⟩ => ⟨S16x4096x64, .bf16⟩
  | .local _ .vmem, ⟨15, _⟩ => ⟨S16x256x64, .f32⟩
  | .local _ .vmem, ⟨16, _⟩ => ⟨S16x256x64, .f32⟩
  | .local _ .vmem, ⟨17, _⟩ => ⟨S16x256, .f32⟩
  | .local _ .vmem, ⟨18, _⟩ => ⟨S16x256, .f32⟩
  | .local _ .vmem, ⟨19, _⟩ => ⟨S16x256x64, .f32⟩
  | .local _ .vmem, ⟨20, _⟩ => ⟨S512x1024, .f32⟩
  | .local _ .vmem, ⟨21, _⟩ => ⟨S512x1024, .f32⟩
  | .local _ .vmem, ⟨22, _⟩ => ⟨S1024x1024, .bf16⟩
  | .local _ .vmem, ⟨23, _⟩ => ⟨S512x1024, .f32⟩
  | .local _ .vmem, ⟨24, _⟩ => ⟨S512x1024, .f32⟩
  | .local _ .vmem, ⟨25, _⟩ => ⟨S1x1024, .f32⟩
  | .local _ .vmem, ⟨26, _⟩ => ⟨S1x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S1024x1024, .bf16⟩
  | .local _ .vmem, ⟨32, _⟩ => ⟨S1x1024, .f32⟩
  | .local _ .vmem, ⟨33, _⟩ => ⟨S1x1024, .f32⟩
  | .local _ .vmem, ⟨34, _⟩ => ⟨S1x1024, .f32⟩
  | .local _ .vmem, ⟨35, _⟩ => ⟨S512x1024, .f32⟩
  | .local _ .vmem, ⟨36, _⟩ => ⟨S512x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg5_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

@[reducible] def k1_t1_loop : Scf.Loop 32 :=
  let c0_i32 : BitVec 32 := 0#32
  let c16_i32 : BitVec 32 := 16#32
  let v15 : BitVec 32 := Scalar.addi c0_i32 c16_i32
  let c1_i32 : BitVec 32 := 1#32
  ⟨c0_i32, v15, c1_i32⟩
def k1_mult1 (k1_t1 : Fin k1_t1_loop.trips) : BitVec 32 :=
  let c0_i32_21 : BitVec 32 := 0#32
  let c0_i32 : BitVec 32 := 0#32
  let c1_i32 : BitVec 32 := 1#32
  let arg8 : BitVec 32 := Scf.iv c0_i32 c1_i32 k1_t1
  let c1_i32_20 : BitVec 32 := 1#32
  let v22 : BitVec 32 := Scalar.muli arg8 c1_i32_20
  let v23 : BitVec 32 := Scalar.addi c0_i32_21 v22
  let c256_i32 : BitVec 32 := 256#32
  let v24 : BitVec 32 := Scalar.muli v23 c256_i32
  v24
def k1_off1 (k1_t1 : Fin k1_t1_loop.trips) : Fin 3 → Nat :=
  let c0_22 : Index := 0#32
  let c0_i32_21 : BitVec 32 := 0#32
  let c0_i32 : BitVec 32 := 0#32
  let c1_i32 : BitVec 32 := 1#32
  let arg8 : BitVec 32 := Scf.iv c0_i32 c1_i32 k1_t1
  let c1_i32_20 : BitVec 32 := 1#32
  let v22 : BitVec 32 := Scalar.muli arg8 c1_i32_20
  let v23 : BitVec 32 := Scalar.addi c0_i32_21 v22
  let c256_i32 : BitVec 32 := 256#32
  let v24 : BitVec 32 := Scalar.muli v23 c256_i32
  let v25 : BitVec 32 := v24
  let v26 : Index := Scalar.indexCast v25
  let c0_23 : Index := 0#32
  ![0, v26.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S16x256x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x4096x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x4096x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S16x256x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S512x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  shapeCasts_S1x4096x1024_S4096x1024 : S1x4096x1024.ShapeCasts S4096x1024
  bitsLt_bf16_f32 : FTy.bits .bf16 < FTy.bits .f32
  transposes_S1024x1024_S1024x1024_1_0 : S1024x1024.Transposes [1, 0] S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S4096x1024_S1x4096x16x64 : S4096x1024.ShapeCasts S1x4096x16x64
  transposes_S1x4096x16x64_S1x16x4096x64_0_2_1_3 : S1x4096x16x64.Transposes [0, 2, 1, 3] S1x16x4096x64
  shapeCasts_S1x16x4096x64_S16x4096x64 : S1x16x4096x64.ShapeCasts S16x4096x64
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S16x256x64_S16x256x64_0_0_0 : ∀ a, (![0, 0, 0] : Fin 3 → Nat) a + S16x256x64.size a ≤ S16x256x64.size a
  h_S16x256x64 : 0 < S16x256x64.numel
  shapeCasts_S16x256x64_S16x256x64 : S16x256x64.ShapeCasts S16x256x64
  reduces_S16x256x256_S16x256 : S16x256x256.Reduces [2] S16x256
  shapeCasts_S16x256_S16x256x1 : S16x256.ShapeCasts S16x256x1
  broadcasts_S16x256x1_S16x256x256 : S16x256x1.Broadcasts S16x256x256
  broadcasts_S16x256x1_S16x256x64 : S16x256x1.Broadcasts S16x256x64
  shapeCasts_S16x4096x64_S1x16x4096x64 : S16x4096x64.ShapeCasts S1x16x4096x64
  transposes_S1x16x4096x64_S1x4096x16x64_0_2_1_3 : S1x16x4096x64.Transposes [0, 2, 1, 3] S1x4096x16x64
  shapeCasts_S1x4096x16x64_S4096x1024 : S1x4096x16x64.ShapeCasts S4096x1024
  shapeCasts_S1024_S1x1024 : S1024.ShapeCasts S1x1024
  reduces_S512x1024_S512 : S512x1024.Reduces [1] S512
  shapeCasts_S512_S512x1 : S512.ShapeCasts S512x1
  broadcasts_S512x1_S512x1024 : S512x1.Broadcasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S4096x1024_S1x4096x1024 : S4096x1024.ShapeCasts S1x4096x1024
  dot_S512x1024_S1024x1024_S512x1024_1_0_0_1_n_n_wf : DotDims.WF S512x1024 S1024x1024 S512x1024 [1] [0] [0] [1] [] []
  dot_S16x256x64_S16x256x64_S16x256x256_2_2_1_1_0_0_wf : DotDims.WF S16x256x64 S16x256x64 S16x256x256 [2] [2] [1] [1] [0] [0]
  dot_S16x256x256_S16x256x64_S16x256x64_2_1_1_2_0_0_wf : DotDims.WF S16x256x256 S16x256x64 S16x256x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x1024.size a
  hwx0_4 : ∀ i : grid0.Coords, EltTy.bits .f32 = 32 ∨ (Rect.block (s := S4096x1024) S512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x1024.size a
  hwx0_5 : ∀ i : grid0.Coords, EltTy.bits .f32 = 32 ∨ (Rect.block (s := S4096x1024) S512x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S4096x1024.size a
  hwx0_6 : ∀ i : grid0.Coords, EltTy.bits .f32 = 32 ∨ (Rect.block (s := S4096x1024) S512x1024.size (cc0_transform_6 i) (hinb0_6 i)).WholeWords (EltTy.packing .f32)
  hrank1 : 0 < grid1.rank
  k1_t1_ok : k1_t1_loop.OK
  k1_mult1_dvd : ∀ k1_t1 : Fin k1_t1_loop.trips, 256 ∣ (k1_mult1 k1_t1).toNat
  k1_off1_inb : ∀ k1_t1 : Fin k1_t1_loop.trips, ∀ a, (k1_off1 k1_t1) a + S16x256x64.size a ≤ S16x4096x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x256x64.size a ≤ S16x4096x64.size a
  hwx1_0 : ∀ i : grid1.Coords, EltTy.bits .f32 = 32 ∨ (Rect.block (s := S16x4096x64) S16x256x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x4096x64.size a ≤ S16x4096x64.size a
  hwx1_1 : ∀ i : grid1.Coords, EltTy.bits .bf16 = 32 ∨ (Rect.block (s := S16x4096x64) S16x4096x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x4096x64.size a ≤ S16x4096x64.size a
  hwx1_2 : ∀ i : grid1.Coords, EltTy.bits .bf16 = 32 ∨ (Rect.block (s := S16x4096x64) S16x4096x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x256x64.size a ≤ S16x4096x64.size a
  hwx1_3 : ∀ i : grid1.Coords, EltTy.bits .f32 = 32 ∨ (Rect.block (s := S16x4096x64) S16x256x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .f32 = 32 ∨ (Rect.block (s := S4096x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S4096x1024.size a
  hwx2_2 : ∀ i : grid2.Coords, EltTy.bits .f32 = 32 ∨ (Rect.block (s := S4096x1024) S512x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x1024.size a
  hwx2_3 : ∀ i : grid2.Coords, EltTy.bits .f32 = 32 ∨ (Rect.block (s := S1x1024) S1x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x1024.size a
  hwx2_4 : ∀ i : grid2.Coords, EltTy.bits .f32 = 32 ∨ (Rect.block (s := S1x1024) S1x1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x1024.size a ≤ S4096x1024.size a
  hwx2_5 : ∀ i : grid2.Coords, EltTy.bits .f32 = 32 ∨ (Rect.block (s := S4096x1024) S512x1024.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S4096x1024.size a
  hwx3_0 : ∀ i : grid3.Coords, EltTy.bits .f32 = 32 ∨ (Rect.block (s := S4096x1024) S512x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S1024x1024.size a
  hwx3_1 : ∀ i : grid3.Coords, EltTy.bits .bf16 = 32 ∨ (Rect.block (s := S1024x1024) S1024x1024.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x1024.size a
  hwx3_2 : ∀ i : grid3.Coords, EltTy.bits .f32 = 32 ∨ (Rect.block (s := S1x1024) S1x1024.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1024.size a ≤ S1x1024.size a
  hwx3_3 : ∀ i : grid3.Coords, EltTy.bits .f32 = 32 ∨ (Rect.block (s := S1x1024) S1x1024.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x1024.size a
  hwx3_4 : ∀ i : grid3.Coords, EltTy.bits .f32 = 32 ∨ (Rect.block (s := S1x1024) S1x1024.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S512x1024.size a ≤ S4096x1024.size a
  hwx3_5 : ∀ i : grid3.Coords, EltTy.bits .f32 = 32 ∨ (Rect.block (s := S4096x1024) S512x1024.size (cc3_transform_5 i) (hinb3_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S16x256x64_S16x256x64_S16x256x256_2_2_1_1_0_0 : DotDims S16x256x64 S16x256x64 S16x256x256 where
  lhsContracting := [2]
  rhsContracting := [2]
  lhsNonContracting := [1]
  rhsNonContracting := [1]
  lhsBatch := [0]
  rhsBatch := [0]
  wf := dot_S16x256x64_S16x256x64_S16x256x256_2_2_1_1_0_0_wf
def dot_S16x256x256_S16x256x64_S16x256x64_2_1_1_2_0_0 : DotDims S16x256x256 S16x256x64 S16x256x64 where
  lhsContracting := [2]
  rhsContracting := [1]
  lhsNonContracting := [1]
  rhsNonContracting := [2]
  lhsBatch := [0]
  rhsBatch := [0]
  wf := dot_S16x256x256_S16x256x64_S16x256x64_2_1_1_2_0_0_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_2) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v10) S16x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S16x4096x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S16x4096x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S16x256x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v22) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0) S512x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v23) S1x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v24) S1x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v25) S512x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v25) S512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v6) S1024x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v28) S1x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v26) S1x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v27) S1x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v29) S512x1024.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S1x4096x1024 : Shape := ⟨3, ![1, 4096, 1024]⟩
abbrev S1024x1024 : Shape := ⟨2, ![1024, 1024]⟩
abbrev S1024 : Shape := ⟨1, ![1024]⟩
abbrev S1x4096x16x64 : Shape := ⟨4, ![1, 4096, 16, 64]⟩
abbrev S1x16x4096x64 : Shape := ⟨4, ![1, 16, 4096, 64]⟩
abbrev S1x16x4096x4096 : Shape := ⟨4, ![1, 16, 4096, 4096]⟩
abbrev S_ : Shape := ⟨0, ![]⟩
abbrev S1x16x4096 : Shape := ⟨3, ![1, 16, 4096]⟩
abbrev S1x16x4096x1 : Shape := ⟨4, ![1, 16, 4096, 1]⟩
abbrev S1x4096 : Shape := ⟨2, ![1, 4096]⟩
abbrev S1x4096x1 : Shape := ⟨3, ![1, 4096, 1]⟩
abbrev S1x1x1024 : Shape := ⟨3, ![1, 1, 1024]⟩

abbrev nBuf : Space → Nat
  | .hbm => 109
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1x4096x1024, .f32⟩
  | .hbm, ⟨12, _⟩ => ⟨S1x4096x1024, .f32⟩
  | .hbm, ⟨13, _⟩ => ⟨S1x4096x1024, .f32⟩
  | .hbm, ⟨14, _⟩ => ⟨S1x4096x16x64, .f32⟩
  | .hbm, ⟨15, _⟩ => ⟨S1x16x4096x64, .f32⟩
  | .hbm, ⟨16, _⟩ => ⟨S1x4096x16x64, .f32⟩
  | .hbm, ⟨17, _⟩ => ⟨S1x16x4096x64, .f32⟩
  | .hbm, ⟨18, _⟩ => ⟨S1x4096x16x64, .f32⟩
  | .hbm, ⟨19, _⟩ => ⟨S1x16x4096x64, .f32⟩
  | .hbm, ⟨20, _⟩ => ⟨S1x16x4096x4096, .f32⟩
  | .hbm, ⟨21, _⟩ => ⟨S_, .f32⟩
  | .hbm, ⟨22, _⟩ => ⟨S1x16x4096x4096, .f32⟩
  | .hbm, ⟨23, _⟩ => ⟨S1x16x4096x4096, .f32⟩
  | .hbm, ⟨24, _⟩ => ⟨S_, .f32⟩
  | .hbm, ⟨25, _⟩ => ⟨S1x16x4096, .f32⟩
  | .hbm, ⟨26, _⟩ => ⟨S_, .f32⟩
  | .hbm, ⟨27, _⟩ => ⟨S1x16x4096, .f32⟩
  | .hbm, ⟨28, _⟩ => ⟨S1x16x4096, .f32⟩
  | .hbm, ⟨29, _⟩ => ⟨S1x16x4096x1, .f32⟩
  | .hbm, ⟨30, _⟩ => ⟨S1x16x4096x4096, .f32⟩
  | .hbm, ⟨31, _⟩ => ⟨S1x16x4096x4096, .f32⟩
  | .hbm, ⟨32, _⟩ => ⟨S1x16x4096x4096, .f32⟩
  | .hbm, ⟨33, _⟩ => ⟨S_, .f32⟩
  | .hbm, ⟨34, _⟩ => ⟨S1x16x4096, .f32⟩
  | .hbm, ⟨35, _⟩ => ⟨S1x16x4096x1, .f32⟩
  | .hbm, ⟨36, _⟩ => ⟨S1x16x4096x4096, .f32⟩
  | .hbm, ⟨37, _⟩ => ⟨S1x16x4096x4096, .f32⟩
  | .hbm, ⟨38, _⟩ => ⟨S1x16x4096x64, .f32⟩
  | .hbm, ⟨39, _⟩ => ⟨S1x4096x16x64, .f32⟩
  | .hbm, ⟨40, _⟩ => ⟨S1x4096x1024, .f32⟩
  | .hbm, ⟨41, _⟩ => ⟨S1x4096x1024, .f32⟩
  | .hbm, ⟨42, _⟩ => ⟨S1x4096x1024, .f32⟩
  | .hbm, ⟨43, _⟩ => ⟨S_, .f32⟩
  | .hbm, ⟨44, _⟩ => ⟨S1x4096, .f32⟩
  | .hbm, ⟨45, _⟩ => ⟨S1x4096x1, .f32⟩
  | .hbm, ⟨46, _⟩ => ⟨S_, .f32⟩
  | .hbm, ⟨47, _⟩ => ⟨S1x4096x1, .f32⟩
  | .hbm, ⟨48, _⟩ => ⟨S1x4096x1, .f32⟩
  | .hbm, ⟨49, _⟩ => ⟨S1x4096x1024, .f32⟩
  | .hbm, ⟨50, _⟩ => ⟨S1x4096x1024, .f32⟩
  | .hbm, ⟨51, _⟩ => ⟨S1x4096x1024, .f32⟩
  | .hbm, ⟨52, _⟩ => ⟨S_, .f32⟩
  | .hbm, ⟨53, _⟩ => ⟨S1x4096, .f32⟩
  | .hbm, ⟨54, _⟩ => ⟨S1x4096x1, .f32⟩
  | .hbm, ⟨55, _⟩ => ⟨S_, .f32⟩
  | .hbm, ⟨56, _⟩ => ⟨S1x4096x1, .f32⟩
  | .hbm, ⟨57, _⟩ => ⟨S1x4096x1, .f32⟩
  | .hbm, ⟨58, _⟩ => ⟨S1x4096x1024, .f32⟩
  | .hbm, ⟨59, _⟩ => ⟨S1x4096x1024, .f32⟩
  | .hbm, ⟨60, _⟩ => ⟨S_, .f32⟩
  | .hbm, ⟨61, _⟩ => ⟨S1x4096x1, .f32⟩
  | .hbm, ⟨62, _⟩ => ⟨S1x4096x1, .f32⟩
  | .hbm, ⟨63, _⟩ => ⟨S1x4096x1, .f32⟩
  | .hbm, ⟨64, _⟩ => ⟨S1x4096x1024, .f32⟩
  | .hbm, ⟨65, _⟩ => ⟨S1x4096x1024, .f32⟩
  | .hbm, ⟨66, _⟩ => ⟨S1x1x1024, .f32⟩
  | .hbm, ⟨67, _⟩ => ⟨S1x4096x1024, .f32⟩
  | .hbm, ⟨68, _⟩ => ⟨S1x4096x1024, .f32⟩
  | .hbm, ⟨69, _⟩ => ⟨S1x1x1024, .f32⟩
  | .hbm, ⟨70, _⟩ => ⟨S1x4096x1024, .f32⟩
  | .hbm, ⟨71, _⟩ => ⟨S1x4096x1024, .f32⟩
  | .hbm, ⟨72, _⟩ => ⟨S1x4096x1024, .f32⟩
  | .hbm, ⟨73, _⟩ => ⟨S1x1x1024, .f32⟩
  | .hbm, ⟨74, _⟩ => ⟨S1x4096x1024, .f32⟩
  | .hbm, ⟨75, _⟩ => ⟨S1x4096x1024, .f32⟩
  | .hbm, ⟨76, _⟩ => ⟨S1x4096x1024, .f32⟩
  | .hbm, ⟨77, _⟩ => ⟨S_, .f32⟩
  | .hbm, ⟨78, _⟩ => ⟨S1x4096, .f32⟩
  | .hbm, ⟨79, _⟩ => ⟨S1x4096x1, .f32⟩
  | .hbm, ⟨80, _⟩ => ⟨S_, .f32⟩
  | .hbm, ⟨81, _⟩ => ⟨S1x4096x1, .f32⟩
  | .hbm, ⟨82, _⟩ => ⟨S1x4096x1, .f32⟩
  | .hbm, ⟨83, _⟩ => ⟨S1x4096x1024, .f32⟩
  | .hbm, ⟨84, _⟩ => ⟨S1x4096x1024, .f32⟩
  | .hbm, ⟨85, _⟩ => ⟨S1x4096x1024, .f32⟩
  | .hbm, ⟨86, _⟩ => ⟨S_, .f32⟩
  | .hbm, ⟨87, _⟩ => ⟨S1x4096, .f32⟩
  | .hbm, ⟨88, _⟩ => ⟨S1x4096x1, .f32⟩
  | .hbm, ⟨89, _⟩ => ⟨S_, .f32⟩
  | .hbm, ⟨90, _⟩ => ⟨S1x4096x1, .f32⟩
  | .hbm, ⟨91, _⟩ => ⟨S1x4096x1, .f32⟩
  | .hbm, ⟨92, _⟩ => ⟨S1x4096x1024, .f32⟩
  | .hbm, ⟨93, _⟩ => ⟨S1x4096x1024, .f32⟩
  | .hbm, ⟨94, _⟩ => ⟨S_, .f32⟩
  | .hbm, ⟨95, _⟩ => ⟨S1x4096x1, .f32⟩
  | .hbm, ⟨96, _⟩ => ⟨S1x4096x1, .f32⟩
  | .hbm, ⟨97, _⟩ => ⟨S1x4096x1, .f32⟩
  | .hbm, ⟨98, _⟩ => ⟨S1x4096x1024, .f32⟩
  | .hbm, ⟨99, _⟩ => ⟨S1x4096x1024, .f32⟩
  | .hbm, ⟨100, _⟩ => ⟨S1x1x1024, .f32⟩
  | .hbm, ⟨101, _⟩ => ⟨S1x4096x1024, .f32⟩
  | .hbm, ⟨102, _⟩ => ⟨S1x4096x1024, .f32⟩
  | .hbm, ⟨103, _⟩ => ⟨S1x1x1024, .f32⟩
  | .hbm, ⟨104, _⟩ => ⟨S1x4096x1024, .f32⟩
  | .hbm, ⟨105, _⟩ => ⟨S1x4096x1024, .f32⟩
  | .hbm, ⟨106, _⟩ => ⟨S_, .f32⟩
  | .hbm, ⟨107, _⟩ => ⟨S1x4096x1024, .f32⟩
  | .hbm, ⟨108, _⟩ => ⟨S1x4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_8 : Ref sig .tc := ⟨.hbm, 77, rfl⟩
abbrev main_v57 : Ref sig .tc := ⟨.hbm, 78, rfl⟩
abbrev main_v58 : Ref sig .tc := ⟨.hbm, 79, rfl⟩
abbrev main_cst_9 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_10 : Ref sig .tc := ⟨.hbm, 86, rfl⟩
abbrev main_v64 : Ref sig .tc := ⟨.hbm, 87, rfl⟩
abbrev main_v65 : Ref sig .tc := ⟨.hbm, 88, rfl⟩
abbrev main_cst_11 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_12 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_call0_cst : Ref sig .tc := ⟨.hbm, 106, rfl⟩
abbrev main_call0_v0 : Ref sig .tc := ⟨.hbm, 107, rfl⟩
abbrev main_v81 : Ref sig .tc := ⟨.hbm, 108, rfl⟩

abbrev nD : Nat := 1
abbrev τ : Topo := Topo.v7x

variable {F : FTy → Type} [FloatOps F]

class Facts₀ : Prop where
  shapeCasts_S1x4096x1024_S1x4096x16x64 : S1x4096x1024.ShapeCasts S1x4096x16x64
  transposes_S1x4096x16x64_S1x16x4096x64_0_2_1_3 : S1x4096x16x64.Transposes [0, 2, 1, 3] S1x16x4096x64
  bcast_S_S1x16x4096x4096 : S_.BroadcastsInDim S1x16x4096x4096 (![] : Fin 0 → Fin S1x16x4096x4096.rank)
  reducesTo_S1x16x4096x4096_S1x16x4096_d3 : S1x16x4096x4096.ReducesTo [3] S1x16x4096
  h_S_ : 0 < S_.numel
  bcast_S_S1x16x4096 : S_.BroadcastsInDim S1x16x4096 (![] : Fin 0 → Fin S1x16x4096.rank)
  bcast_S1x16x4096_S1x16x4096x1_0_1_2 : S1x16x4096.BroadcastsInDim S1x16x4096x1 (![0, 1, 2] : Fin 3 → Fin S1x16x4096x1.rank)
  bcast_S1x16x4096x1_S1x16x4096x4096_0_1_2_3 : S1x16x4096x1.BroadcastsInDim S1x16x4096x4096 (![0, 1, 2, 3] : Fin 4 → Fin S1x16x4096x4096.rank)
  transposes_S1x16x4096x64_S1x4096x16x64_0_2_1_3 : S1x16x4096x64.Transposes [0, 2, 1, 3] S1x4096x16x64
  shapeCasts_S1x4096x16x64_S1x4096x1024 : S1x4096x16x64.ShapeCasts S1x4096x1024
  reducesTo_S1x4096x1024_S1x4096_d2 : S1x4096x1024.ReducesTo [2] S1x4096
  bcast_S1x4096_S1x4096x1_0_1 : S1x4096.BroadcastsInDim S1x4096x1 (![0, 1] : Fin 2 → Fin S1x4096x1.rank)
  bcast_S_S1x4096x1 : S_.BroadcastsInDim S1x4096x1 (![] : Fin 0 → Fin S1x4096x1.rank)
  bcast_S1x4096x1_S1x4096x1024_0_1_2 : S1x4096x1.BroadcastsInDim S1x4096x1024 (![0, 1, 2] : Fin 3 → Fin S1x4096x1024.rank)
  bcast_S1024_S1x1x1024_2 : S1024.BroadcastsInDim S1x1x1024 (![2] : Fin 1 → Fin S1x1x1024.rank)
  bcast_S1x1x1024_S1x4096x1024_0_1_2 : S1x1x1024.BroadcastsInDim S1x4096x1024 (![0, 1, 2] : Fin 3 → Fin S1x4096x1024.rank)
  bcast_S_S1x4096x1024 : S_.BroadcastsInDim S1x4096x1024 (![] : Fin 0 → Fin S1x4096x1024.rank)
  dot_S1x4096x1024_S1024x1024_S1x4096x1024_2_0_01_1_n_n_wf : DotDims.WF S1x4096x1024 S1024x1024 S1x4096x1024 [2] [0] [0, 1] [1] [] []
  dot_S1x16x4096x64_S1x16x4096x64_S1x16x4096x4096_3_3_2_2_01_01_wf : DotDims.WF S1x16x4096x64 S1x16x4096x64 S1x16x4096x4096 [3] [3] [2] [2] [0, 1] [0, 1]
  dot_S1x16x4096x4096_S1x16x4096x64_S1x16x4096x64_3_2_2_3_01_01_wf : DotDims.WF S1x16x4096x4096 S1x16x4096x64 S1x16x4096x64 [3] [2] [2] [3] [0, 1] [0, 1]
  dot_S1x4096x1024_S1024x1024_S1x4096x1024_2_1_01_0_n_n_wf : DotDims.WF S1x4096x1024 S1024x1024 S1x4096x1024 [2] [1] [0, 1] [0] [] []

variable [Facts₀]

def dot_S1x4096x1024_S1024x1024_S1x4096x1024_2_0_01_1_n_n : DotDims S1x4096x1024 S1024x1024 S1x4096x1024 where
  lhsContracting := [2]
  rhsContracting := [0]
  lhsNonContracting := [0, 1]
  rhsNonContracting := [1]
  lhsBatch := []
  rhsBatch := []
  wf := dot_S1x4096x1024_S1024x1024_S1x4096x1024_2_0_01_1_n_n_wf
def dot_S1x16x4096x64_S1x16x4096x64_S1x16x4096x4096_3_3_2_2_01_01 : DotDims S1x16x4096x64 S1x16x4096x64 S1x16x4096x4096 where
  lhsContracting := [3]
  rhsContracting := [3]
  lhsNonContracting := [2]
  rhsNonContracting := [2]
  lhsBatch := [0, 1]
  rhsBatch := [0, 1]
  wf := dot_S1x16x4096x64_S1x16x4096x64_S1x16x4096x4096_3_3_2_2_01_01_wf
def dot_S1x16x4096x4096_S1x16x4096x64_S1x16x4096x64_3_2_2_3_01_01 : DotDims S1x16x4096x4096 S1x16x4096x64 S1x16x4096x64 where
  lhsContracting := [3]
  rhsContracting := [2]
  lhsNonContracting := [2]
  rhsNonContracting := [3]
  lhsBatch := [0, 1]
  rhsBatch := [0, 1]
  wf := dot_S1x16x4096x4096_S1x16x4096x64_S1x16x4096x64_3_2_2_3_01_01_wf
def dot_S1x4096x1024_S1024x1024_S1x4096x1024_2_1_01_0_n_n : DotDims S1x4096x1024 S1024x1024 S1x4096x1024 where
  lhsContracting := [2]
  rhsContracting := [1]
  lhsNonContracting := [0, 1]
  rhsNonContracting := [0]
  lhsBatch := []
  rhsBatch := []
  wf := dot_S1x4096x1024_S1024x1024_S1x4096x1024_2_1_01_0_n_n_wf

class Facts : Prop extends Facts₀ where

variable [Facts]
-- ==== Proof.Region0.lean ====
/-
  The fused projection region (the first pallas_call): one row block of the activations against the three
  weight matrices, each product stored whole into its own output block. Stated at the contents `V` the
  region is entered from, for any float instance.
-/
import proofs.«420769_j82386062672326_3_alg».proof.Proof.Gen.KernelIdeal.Launch
import proofs.«420769_j82386062672326_3_alg».proof.Proof.Gen.KernelIdeal.Skeleton
import proofs.«420769_j82386062672326_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether that point fetched it or the
    block index stood still since the last fetch (one statement per input window). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole row block and the whole weight matrix, as rectangles. -/
abbrev rX0 : Rect S512x1024 := Rect.unit (s := S512x1024) ![0, 0] S512x1024.size inb_S512x1024_S512x1024_0_0
abbrev rW0 : Rect S1024x1024 := Rect.unit (s := S1024x1024) ![0, 0] S1024x1024.size inb_S1024x1024_S1024x1024_0_0

/-- What the body leaves in the three output blocks: the row block times each weight matrix. -/
def out0_4 (x0 : Vec F S512x1024 .f32) (x1 : Vec F S1024x1024 .bf16) : Vec F S512x1024 .f32 :=
  View.canon [⟨rX0, k0_pay2 (View.ld x0 rX0) (View.ld x1 rW0)⟩]
def out0_5 (x0 : Vec F S512x1024 .f32) (x2 : Vec F S1024x1024 .bf16) : Vec F S512x1024 .f32 :=
  View.canon [⟨rX0, k0_pay3 (View.ld x0 rX0) (View.ld x2 rW0)⟩]
def out0_6 (x0 : Vec F S512x1024 .f32) (x3 : Vec F S1024x1024 .bf16) : Vec F S512x1024 .f32 :=
  View.canon [⟨rX0, k0_pay4 (View.ld x0 rX0) (View.ld x3 rW0)⟩]

/-- One whole-block store covers the block. -/
theorem cover0 (p0 : Vec F S512x1024 .f32) (y : S512x1024.Idx) :
    ∃ pc ∈ ([⟨rX0, p0⟩] : List (View.Piece (Elt F) S512x1024 .f32)), y ∈ pc.1.set :=
  View.cover_of_tiled [⟨rX0, p0⟩] S512x1024.size (by rfl) y

set_option maxHeartbeats 4000000 in
/-- The body on whole staging memrefs: inputs at their contents, outputs at anything, to the inputs unchanged and each
    output at its product. -/
theorem sound_kernel0 (c : Dev nD) (E : Set ℕ) (i : grid0.Coords)
    (arg1 : Memref sig .tc .vmem S512x1024 .f32) (harg1 : arg1.IsWhole) (arg2 : Memref sig .tc .vmem S1024x1024 .bf16) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S512x1024 .f32) (harg5 : arg5.IsWhole) (arg6 : Memref sig .tc .vmem S512x1024 .f32) (harg6 : arg6.IsWhole)
    (arg7 : Memref sig .tc .vmem S512x1024 .f32) (harg7 : arg7.IsWhole)
    (x0 : Vec F S512x1024 .f32) (x1 x2 x3 : Vec F S1024x1024 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out0_4 x0 x1) ∗ owns (c : Thread nD τ) arg6 fullShare (out0_5 x0 x2)
            ∗ owns (c : Thread nD τ) arg7 fullShare (out0_6 x0 x3)) -∗ K ⟨⟩))
      ⊢ wp frame (wpE (defs₀ (F := F)) Variants.none c none) E (cc0__qkv_kernel i arg1 harg1 arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0 _)
  isplitl [H5]
  · iexists _; isplitr
    swap; · iexact H5
    ipureintro
    exact View.read_writes_eq_canon _ _ _ (cover0 _)
  iexists _; isplitr
  swap; · iexact H6
  ipureintro
  exact View.read_writes_eq_canon _ _ _ (cover0 _)

/-- The region's proof data on core `c`: the arrays as entered; after the body each input buffer at its block and
    each output buffer at its product; the class invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the first region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.Region1.lean ====
/-
  The attention region (the second pallas_call): one query block against the whole key and value arrays, by an
  online softmax over sixteen key slices carried in three scratch buffers, the normalised sum stored whole into the
  output block. Stated at the contents `V` the region is entered from, for any float instance.
-/
import proofs.«420769_j82386062672326_3_alg».proof.Proof.Gen.KernelIdeal.Launch
import proofs.«420769_j82386062672326_3_alg».proof.Proof.Gen.KernelIdeal.Skeleton
import proofs.«420769_j82386062672326_3_alg».proof.Proof.Gen.KernelIdeal.Points
import proofs.«420769_j82386062672326_3_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether that point fetched it or the
    block index stood still since the last fetch (one statement per input window). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole output block, as a rectangle. -/
abbrev rQ1 : Rect S16x256x64 := Rect.unit (s := S16x256x64) ![0, 0, 0] S16x256x64.size inb_S16x256x64_S16x256x64_0_0_0

/-- One whole-block store covers the block. -/
theorem cover1 (p0 : Vec F S16x256x64 .f32) (y : S16x256x64.Idx) :
    ∃ pc ∈ ([⟨rQ1, p0⟩] : List (View.Piece (Elt F) S16x256x64 .f32)), y ∈ pc.1.set :=
  View.cover_of_tiled [⟨rQ1, p0⟩] S16x256x64.size (by rfl) y

set_option maxHeartbeats 4000000 in
/-- The body on whole memrefs — the query block and the key and value arrays at their contents, the output block and
    the three scratch buffers at anything — runs to the inputs unchanged, the scratch buffers at some contents, and
    the output block at ONE vector `o` of the inputs alone: the scratch buffers are overwritten whole before anything
    read from them is used, so what they held on entry does not reach `o`. The vector is the component; the triple
    is its property. -/
def kernelRun1 (c : Dev nD) (i : grid1.Coords) (arg1 : Memref sig .tc .vmem S16x256x64 .f32) (harg1 : arg1.IsWhole) (arg2 : Memref sig .tc .vmem S16x4096x64 .bf16) (harg2 : arg2.IsWhole) (arg3 : Memref sig .tc .vmem S16x4096x64 .bf16) (harg3 : arg3.IsWhole) (arg4 : Memref sig .tc .vmem S16x256x64 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x256x64 .f32) (harg7 : arg7.IsWhole)
    (x0 : Vec F S16x256x64 .f32) (x1 x2 : Vec F S16x4096x64 .bf16) :
    { o : Vec F S16x256x64 .f32 // ∀ (E : Set ℕ) (K : PUnit → sProp 𝕄),
      iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare o ∗ (∃ d, owns (c : Thread nD τ) arg5 fullShare d) ∗ (∃ d, owns (c : Thread nD τ) arg6 fullShare d) ∗ (∃ d, owns (c : Thread nD τ) arg7 fullShare d)) -∗ K ⟨⟩))
      ⊢ wp frame (wpE (defs₀ (F := F)) Variants.none c none) E (cc1__flash_kernel i arg1 harg1 arg2 harg2 arg3 harg3 arg4 harg4 arg5 harg5 arg6 harg6 arg7 harg7) K } := by
  refine ⟨?_, fun E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr
      swap; · iexact H3
      ipureintro
      exact View.read_writes_eq_canon _ _ _ (cover1 (F := F) _)
    isplitl [H4]
    · iexists _; iexists _; isplitr
      swap; · iexact H4
      ipureintro; rfl
    isplitl [H5]
    · iexists _; iexists _; isplitr
      swap; · iexact H5
      ipureintro; rfl
    iexists _; iexists _; isplitr
    swap; · iexact H6
    ipureintro; rfl

/-- What the body leaves in the output block at point `t`, from the three input blocks: the body's vector on the
    memrefs the pipeline passes there. -/
def out1_3 (c : Dev nD) (t : Fin cfg1.N) (x0 : Vec F S16x256x64 .f32) (x1 x2 : Vec F S16x4096x64 .bf16) : Vec F S16x256x64 .f32 :=
  (kernelRun1 c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _) (Memref.whole cc1_scratch1) (Memref.isWhole_whole _) (Memref.whole cc1_scratch2) (Memref.isWhole_whole _) x0 x1 x2).1

/-- The region's proof data on core `c`: the arrays as entered; after the body each input buffer at its block and
    the output buffer at the body's vector; the class invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 c t (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 c t (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- The class invariant with the three scratch buffers taken out of the scoped rest, each a whole memref owned at
    some contents: what the body is handed and gives back. -/
theorem PhiA1_eq (c : Dev nD) :
    (Pipeline.ΦA spec1 c : sProp 𝕄)
      = iprop(iprop(iprop((∃ d, owns (c : Thread nD τ) (Memref.whole cc1_scratch0) fullShare d)
              ∗ (∃ d, owns (c : Thread nD τ) (Memref.whole cc1_scratch1) fullShare d)
              ∗ (∃ d, owns (c : Thread nD τ) (Memref.whole cc1_scratch2) fullShare d))
            ∗ Pipeline.scopedRestBut (Ix := Unit) (Name := ℕ) (U := UR sig nD τ) (Lvl := ℕ) (Val := Elt F) spec1 c [cc1_scratch0, cc1_scratch1, cc1_scratch2])
          ∗ (∃ r, prngReg c r)) := by
  unfold Pipeline.ΦA; rw [scopedRest1_split]; simp only [owns_whole]

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = Pipeline.ΦA spec1 c from rfl,
    show (dat1 V c).Φ t.castSucc = Pipeline.ΦA spec1 c from rfl,
    show (dat1 V c).owesAt () t.succ = (dat1 V c).owesAt () t.castSucc from rfl,
    after1_0, after1_1, after1_2, after1_3, PhiA1_eq]
  unfold out1_3
  iintro ⟨⟨⟨⟨S0, S1, S2⟩, Hrest⟩, Hr⟩, Ho, ⟨%d0, H0⟩, ⟨%d1, H1⟩, ⟨%d2, H2⟩, ⟨%d3, H3⟩⟩
  iapply ((kernelRun1 c (grid1.coords t) _ _ _ _ _ _ _ _ _ _ _ _ _ _ (iblk1 V c 0 t) (iblk1 V c 1 t) (iblk1 V c 2 t)).2 Set.univ _)
  isplitl [H0]; · iexact H0
  isplitl [H1]; · iexact H1
  isplitl [H2]; · iexact H2
  isplitl [H3]; · iexists _; iexact H3
  isplitl [S0]; · iexact S0
  isplitl [S1]; · iexact S1
  isplitl [S2]; · iexact S2
  iintro ⟨H0, H1, H2, H3, S0, S1, S2⟩
  isplitl [S0 S1 S2 Hrest Hr]
  · isplitl [S0 S1 S2 Hrest]
    · isplitl [S0 S1 S2]
      · isplitl [S0]; · iexact S0
        isplitl [S1]; · iexact S1
        iexact S2
      · iexact Hrest
    · iexact Hr
  isplitl [Ho]; · iexact Ho
  isplitl [H0]; · iexact H0
  isplitl [H1]; · iexact H1
  isplitl [H2]; · iexact H2
  iexact H3

/-- The body obligation of the attention region, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.Region2.lean ====
/-
  The output projection with residual and layer normalisation (the third pallas_call): one row block of the
  attention context against the projection matrix, the residual row block added, each row normalised and scaled
  and shifted by the two parameter rows, the result stored whole into the output block. Stated at the contents
  `V` the region is entered from, for any float instance.
-/
import proofs.«420769_j82386062672326_3_alg».proof.Proof.Gen.KernelIdeal.Launch
import proofs.«420769_j82386062672326_3_alg».proof.Proof.Gen.KernelIdeal.Skeleton
import proofs.«420769_j82386062672326_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point: the two row blocks are fetched at each
    point, the matrix and the two parameter rows once, their block index standing still ever after (one statement
    per input window). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The whole row block, the whole projection matrix and a whole parameter row, as rectangles. -/
abbrev rX2 : Rect S512x1024 := Rect.unit (s := S512x1024) ![0, 0] S512x1024.size inb_S512x1024_S512x1024_0_0
abbrev rW2 : Rect S1024x1024 := Rect.unit (s := S1024x1024) ![0, 0] S1024x1024.size inb_S1024x1024_S1024x1024_0_0
abbrev rP2 : Rect S1x1024 := Rect.unit (s := S1x1024) ![0, 0] S1x1024.size inb_S1x1024_S1x1024_0_0

/-- What the body leaves in the output block: the context rows times the matrix plus the residual rows, each row
    normalised, then scaled by the first parameter row and shifted by the second. -/
def out2_5 (x0 : Vec F S512x1024 .f32) (x1 : Vec F S1024x1024 .bf16) (x2 : Vec F S512x1024 .f32)
    (x3 x4 : Vec F S1x1024 .f32) : Vec F S512x1024 .f32 :=
  View.canon [⟨rX2, k2_pay1 (View.ld x0 rX2) (View.ld x1 rW2) (View.ld x2 rX2) (View.ld x3 rP2) (View.ld x4 rP2)⟩]

/-- One whole-block store covers the block. -/
theorem cover2 (p0 : Vec F S512x1024 .f32) (y : S512x1024.Idx) :
    ∃ pc ∈ ([⟨rX2, p0⟩] : List (View.Piece (Elt F) S512x1024 .f32)), y ∈ pc.1.set :=
  View.cover_of_tiled [⟨rX2, p0⟩] S512x1024.size (by rfl) y

set_option maxHeartbeats 4000000 in
/-- The body on whole staging memrefs: inputs at their contents, the output at anything, to the inputs unchanged and
    the output at the normalised projection. -/
theorem sound_kernel2 (c : Dev nD) (E : Set ℕ) (i : grid2.Coords)
    (arg1 : Memref sig .tc .vmem S512x1024 .f32) (harg1 : arg1.IsWhole) (arg2 : Memref sig .tc .vmem S1024x1024 .bf16) (harg2 : arg2.IsWhole)
    (arg3 : Memref sig .tc .vmem S512x1024 .f32) (harg3 : arg3.IsWhole) (arg4 : Memref sig .tc .vmem S1x1024 .f32) (harg4 : arg4.IsWhole)
    (arg5 : Memref sig .tc .vmem S1x1024 .f32) (harg5 : arg5.IsWhole) (arg6 : Memref sig .tc .vmem S512x1024 .f32) (harg6 : arg6.IsWhole)
    (x0 : Vec F S512x1024 .f32) (x1 : Vec F S1024x1024 .bf16) (x2 : Vec F S512x1024 .f32) (x3 x4 : Vec F S1x1024 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__proj_addln_kernel i arg1 harg1 arg2 harg2 arg3 harg3 arg4 harg4 arg5 harg5 arg6 harg6) K := by
  simp only [cc2__proj_addln_kernel_eq_skeleton]; unfold cc2__proj_addln_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2 _)

/-- The region's proof data on core `c`: the arrays as entered; after the body each input buffer at its block and
    the output buffer at the normalised projection of those blocks; the class invariant; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the third region, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.Region3.lean ====
/-
  The last fused region (the fourth pallas_call): one row block of the activations against the weight matrix,
  a bias row added, the row block added back, each row normalised to mean zero and unit variance, scaled and
  shifted by two parameter rows, and clamped below at zero; the result stored whole into the output block.
  Stated at the contents `V` the region is entered from, for any float instance.
-/
import proofs.«420769_j82386062672326_3_alg».proof.Proof.Gen.KernelIdeal.Launch
import proofs.«420769_j82386062672326_3_alg».proof.Proof.Gen.KernelIdeal.Skeleton
import proofs.«420769_j82386062672326_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds the window's block at every point, whether that point fetched it or the
    block index stood still since the last fetch (one statement per input window). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The whole row block, the whole weight matrix and a whole parameter row, as rectangles. -/
abbrev rX3 : Rect S512x1024 := Rect.unit (s := S512x1024) ![0, 0] S512x1024.size inb_S512x1024_S512x1024_0_0
abbrev rW3 : Rect S1024x1024 := Rect.unit (s := S1024x1024) ![0, 0] S1024x1024.size inb_S1024x1024_S1024x1024_0_0
abbrev rP3 : Rect S1x1024 := Rect.unit (s := S1x1024) ![0, 0] S1x1024.size inb_S1x1024_S1x1024_0_0

/-- What the body leaves in the output block: the row block times the weight matrix plus the bias row plus the row
    block again, normalised along each row, scaled and shifted by the two parameter rows, and its maximum with zero.
    The row block enters twice, once for the product and once for the residual sum. -/
def out3_5 (x0 : Vec F S512x1024 .f32) (x1 : Vec F S1024x1024 .bf16) (x2 x3 x4 : Vec F S1x1024 .f32) : Vec F S512x1024 .f32 :=
  View.canon [⟨rX3, k3_pay1 (k3_pay2 (View.ld x0 rX3) (View.ld x1 rW3) (View.ld x2 rP3) (View.ld x0 rX3) (View.ld x3 rP3) (View.ld x4 rP3))
    (k3_pay3 (F := F))⟩]

/-- One whole-block store covers the block. -/
theorem cover3 (p0 : Vec F S512x1024 .f32) (y : S512x1024.Idx) :
    ∃ pc ∈ ([⟨rX3, p0⟩] : List (View.Piece (Elt F) S512x1024 .f32)), y ∈ pc.1.set :=
  View.cover_of_tiled [⟨rX3, p0⟩] S512x1024.size (by rfl) y

set_option maxHeartbeats 4000000 in
/-- The body on whole staging memrefs: inputs at their contents, the output at anything, to the inputs unchanged and
    the output at the normalised, clamped row block. -/
theorem sound_kernel3 (c : Dev nD) (E : Set ℕ) (i : grid3.Coords)
    (arg1 : Memref sig .tc .vmem S512x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S1x1024 .f32) (harg4 : arg4.IsWhole)
    (arg5 : Memref sig .tc .vmem S1x1024 .f32) (harg5 : arg5.IsWhole) (arg6 : Memref sig .tc .vmem S512x1024 .f32) (harg6 : arg6.IsWhole)
    (x0 : Vec F S512x1024 .f32) (x1 : Vec F S1024x1024 .bf16) (x2 x3 x4 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__proj_bias_addln_relu_kernel i arg1 harg1 arg2 harg2 arg3 harg3 arg4 harg4 arg5 harg5 arg6 harg6) K := by
  simp only [cc3__proj_bias_addln_relu_kernel_eq_skeleton]; unfold cc3__proj_bias_addln_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3 _)

/-- The region's proof data on core `c`: the arrays as entered; after the body each input buffer at its block and
    the output buffer at the body's result; the class invariant; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the last region, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KernelRun.lean ====
/-
  The launch of the whole program: five stretches of host operations around four kernel regions, run from any memory
  with every counter at zero, for any float instance. Between two items a core holds every unscoped buffer whole at
  a valuation that is named stage by stage — the launch contents, then what each host stretch computes from them,
  then what each region leaves in its arrays — beside its generator register and the fact that it owes nothing.
  Two statements come out: every argument array ends as launched, and the same run with the result buffer named.
-/
import proofs.«420769_j82386062672326_3_alg».proof.Proof.Gen.KernelIdeal.Regions
import proofs.«420769_j82386062672326_3_alg».proof.Proof.Region0
import proofs.«420769_j82386062672326_3_alg».proof.Proof.Region1
import proofs.«420769_j82386062672326_3_alg».proof.Proof.Region2
import proofs.«420769_j82386062672326_3_alg».proof.Proof.Region3
import Idealize.ShloMosaic.Lib.Pipeline.Frame
import Idealize.ShloMosaic.Lib.Pipeline.Regions
import Idealize.ShloMosaic.Lib.Pipeline.RegionsLoop
import Idealize.ShloMosaic.Lib.Pipeline.FrameSuffix

set_option maxRecDepth 16384

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave, stage by stage

A region changes its output arrays only; its exit valuation is its entry valuation with every array of the region at
the contents after the last write-back (an input array is never written back, so it keeps its entry contents). Each
stage below knows the regions before it only, so that no stage refers to itself. -/

/-- The first region is entered from the launch contents after the first host stretch. -/
abbrev ent0 : (c : Dev nD) → (b : Ref sig .tc) → Buf (Elt F) ((c : Thread nD τ).loc b) := fun c b => Gen.V1 m c b

/-- What the first region leaves on core `c`. -/
def leaves0 (c : Dev nD) : Valuation τ sig (Elt F) :=
  Pipeline.withArrays spec0 c (Gen.V1 m c) fun w => (dat0 (ent0 m) c).arrAt w cfg0.N

/-- The regions' output contents when only the first region is known. -/
def outsA : Gen.Outs (F := F) := fun J r c =>
  match J with
  | 2 => leaves0 m c r
  | _ => m ((c : Thread nD τ).loc r)

/-- What the second region leaves on core `c`, entered from the second host stretch's results. -/
def leaves1 (c : Dev nD) : Valuation τ sig (Elt F) :=
  Pipeline.withArrays spec1 c (Gen.V3 m (outsA m) c) fun w => (dat1 (fun c b => Gen.V3 m (outsA m) c b) c).arrAt w cfg1.N

/-- The regions' output contents when the first two regions are known. -/
def outsB : Gen.Outs (F := F) := fun J r c =>
  match J with
  | 2 => leaves0 m c r
  | 4 => leaves1 m c r
  | _ => m ((c : Thread nD τ).loc r)

/-- What the third region leaves on core `c`. -/
def leaves2 (c : Dev nD) : Valuation τ sig (Elt F) :=
  Pipeline.withArrays spec2 c (Gen.V5 m (outsB m) c) fun w => (dat2 (fun c b => Gen.V5 m (outsB m) c b) c).arrAt w cfg2.N

/-- The regions' output contents when the first three regions are known. -/
def outsC : Gen.Outs (F := F) := fun J r c =>
  match J with
  | 2 => leaves0 m c r
  | 4 => leaves1 m c r
  | 6 => leaves2 m c r
  | _ => m ((c : Thread nD τ).loc r)

/-- What the fourth region leaves on core `c`. -/
def leaves3 (c : Dev nD) : Valuation τ sig (Elt F) :=
  Pipeline.withArrays spec3 c (Gen.V7 m (outsC m) c) fun w => (dat3 (fun c b => Gen.V7 m (outsC m) c b) c).arrAt w cfg3.N

/-- The contents every region leaves in the buffers it may change, by the item that follows it. -/
def outs : Gen.Outs (F := F) := fun J r c =>
  match J with
  | 2 => leaves0 m c r
  | 4 => leaves1 m c r
  | 6 => leaves2 m c r
  | 8 => leaves3 m c r
  | _ => m ((c : Thread nD τ).loc r)

/-- A later stage adds outputs of later regions only: the valuations before them do not see the difference. -/
theorem V3_outs (c : Dev nD) : Gen.V3 m (outs m) c = Gen.V3 m (outsA m) c := rfl
theorem V5_outs (c : Dev nD) : Gen.V5 m (outs m) c = Gen.V5 m (outsB m) c := rfl
theorem V7_outs (c : Dev nD) : Gen.V7 m (outs m) c = Gen.V7 m (outsC m) c := rfl

/-- Each later region's entry contents. -/
abbrev ent1 : (c : Dev nD) → (b : Ref sig .tc) → Buf (Elt F) ((c : Thread nD τ).loc b) := fun c b => Gen.V3 m (outs m) c b
abbrev ent2 : (c : Dev nD) → (b : Ref sig .tc) → Buf (Elt F) ((c : Thread nD τ).loc b) := fun c b => Gen.V5 m (outs m) c b
abbrev ent3 : (c : Dev nD) → (b : Ref sig .tc) → Buf (Elt F) ((c : Thread nD τ).loc b) := fun c b => Gen.V7 m (outs m) c b

/-! ### The output arrays, read off what the regions leave -/

theorem outs_v7_0 (c : Dev nD) : outs m 2 main_v7_0 c = (dat0 (ent0 m) c).arrAt 4 cfg0.N :=
  Pipeline.withArrays_arr spec0 winFacts0.arr_inj c (Gen.V1 m c) (fun w => (dat0 (ent0 m) c).arrAt w cfg0.N) 4
theorem outs_v7_1 (c : Dev nD) : outs m 2 main_v7_1 c = (dat0 (ent0 m) c).arrAt 5 cfg0.N :=
  Pipeline.withArrays_arr spec0 winFacts0.arr_inj c (Gen.V1 m c) (fun w => (dat0 (ent0 m) c).arrAt w cfg0.N) 5
theorem outs_v7_2 (c : Dev nD) : outs m 2 main_v7_2 c = (dat0 (ent0 m) c).arrAt 6 cfg0.N :=
  Pipeline.withArrays_arr spec0 winFacts0.arr_inj c (Gen.V1 m c) (fun w => (dat0 (ent0 m) c).arrAt w cfg0.N) 6
theorem outs_v19 (c : Dev nD) : outs m 4 main_v19 c = (dat1 (ent1 m) c).arrAt 3 cfg1.N :=
  Pipeline.withArrays_arr spec1 winFacts1.arr_inj c (Gen.V3 m (outs m) c) (fun w => (dat1 (ent1 m) c).arrAt w cfg1.N) 3
theorem outs_v25 (c : Dev nD) : outs m 6 main_v25 c = (dat2 (ent2 m) c).arrAt 5 cfg2.N :=
  Pipeline.withArrays_arr spec2 winFacts2.arr_inj c (Gen.V5 m (outs m) c) (fun w => (dat2 (ent2 m) c).arrAt w cfg2.N) 5
theorem outs_v29 (c : Dev nD) : outs m 8 main_v29 c = (dat3 (ent3 m) c).arrAt 5 cfg3.N :=
  Pipeline.withArrays_arr spec3 winFacts3.arr_inj c (Gen.V7 m (outs m) c) (fun w => (dat3 (ent3 m) c).arrAt w cfg3.N) 5

/-! ## The run with the result named, given the regions' records

The conditional frame (`Gen.frame_cond`) reads the eleven arguments off the last valuation. The result buffer is held whole
at that same valuation, so the same reading names it too: the statement below is the conditional frame with that one
conjunct more, under the same hypotheses. -/

-- the launch theorem's implicit arguments are determined by this conclusion only up to unfolding definitions
set_option backward.isDefEq.respectTransparency.types false in
theorem run_named_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (outs : Gen.Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) Gen.adm pdats ι defs₀ 𝒱₀ L lv 0)
    (hpre0 : ∀ c : Dev nD, iprop(StableHlo.held (c : Thread nD τ) (Pipeline.ucRefs τ sig) (Gen.V1 m c) ∗ E 0 c) ⊢ R0.pre c)
    (hpost0 : ∀ c : Dev nD, R0.post c ⊢ iprop(StableHlo.held (c : Thread nD τ) (Pipeline.ucRefs τ sig) (Gen.V2 m outs c) ∗ E 1 c))
    (R1 : RegionSeg (pcfgs (F := F)) Gen.adm pdats ι defs₀ 𝒱₀ L lv 1)
    (hpre1 : ∀ c : Dev nD, iprop(StableHlo.held (c : Thread nD τ) (Pipeline.ucRefs τ sig) (Gen.V3 m outs c) ∗ E 1 c) ⊢ R1.pre c)
    (hpost1 : ∀ c : Dev nD, R1.post c ⊢ iprop(StableHlo.held (c : Thread nD τ) (Pipeline.ucRefs τ sig) (Gen.V4 m outs c) ∗ E 2 c))
    (R2 : RegionSeg (pcfgs (F := F)) Gen.adm pdats ι defs₀ 𝒱₀ L lv 2)
    (hpre2 : ∀ c : Dev nD, iprop(StableHlo.held (c : Thread nD τ) (Pipeline.ucRefs τ sig) (Gen.V5 m outs c) ∗ E 2 c) ⊢ R2.pre c)
    (hpost2 : ∀ c : Dev nD, R2.post c ⊢ iprop(StableHlo.held (c : Thread nD τ) (Pipeline.ucRefs τ sig) (Gen.V6 m outs c) ∗ E 3 c))
    (R3 : RegionSeg (pcfgs (F := F)) Gen.adm pdats ι defs₀ 𝒱₀ L lv 3)
    (hpre3 : ∀ c : Dev nD, iprop(StableHlo.held (c : Thread nD τ) (Pipeline.ucRefs τ sig) (Gen.V7 m outs c) ∗ E 3 c) ⊢ R3.pre c)
    (hpost3 : ∀ c : Dev nD, R3.post c ⊢ iprop(StableHlo.held (c : Thread nD τ) (Pipeline.ucRefs τ sig) (Gen.V8 m outs c) ∗ E 4 c)) :
    θ_run defs (onTc (τ := τ) (main (F := F))) ⟨m, fun _ => 0, ρ⟩ (fun r => ∀ c : Dev nD,
      r.2.mem ((c.tc : Thread nD τ).loc main_v30) = Gen.V9 m outs c main_v30
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  -- the program is the chain of its nine items; the four regions are entered once each; the thread states chain by
  -- the hypotheses; the last one is the unscoped buffers at the last valuation beside a core that owes nothing
  refine Pipeline.θ_run_regions_kit_dev (pcfgs (F := F)) Gen.adm pdats ι cellOf_inj EP defs₀ 𝒱₀ L lv m ρ main
    (Gen.segs m outs 𝒱₀ L lv E ι pdats R0 R1 R2 R3)
    (fun c Q => by
      rewrite [main_chain c, Seg.run_eq_chain,
        show (Gen.segs m outs 𝒱₀ L lv E ι pdats R0 R1 R2 R3 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (fun c => by simp only [Gen.segs, Seg.pipes_host, Seg.pipes_region, Seg.pipes_nil]; decide) O₀ hL G u₀ hu₀
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V9 m outs c))
    (hch := fun c => ⟨.rfl, hpre0 c, hpost0 c, hpre1 c, hpost1 c, hpre2 c, hpost2 c, hpre3 c, hpost3 c, sep_mono .rfl (hE4 c)⟩)
    (hinit := ?_)
    (QY := fun c s => s.mem ((c.tc : Thread nD τ).loc main_v30) = Gen.V9 m outs c main_v30
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10))
    (hfin := fun c s' => ?_) (hQ := fun _ h => h)
  · -- the launch deals every core its unscoped buffers at the launch memory: they are the held set at the first
    -- valuation; what else is dealt makes the first rest on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (Gen.V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the final memory agrees with the last valuation on every unscoped buffer; the result buffer is read
    -- as it stands there, each argument walks back through the items, none of which writes it, to the launch memory
    unfold StableHlo.held
    iintro ⟨Hh, HSI⟩
    ihave Hr := (pointsTo_read_all (Pipeline.ucRefs τ sig) (fun b => ((c : Thread nD τ).1, b)) (Gen.V9 m outs c) s') $$ [Hh HSI]
    · isplitl [Hh] <;> iassumption
    icases Hr with ⟨%h, HSI⟩
    imodintro
    isplitr
    · ipureintro
      exact ⟨h (Proc.devRef .tc main_v30) (Finset.mem_filter.mpr ⟨StableHlo.devRef_mem_tcRefs main_v30, by decide⟩),
        (h (Proc.devRef .tc main_arg0) (Finset.mem_filter.mpr ⟨StableHlo.devRef_mem_tcRefs main_arg0, by decide⟩)).trans (Gen.V9_main_arg0 m outs c),
        (h (Proc.devRef .tc main_arg1) (Finset.mem_filter.mpr ⟨StableHlo.devRef_mem_tcRefs main_arg1, by decide⟩)).trans (Gen.V9_main_arg1 m outs c),
        (h (Proc.devRef .tc main_arg2) (Finset.mem_filter.mpr ⟨StableHlo.devRef_mem_tcRefs main_arg2, by decide⟩)).trans (Gen.V9_main_arg2 m outs c),
        (h (Proc.devRef .tc main_arg3) (Finset.mem_filter.mpr ⟨StableHlo.devRef_mem_tcRefs main_arg3, by decide⟩)).trans (Gen.V9_main_arg3 m outs c),
        (h (Proc.devRef .tc main_arg4) (Finset.mem_filter.mpr ⟨StableHlo.devRef_mem_tcRefs main_arg4, by decide⟩)).trans (Gen.V9_main_arg4 m outs c),
        (h (Proc.devRef .tc main_arg5) (Finset.mem_filter.mpr ⟨StableHlo.devRef_mem_tcRefs main_arg5, by decide⟩)).trans (Gen.V9_main_arg5 m outs c),
        (h (Proc.devRef .tc main_arg6) (Finset.mem_filter.mpr ⟨StableHlo.devRef_mem_tcRefs main_arg6, by decide⟩)).trans (Gen.V9_main_arg6 m outs c),
        (h (Proc.devRef .tc main_arg7) (Finset.mem_filter.mpr ⟨StableHlo.devRef_mem_tcRefs main_arg7, by decide⟩)).trans (Gen.V9_main_arg7 m outs c),
        (h (Proc.devRef .tc main_arg8) (Finset.mem_filter.mpr ⟨StableHlo.devRef_mem_tcRefs main_arg8, by decide⟩)).trans (Gen.V9_main_arg8 m outs c),
        (h (Proc.devRef .tc main_arg9) (Finset.mem_filter.mpr ⟨StableHlo.devRef_mem_tcRefs main_arg9, by decide⟩)).trans (Gen.V9_main_arg9 m outs c),
        (h (Proc.devRef .tc main_arg10) (Finset.mem_filter.mpr ⟨StableHlo.devRef_mem_tcRefs main_arg10, by decide⟩)).trans (Gen.V9_main_arg10 m outs c)⟩
    · iexact HSI

/-! ## The proof data family, and what rides along -/

/-- Every region's proof data at its entry contents. -/
def pdats : (p : Fin 4) → (c : Dev nD) → Dat τ (Elt F) Unit ℕ (UR sig nD τ) ℕ (cfgs p) c
  | ⟨0, _⟩ => fun c => dat0 (ent0 m) c
  | ⟨1, _⟩ => fun c => dat1 (ent1 m) c
  | ⟨2, _⟩ => fun c => dat2 (ent2 m) c
  | ⟨3, _⟩ => fun c => dat3 (ent3 m) c

/-- Beside the buffers, through every item: the core's generator register at some state (a region's class invariant
    takes it in and gives it back) and the core owing nothing. -/
abbrev rides (c : Dev nD) : sProp 𝕄 := iprop((∃ r, prngReg c r) ∗ ∃ W, owes (c : Thread nD τ) (0 : CellTallies nD τ sig Unit) W)

/-! ## The regions as items -/

/-! ### Region 0: the three projections, written to `main_v7_0`, `main_v7_1`, `main_v7_2` -/

/-- After region 0 each buffer it may change holds what the region left there. -/
theorem at2_v7_0 (c : Dev nD) : Gen.V2 m (outs m) c main_v7_0 = outs m 2 main_v7_0 c := by
  simp only [Gen.V2, Function.update_of_ne (StableHlo.devRef_ne_of_ne (by decide) : (Proc.devRef .tc main_v7_0 : DevRef τ sig) ≠ Proc.devRef .tc main_v7_2), Function.update_of_ne (StableHlo.devRef_ne_of_ne (by decide) : (Proc.devRef .tc main_v7_0 : DevRef τ sig) ≠ Proc.devRef .tc main_v7_1), Function.update_self]
theorem at2_v7_1 (c : Dev nD) : Gen.V2 m (outs m) c main_v7_1 = outs m 2 main_v7_1 c := by
  simp only [Gen.V2, Function.update_of_ne (StableHlo.devRef_ne_of_ne (by decide) : (Proc.devRef .tc main_v7_1 : DevRef τ sig) ≠ Proc.devRef .tc main_v7_2), Function.update_self]
theorem at2_v7_2 (c : Dev nD) : Gen.V2 m (outs m) c main_v7_2 = outs m 2 main_v7_2 c := by
  simp only [Gen.V2, Function.update_self]

/-- Region 0's arrays at its exit: an output array at the contents after its last write-back, which is what the next
    valuation names; an input array never written back, so at its entry contents, which the next valuation keeps. -/
theorem arrays_exit0 (c : Dev nD) : ∀ w : Fin cfg0.W, (dat0 (ent0 m) c).arrAt w cfg0.N = (fun b : Ref sig .tc => Gen.V2 m (outs m) c b) (Pipeline.arrRef spec0 w)
  | ⟨0, _⟩ => (((dat0 (ent0 m) c).arrAt_in 0 rfl _).trans (A_eq0 (ent0 m) c 0)).trans (Gen.V2_of m (outs m) c _ (by decide)).symm
  | ⟨1, _⟩ => (((dat0 (ent0 m) c).arrAt_in 1 rfl _).trans (A_eq0 (ent0 m) c 1)).trans (Gen.V2_of m (outs m) c _ (by decide)).symm
  | ⟨2, _⟩ => (((dat0 (ent0 m) c).arrAt_in 2 rfl _).trans (A_eq0 (ent0 m) c 2)).trans (Gen.V2_of m (outs m) c _ (by decide)).symm
  | ⟨3, _⟩ => (((dat0 (ent0 m) c).arrAt_in 3 rfl _).trans (A_eq0 (ent0 m) c 3)).trans (Gen.V2_of m (outs m) c _ (by decide)).symm
  | ⟨4, _⟩ => (outs_v7_0 m c).symm.trans (at2_v7_0 m c).symm
  | ⟨5, _⟩ => (outs_v7_1 m c).symm.trans (at2_v7_1 m c).symm
  | ⟨6, _⟩ => (outs_v7_2 m c).symm.trans (at2_v7_2 m c).symm

/-- A buffer that is no array of region 0 passes the region unchanged. -/
theorem rest_exit0 (c : Dev nD) (b : Ref sig .tc) (hb : b ∉ Finset.univ.image (Pipeline.arrRef spec0)) :
    (fun b : Ref sig .tc => Gen.V2 m (outs m) c b) b = ent0 m c b :=
  Gen.V2_of m (outs m) c b (by
    intro hmem
    apply hb
    simp only [List.mem_cons, List.not_mem_nil, or_false] at hmem
    rcases hmem with rfl | rfl | rfl
    · exact Finset.mem_image.mpr ⟨4, Finset.mem_univ _, rfl⟩
    · exact Finset.mem_image.mpr ⟨5, Finset.mem_univ _, rfl⟩
    · exact Finset.mem_image.mpr ⟨6, Finset.mem_univ _, rfl⟩)

-- the library's lemmas on a pipeline's arrays are stated over the pinned configuration, which is the printed one only
-- up to unfolding definitions
set_option backward.isDefEq.respectTransparency.types false in
/-- Region 0 as an item of the program. It is entered holding every unscoped buffer at the valuation before it and
    left holding them at the valuation after it. At entry its arrays are split out of the unscoped buffers and the rest
    bypasses the region; the generator register goes into the class invariant beside the scratch buffers and comes back
    out of it; the core owes nothing throughout and the kernel has no semaphore of its own. At exit the arrays, at
    what the pipeline left, join the bypassing rest again. -/
def reg0 : Pipeline.RegionSeg (pcfgs (F := F)) Gen.adm (pdats m) () defs₀ Variants.none (fun _ => ∅) (fun _ _ => 0) 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ (fun _ => ∅) (fun _ _ => 0) 0 fun _ _ => rfl
  pre c := iprop(StableHlo.held (c : Thread nD τ) (Pipeline.ucRefs τ sig) (Gen.V1 m c) ∗ rides c)
  post c := iprop(StableHlo.held (c : Thread nD τ) (Pipeline.ucRefs τ sig) (Gen.V2 m (outs m) c) ∗ rides c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (ent0 m c) fun _ => rfl
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · -- no prefetched table
      unfold Pipeline.prefHeld; rw [show (Finset.univ : Finset (Fin 0)) = ∅ from rfl, BI.bigSep_empty]; iempintro
    isplitl [Howes]
    · -- owing nothing is within any bound
      unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [show (pdats m 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (pdats m 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (ent0 m c) (fun b : Ref sig .tc => Gen.V2 m (outs m) c b) ((pdats m 0 c).arrAt · cfg0.N) (arrays_exit0 m c) (rest_exit0 m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

/-! ### Region 1: attention over the heads, written to `main_v19` -/

/-- After region 1 each buffer it may change holds what the region left there. -/
theorem at4_v19 (c : Dev nD) : Gen.V4 m (outs m) c main_v19 = outs m 4 main_v19 c := by
  simp only [Gen.V4, Function.update_self]

/-- Region 1's arrays at its exit: an output array at the contents after its last write-back, which is what the next
    valuation names; an input array never written back, so at its entry contents, which the next valuation keeps. -/
theorem arrays_exit1 (c : Dev nD) : ∀ w : Fin cfg1.W, (dat1 (ent1 m) c).arrAt w cfg1.N = (fun b : Ref sig .tc => Gen.V4 m (outs m) c b) (Pipeline.arrRef spec1 w)
  | ⟨0, _⟩ => (((dat1 (ent1 m) c).arrAt_in 0 rfl _).trans (A_eq1 (ent1 m) c 0)).trans (Gen.V4_of m (outs m) c _ (by decide)).symm
  | ⟨1, _⟩ => (((dat1 (ent1 m) c).arrAt_in 1 rfl _).trans (A_eq1 (ent1 m) c 1)).trans (Gen.V4_of m (outs m) c _ (by decide)).symm
  | ⟨2, _⟩ => (((dat1 (ent1 m) c).arrAt_in 2 rfl _).trans (A_eq1 (ent1 m) c 2)).trans (Gen.V4_of m (outs m) c _ (by decide)).symm
  | ⟨3, _⟩ => (outs_v19 m c).symm.trans (at4_v19 m c).symm

/-- A buffer that is no array of region 1 passes the region unchanged. -/
theorem rest_exit1 (c : Dev nD) (b : Ref sig .tc) (hb : b ∉ Finset.univ.image (Pipeline.arrRef spec1)) :
    (fun b : Ref sig .tc => Gen.V4 m (outs m) c b) b = ent1 m c b :=
  Gen.V4_of m (outs m) c b (by
    intro hmem
    apply hb
    simp only [List.mem_cons, List.not_mem_nil, or_false] at hmem
    rcases hmem with rfl
    · exact Finset.mem_image.mpr ⟨3, Finset.mem_univ _, rfl⟩)

-- the library's lemmas on a pipeline's arrays are stated over the pinned configuration, which is the printed one only
-- up to unfolding definitions
set_option backward.isDefEq.respectTransparency.types false in
/-- Region 1 as an item of the program. It is entered holding every unscoped buffer at the valuation before it and
    left holding them at the valuation after it. At entry its arrays are split out of the unscoped buffers and the rest
    bypasses the region; the generator register goes into the class invariant beside the scratch buffers and comes back
    out of it; the core owes nothing throughout and the kernel has no semaphore of its own. At exit the arrays, at
    what the pipeline left, join the bypassing rest again. -/
def reg1 : Pipeline.RegionSeg (pcfgs (F := F)) Gen.adm (pdats m) () defs₀ Variants.none (fun _ => ∅) (fun _ _ => 0) 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ (fun _ => ∅) (fun _ _ => 0) 1 fun _ _ => rfl
  pre c := iprop(StableHlo.held (c : Thread nD τ) (Pipeline.ucRefs τ sig) (Gen.V3 m (outs m) c) ∗ rides c)
  post c := iprop(StableHlo.held (c : Thread nD τ) (Pipeline.ucRefs τ sig) (Gen.V4 m (outs m) c) ∗ rides c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (ent1 m c) fun _ => rfl
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · -- no prefetched table
      unfold Pipeline.prefHeld; rw [show (Finset.univ : Finset (Fin 0)) = ∅ from rfl, BI.bigSep_empty]; iempintro
    isplitl [Howes]
    · -- owing nothing is within any bound
      unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [show (pdats m 1 c).Φ 0 = Pipeline.ΦA spec1 c from rfl]; unfold Pipeline.ΦA
    iintro ⟨Hreg, -, Hscoped⟩
    isplitl [Hscoped]; · iexact Hscoped
    iexact Hreg
  hout c := by
    rw [Pipeline.ownSems0_none, show (pdats m 1 c).Φ (Fin.last _) = Pipeline.ΦA spec1 c from rfl]; unfold Pipeline.ΦA
    iintro ⟨Hscoped, Hreg⟩
    isplitl [Hreg]; · iexact Hreg
    isplitr; · iempintro
    iexact Hscoped
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (ent1 m c) (fun b : Ref sig .tc => Gen.V4 m (outs m) c b) ((pdats m 1 c).arrAt · cfg1.N) (arrays_exit1 m c) (rest_exit1 m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

/-! ### Region 2: the first normalised sum, written to `main_v25` -/

/-- After region 2 each buffer it may change holds what the region left there. -/
theorem at6_v25 (c : Dev nD) : Gen.V6 m (outs m) c main_v25 = outs m 6 main_v25 c := by
  simp only [Gen.V6, Function.update_self]

/-- Region 2's arrays at its exit: an output array at the contents after its last write-back, which is what the next
    valuation names; an input array never written back, so at its entry contents, which the next valuation keeps. -/
theorem arrays_exit2 (c : Dev nD) : ∀ w : Fin cfg2.W, (dat2 (ent2 m) c).arrAt w cfg2.N = (fun b : Ref sig .tc => Gen.V6 m (outs m) c b) (Pipeline.arrRef spec2 w)
  | ⟨0, _⟩ => (((dat2 (ent2 m) c).arrAt_in 0 rfl _).trans (A_eq2 (ent2 m) c 0)).trans (Gen.V6_of m (outs m) c _ (by decide)).symm
  | ⟨1, _⟩ => (((dat2 (ent2 m) c).arrAt_in 1 rfl _).trans (A_eq2 (ent2 m) c 1)).trans (Gen.V6_of m (outs m) c _ (by decide)).symm
  | ⟨2, _⟩ => (((dat2 (ent2 m) c).arrAt_in 2 rfl _).trans (A_eq2 (ent2 m) c 2)).trans (Gen.V6_of m (outs m) c _ (by decide)).symm
  | ⟨3, _⟩ => (((dat2 (ent2 m) c).arrAt_in 3 rfl _).trans (A_eq2 (ent2 m) c 3)).trans (Gen.V6_of m (outs m) c _ (by decide)).symm
  | ⟨4, _⟩ => (((dat2 (ent2 m) c).arrAt_in 4 rfl _).trans (A_eq2 (ent2 m) c 4)).trans (Gen.V6_of m (outs m) c _ (by decide)).symm
  | ⟨5, _⟩ => (outs_v25 m c).symm.trans (at6_v25 m c).symm

/-- A buffer that is no array of region 2 passes the region unchanged. -/
theorem rest_exit2 (c : Dev nD) (b : Ref sig .tc) (hb : b ∉ Finset.univ.image (Pipeline.arrRef spec2)) :
    (fun b : Ref sig .tc => Gen.V6 m (outs m) c b) b = ent2 m c b :=
  Gen.V6_of m (outs m) c b (by
    intro hmem
    apply hb
    simp only [List.mem_cons, List.not_mem_nil, or_false] at hmem
    rcases hmem with rfl
    · exact Finset.mem_image.mpr ⟨5, Finset.mem_univ _, rfl⟩)

-- the library's lemmas on a pipeline's arrays are stated over the pinned configuration, which is the printed one only
-- up to unfolding definitions
set_option backward.isDefEq.respectTransparency.types false in
/-- Region 2 as an item of the program. It is entered holding every unscoped buffer at the valuation before it and
    left holding them at the valuation after it. At entry its arrays are split out of the unscoped buffers and the rest
    bypasses the region; the generator register goes into the class invariant beside the scratch buffers and comes back
    out of it; the core owes nothing throughout and the kernel has no semaphore of its own. At exit the arrays, at
    what the pipeline left, join the bypassing rest again. -/
def reg2 : Pipeline.RegionSeg (pcfgs (F := F)) Gen.adm (pdats m) () defs₀ Variants.none (fun _ => ∅) (fun _ _ => 0) 2 where
  win := launch2.win.to₀
  block_pos := launch2.block_pos
  stage_whole := launch2.stage_whole
  K := PEmpty
  osem k := k.elim
  ho := Pipeline.OwnSemFacts.none _
  hbody c := (body_obligation2 (ent2 m) c).loose
  hwaits := Pipeline.hwaits_of_owed_zero _ _ _ _ (fun _ => ∅) (fun _ _ => 0) 2 fun _ _ => rfl
  pre c := iprop(StableHlo.held (c : Thread nD τ) (Pipeline.ucRefs τ sig) (Gen.V5 m (outs m) c) ∗ rides c)
  post c := iprop(StableHlo.held (c : Thread nD τ) (Pipeline.ucRefs τ sig) (Gen.V6 m (outs m) c) ∗ rides c)
  X c := iprop(∃ r, prngReg c r)
  Y c := iprop(∃ r, prngReg c r)
  Z c := Pipeline.unscopedRest (Ix := Unit) (Name := ℕ) (U := UR sig nD τ) (Lvl := ℕ) spec2 c (ent2 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (ent2 m c) fun _ => rfl
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · -- no prefetched table
      unfold Pipeline.prefHeld; rw [show (Finset.univ : Finset (Fin 0)) = ∅ from rfl, BI.bigSep_empty]; iempintro
    isplitl [Howes]
    · -- owing nothing is within any bound
      unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [show (pdats m 2 c).Φ 0 = Pipeline.ΦA spec2 c from rfl]; unfold Pipeline.ΦA
    iintro ⟨Hreg, -, Hscoped⟩
    isplitl [Hscoped]; · iexact Hscoped
    iexact Hreg
  hout c := by
    rw [Pipeline.ownSems0_none, show (pdats m 2 c).Φ (Fin.last _) = Pipeline.ΦA spec2 c from rfl]; unfold Pipeline.ΦA
    iintro ⟨Hscoped, Hreg⟩
    isplitl [Hreg]; · iexact Hreg
    isplitr; · iempintro
    iexact Hscoped
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (ent2 m c) (fun b : Ref sig .tc => Gen.V6 m (outs m) c b) ((pdats m 2 c).arrAt · cfg2.N) (arrays_exit2 m c) (rest_exit2 m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

/-! ### Region 3: the second normalised sum, written to `main_v29` -/

/-- After region 3 each buffer it may change holds what the region left there. -/
theorem at8_v29 (c : Dev nD) : Gen.V8 m (outs m) c main_v29 = outs m 8 main_v29 c := by
  simp only [Gen.V8, Function.update_self]

/-- Region 3's arrays at its exit: an output array at the contents after its last write-back, which is what the next
    valuation names; an input array never written back, so at its entry contents, which the next valuation keeps. -/
theorem arrays_exit3 (c : Dev nD) : ∀ w : Fin cfg3.W, (dat3 (ent3 m) c).arrAt w cfg3.N = (fun b : Ref sig .tc => Gen.V8 m (outs m) c b) (Pipeline.arrRef spec3 w)
  | ⟨0, _⟩ => (((dat3 (ent3 m) c).arrAt_in 0 rfl _).trans (A_eq3 (ent3 m) c 0)).trans (Gen.V8_of m (outs m) c _ (by decide)).symm
  | ⟨1, _⟩ => (((dat3 (ent3 m) c).arrAt_in 1 rfl _).trans (A_eq3 (ent3 m) c 1)).trans (Gen.V8_of m (outs m) c _ (by decide)).symm
  | ⟨2, _⟩ => (((dat3 (ent3 m) c).arrAt_in 2 rfl _).trans (A_eq3 (ent3 m) c 2)).trans (Gen.V8_of m (outs m) c _ (by decide)).symm
  | ⟨3, _⟩ => (((dat3 (ent3 m) c).arrAt_in 3 rfl _).trans (A_eq3 (ent3 m) c 3)).trans (Gen.V8_of m (outs m) c _ (by decide)).symm
  | ⟨4, _⟩ => (((dat3 (ent3 m) c).arrAt_in 4 rfl _).trans (A_eq3 (ent3 m) c 4)).trans (Gen.V8_of m (outs m) c _ (by decide)).symm
  | ⟨5, _⟩ => (outs_v29 m c).symm.trans (at8_v29 m c).symm

/-- A buffer that is no array of region 3 passes the region unchanged. -/
theorem rest_exit3 (c : Dev nD) (b : Ref sig .tc) (hb : b ∉ Finset.univ.image (Pipeline.arrRef spec3)) :
    (fun b : Ref sig .tc => Gen.V8 m (outs m) c b) b = ent3 m c b :=
  Gen.V8_of m (outs m) c b (by
    intro hmem
    apply hb
    simp only [List.mem_cons, List.not_mem_nil, or_false] at hmem
    rcases hmem with rfl
    · exact Finset.mem_image.mpr ⟨5, Finset.mem_univ _, rfl⟩)

-- the library's lemmas on a pipeline's arrays are stated over the pinned configuration, which is the printed one only
-- up to unfolding definitions
set_option backward.isDefEq.respectTransparency.types false in
/-- Region 3 as an item of the program. It is entered holding every unscoped buffer at the valuation before it and
    left holding them at the valuation after it. At entry its arrays are split out of the unscoped buffers and the rest
    bypasses the region; the generator register goes into the class invariant beside the scratch buffers and comes back
    out of it; the core owes nothing throughout and the kernel has no semaphore of its own. At exit the arrays, at
    what the pipeline left, join the bypassing rest again. -/
def reg3 : Pipeline.RegionSeg (pcfgs (F := F)) Gen.adm (pdats m) () defs₀ Variants.none (fun _ => ∅) (fun _ _ => 0) 3 where
  win := launch3.win.to₀
  block_pos := launch3.block_pos
  stage_whole := launch3.stage_whole
  K := PEmpty
  osem k := k.elim
  ho := Pipeline.OwnSemFacts.none _
  hbody c := (body_obligation3 (ent3 m) c).loose
  hwaits := Pipeline.hwaits_of_owed_zero _ _ _ _ (fun _ => ∅) (fun _ _ => 0) 3 fun _ _ => rfl
  pre c := iprop(StableHlo.held (c : Thread nD τ) (Pipeline.ucRefs τ sig) (Gen.V7 m (outs m) c) ∗ rides c)
  post c := iprop(StableHlo.held (c : Thread nD τ) (Pipeline.ucRefs τ sig) (Gen.V8 m (outs m) c) ∗ rides c)
  X c := iprop(∃ r, prngReg c r)
  Y c := iprop(∃ r, prngReg c r)
  Z c := Pipeline.unscopedRest (Ix := Unit) (Name := ℕ) (U := UR sig nD τ) (Lvl := ℕ) spec3 c (ent3 m c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (ent3 m c) fun _ => rfl
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · -- no prefetched table
      unfold Pipeline.prefHeld; rw [show (Finset.univ : Finset (Fin 0)) = ∅ from rfl, BI.bigSep_empty]; iempintro
    isplitl [Howes]
    · -- owing nothing is within any bound
      unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [show (pdats m 3 c).Φ 0 = Pipeline.ΦA spec3 c from rfl]; unfold Pipeline.ΦA
    iintro ⟨Hreg, -, Hscoped⟩
    isplitl [Hscoped]; · iexact Hscoped
    iexact Hreg
  hout c := by
    rw [Pipeline.ownSems0_none, show (pdats m 3 c).Φ (Fin.last _) = Pipeline.ΦA spec3 c from rfl]; unfold Pipeline.ΦA
    iintro ⟨Hscoped, Hreg⟩
    isplitl [Hreg]; · iexact Hreg
    isplitr; · iempintro
    iexact Hscoped
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (ent3 m c) (fun b : Ref sig .tc => Gen.V8 m (outs m) c b) ((pdats m 3 c).arrAt · cfg3.N) (arrays_exit3 m c) (rest_exit3 m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

/-! ## The launch -/

-- as for the conditional statement: the implicit arguments are determined only up to unfolding definitions
set_option backward.isDefEq.respectTransparency.types false in
/-- THE RUN, with the result named: from any memory with every counter at zero, every weakly fair execution of the
    program terminates, and in every final memory the result buffer holds what the last host stretch computes from
    what the fourth region left, and every argument array holds what it held at launch. The user algebra is the
    pipeline library's own; no level is assigned since no core owes another anything; the launch's generator register
    and empty dues make the first rest. -/
theorem run_named : θ_run defs (onTc (τ := τ) (main (F := F))) ⟨m, fun _ => 0, ρ⟩ (fun r => ∀ c : Dev nD,
      r.2.mem ((c.tc : Thread nD τ).loc main_v30) = Gen.V9 m (outs m) c main_v30
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  run_named_cond m ρ (Ix := Unit) (U := UR sig nD τ) (Lvl := ℕ) emb₁ () Variants.none (fun _ => ∅) (fun _ _ => 0) (fun _ _ => rfl)
    (outs m) (pdats m) (O₀ := 0) (G := fun _ => iprop(emp))
    (u₀ := initOf (Pipeline.cells cfgs cellOf_inj) (Pipeline.launchToks cfgs cellOf_inj))
    (hu₀ := by
      -- the launch element IS the pipeline library's; nothing else is handed out
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => rides c)
    (hE0 := by
      -- core by core: the generator register as dealt, the dues as dealt (none)
      refine Pipeline.initEach (fun _ => ∅) (fun _ _ => 0) fun c => ?_
      iintro ⟨⟨-, Howes, -, Hreg, -⟩, -⟩
      imodintro
      isplitl [Hreg]; · iexists _; iexact Hreg
      iexists ∅; iexact Howes)
    (hE4 := fun c => by iintro ⟨-, Howes⟩; iexact Howes)
    (reg0 m) (fun _ => .rfl) (fun _ => .rfl) (reg1 m) (fun _ => .rfl) (fun _ => .rfl)
    (reg2 m) (fun _ => .rfl) (fun _ => .rfl) (reg3 m) (fun _ => .rfl) (fun _ => .rfl)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (run_named m ρ).mono fun _ h c => (h c).2

/-- info: 'Cert.KernelIdeal.Fr.run_named' depends on axioms: [propext, Classical.choice, Quot.sound] -/
#guard_msgs in #print axioms run_named
/-- info: 'Cert.KernelIdeal.Fr.frame' depends on axioms: [propext, Classical.choice, Quot.sound] -/
#guard_msgs in #print axioms frame

end Cert.KernelIdeal.Fr

end
-- ==== Proof.Spec.lean ====
/-
  The layer as plain functions on the extended reals: three projections of the activations, their split into sixteen
  heads of width sixty-four, scaled dot-product attention with a row-wise softmax, the heads merged again, an output
  projection added to the input and normalised along each row, a transposed projection with a bias added to its own
  input and normalised again, and a clamp at zero. Arrays are functions of `Fin` indices; every constant is the value
  its 32-bit pattern denotes.
-/
import Idealize.ShloMosaic.PureOps.Ideal
import Mathlib.Algebra.BigOperators.Group.Finset.Basic
import Mathlib.Data.Finset.Fold

noncomputable section

namespace Cert.Spec

open Idealize.ShloMosaic

abbrev Mat (r c : ℕ) : Type := Fin r → Fin c → EReal
abbrev Heads : Type := Fin 16 → Fin 4096 → Fin 64 → EReal
abbrev Row : Type := Fin 1024 → EReal

/-- The constants of the two programs, by their words. -/
def eps : EReal := Ideal.ofBits .f32 0x3727C5AC#32
def rowLen : EReal := Ideal.ofBits .f32 0x44800000#32
def eight : EReal := Ideal.ofBits .f32 0x41000000#32
def eighth : EReal := Ideal.ofBits .f32 0x3E000000#32
def negInf : EReal := Ideal.ofBits .f32 0xFF800000#32

/-- `x · W`: row `s` of `x` against column `e` of `W`. -/
def proj (x : Mat 4096 1024) (W : Mat 1024 1024) : Mat 4096 1024 := fun s e => ∑ d : Fin 1024, x s d * W d e
/-- `x · Wᵀ`: row `s` of `x` against row `e` of `W`. -/
def projT (x : Mat 4096 1024) (W : Mat 1024 1024) : Mat 4096 1024 := fun s e => ∑ d : Fin 1024, x s d * W e d

/-- Column `64 h + d` of a row is entry `d` of head `h`. -/
def headCol (h : Fin 16) (d : Fin 64) : Fin 1024 := ⟨h.val * 64 + d.val, by have := h.isLt; have := d.isLt; omega⟩
def colHead (e : Fin 1024) : Fin 16 := ⟨e.val / 64, by have := e.isLt; omega⟩
def colLane (e : Fin 1024) : Fin 64 := ⟨e.val % 64, Nat.mod_lt _ (by decide)⟩
def heads (A : Mat 4096 1024) : Heads := fun h s d => A s (headCol h d)
def merge (C : Heads) : Mat 4096 1024 := fun s e => C (colHead e) s (colLane e)

/-- Query `i` against key `j` in head `h`, divided by eight. -/
def score (q k : Heads) (h : Fin 16) (i j : Fin 4096) : EReal := Ideal.div (∑ d : Fin 64, q h i d * k h j d) eight
/-- The largest score of a query's row (never below minus infinity). -/
def rowMax (q k : Heads) (h : Fin 16) (i : Fin 4096) : EReal :=
  max negInf ((Finset.univ : Finset (Fin 4096)).fold max negInf fun j => score q k h i j)
/-- The exponentials of a row's scores shifted by its maximum, and their sum. -/
def expo (q k : Heads) (h : Fin 16) (i j : Fin 4096) : EReal := Ideal.exp (score q k h i j - rowMax q k h i)
def rowSum (q k : Heads) (h : Fin 16) (i : Fin 4096) : EReal := ∑ j : Fin 4096, expo q k h i j
/-- Softmax-weighted values. -/
def attend (q k v : Heads) : Heads := fun h i d => ∑ j : Fin 4096, Ideal.div (expo q k h i j) (rowSum q k h i) * v h j d

/-- Mean, centred row, variance and the normalised, scaled and shifted row. -/
def mean (z : Row) : EReal := Ideal.div (∑ e : Fin 1024, z e) rowLen
def variance (z : Row) : EReal := Ideal.div (∑ e : Fin 1024, (z e - mean z) * (z e - mean z)) rowLen
def lnorm (z g b : Row) : Row := fun e => (z e - mean z) * Ideal.rsqrt (variance z + eps) * g e + b e

/-- The attention context, heads merged. -/
def context (x : Mat 4096 1024) (Wq Wk Wv : Mat 1024 1024) : Mat 4096 1024 :=
  merge (attend (heads (proj x Wq)) (heads (proj x Wk)) (heads (proj x Wv)))
/-- The first normalised sum: the input plus the projected context. -/
def attnOut (x : Mat 4096 1024) (Wq Wk Wv Wo : Mat 1024 1024) (g7 b8 : Row) : Mat 4096 1024 :=
  fun s => lnorm (fun e => x s e + proj (context x Wq Wk Wv) Wo s e) g7 b8
/-- The second normalised sum, clamped at zero. -/
def layer (x : Mat 4096 1024) (Wq Wk Wv Wo W5 : Mat 1024 1024) (b6 g7 b8 g9 b10 : Row) : Mat 4096 1024 :=
  fun s e => max (lnorm (fun e' => (projT (attnOut x Wq Wk Wv Wo g7 b8) W5 s e' + b6 e') + attnOut x Wq Wk Wv Wo g7 b8 s e') g9 b10 e) 0

/-- Rows that agree entry by entry normalise alike. -/
theorem lnorm_congr {z z' : Row} (h : ∀ e, z e = z' e) (g b : Row) : lnorm z g b = lnorm z' g b := by
  have : z = z' := funext h
  rw [this]

end Cert.Spec

end
-- ==== Proof.HostStretch.lean ====
/-
  What the program's five stretches of layout and format operations write, read at one index, on extended reals
  (where a change of number format is the identity). Between the stretches run the four computing regions; a stretch
  reads what the region before it left and writes the arrays the next region reads. Each statement gives one entry of an
  array a stretch writes as one entry of an array it reads: a unit axis added or dropped, two axes exchanged, or the
  1024 columns of a row regrouped as sixteen heads of sixty-four lanes (column `64 h + d` is lane `d` of head `h`).
-/
import proofs.«420769_j82386062672326_3_alg».proof.Proof.Gen.KernelIdeal.Regions
import proofs.«420769_j82386062672326_3_alg».proof.Proof.Spec
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Val

open Cert.KernelIdeal Cert.KernelIdeal.Gen Cert.Spec
open Idealize.ShloMosaic Idealize.ShloMosaic.TcCoe Idealize.ShloMosaic.ValueIdx Idealize.SL.Sem

variable (m : (ℓ : Loc nD τ sig) → Buf (Elt Ideal) ℓ) (outs : Gen.Outs (F := Ideal))

/-! ## The two rearrangements of heads, read at an index

A row of 1024 columns is sixteen heads of sixty-four lanes side by side: column `64 h + d` is lane `d` of head `h`.
The program moves between the row form `[4096, 1024]` and the head form `[16, 4096, 64]` by three layout operations
each way. Each lemma below reads such a chain at one index of its result, outermost operation first. -/

/-- Rows to heads. The columns of `[4096, 1024]` are split as `[1, 4096, 16, 64]` (a leading unit axis added, the column
    axis cut into head and lane), the row axis 1 and the head axis 2 change places giving `[1, 16, 4096, 64]`, and the unit
    axis 0 is dropped. Entry `(h, i, d)` of the result is entry `(i, 64 h + d)` of the rows. -/
theorem rowsToHeads_apply (X : S4096x1024.Idx → EReal) (h : Fin 16) (i : Fin 4096) (d : Fin 64) :
    shapeCast S16x4096x64
        (transpose S1x16x4096x64 [0, 2, 1, 3] (shapeCast S1x4096x16x64 X shapeCasts_S4096x1024_S1x4096x16x64)
          transposes_S1x4096x16x64_S1x16x4096x64_0_2_1_3)
        shapeCasts_S1x16x4096x64_S16x4096x64 (ix3 h i d)
      = X (ix2 i (headCol h d)) := by
  -- the unit axis 0 dropped: `(h, i, d)` was `(0, h, i, d)`
  refine (shapeCast_1abc_abc_apply _ shapeCasts_S1x16x4096x64_S16x4096x64 h i d).trans ?_
  -- axes 1 and 2 exchanged: `(0, h, i, d)` was `(0, i, h, d)`
  refine (transpose_apply [0, 2, 1, 3] _ transposes_S1x4096x16x64_S1x16x4096x64_0_2_1_3
    (ix4 (0 : Fin 1) h i d) (ix4 (0 : Fin 1) i h d) (fun b => match b with
      | ⟨0, _⟩ => rfl
      | ⟨1, _⟩ => rfl
      | ⟨2, _⟩ => rfl
      | ⟨3, _⟩ => rfl)).trans ?_
  -- the column axis cut into head and lane: `(0, i, h, d)` and `(i, 64 h + d)` have the same row-major position
  exact shapeCast_apply X shapeCasts_S4096x1024_S1x4096x16x64 _ _ (by
    rw [Shape.rowMajor_val_two, Shape.rowMajor_val_four]
    show i.val * 1024 + (h.val * 64 + d.val) = (((0 : ℕ) * 4096 + i.val) * 16 + h.val) * 64 + d.val
    omega)

/-- Heads to rows, the way back. `[16, 4096, 64]` gets a leading unit axis, `[1, 16, 4096, 64]`; the head axis 1 and the
    row axis 2 change places giving `[1, 4096, 16, 64]`; the head and lane axes are joined into the 1024 columns and the
    unit axis dropped. Entry `(s, e)` of the result is entry `(e / 64, s, e % 64)` of the heads. -/
theorem headsToRows_apply (Y : S16x4096x64.Idx → EReal) (s : Fin 4096) (e : Fin 1024) :
    shapeCast S4096x1024
        (transpose S1x4096x16x64 [0, 2, 1, 3] (shapeCast S1x16x4096x64 Y shapeCasts_S16x4096x64_S1x16x4096x64)
          transposes_S1x16x4096x64_S1x4096x16x64_0_2_1_3)
        shapeCasts_S1x4096x16x64_S4096x1024 (ix2 s e)
      = Y (ix3 (colHead e) s (colLane e)) := by
  -- head and lane joined into a column: `(s, e)` and `(0, s, e / 64, e % 64)` have the same row-major position
  refine (shapeCast_apply _ shapeCasts_S1x4096x16x64_S4096x1024 (ix2 s e) (ix4 (0 : Fin 1) s (colHead e) (colLane e)) (by
    rw [Shape.rowMajor_val_four, Shape.rowMajor_val_two]
    show (((0 : ℕ) * 4096 + s.val) * 16 + e.val / 64) * 64 + e.val % 64 = s.val * 1024 + e.val
    have := e.isLt
    omega)).trans ?_
  -- axes 1 and 2 exchanged: `(0, s, e / 64, e % 64)` was `(0, e / 64, s, e % 64)`
  refine (transpose_apply [0, 2, 1, 3] _ transposes_S1x16x4096x64_S1x4096x16x64_0_2_1_3
    (ix4 (0 : Fin 1) s (colHead e) (colLane e)) (ix4 (0 : Fin 1) (colHead e) s (colLane e)) (fun b => match b with
      | ⟨0, _⟩ => rfl
      | ⟨1, _⟩ => rfl
      | ⟨2, _⟩ => rfl
      | ⟨3, _⟩ => rfl)).trans ?_
  -- the unit axis 0 added: `(0, e / 64, s, e % 64)` was `(e / 64, s, e % 64)`
  exact shapeCast_abc_1abc_apply Y shapeCasts_S16x4096x64_S1x16x4096x64 (0 : Fin 1) (colHead e) s (colLane e)

/-! ## The first stretch: the arguments made ready

The activations lose their leading unit axis; four weight matrices change format only (the identity on extended reals);
the fifth weight matrix is transposed, then changes format. -/

/-- The activations `[1, 4096, 1024]` with axis 0 dropped: entry `(s, d)` is entry `(0, s, d)` of the argument. -/
theorem hs0_v0 (c : Dev nD) (s : Fin 4096) (d : Fin 1024) :
    Gen.V1 m c main_v0 (ix2 s d) = m ((c : Thread nD τ).loc main_arg0) (ix3 0 s d) := by
  have e : (Gen.V1 m c main_v0 : S4096x1024.Idx → EReal)
      = shapeCast S4096x1024 (m ((c : Thread nD τ).loc main_arg0) : S1x4096x1024.Idx → EReal)
          shapeCasts_S1x4096x1024_S4096x1024 := by
    show StableHlo.after hostOps0 _ (Proc.devRef .tc main_v0) = _
    after_results; rfl
  rw [e]
  exact shapeCast_1ab_ab_apply _ _ s d

/-- A weight matrix after its format change holds the argument's entries. -/
theorem hs0_v1 (c : Dev nD) (d e : Fin 1024) :
    Gen.V1 m c main_v1 (ix2 d e) = m ((c : Thread nD τ).loc main_arg1) (ix2 d e) := by
  have e' : (Gen.V1 m c main_v1 : S1024x1024.Idx → EReal)
      = (truncf .bf16 (m ((c : Thread nD τ).loc main_arg1) : FVec Ideal S1024x1024 .f32) bitsLt_bf16_f32
          : FVec Ideal S1024x1024 .bf16) := by
    show StableHlo.after hostOps0 _ (Proc.devRef .tc main_v1) = _
    after_results
  rw [e', truncf_apply]

theorem hs0_v2 (c : Dev nD) (d e : Fin 1024) :
    Gen.V1 m c main_v2 (ix2 d e) = m ((c : Thread nD τ).loc main_arg2) (ix2 d e) := by
  have e' : (Gen.V1 m c main_v2 : S1024x1024.Idx → EReal)
      = (truncf .bf16 (m ((c : Thread nD τ).loc main_arg2) : FVec Ideal S1024x1024 .f32) bitsLt_bf16_f32
          : FVec Ideal S1024x1024 .bf16) := by
    show StableHlo.after hostOps0 _ (Proc.devRef .tc main_v2) = _
    after_results
  rw [e', truncf_apply]

theorem hs0_v3 (c : Dev nD) (d e : Fin 1024) :
    Gen.V1 m c main_v3 (ix2 d e) = m ((c : Thread nD τ).loc main_arg3) (ix2 d e) := by
  have e' : (Gen.V1 m c main_v3 : S1024x1024.Idx → EReal)
      = (truncf .bf16 (m ((c : Thread nD τ).loc main_arg3) : FVec Ideal S1024x1024 .f32) bitsLt_bf16_f32
          : FVec Ideal S1024x1024 .bf16) := by
    show StableHlo.after hostOps0 _ (Proc.devRef .tc main_v3) = _
    after_results
  rw [e', truncf_apply]

theorem hs0_v4 (c : Dev nD) (d e : Fin 1024) :
    Gen.V1 m c main_v4 (ix2 d e) = m ((c : Thread nD τ).loc main_arg4) (ix2 d e) := by
  have e' : (Gen.V1 m c main_v4 : S1024x1024.Idx → EReal)
      = (truncf .bf16 (m ((c : Thread nD τ).loc main_arg4) : FVec Ideal S1024x1024 .f32) bitsLt_bf16_f32
          : FVec Ideal S1024x1024 .bf16) := by
    show StableHlo.after hostOps0 _ (Proc.devRef .tc main_v4) = _
    after_results
  rw [e', truncf_apply]

/-- The fifth weight matrix with its two axes exchanged, then the format change: entry `(d, e)` is the argument's `(e, d)`. -/
theorem hs0_v6 (c : Dev nD) (d e : Fin 1024) :
    Gen.V1 m c main_v6 (ix2 d e) = m ((c : Thread nD τ).loc main_arg5) (ix2 e d) := by
  have e' : (Gen.V1 m c main_v6 : S1024x1024.Idx → EReal)
      = truncf .bf16 (transpose S1024x1024 [1, 0] (m ((c : Thread nD τ).loc main_arg5) : S1024x1024.Idx → EReal)
          transposes_S1024x1024_S1024x1024_1_0 : FVec Ideal S1024x1024 .f32) bitsLt_bf16_f32 := by
    show StableHlo.after hostOps0 _ (Proc.devRef .tc main_v6) = _
    after_results
  rw [e', truncf_apply]
  exact transpose_ix2_apply _ transposes_S1024x1024_S1024x1024_1_0 d e

/-! ## The second stretch: the three projections cut into heads

Each of the three projections goes from rows to heads; the second and third then change format. -/

theorem hs1_v10 (c : Dev nD) (h : Fin 16) (i : Fin 4096) (d : Fin 64) :
    Gen.V3 m outs c main_v10 (ix3 h i d) = Gen.V2 m outs c main_v7_0 (ix2 i (headCol h d)) := by
  have e : (Gen.V3 m outs c main_v10 : S16x4096x64.Idx → EReal)
      = shapeCast S16x4096x64
          (transpose S1x16x4096x64 [0, 2, 1, 3]
            (shapeCast S1x4096x16x64 (Gen.V2 m outs c main_v7_0 : S4096x1024.Idx → EReal) shapeCasts_S4096x1024_S1x4096x16x64)
            transposes_S1x4096x16x64_S1x16x4096x64_0_2_1_3)
          shapeCasts_S1x16x4096x64_S16x4096x64 := by
    show StableHlo.after hostOps1 _ (Proc.devRef .tc main_v10) = _
    after_results; rfl
  rw [e]
  exact rowsToHeads_apply _ h i d

theorem hs1_v14 (c : Dev nD) (h : Fin 16) (i : Fin 4096) (d : Fin 64) :
    Gen.V3 m outs c main_v14 (ix3 h i d) = Gen.V2 m outs c main_v7_1 (ix2 i (headCol h d)) := by
  have e : (Gen.V3 m outs c main_v14 : S16x4096x64.Idx → EReal)
      = truncf .bf16 (shapeCast S16x4096x64
          (transpose S1x16x4096x64 [0, 2, 1, 3]
            (shapeCast S1x4096x16x64 (Gen.V2 m outs c main_v7_1 : S4096x1024.Idx → EReal) shapeCasts_S4096x1024_S1x4096x16x64)
            transposes_S1x4096x16x64_S1x16x4096x64_0_2_1_3)
          shapeCasts_S1x16x4096x64_S16x4096x64 : FVec Ideal S16x4096x64 .f32) bitsLt_bf16_f32 := by
    show StableHlo.after hostOps1 _ (Proc.devRef .tc main_v14) = _
    after_results; rfl
  rw [e, truncf_apply]
  exact rowsToHeads_apply _ h i d

theorem hs1_v18 (c : Dev nD) (h : Fin 16) (i : Fin 4096) (d : Fin 64) :
    Gen.V3 m outs c main_v18 (ix3 h i d) = Gen.V2 m outs c main_v7_2 (ix2 i (headCol h d)) := by
  have e : (Gen.V3 m outs c main_v18 : S16x4096x64.Idx → EReal)
      = truncf .bf16 (shapeCast S16x4096x64
          (transpose S1x16x4096x64 [0, 2, 1, 3]
            (shapeCast S1x4096x16x64 (Gen.V2 m outs c main_v7_2 : S4096x1024.Idx → EReal) shapeCasts_S4096x1024_S1x4096x16x64)
            transposes_S1x4096x16x64_S1x16x4096x64_0_2_1_3)
          shapeCasts_S1x16x4096x64_S16x4096x64 : FVec Ideal S16x4096x64 .f32) bitsLt_bf16_f32 := by
    show StableHlo.after hostOps1 _ (Proc.devRef .tc main_v18) = _
    after_results; rfl
  rw [e, truncf_apply]
  exact rowsToHeads_apply _ h i d

/-! ## The third stretch: the heads merged, two row vectors given a unit axis -/

theorem hs2_v22 (c : Dev nD) (s : Fin 4096) (e : Fin 1024) :
    Gen.V5 m outs c main_v22 (ix2 s e) = Gen.V4 m outs c main_v19 (ix3 (colHead e) s (colLane e)) := by
  have e' : (Gen.V5 m outs c main_v22 : S4096x1024.Idx → EReal)
      = shapeCast S4096x1024
          (transpose S1x4096x16x64 [0, 2, 1, 3]
            (shapeCast S1x16x4096x64 (Gen.V4 m outs c main_v19 : S16x4096x64.Idx → EReal) shapeCasts_S16x4096x64_S1x16x4096x64)
            transposes_S1x16x4096x64_S1x4096x16x64_0_2_1_3)
          shapeCasts_S1x4096x16x64_S4096x1024 := by
    show StableHlo.after hostOps2 _ (Proc.devRef .tc main_v22) = _
    after_results; rfl
  rw [e']
  exact headsToRows_apply _ s e

/-- A vector `[1024]` given a leading unit axis, `[1, 1024]`: entry `(0, e)` is entry `e`. -/
theorem hs2_v23 (c : Dev nD) (e : Fin 1024) :
    Gen.V5 m outs c main_v23 (ix2 0 e) = Gen.V4 m outs c main_arg7 (ix1 e) := by
  have e' : (Gen.V5 m outs c main_v23 : S1x1024.Idx → EReal)
      = shapeCast S1x1024 (Gen.V4 m outs c main_arg7 : S1024.Idx → EReal) shapeCasts_S1024_S1x1024 := by
    show StableHlo.after hostOps2 _ (Proc.devRef .tc main_v23) = _
    after_results; rfl
  rw [e']
  exact shapeCast_a_1a_apply _ shapeCasts_S1024_S1x1024 0 e

theorem hs2_v24 (c : Dev nD) (e : Fin 1024) :
    Gen.V5 m outs c main_v24 (ix2 0 e) = Gen.V4 m outs c main_arg8 (ix1 e) := by
  have e' : (Gen.V5 m outs c main_v24 : S1x1024.Idx → EReal)
      = shapeCast S1x1024 (Gen.V4 m outs c main_arg8 : S1024.Idx → EReal) shapeCasts_S1024_S1x1024 := by
    show StableHlo.after hostOps2 _ (Proc.devRef .tc main_v24) = _
    after_results; rfl
  rw [e']
  exact shapeCast_a_1a_apply _ shapeCasts_S1024_S1x1024 0 e

/-! ## The fourth stretch: three more row vectors given a unit axis -/

theorem hs3_v26 (c : Dev nD) (e : Fin 1024) :
    Gen.V7 m outs c main_v26 (ix2 0 e) = Gen.V6 m outs c main_arg9 (ix1 e) := by
  have e' : (Gen.V7 m outs c main_v26 : S1x1024.Idx → EReal)
      = shapeCast S1x1024 (Gen.V6 m outs c main_arg9 : S1024.Idx → EReal) shapeCasts_S1024_S1x1024 := by
    show StableHlo.after hostOps3 _ (Proc.devRef .tc main_v26) = _
    after_results; rfl
  rw [e']
  exact shapeCast_a_1a_apply _ shapeCasts_S1024_S1x1024 0 e

theorem hs3_v27 (c : Dev nD) (e : Fin 1024) :
    Gen.V7 m outs c main_v27 (ix2 0 e) = Gen.V6 m outs c main_arg10 (ix1 e) := by
  have e' : (Gen.V7 m outs c main_v27 : S1x1024.Idx → EReal)
      = shapeCast S1x1024 (Gen.V6 m outs c main_arg10 : S1024.Idx → EReal) shapeCasts_S1024_S1x1024 := by
    show StableHlo.after hostOps3 _ (Proc.devRef .tc main_v27) = _
    after_results; rfl
  rw [e']
  exact shapeCast_a_1a_apply _ shapeCasts_S1024_S1x1024 0 e

theorem hs3_v28 (c : Dev nD) (e : Fin 1024) :
    Gen.V7 m outs c main_v28 (ix2 0 e) = Gen.V6 m outs c main_arg6 (ix1 e) := by
  have e' : (Gen.V7 m outs c main_v28 : S1x1024.Idx → EReal)
      = shapeCast S1x1024 (Gen.V6 m outs c main_arg6 : S1024.Idx → EReal) shapeCasts_S1024_S1x1024 := by
    show StableHlo.after hostOps3 _ (Proc.devRef .tc main_v28) = _
    after_results; rfl
  rw [e']
  exact shapeCast_a_1a_apply _ shapeCasts_S1024_S1x1024 0 e

/-! ## The last stretch: the result given back its leading unit axis -/

/-- `[4096, 1024]` given a leading unit axis, `[1, 4096, 1024]`: entry `(0, s, e)` is entry `(s, e)`. -/
theorem hs4_v30 (c : Dev nD) (s : Fin 4096) (e : Fin 1024) :
    Gen.V9 m outs c main_v30 (ix3 0 s e) = Gen.V8 m outs c main_v29 (ix2 s e) := by
  have e' : (Gen.V9 m outs c main_v30 : S1x4096x1024.Idx → EReal)
      = shapeCast S1x4096x1024 (Gen.V8 m outs c main_v29 : S4096x1024.Idx → EReal) shapeCasts_S4096x1024_S1x4096x1024 := by
    show StableHlo.after hostOps4 _ (Proc.devRef .tc main_v30) = _
    after_results; rfl
  rw [e']
  exact shapeCast_ab_1ab_apply _ shapeCasts_S4096x1024_S1x4096x1024 0 s e

end Cert.KernelIdeal.Val

end
-- ==== Proof.Val0.lean ====
/-
  The first region's three output arrays at the ideal values, entry by entry. The region walks eight row blocks
  of 512 rows; at each it multiplies the block of the activations by a whole weight matrix and writes the product
  back as the same row block of one output array. Read over the whole grid, entry (s, e) of each output array is
  row s of the activations against column e of the weight matrix: it depends on row s of the activations and
  column e of the weights, and on nothing else.
-/
import proofs.«420769_j82386062672326_3_alg».proof.Proof.Region0
import proofs.«420769_j82386062672326_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Cert.KernelIdeal.Fr Cert.Spec
open Idealize.ShloMosaic Idealize.ShloMosaic.TcCoe Idealize.ShloMosaic.ValueIdx Idealize.SL.Sem

variable (V : (c : Dev nD) → (b : Ref sig .tc) → Buf (Elt Ideal) ((c : Thread nD τ).loc b))

/-! ## The product at one entry of a block -/

/-- In the product's dimension numbers the left operand keeps the output's row, -/
theorem lhs_dot0_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- and its column is the summation index; -/
theorem lhs_dot0_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- the right operand's row is the summation index, -/
theorem rhs_dot0_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- and it keeps the output's column. -/
theorem rhs_dot0_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- Entry (p, q) of a row block times a weight matrix, accumulated into zero: row p of the block against column q
    of the matrix. The narrowing of the block to the weights' format changes nothing at the ideal values, and
    neither do the two casts to the same shape. -/
theorem pay0_apply (x0 : Vec Ideal S512x1024 .f32) (w : Vec Ideal S1024x1024 .bf16) (p : Fin 512) (q : Fin 1024) :
    k0_pay2 x0 w (ix2 p q) = ∑ d : Fin 1024, x0 (ix2 p d) * w (ix2 d q) := by
  unfold k0_pay2 k0_pay1
  simp only [matmul, shapeCast_self]
  rw [Ideal.matmul_constant_zero_apply, ← Equiv.sum_comp (contrEquiv1 dot_S512x1024_S1024x1024_S512x1024_1_0_0_1_n_n 1024 rfl rfl).symm]
  refine Finset.sum_congr rfl fun d _ => ?_
  have hd := contrEquiv1_symm_val dot_S512x1024_S1024x1024_S512x1024_1_0_0_1_n_n 1024 rfl rfl d
  have el : dot_S512x1024_S1024x1024_S512x1024_1_0_0_1_n_n.lhsIdx (ix2 p q) ((contrEquiv1 dot_S512x1024_S1024x1024_S512x1024_1_0_0_1_n_n 1024 rfl rfl).symm d) = ix2 p d := funext fun a => Fin.ext (by
    match a with
    | ⟨0, _⟩ => exact lhs_dot0_0 _ _
    | ⟨1, _⟩ => exact (lhs_dot0_1 _ _).trans hd)
  have er : dot_S512x1024_S1024x1024_S512x1024_1_0_0_1_n_n.rhsIdx (ix2 p q) ((contrEquiv1 dot_S512x1024_S1024x1024_S512x1024_1_0_0_1_n_n 1024 rfl rfl).symm d) = ix2 d q := funext fun a => Fin.ext (by
    match a with
    | ⟨0, _⟩ => exact (rhs_dot0_0 _ _).trans hd
    | ⟨1, _⟩ => exact rhs_dot0_1 _ _)
  rw [el, er, truncf_apply]

/-- The second and third products are the same term at their own weight matrices. -/
theorem pay0_3_apply (x0 : Vec Ideal S512x1024 .f32) (w : Vec Ideal S1024x1024 .bf16) (p : Fin 512) (q : Fin 1024) :
    k0_pay3 x0 w (ix2 p q) = ∑ d : Fin 1024, x0 (ix2 p d) * w (ix2 d q) := pay0_apply x0 w p q
theorem pay0_4_apply (x0 : Vec Ideal S512x1024 .f32) (w : Vec Ideal S1024x1024 .bf16) (p : Fin 512) (q : Fin 1024) :
    k0_pay4 x0 w (ix2 p q) = ∑ d : Fin 1024, x0 (ix2 p d) * w (ix2 d q) := pay0_apply x0 w p q

/-! ## The whole array -/

/-- The projected array: entry (s, e) is row s of the activations against column e of the weight matrix. -/
def G0 (X : S4096x1024.Idx → EReal) (W : S1024x1024.Idx → EReal) : S4096x1024.Idx → EReal :=
  fun i => ∑ d : Fin 1024, X (ix2 (i 0) d) * W (ix2 d (i 1))

theorem hz0 : (![0, 0] : Fin 2 → Nat) = fun _ => 0 := funext fun a => by fin_cases a <;> rfl

/-- The block index maps over the eight grid points: at point t the activations' window and the three output
    windows sit at row block t, column block 0; each weight window sits at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row p of the activations' block at point t is row 512 t + p of the activations, whatever output window's block
    (at the same row block) the row is named through. -/
theorem x_row0 (c : Dev nD) (t : Fin cfg0.N) (p : Fin 512) (d : Fin 1024) (r : Fin 4096) (hr : r.val = t.val * 512 + 1 * p.val) :
    iblk0 V c 0 t (ix2 p d) = V c main_v0 (ix2 r d) := by
  obtain ⟨e0, e1, -⟩ := idx_facts0 t
  show V c main_v0 (((cfg0.win 0).blk t).view.emb (ix2 p d)) = V c main_v0 (ix2 r d)
  congr 1
  funext a; apply Fin.ext
  match a with
  | ⟨0, _⟩ => show win0_0.index t (0 : Fin 2) * 512 + 1 * p.val = r.val; omega
  | ⟨1, _⟩ => show win0_0.index t (1 : Fin 2) * 1024 + 1 * d.val = d.val; omega

/-- A weight window's one block is the whole matrix: its entry (d, q) at any point is the matrix's entry (d, q). -/
theorem w1_entry0 (c : Dev nD) (t : Fin cfg0.N) (d q : Fin 1024) : iblk0 V c 1 t (ix2 d q) = V c main_v1 (ix2 d q) := by
  obtain ⟨-, -, e0, e1, -⟩ := idx_facts0 t
  show V c main_v1 (((cfg0.win 1).blk t).view.emb (ix2 d q)) = V c main_v1 (ix2 d q)
  congr 1
  funext a; apply Fin.ext
  match a with
  | ⟨0, _⟩ => show win0_1.index t (0 : Fin 2) * 1024 + 1 * d.val = d.val; omega
  | ⟨1, _⟩ => show win0_1.index t (1 : Fin 2) * 1024 + 1 * q.val = q.val; omega
theorem w2_entry0 (c : Dev nD) (t : Fin cfg0.N) (d q : Fin 1024) : iblk0 V c 2 t (ix2 d q) = V c main_v2 (ix2 d q) := by
  obtain ⟨-, -, -, -, e0, e1, -⟩ := idx_facts0 t
  show V c main_v2 (((cfg0.win 2).blk t).view.emb (ix2 d q)) = V c main_v2 (ix2 d q)
  congr 1
  funext a; apply Fin.ext
  match a with
  | ⟨0, _⟩ => show win0_2.index t (0 : Fin 2) * 1024 + 1 * d.val = d.val; omega
  | ⟨1, _⟩ => show win0_2.index t (1 : Fin 2) * 1024 + 1 * q.val = q.val; omega
theorem w3_entry0 (c : Dev nD) (t : Fin cfg0.N) (d q : Fin 1024) : iblk0 V c 3 t (ix2 d q) = V c main_v3 (ix2 d q) := by
  obtain ⟨-, -, -, -, -, -, e0, e1, -⟩ := idx_facts0 t
  show V c main_v3 (((cfg0.win 3).blk t).view.emb (ix2 d q)) = V c main_v3 (ix2 d q)
  congr 1
  funext a; apply Fin.ext
  match a with
  | ⟨0, _⟩ => show win0_3.index t (0 : Fin 2) * 1024 + 1 * d.val = d.val; omega
  | ⟨1, _⟩ => show win0_3.index t (1 : Fin 2) * 1024 + 1 * q.val = q.val; omega

/-! ## What each point writes back, the cover, and the array after the region -/

/-- Point t writes back, to the first output array, block t of the activations' projection by the first weight
    matrix: entry (p, q) of the block is row 512 t + p of the activations against column q of that matrix. -/
theorem flushed0_4_eq (c : Dev nD) (t : Fin cfg0.N) :
    (dat0 V c).flushed 4 t = ((cfg0.win 4).blk t).view.read (Elt Ideal) (G0 (V c main_v0) (V c main_v1)) := by
  show (cfg0.win 4).cut (grid0.coords t) ((dat0 V c).after 4 t) = _
  rw [after0_4]
  unfold out0_4
  rw [View.canon_unit_zero hz0]
  simp only [View.ld_unit_zero (S := S512x1024) hz0, View.ld_unit_zero (S := S1024x1024) hz0]
  funext j
  obtain ⟨p, q, rfl⟩ : ∃ (p : Fin 512) (q : Fin 1024), j = ix2 p q := ⟨j 0, j 1, eq_ix2 j⟩
  obtain ⟨-, -, -, -, -, -, -, -, e0, e1, -⟩ := idx_facts0 t
  have h0 : ((((cfg0.win 4).blk t).view.emb (ix2 p q)) 0).val = t.val * 512 + 1 * p.val := by
    show win0_4.index t (0 : Fin 2) * 512 + 1 * p.val = _; omega
  have h1 : (((cfg0.win 4).blk t).view.emb (ix2 p q)) 1 = q := Fin.ext (by
    show win0_4.index t (1 : Fin 2) * 1024 + 1 * q.val = _; omega)
  refine (pay0_apply (iblk0 V c 0 t) (iblk0 V c 1 t) p q).trans ?_
  show _ = G0 (V c main_v0) (V c main_v1) (((cfg0.win 4).blk t).view.emb (ix2 p q))
  unfold G0
  rw [h1]
  refine Finset.sum_congr rfl fun d _ => ?_
  rw [x_row0 V c t p d _ h0, w1_entry0 V c t d q]

/-- An entry of the first output array lies in point t's block iff on each axis its coordinate is in the
    block's range. -/
theorem mem_blk0_4 (t : Fin cfg0.N) (i : S4096x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v7_0).slice (win0_4.rect t)).set ↔ _
  rw [View.set_slice_whole, Rect.mem_set_unit]
  exact Iff.rfl

/-- The eight row blocks tile the first output array: row r lies in the block of point r / 512, and every point
    writes its block back. -/
theorem cover0_4 (i : S4096x1024.Idx) :
    ∃ t : Fin cfg0.N, (cfg0.win 4).flush t = true ∧ i ∈ ((cfg0.win 4).blk t).view.set := by
  have hi0 : (i 0).val < 4096 := (i 0).isLt
  have hi1 : (i 1).val < 1024 := (i 1).isLt
  obtain ⟨t, ht⟩ : ∃ t : Fin cfg0.N, t.val = (i 0).val / 512 := ⟨⟨(i 0).val / 512, by show _ < 8; omega⟩, rfl⟩
  refine ⟨t, flush0_4 t, ?_⟩
  rw [mem_blk0_4]
  obtain ⟨-, -, -, -, -, -, -, -, e0, e1, -⟩ := idx_facts0 t
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- The first output array after the region: the activations projected by the first weight matrix. -/
theorem arr0_4 (c : Dev nD) (s : Fin 4096) (e : Fin 1024) : (dat0 V c).arrAt 4 cfg0.N (ix2 s e) = proj (fun s d => V c main_v0 (ix2 s d)) (fun d e => V c main_v1 (ix2 d e)) s e := by
  have h := (dat0 V c).arrAt_eq_of_cover 4 (G0 (V c main_v0) (V c main_v1)) (fun t _ => flushed0_4_eq V c t) cover0_4
  rw [h]
  rfl

/-- Point t writes back, to the second output array, block t of the activations' projection by the second weight
    matrix: entry (p, q) of the block is row 512 t + p of the activations against column q of that matrix. -/
theorem flushed0_5_eq (c : Dev nD) (t : Fin cfg0.N) :
    (dat0 V c).flushed 5 t = ((cfg0.win 5).blk t).view.read (Elt Ideal) (G0 (V c main_v0) (V c main_v2)) := by
  show (cfg0.win 5).cut (grid0.coords t) ((dat0 V c).after 5 t) = _
  rw [after0_5]
  unfold out0_5
  rw [View.canon_unit_zero hz0]
  simp only [View.ld_unit_zero (S := S512x1024) hz0, View.ld_unit_zero (S := S1024x1024) hz0]
  funext j
  obtain ⟨p, q, rfl⟩ : ∃ (p : Fin 512) (q : Fin 1024), j = ix2 p q := ⟨j 0, j 1, eq_ix2 j⟩
  obtain ⟨-, -, -, -, -, -, -, -, -, -, e0, e1, -⟩ := idx_facts0 t
  have h0 : ((((cfg0.win 5).blk t).view.emb (ix2 p q)) 0).val = t.val * 512 + 1 * p.val := by
    show win0_5.index t (0 : Fin 2) * 512 + 1 * p.val = _; omega
  have h1 : (((cfg0.win 5).blk t).view.emb (ix2 p q)) 1 = q := Fin.ext (by
    show win0_5.index t (1 : Fin 2) * 1024 + 1 * q.val = _; omega)
  refine (pay0_3_apply (iblk0 V c 0 t) (iblk0 V c 2 t) p q).trans ?_
  show _ = G0 (V c main_v0) (V c main_v2) (((cfg0.win 5).blk t).view.emb (ix2 p q))
  unfold G0
  rw [h1]
  refine Finset.sum_congr rfl fun d _ => ?_
  rw [x_row0 V c t p d _ h0, w2_entry0 V c t d q]

/-- An entry of the second output array lies in point t's block iff on each axis its coordinate is in the
    block's range. -/
theorem mem_blk0_5 (t : Fin cfg0.N) (i : S4096x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v7_1).slice (win0_5.rect t)).set ↔ _
  rw [View.set_slice_whole, Rect.mem_set_unit]
  exact Iff.rfl

/-- The eight row blocks tile the second output array: row r lies in the block of point r / 512, and every point
    writes its block back. -/
theorem cover0_5 (i : S4096x1024.Idx) :
    ∃ t : Fin cfg0.N, (cfg0.win 5).flush t = true ∧ i ∈ ((cfg0.win 5).blk t).view.set := by
  have hi0 : (i 0).val < 4096 := (i 0).isLt
  have hi1 : (i 1).val < 1024 := (i 1).isLt
  obtain ⟨t, ht⟩ : ∃ t : Fin cfg0.N, t.val = (i 0).val / 512 := ⟨⟨(i 0).val / 512, by show _ < 8; omega⟩, rfl⟩
  refine ⟨t, flush0_5 t, ?_⟩
  rw [mem_blk0_5]
  obtain ⟨-, -, -, -, -, -, -, -, -, -, e0, e1, -⟩ := idx_facts0 t
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- The second output array after the region: the activations projected by the second weight matrix. -/
theorem arr0_5 (c : Dev nD) (s : Fin 4096) (e : Fin 1024) : (dat0 V c).arrAt 5 cfg0.N (ix2 s e) = proj (fun s d => V c main_v0 (ix2 s d)) (fun d e => V c main_v2 (ix2 d e)) s e := by
  have h := (dat0 V c).arrAt_eq_of_cover 5 (G0 (V c main_v0) (V c main_v2)) (fun t _ => flushed0_5_eq V c t) cover0_5
  rw [h]
  rfl

/-- Point t writes back, to the third output array, block t of the activations' projection by the third weight
    matrix: entry (p, q) of the block is row 512 t + p of the activations against column q of that matrix. -/
theorem flushed0_6_eq (c : Dev nD) (t : Fin cfg0.N) :
    (dat0 V c).flushed 6 t = ((cfg0.win 6).blk t).view.read (Elt Ideal) (G0 (V c main_v0) (V c main_v3)) := by
  show (cfg0.win 6).cut (grid0.coords t) ((dat0 V c).after 6 t) = _
  rw [after0_6]
  unfold out0_6
  rw [View.canon_unit_zero hz0]
  simp only [View.ld_unit_zero (S := S512x1024) hz0, View.ld_unit_zero (S := S1024x1024) hz0]
  funext j
  obtain ⟨p, q, rfl⟩ : ∃ (p : Fin 512) (q : Fin 1024), j = ix2 p q := ⟨j 0, j 1, eq_ix2 j⟩
  obtain ⟨-, -, -, -, -, -, -, -, -, -, -, -, e0, e1⟩ := idx_facts0 t
  have h0 : ((((cfg0.win 6).blk t).view.emb (ix2 p q)) 0).val = t.val * 512 + 1 * p.val := by
    show win0_6.index t (0 : Fin 2) * 512 + 1 * p.val = _; omega
  have h1 : (((cfg0.win 6).blk t).view.emb (ix2 p q)) 1 = q := Fin.ext (by
    show win0_6.index t (1 : Fin 2) * 1024 + 1 * q.val = _; omega)
  refine (pay0_4_apply (iblk0 V c 0 t) (iblk0 V c 3 t) p q).trans ?_
  show _ = G0 (V c main_v0) (V c main_v3) (((cfg0.win 6).blk t).view.emb (ix2 p q))
  unfold G0
  rw [h1]
  refine Finset.sum_congr rfl fun d _ => ?_
  rw [x_row0 V c t p d _ h0, w3_entry0 V c t d q]

/-- An entry of the third output array lies in point t's block iff on each axis its coordinate is in the
    block's range. -/
theorem mem_blk0_6 (t : Fin cfg0.N) (i : S4096x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v7_2).slice (win0_6.rect t)).set ↔ _
  rw [View.set_slice_whole, Rect.mem_set_unit]
  exact Iff.rfl

/-- The eight row blocks tile the third output array: row r lies in the block of point r / 512, and every point
    writes its block back. -/
theorem cover0_6 (i : S4096x1024.Idx) :
    ∃ t : Fin cfg0.N, (cfg0.win 6).flush t = true ∧ i ∈ ((cfg0.win 6).blk t).view.set := by
  have hi0 : (i 0).val < 4096 := (i 0).isLt
  have hi1 : (i 1).val < 1024 := (i 1).isLt
  obtain ⟨t, ht⟩ : ∃ t : Fin cfg0.N, t.val = (i 0).val / 512 := ⟨⟨(i 0).val / 512, by show _ < 8; omega⟩, rfl⟩
  refine ⟨t, flush0_6 t, ?_⟩
  rw [mem_blk0_6]
  obtain ⟨-, -, -, -, -, -, -, -, -, -, -, -, e0, e1⟩ := idx_facts0 t
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 1024 ≤ (i 1).val ∧ (i 1).val < win0_6.index t (1 : Fin 2) * 1024 + 1024; omega

/-- The third output array after the region: the activations projected by the third weight matrix. -/
theorem arr0_6 (c : Dev nD) (s : Fin 4096) (e : Fin 1024) : (dat0 V c).arrAt 6 cfg0.N (ix2 s e) = proj (fun s d => V c main_v0 (ix2 s d)) (fun d e => V c main_v3 (ix2 d e)) s e := by
  have h := (dat0 V c).arrAt_eq_of_cover 6 (G0 (V c main_v0) (V c main_v3)) (fun t _ => flushed0_6_eq V c t) cover0_6
  rw [h]
  rfl

end Cert.KernelIdeal.Val

end
-- ==== Proof.FlashStep.lean ====
/-
  The attention kernel's key-tile loop as a pure iteration: from (minus infinity, zero, zero), each of the sixteen
  trips reads one tile of 256 keys and values and maps the running (maximum, normaliser, weighted sum) to the next;
  the output block is the weighted sum divided by the normaliser. Stated over the printed payloads, for any float
  instance.
-/
import proofs.«420769_j82386062672326_3_alg».proof.Proof.Gen.KernelIdeal.Skeleton
import Idealize.ShloMosaic.Lib.Pipeline.FrameBody

noncomputable section

namespace Cert.KernelIdeal.Val

open Cert.KernelIdeal Cert.KernelIdeal.Gen
open Idealize.ShloMosaic Idealize.ShloMosaic.TcCoe

variable {F : FTy → Type} [FloatOps F]

/-- The running state: maximum and normaliser per (head, query row), weighted sum per (head, query row, lane). -/
abbrev FlashState (F : FTy → Type) : Type := Vec F S16x256 .f32 × Vec F S16x256 .f32 × Vec F S16x256x64 .f32

/-- Trip `k`'s tile of a whole [16, 4096, 64] array: rows `256 k … 256 k + 255` of every head. -/
def tileOf (x : Vec F S16x4096x64 .bf16) (k : Fin k1_t1_loop.trips) : Vec F S16x256x64 .bf16 :=
  View.ld x (Rect.unit (s := S16x4096x64) (k1_off1 k) S16x256x64.size (k1_off1_inb k))

/-- One trip: the new maximum, the rescaled normaliser plus the tile's exponentials, the rescaled weighted sum plus
    the tile's weighted values. -/
def flashStep (q : FVec F S16x256x64 .bf16) (x1 x2 : Vec F S16x4096x64 .bf16) (k : Fin k1_t1_loop.trips) (st : FlashState F) : FlashState F :=
  (k1_pay6 (k1_pay9 q (tileOf x1 k) st.1),
   k1_pay12 q (tileOf x1 k) st.1 st.2.1,
   k1_pay5 (k1_pay13 q (tileOf x1 k) (tileOf x2 k) st.1 st.2.2))

/-- The state before trip `n` (after the first `n` trips). -/
def flashIter (q : FVec F S16x256x64 .bf16) (x1 x2 : Vec F S16x4096x64 .bf16) : ℕ → FlashState F
  | 0 => (k1_pay1, k1_pay2, k1_pay3)
  | n + 1 => if h : n < k1_t1_loop.trips then flashStep q x1 x2 ⟨n, h⟩ (flashIter q x1 x2 n) else flashIter q x1 x2 n

/-- The output block of a query block `x0` against the whole key and value arrays. -/
def flashOut (x0 : Vec F S16x256x64 .f32) (x1 x2 : Vec F S16x4096x64 .bf16) : Vec F S16x256x64 .f32 :=
  k1_pay7 (flashIter (k1_pay4 x0) x1 x2 k1_t1_loop.trips).2.1 (flashIter (k1_pay4 x0) x1 x2 k1_t1_loop.trips).2.2

theorem trips_eq : k1_t1_loop.trips = 16 := by decide

end Cert.KernelIdeal.Val

end
-- ==== Proof.OnlineSoftmax.lean ====
/- Pure mathematics on the extended reals. Attention taken one tile of 256 keys at a time carries a running
   maximum, a running normaliser and a running weighted sum, and rescales the last two whenever the maximum
   grows; a plain row softmax takes the maximum of the whole row first. For one query row and one output lane
   the two agree whenever the scores and the values are real. Also here: the two scale constants, the word for
   minus infinity, and two remarks that real data stays real. -/
import Idealize.ShloMosaic.PureOps.Ideal
import Mathlib.Logic.Equiv.Fin.Basic
import Mathlib.Algebra.BigOperators.Fin
import Mathlib.Data.Finset.Lattice.Fold
import Mathlib.Analysis.SpecialFunctions.Exp

noncomputable section

namespace Cert.Online

open Idealize.ShloMosaic
open scoped BigOperators

/-- Key `jj` of tile `k` (tiles of 256 keys; 16 tiles). -/
def keyAt (k : ℕ) (jj : Fin 256) : Fin 4096 := ⟨(256 * k + jj.val) % 4096, Nat.mod_lt _ (by decide)⟩

/-- One tile's maximum, from minus infinity. -/
def tileMax (S : Fin 4096 → EReal) (k : ℕ) : EReal :=
  (Finset.univ : Finset (Fin 256)).fold max (⊥ : EReal) (fun jj => S (keyAt k jj))

/-- The running (maximum, normaliser, weighted sum) after the first `k` tiles. -/
def state (S V : Fin 4096 → EReal) : ℕ → EReal × EReal × EReal
  | 0 => (⊥, 0, 0)
  | k + 1 =>
    ( max (state S V k).1 (tileMax S k),
      Ideal.exp ((state S V k).1 - max (state S V k).1 (tileMax S k)) * (state S V k).2.1
        + ∑ jj : Fin 256, Ideal.exp (S (keyAt k jj) - max (state S V k).1 (tileMax S k)),
      Ideal.exp ((state S V k).1 - max (state S V k).1 (tileMax S k)) * (state S V k).2.2
        + ∑ jj : Fin 256, Ideal.exp (S (keyAt k jj) - max (state S V k).1 (tileMax S k)) * V (keyAt k jj) )

/-- The row's maximum as the reference takes it. -/
def rowMax (S : Fin 4096 → EReal) : EReal :=
  max (⊥ : EReal) ((Finset.univ : Finset (Fin 4096)).fold max (⊥ : EReal) S)

/-! ### Reals inside the extended reals -/

/-- The inclusion of the reals passes through a finite sum. -/
theorem coe_finsum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The inclusion of the reals passes through a maximum of two. -/
theorem coe_max (x y : ℝ) : ((max x y : ℝ) : EReal) = max (x : EReal) (y : EReal) :=
  EReal.coe_strictMono.monotone.map_max

/-- A maximum from minus infinity over a nonempty finite family is one of the family's entries. -/
theorem foldMax_mem {ι : Type} (t : Finset ι) (ht : t.Nonempty) (g : ι → EReal) :
    ∃ i ∈ t, t.fold max (⊥ : EReal) g = g i :=
  Finset.exists_mem_eq_sup t ht g

/-- A maximum from minus infinity over a nonempty finite family of reals is real. -/
theorem foldMax_real {ι : Type} (t : Finset ι) (ht : t.Nonempty) (f : ι → ℝ) :
    ∃ r : ℝ, t.fold max (⊥ : EReal) (fun i => (f i : EReal)) = (r : EReal) := by
  obtain ⟨i, _, h⟩ := foldMax_mem t ht (fun i => (f i : EReal))
  exact ⟨f i, h⟩

/-- A tile's maximum of real scores is real. -/
theorem tileMax_real (s : Fin 4096 → ℝ) (k : ℕ) :
    ∃ τ : ℝ, tileMax (fun j => (s j : EReal)) k = (τ : EReal) :=
  foldMax_real Finset.univ Finset.univ_nonempty (fun jj => s (keyAt k jj))

/-- The row's maximum of real scores is real. -/
theorem rowMax_real (s : Fin 4096 → ℝ) : ∃ M : ℝ, rowMax (fun j => (s j : EReal)) = (M : EReal) := by
  obtain ⟨M, hM⟩ := foldMax_real (Finset.univ : Finset (Fin 4096)) Finset.univ_nonempty s
  exact ⟨M, by rw [rowMax, hM, max_eq_right bot_le]⟩

/-! ### The running sums over the reals -/

/-- The normaliser of the first `k` tiles, taken against the real maximum `μ`. -/
def normTo (s : Fin 4096 → ℝ) (μ : ℝ) (k : ℕ) : ℝ :=
  ∑ t ∈ Finset.range k, ∑ jj : Fin 256, Real.exp (s (keyAt t jj) - μ)

/-- The weighted sum of the first `k` tiles, taken against the real maximum `μ`. -/
def accTo (s v : Fin 4096 → ℝ) (μ : ℝ) (k : ℕ) : ℝ :=
  ∑ t ∈ Finset.range k, ∑ jj : Fin 256, Real.exp (s (keyAt t jj) - μ) * v (keyAt t jj)

/-- Moving the subtracted maximum from `μ` to `μ'` costs the factor `exp (μ - μ')`. -/
theorem exp_shift (x μ μ' : ℝ) : Real.exp (μ - μ') * Real.exp (x - μ) = Real.exp (x - μ') := by
  rw [← Real.exp_add]; congr 1; ring

theorem normTo_rescale (s : Fin 4096 → ℝ) (μ μ' : ℝ) (k : ℕ) :
    Real.exp (μ - μ') * normTo s μ k = normTo s μ' k := by
  unfold normTo
  rw [Finset.mul_sum]
  refine Finset.sum_congr rfl fun t _ => ?_
  rw [Finset.mul_sum]
  exact Finset.sum_congr rfl fun jj _ => exp_shift _ _ _

theorem accTo_rescale (s v : Fin 4096 → ℝ) (μ μ' : ℝ) (k : ℕ) :
    Real.exp (μ - μ') * accTo s v μ k = accTo s v μ' k := by
  unfold accTo
  rw [Finset.mul_sum]
  refine Finset.sum_congr rfl fun t _ => ?_
  rw [Finset.mul_sum]
  refine Finset.sum_congr rfl fun jj _ => ?_
  rw [← mul_assoc, exp_shift]

/-! ### One tile over the extended reals -/

/-- One tile's exponentials against a real maximum sum to a real. -/
theorem tile_norm_coe (s : Fin 4096 → ℝ) (μ : ℝ) (k : ℕ) :
    ∑ jj : Fin 256, Ideal.exp ((s (keyAt k jj) : EReal) - (μ : EReal))
      = ((∑ jj : Fin 256, Real.exp (s (keyAt k jj) - μ) : ℝ) : EReal) := by
  rw [coe_finsum]
  refine Finset.sum_congr rfl fun jj _ => ?_
  rw [← EReal.coe_sub, Ideal.exp_coe]

/-- One tile's weighted exponentials against a real maximum sum to a real. -/
theorem tile_acc_coe (s v : Fin 4096 → ℝ) (μ : ℝ) (k : ℕ) :
    ∑ jj : Fin 256, Ideal.exp ((s (keyAt k jj) : EReal) - (μ : EReal)) * (v (keyAt k jj) : EReal)
      = ((∑ jj : Fin 256, Real.exp (s (keyAt k jj) - μ) * v (keyAt k jj) : ℝ) : EReal) := by
  rw [coe_finsum]
  refine Finset.sum_congr rfl fun jj _ => ?_
  rw [← EReal.coe_sub, Ideal.exp_coe, ← EReal.coe_mul]

/-- One step of the running state, from its three components. -/
theorem state_step (S V : Fin 4096 → EReal) (k : ℕ) (m n a : EReal) (h : state S V k = (m, n, a)) :
    state S V (k + 1)
      = ( max m (tileMax S k),
          Ideal.exp (m - max m (tileMax S k)) * n
            + ∑ jj : Fin 256, Ideal.exp (S (keyAt k jj) - max m (tileMax S k)),
          Ideal.exp (m - max m (tileMax S k)) * a
            + ∑ jj : Fin 256, Ideal.exp (S (keyAt k jj) - max m (tileMax S k)) * V (keyAt k jj) ) := by
  rw [state, h]

/-- After at least one tile the running state is real: the maximum is some real `μ`, and the normaliser and
    the weighted sum are those of the tiles so far against `μ`. -/
theorem state_succ_real (s v : Fin 4096 → ℝ) (k : ℕ) :
    ∃ μ : ℝ, state (fun j => (s j : EReal)) (fun j => (v j : EReal)) (k + 1)
      = ((μ : EReal), ((normTo s μ (k + 1) : ℝ) : EReal), ((accTo s v μ (k + 1) : ℝ) : EReal)) := by
  induction k with
  | zero =>
    obtain ⟨τ, hτ⟩ := tileMax_real s 0
    refine ⟨τ, ?_⟩
    rw [state_step _ _ 0 ⊥ 0 0 rfl, hτ, max_eq_right bot_le, EReal.bot_sub, Ideal.exp_bot, zero_mul, zero_add,
      zero_add, tile_norm_coe, tile_acc_coe, normTo, accTo, Finset.sum_range_one, Finset.sum_range_one]
  | succ k ih =>
    obtain ⟨μ, hμ⟩ := ih
    obtain ⟨τ, hτ⟩ := tileMax_real s (k + 1)
    refine ⟨max μ τ, ?_⟩
    rw [state_step _ _ (k + 1) _ _ _ hμ, hτ, ← coe_max, ← EReal.coe_sub, Ideal.exp_coe, ← EReal.coe_mul,
      ← EReal.coe_mul, tile_norm_coe, tile_acc_coe, ← EReal.coe_add, ← EReal.coe_add, normTo_rescale,
      accTo_rescale]
    rw [normTo, normTo, accTo, accTo, Finset.sum_range_succ _ (k + 1), Finset.sum_range_succ _ (k + 1)]

/-! ### The sixteen tiles are the whole row -/

/-- Summing tile by tile over the 16 tiles of 256 keys is summing over all 4096 keys. -/
theorem sum_tiles_eq_sum_keys (g : Fin 4096 → ℝ) :
    ∑ t ∈ Finset.range 16, ∑ jj : Fin 256, g (keyAt t jj) = ∑ j : Fin 4096, g j := by
  rw [← Fin.sum_univ_eq_sum_range (fun t => ∑ jj : Fin 256, g (keyAt t jj)) 16, ← Fintype.sum_prod_type']
  refine Fintype.sum_equiv (finProdFinEquiv : Fin 16 × Fin 256 ≃ Fin 4096) _ _ fun x => ?_
  congr 1
  apply Fin.ext
  have h1 := x.1.isLt
  have h2 := x.2.isLt
  simp only [keyAt, finProdFinEquiv_apply_val]
  omega

/-! ### The agreement -/

/-- The agreement for real scores and values given as real functions. -/
theorem online_eq_softmax_coe (s v : Fin 4096 → ℝ) :
    Ideal.div (state (fun j => (s j : EReal)) (fun j => (v j : EReal)) 16).2.2
        (state (fun j => (s j : EReal)) (fun j => (v j : EReal)) 16).2.1
      = ∑ j : Fin 4096,
          Ideal.div (Ideal.exp ((s j : EReal) - rowMax (fun j => (s j : EReal))))
            (∑ j' : Fin 4096, Ideal.exp ((s j' : EReal) - rowMax (fun j => (s j : EReal)))) * (v j : EReal) := by
  obtain ⟨μ, hμ⟩ := state_succ_real s v 15
  obtain ⟨M, hM⟩ := rowMax_real s
  -- the reference's normaliser, a sum of positive reals
  have hpos : 0 < ∑ j : Fin 4096, Real.exp (s j - M) :=
    Finset.sum_pos (fun j _ => Real.exp_pos _) Finset.univ_nonempty
  have hden : ∑ j' : Fin 4096, Ideal.exp ((s j' : EReal) - (M : EReal))
      = ((∑ j : Fin 4096, Real.exp (s j - M) : ℝ) : EReal) := by
    rw [coe_finsum]
    refine Finset.sum_congr rfl fun j _ => ?_
    rw [← EReal.coe_sub, Ideal.exp_coe]
  -- the running sums after all sixteen tiles, as sums over the row
  have hN : normTo s μ 16 = Real.exp (M - μ) * ∑ j : Fin 4096, Real.exp (s j - M) := by
    rw [normTo, sum_tiles_eq_sum_keys (fun j => Real.exp (s j - μ)), Finset.mul_sum]
    exact Finset.sum_congr rfl fun j _ => (exp_shift _ _ _).symm
  have hA : accTo s v μ 16 = Real.exp (M - μ) * ∑ j : Fin 4096, Real.exp (s j - M) * v j := by
    rw [accTo, sum_tiles_eq_sum_keys (fun j => Real.exp (s j - μ) * v j), Finset.mul_sum]
    refine Finset.sum_congr rfl fun j _ => ?_
    rw [← mul_assoc, exp_shift]
  have hNne : normTo s μ 16 ≠ 0 := by
    rw [hN]; exact mul_ne_zero (Real.exp_pos _).ne' hpos.ne'
  have hμ16 : state (fun j => (s j : EReal)) (fun j => (v j : EReal)) 16
      = ((μ : EReal), ((normTo s μ 16 : ℝ) : EReal), ((accTo s v μ 16 : ℝ) : EReal)) := hμ
  rw [hμ16, hM, hden, Ideal.div_coe hNne, ← EReal.coe_mul]
  have hterm : ∀ j : Fin 4096,
      Ideal.div (Ideal.exp ((s j : EReal) - (M : EReal))) ((∑ j : Fin 4096, Real.exp (s j - M) : ℝ) : EReal)
          * (v j : EReal)
        = ((Real.exp (s j - M) * (1 / ∑ j : Fin 4096, Real.exp (s j - M)) * v j : ℝ) : EReal) := by
    intro j
    rw [Ideal.div_coe hpos.ne', ← EReal.coe_sub, Ideal.exp_coe, ← EReal.coe_mul, ← EReal.coe_mul]
  rw [Finset.sum_congr rfl fun j _ => hterm j, ← coe_finsum]
  refine congrArg Real.toEReal ?_
  -- over the reals: the common factor cancels in the quotient
  have hsum : ∑ j : Fin 4096, Real.exp (s j - M) * (1 / ∑ j : Fin 4096, Real.exp (s j - M)) * v j
      = (∑ j : Fin 4096, Real.exp (s j - M) * v j) * (1 / ∑ j : Fin 4096, Real.exp (s j - M)) := by
    rw [Finset.sum_mul]
    exact Finset.sum_congr rfl fun j _ => by ring
  have hc : Real.exp (M - μ) ≠ 0 := (Real.exp_pos _).ne'
  have hNM : ∑ j : Fin 4096, Real.exp (s j - M) ≠ 0 := hpos.ne'
  rw [hsum, hN, hA]
  field_simp

/-- The tiled computation with its running maximum, normaliser and weighted sum equals the row softmax applied to
    the values, on real scores and values. -/
theorem online_eq_softmax (S V : Fin 4096 → EReal) (hS : ∀ j, ∃ r : ℝ, S j = (r : EReal))
    (hV : ∀ j, ∃ r : ℝ, V j = (r : EReal)) :
    Ideal.div (state S V 16).2.2 (state S V 16).2.1
      = ∑ j : Fin 4096,
          Ideal.div (Ideal.exp (S j - rowMax S)) (∑ j' : Fin 4096, Ideal.exp (S j' - rowMax S)) * V j := by
  choose s hs using hS
  choose v hv using hV
  obtain rfl : S = fun j => (s j : EReal) := funext hs
  obtain rfl : V = fun j => (v j : EReal) := funext hv
  exact online_eq_softmax_coe s v

/-! ### Constants -/

/-- The word `0x3E000000` denotes one eighth. -/
theorem eighth_word : Ideal.ofBits .f32 0x3E000000#32 = ((1 / 8 : ℝ) : EReal) := by
  simp [Ideal.ofBits, Ideal.ieee, -EReal.coe_mul]; norm_num

/-- The word `0x41000000` denotes eight. -/
theorem eight_word : Ideal.ofBits .f32 0x41000000#32 = ((8 : ℝ) : EReal) := by
  simp [Ideal.ofBits, Ideal.ieee, -EReal.coe_mul]; norm_num

/-- The word `0xFF800000` denotes minus infinity. -/
theorem negInf_word : Ideal.ofBits .f32 0xFF800000#32 = (⊥ : EReal) := by
  simp [Ideal.ofBits, Ideal.ieee]

/-- The two spellings of the scale: a product with one eighth is the quotient by eight. -/
theorem mul_eighth_eq_div_eight (x : EReal) :
    x * Ideal.ofBits .f32 0x3E000000#32 = Ideal.div x (Ideal.ofBits .f32 0x41000000#32) := by
  rw [eighth_word, eight_word, Ideal.div_coe (by norm_num)]

/-! ### Real data stays real -/

/-- A finite sum of products of reals is real. -/
theorem sum_mul_real {n : ℕ} (a b : Fin n → EReal) (ha : ∀ i, ∃ r : ℝ, a i = (r : EReal))
    (hb : ∀ i, ∃ r : ℝ, b i = (r : EReal)) : ∃ r : ℝ, ∑ i, a i * b i = (r : EReal) := by
  choose a' ha' using ha
  choose b' hb' using hb
  refine ⟨∑ i, a' i * b' i, ?_⟩
  rw [coe_finsum]
  refine Finset.sum_congr rfl fun i _ => ?_
  rw [ha' i, hb' i, EReal.coe_mul]

/-- The quotient of a real by eight is real. -/
theorem div_eight_real (x : EReal) (hx : ∃ r : ℝ, x = (r : EReal)) :
    ∃ r : ℝ, Ideal.div x (Ideal.ofBits .f32 0x41000000#32) = (r : EReal) := by
  obtain ⟨r, rfl⟩ := hx
  exact ⟨r * (1 / 8), by rw [eight_word, Ideal.div_coe (by norm_num), EReal.coe_mul]⟩

end Cert.Online

end
-- ==== Proof.Val1.lean ====
/-
  The value of the attention region's output array: entry (h, s, d) of the array the region writes is the
  softmax-weighted sum over all 4096 keys of head h, for query row s and lane d, of the arrays the region was entered
  from. Each grid point writes one block of 256 query rows of every head; the sixteen blocks tile the array.
-/
import proofs.«420769_j82386062672326_3_alg».proof.Proof.Region1
import proofs.«420769_j82386062672326_3_alg».proof.Proof.Spec
import proofs.«420769_j82386062672326_3_alg».proof.Proof.FlashStep
import proofs.«420769_j82386062672326_3_alg».proof.Proof.OnlineSoftmax
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Cert.KernelIdeal.Fr Cert.Spec
open Idealize.ShloMosaic Idealize.ShloMosaic.TcCoe Idealize.ShloMosaic.ValueIdx Idealize.SL.Sem

variable (V : (c : Dev nD) → (b : Ref sig .tc) → Buf (Elt Ideal) ((c : Thread nD τ).loc b))

/-! ## One query row against the whole key and value arrays -/

/-- For one head h, one query row r and one lane d: the tiled iteration over the sixteen key tiles — scores taken as
    the dot product of the query row with each key row times one eighth, values the lane-d column of the value
    array — ends at the softmax-weighted sum of the values, when the three arrays hold real numbers. The product by
    one eighth is the quotient by eight, so the iteration's scores are the plain scores; real queries and keys give
    real scores. -/
theorem softmax_row1 (q k v : Heads)
    (hq : ∀ h s d, ∃ r : ℝ, q h s d = (r : EReal)) (hk : ∀ h s d, ∃ r : ℝ, k h s d = (r : EReal))
    (hv : ∀ h s d, ∃ r : ℝ, v h s d = (r : EReal)) (h : Fin 16) (r : Fin 4096) (d : Fin 64) :
    Ideal.div (Cert.Online.state (fun j => (∑ d' : Fin 64, q h r d' * k h j d') * Ideal.ofBits .f32 0x3E000000#32) (fun j => v h j d) 16).2.2
              (Cert.Online.state (fun j => (∑ d' : Fin 64, q h r d' * k h j d') * Ideal.ofBits .f32 0x3E000000#32) (fun j => v h j d) 16).2.1
      = attend q k v h r d := by
  have hS : (fun j : Fin 4096 => (∑ d' : Fin 64, q h r d' * k h j d') * Ideal.ofBits .f32 0x3E000000#32)
      = fun j => score q k h r j := by
    funext j
    rw [Cert.Online.mul_eighth_eq_div_eight]
    rfl
  rw [hS]
  have hreal : ∀ j : Fin 4096, ∃ x : ℝ, score q k h r j = (x : EReal) := fun j =>
    Cert.Online.div_eight_real _ (Cert.Online.sum_mul_real _ _ (fun d' => hq h r d') (fun d' => hk h j d'))
  rw [Cert.Online.online_eq_softmax _ _ hreal (fun j => hv h j d)]
  unfold attend rowSum expo rowMax Cert.Online.rowMax negInf
  rw [Cert.Online.negInf_word]

/-- The same with the query row, the key array and the value column given as entries of a query block and of two
    whole arrays: row i of the block is query row r, and the two arrays are the key and value arrays themselves. -/
theorem block_row1 (x0 : Vec Ideal S16x256x64 .f32) (x1 x2 : Vec Ideal S16x4096x64 .bf16) (q k v : Heads)
    (hq : ∀ h s d, ∃ r : ℝ, q h s d = (r : EReal)) (hk : ∀ h s d, ∃ r : ℝ, k h s d = (r : EReal))
    (hv : ∀ h s d, ∃ r : ℝ, v h s d = (r : EReal)) (h : Fin 16) (i : Fin 256) (r : Fin 4096) (d : Fin 64)
    (e0 : ∀ d' : Fin 64, x0 (ix3 h i d') = q h r d') (e1 : ∀ (j : Fin 4096) (d' : Fin 64), x1 (ix3 h j d') = k h j d')
    (e2 : ∀ j : Fin 4096, x2 (ix3 h j d) = v h j d) :
    Ideal.div (Cert.Online.state (fun j => (∑ d' : Fin 64, x0 (ix3 h i d') * x1 (ix3 h j d')) * Ideal.ofBits .f32 0x3E000000#32) (fun j => x2 (ix3 h j d)) 16).2.2
              (Cert.Online.state (fun j => (∑ d' : Fin 64, x0 (ix3 h i d') * x1 (ix3 h j d')) * Ideal.ofBits .f32 0x3E000000#32) (fun j => x2 (ix3 h j d)) 16).2.1
      = attend q k v h r d := by
  have hS : (fun j : Fin 4096 => (∑ d' : Fin 64, x0 (ix3 h i d') * x1 (ix3 h j d')) * Ideal.ofBits .f32 0x3E000000#32)
      = fun j => (∑ d' : Fin 64, q h r d' * k h j d') * Ideal.ofBits .f32 0x3E000000#32 := by
    funext j
    congr 1
    exact Finset.sum_congr rfl fun d' _ => by rw [e0, e1]
  have hW : (fun j : Fin 4096 => x2 (ix3 h j d)) = fun j => v h j d := funext e2
  rw [hS, hW]
  exact softmax_row1 q k v hq hk hv h r d

/-! ## The whole array -/

/-- The attended array: entry (h, s, d) is the softmax-weighted sum, over all keys of head h, of lane d of the
    values, the weights those of query row s. -/
def G1 (Q K W : S16x4096x64.Idx → EReal) : S16x4096x64.Idx → EReal :=
  fun i => attend (fun h s d => Q (ix3 h s d)) (fun h s d => K (ix3 h s d)) (fun h s d => W (ix3 h s d)) (i 0) (i 1) (i 2)

/-- The block index maps over the sixteen grid points: at point t the query window and the output window sit at
    block t along the rows and block 0 along heads and lanes; the key and value windows sit at block (0, 0, 0). -/
theorem idx_facts1 : ∀ t : Fin cfg1.N,
    win1_0.index t (0 : Fin 3) = 0 ∧ win1_0.index t (1 : Fin 3) = t.val ∧ win1_0.index t (2 : Fin 3) = 0
    ∧ win1_1.index t (0 : Fin 3) = 0 ∧ win1_1.index t (1 : Fin 3) = 0 ∧ win1_1.index t (2 : Fin 3) = 0
    ∧ win1_2.index t (0 : Fin 3) = 0 ∧ win1_2.index t (1 : Fin 3) = 0 ∧ win1_2.index t (2 : Fin 3) = 0
    ∧ win1_3.index t (0 : Fin 3) = 0 ∧ win1_3.index t (1 : Fin 3) = t.val ∧ win1_3.index t (2 : Fin 3) = 0 :=
  (by decide +kernel : ∀ t : Fin grid1.N, _)

/-- Row i of head h of the query block at point t is row 256 t + i of head h of the query array. -/
theorem q_row1 (c : Dev nD) (t : Fin cfg1.N) (h : Fin 16) (i : Fin 256) (d : Fin 64) (r : Fin 4096)
    (hr : r.val = t.val * 256 + 1 * i.val) : iblk1 V c 0 t (ix3 h i d) = V c main_v10 (ix3 h r d) := by
  obtain ⟨e0, e1, e2, -⟩ := idx_facts1 t
  show V c main_v10 (((cfg1.win 0).blk t).view.emb (ix3 h i d)) = V c main_v10 (ix3 h r d)
  congr 1
  funext a; apply Fin.ext
  match a with
  | ⟨0, _⟩ => show win1_0.index t (0 : Fin 3) * 16 + 1 * h.val = h.val; omega
  | ⟨1, _⟩ => show win1_0.index t (1 : Fin 3) * 256 + 1 * i.val = r.val; omega
  | ⟨2, _⟩ => show win1_0.index t (2 : Fin 3) * 64 + 1 * d.val = d.val; omega

/-- The key window's one block is the whole key array, at every point. -/
theorem k_entry1 (c : Dev nD) (t : Fin cfg1.N) (h : Fin 16) (j : Fin 4096) (d : Fin 64) :
    iblk1 V c 1 t (ix3 h j d) = V c main_v14 (ix3 h j d) := by
  obtain ⟨-, -, -, e0, e1, e2, -⟩ := idx_facts1 t
  show V c main_v14 (((cfg1.win 1).blk t).view.emb (ix3 h j d)) = V c main_v14 (ix3 h j d)
  congr 1
  funext a; apply Fin.ext
  match a with
  | ⟨0, _⟩ => show win1_1.index t (0 : Fin 3) * 16 + 1 * h.val = h.val; omega
  | ⟨1, _⟩ => show win1_1.index t (1 : Fin 3) * 4096 + 1 * j.val = j.val; omega
  | ⟨2, _⟩ => show win1_1.index t (2 : Fin 3) * 64 + 1 * d.val = d.val; omega

/-- The value window's one block is the whole value array, at every point. -/
theorem v_entry1 (c : Dev nD) (t : Fin cfg1.N) (h : Fin 16) (j : Fin 4096) (d : Fin 64) :
    iblk1 V c 2 t (ix3 h j d) = V c main_v18 (ix3 h j d) := by
  obtain ⟨-, -, -, -, -, -, e0, e1, e2, -⟩ := idx_facts1 t
  show V c main_v18 (((cfg1.win 2).blk t).view.emb (ix3 h j d)) = V c main_v18 (ix3 h j d)
  congr 1
  funext a; apply Fin.ext
  match a with
  | ⟨0, _⟩ => show win1_2.index t (0 : Fin 3) * 16 + 1 * h.val = h.val; omega
  | ⟨1, _⟩ => show win1_2.index t (1 : Fin 3) * 4096 + 1 * j.val = j.val; omega
  | ⟨2, _⟩ => show win1_2.index t (2 : Fin 3) * 64 + 1 * d.val = d.val; omega

/-- Entry (h, i, d) of the output block at point t sits at entry (h, 256 t + i, d) of the output array. -/
theorem o_entry1 (t : Fin cfg1.N) (h : Fin 16) (i : Fin 256) (d : Fin 64) (r : Fin 4096)
    (hr : r.val = t.val * 256 + 1 * i.val) : ((cfg1.win 3).blk t).view.emb (ix3 h i d) = ix3 h r d := by
  obtain ⟨-, -, -, -, -, -, -, -, -, e0, e1, e2⟩ := idx_facts1 t
  funext a; apply Fin.ext
  match a with
  | ⟨0, _⟩ => show win1_3.index t (0 : Fin 3) * 16 + 1 * h.val = h.val; omega
  | ⟨1, _⟩ => show win1_3.index t (1 : Fin 3) * 256 + 1 * i.val = r.val; omega
  | ⟨2, _⟩ => show win1_3.index t (2 : Fin 3) * 64 + 1 * d.val = d.val; omega

/-! ## What each point writes back, the cover, and the array after the region -/

/-- Point t writes back block t of the attended array: entry (h, i, d) of the block is the softmax-weighted sum for
    query row 256 t + i of head h, over all 4096 keys of that head, at lane d. It depends on that one query row, on
    every key row of head h and on lane d of every value row of head h. -/
theorem flushed1_3_eq (c : Dev nD)
    (hread : ∀ (t : Fin cfg1.N) (x0 : Vec Ideal S16x256x64 .f32) (x1 x2 : Vec Ideal S16x4096x64 .bf16), out1_3 c t x0 x1 x2 = flashOut x0 x1 x2)
    (hout : ∀ (x0 : Vec Ideal S16x256x64 .f32) (x1 x2 : Vec Ideal S16x4096x64 .bf16) (h : Fin 16) (i : Fin 256) (d : Fin 64),
        flashOut x0 x1 x2 (ix3 h i d)
          = Ideal.div (Cert.Online.state (fun j => (∑ d' : Fin 64, x0 (ix3 h i d') * x1 (ix3 h j d')) * Ideal.ofBits .f32 0x3E000000#32) (fun j => x2 (ix3 h j d)) 16).2.2
                      (Cert.Online.state (fun j => (∑ d' : Fin 64, x0 (ix3 h i d') * x1 (ix3 h j d')) * Ideal.ofBits .f32 0x3E000000#32) (fun j => x2 (ix3 h j d)) 16).2.1)
    (hQ : ∀ h s d, ∃ r : ℝ, V c main_v10 (ix3 h s d) = (r : EReal)) (hK : ∀ h s d, ∃ r : ℝ, V c main_v14 (ix3 h s d) = (r : EReal)) (hV : ∀ h s d, ∃ r : ℝ, V c main_v18 (ix3 h s d) = (r : EReal))
    (t : Fin cfg1.N) :
    (dat1 V c).flushed 3 t = ((cfg1.win 3).blk t).view.read (Elt Ideal) (G1 (V c main_v10) (V c main_v14) (V c main_v18)) := by
  show (cfg1.win 3).cut (grid1.coords t) ((dat1 V c).after 3 t) = _
  rw [after1_3, hread t (iblk1 V c 0 t) (iblk1 V c 1 t) (iblk1 V c 2 t)]
  funext j
  obtain ⟨h, i, d, rfl⟩ : ∃ (h : Fin 16) (i : Fin 256) (d : Fin 64), j = ix3 h i d := ⟨j 0, j 1, j 2, eq_ix3 j⟩
  have ht : t.val < 16 := N_1 ▸ t.isLt
  obtain ⟨r, hr⟩ : ∃ r : Fin 4096, r.val = t.val * 256 + 1 * i.val := ⟨⟨t.val * 256 + 1 * i.val, by have := i.isLt; omega⟩, rfl⟩
  show flashOut (iblk1 V c 0 t) (iblk1 V c 1 t) (iblk1 V c 2 t) (ix3 h i d)
    = G1 (V c main_v10) (V c main_v14) (V c main_v18) (((cfg1.win 3).blk t).view.emb (ix3 h i d))
  rw [o_entry1 t h i d r hr]
  refine (hout (iblk1 V c 0 t) (iblk1 V c 1 t) (iblk1 V c 2 t) h i d).trans ?_
  exact block_row1 (iblk1 V c 0 t) (iblk1 V c 1 t) (iblk1 V c 2 t)
    (fun h s d => V c main_v10 (ix3 h s d)) (fun h s d => V c main_v14 (ix3 h s d)) (fun h s d => V c main_v18 (ix3 h s d))
    hQ hK hV h i r d (fun d' => q_row1 V c t h i d' r hr) (fun j d' => k_entry1 V c t h j d') (fun j => v_entry1 V c t h j d)

/-- An entry of the output array lies in point t's block iff on each axis its coordinate is in the block's range. -/
theorem mem_blk1_3 (t : Fin cfg1.N) (i : S16x4096x64.Idx) :
    i ∈ ((cfg1.win 3).blk t).view.set ↔ ∀ a : Fin 3, win1_3.index t a * S16x256x64.size a ≤ (i a).val ∧ (i a).val < win1_3.index t a * S16x256x64.size a + S16x256x64.size a := by
  show i ∈ ((View.whole main_v19).slice (win1_3.rect t)).set ↔ _
  rw [View.set_slice_whole, Rect.mem_set_unit]
  exact Iff.rfl

/-- The sixteen blocks of 256 query rows tile the output array: row s (of any head, at any lane) lies in the block
    of point s / 256, and every point writes its block back. -/
theorem cover1_3 (i : S16x4096x64.Idx) :
    ∃ t : Fin cfg1.N, (cfg1.win 3).flush t = true ∧ i ∈ ((cfg1.win 3).blk t).view.set := by
  have hi0 : (i 0).val < 16 := (i 0).isLt
  have hi1 : (i 1).val < 4096 := (i 1).isLt
  have hi2 : (i 2).val < 64 := (i 2).isLt
  obtain ⟨t, ht⟩ : ∃ t : Fin cfg1.N, t.val = (i 1).val / 256 := ⟨⟨(i 1).val / 256, by rw [show cfg1.N = 16 from N_1]; omega⟩, rfl⟩
  refine ⟨t, flush1_3 t, ?_⟩
  rw [mem_blk1_3]
  obtain ⟨-, -, -, -, -, -, -, -, -, e0, e1, e2⟩ := idx_facts1 t
  intro a
  match a with
  | ⟨0, _⟩ => show win1_3.index t (0 : Fin 3) * 16 ≤ (i 0).val ∧ (i 0).val < win1_3.index t (0 : Fin 3) * 16 + 16; omega
  | ⟨1, _⟩ => show win1_3.index t (1 : Fin 3) * 256 ≤ (i 1).val ∧ (i 1).val < win1_3.index t (1 : Fin 3) * 256 + 256; omega
  | ⟨2, _⟩ => show win1_3.index t (2 : Fin 3) * 64 ≤ (i 2).val ∧ (i 2).val < win1_3.index t (2 : Fin 3) * 64 + 64; omega

/-- The output array after the region: scaled dot-product attention with a row-wise softmax, head by head, of the
    query, key and value arrays the region was entered from, whenever those hold real numbers. -/
theorem arr1_3 (c : Dev nD)
    (hread : ∀ (t : Fin cfg1.N) (x0 : Vec Ideal S16x256x64 .f32) (x1 x2 : Vec Ideal S16x4096x64 .bf16), out1_3 c t x0 x1 x2 = flashOut x0 x1 x2)
    (hout : ∀ (x0 : Vec Ideal S16x256x64 .f32) (x1 x2 : Vec Ideal S16x4096x64 .bf16) (h : Fin 16) (i : Fin 256) (d : Fin 64),
        flashOut x0 x1 x2 (ix3 h i d)
          = Ideal.div (Cert.Online.state (fun j => (∑ d' : Fin 64, x0 (ix3 h i d') * x1 (ix3 h j d')) * Ideal.ofBits .f32 0x3E000000#32) (fun j => x2 (ix3 h j d)) 16).2.2
                      (Cert.Online.state (fun j => (∑ d' : Fin 64, x0 (ix3 h i d') * x1 (ix3 h j d')) * Ideal.ofBits .f32 0x3E000000#32) (fun j => x2 (ix3 h j d)) 16).2.1)
    (hQ : ∀ h s d, ∃ r : ℝ, V c main_v10 (ix3 h s d) = (r : EReal)) (hK : ∀ h s d, ∃ r : ℝ, V c main_v14 (ix3 h s d) = (r : EReal)) (hV : ∀ h s d, ∃ r : ℝ, V c main_v18 (ix3 h s d) = (r : EReal))
    (h : Fin 16) (s : Fin 4096) (d : Fin 64) :
    (dat1 V c).arrAt 3 cfg1.N (ix3 h s d)
      = attend (fun h s d => V c main_v10 (ix3 h s d)) (fun h s d => V c main_v14 (ix3 h s d)) (fun h s d => V c main_v18 (ix3 h s d)) h s d := by
  have hG := (dat1 V c).arrAt_eq_of_cover 3 (G1 (V c main_v10) (V c main_v14) (V c main_v18))
    (fun t _ => flushed1_3_eq V c hread hout hQ hK hV t) cover1_3
  rw [hG]
  rfl

end Cert.KernelIdeal.Val

end
-- ==== Proof.Val2.lean ====
/-
  The value of the third region's output at the ideal instance, where floats are extended reals and every format
  change is the identity. The region walks eight row blocks of 512 rows; at each it multiplies the context rows by the
  projection matrix, adds the residual rows, normalises each row along its 1024 lanes (mean and variance as sums
  divided by the row length, the reciprocal square root of the variance plus a small constant), scales by one
  parameter row and shifts by another, and writes the block back. Read entry by entry, the output array after the
  region is one function of the arrays the region was entered from: entry (s, e) depends on row s of the context and
  of the residual, on the whole matrix and on the two parameter rows.
-/
import proofs.«420769_j82386062672326_3_alg».proof.Proof.Region2
import proofs.«420769_j82386062672326_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Cert.KernelIdeal.Fr Cert.Spec
open Idealize.ShloMosaic Idealize.ShloMosaic.TcCoe Idealize.ShloMosaic.ValueIdx Idealize.SL.Sem

variable (V : (c : Dev nD) → (b : Ref sig .tc) → Buf (Elt Ideal) ((c : Thread nD τ).loc b))

/-! ## The block's arithmetic, one operation at a time

A block is 512 rows of 1024 lanes. Every lemma below reads one operation of the body at explicit coordinates
(row `p`, lane `q`) of literal shapes. -/

theorem hz2 : (![0, 0] : Fin 2 → Nat) = fun _ => 0 := funext fun a => by fin_cases a <;> rfl

/-- The left operand of the block product at output entry `i` and contraction index `k` keeps `i`'s row … -/
theorem lhs_dot2_0 (i : S512x1024.Idx) (k : dot_S512x1024_S1024x1024_S512x1024_1_0_0_1_n_n.contr.Idx) :
    (dot_S512x1024_S1024x1024_S512x1024_1_0_0_1_n_n.lhsIdx i k 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- … and takes the contraction index as its lane; -/
theorem lhs_dot2_1 (i : S512x1024.Idx) (k : dot_S512x1024_S1024x1024_S512x1024_1_0_0_1_n_n.contr.Idx) :
    (dot_S512x1024_S1024x1024_S512x1024_1_0_0_1_n_n.lhsIdx i k 1).val = (k ⟨0, by decide⟩).val :=
  dot_S512x1024_S1024x1024_S512x1024_1_0_0_1_n_n.lhsIdx_val_of_single rfl i k
/-- the right operand takes the contraction index as its row … -/
theorem rhs_dot2_0 (i : S512x1024.Idx) (k : dot_S512x1024_S1024x1024_S512x1024_1_0_0_1_n_n.contr.Idx) :
    (dot_S512x1024_S1024x1024_S512x1024_1_0_0_1_n_n.rhsIdx i k 0).val = (k ⟨0, by decide⟩).val :=
  dot_S512x1024_S1024x1024_S512x1024_1_0_0_1_n_n.rhsIdx_val_of_single rfl i k
/-- … and keeps `i`'s lane. -/
theorem rhs_dot2_1 (i : S512x1024.Idx) (k : dot_S512x1024_S1024x1024_S512x1024_1_0_0_1_n_n.contr.Idx) :
    (dot_S512x1024_S1024x1024_S512x1024_1_0_0_1_n_n.rhsIdx i k 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The block product accumulated into zero: entry `(p, q)` is row `p` of the left operand against column `q` of the
    right one, summed over the 1024 contraction indices. -/
theorem matmul2_apply (a : FVec Ideal S512x1024 .bf16) (b : FVec Ideal S1024x1024 .bf16) (p : Fin 512) (q : Fin 1024) :
    matmul dot_S512x1024_S1024x1024_S512x1024_1_0_0_1_n_n none a b (constant S512x1024 .f32 0x00000000#32) (ix2 p q)
      = ∑ d : Fin 1024, a (ix2 p d) * b (ix2 d q) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q) ((contrEquiv1 dot_S512x1024_S1024x1024_S512x1024_1_0_0_1_n_n 1024 rfl rfl).symm k) = ix2 p k := funext fun ax => Fin.ext (by
    match ax with
    | ⟨0, _⟩ => exact lhs_dot2_0 _ _
    | ⟨1, _⟩ => exact (lhs_dot2_1 _ _).trans hk)
  have er : dot_S512x1024_S1024x1024_S512x1024_1_0_0_1_n_n.rhsIdx (ix2 p q) ((contrEquiv1 dot_S512x1024_S1024x1024_S512x1024_1_0_0_1_n_n 1024 rfl rfl).symm k) = ix2 k q := funext fun ax => Fin.ext (by
    match ax with
    | ⟨0, _⟩ => exact (rhs_dot2_0 _ _).trans hk
    | ⟨1, _⟩ => exact rhs_dot2_1 _ _)
  rw [el, er]

/-- A sum along the lanes: entry `p` of the result is the sum of row `p`'s 1024 entries. -/
theorem laneSum2_apply (z : FVec Ideal S512x1024 .f32) (p : Fin 512) :
    multiReduction .add [1] S512 z 0x00000000#32 reduces_S512x1024_S512 (.inl rfl) rfl (ix1 p)
      = ∑ e : Fin 1024, z (ix2 p e) := by
  refine (Ideal.multiReduction_add_single z 0x00000000#32 reduces_S512x1024_S512 (.inl rfl) rfl (ix1 p)).trans ?_
  refine Finset.sum_congr rfl fun e _ => congrArg z (funext fun ax => ?_)
  match ax with
  | ⟨0, _⟩ => rfl
  | ⟨1, _⟩ => rfl

/-- A vector of 512 entries kept as a column: entry `(p, 0)` of the column is entry `p` of the vector. -/
theorem shapeCast2_col_apply {α : Type} (x : S512.Idx → α) (h : S512.ShapeCasts S512x1) (p : Fin 512) (u : Fin 1) :
    shapeCast S512x1 x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column spread over the 1024 lanes: entry `(p, q)` is the column's entry in row `p`. -/
theorem broadcastTo2_col_apply {α : Type} (x : S512x1.Idx → α) (h : S512x1.Broadcasts S512x1024) (p : Fin 512) (q : Fin 1024) :
    broadcastTo S512x1024 x h (ix2 p q) = x (ix2 p (0 : Fin 1)) := by
  refine broadcastTo_apply x h (ix2 p q) (ix2 p (0 : Fin 1)) fun ax => ?_
  match ax with
  | ⟨0, _⟩ => rfl
  | ⟨1, _⟩ => rfl

/-! ## The body's payload at row `p`, lane `q` -/

/-- The row block before normalisation: the context rows against the projection matrix, plus the residual rows. -/
def pre2 (x0 : Vec Ideal S512x1024 .f32) (x1 : Vec Ideal S1024x1024 .bf16) (x2 : Vec Ideal S512x1024 .f32) :
    FVec Ideal S512x1024 .f32 :=
  addf (matmul dot_S512x1024_S1024x1024_S512x1024_1_0_0_1_n_n none
      (truncf .bf16 (shapeCast S512x1024 x0 shapeCasts_S512x1024_S512x1024 : FVec Ideal S512x1024 .f32) bitsLt_bf16_f32)
      (shapeCast S1024x1024 x1 shapeCasts_S1024x1024_S1024x1024 : FVec Ideal S1024x1024 .bf16) (constant S512x1024 .f32 0x00000000#32))
    (shapeCast S512x1024 x2 shapeCasts_S512x1024_S512x1024 : FVec Ideal S512x1024 .f32)

/-- Entry `(p, e)` of it: row `p` of the context against column `e` of the matrix, plus the residual's entry. -/
theorem pre2_apply (x0 : Vec Ideal S512x1024 .f32) (x1 : Vec Ideal S1024x1024 .bf16) (x2 : Vec Ideal S512x1024 .f32)
    (p : Fin 512) (e : Fin 1024) :
    pre2 x0 x1 x2 (ix2 p e) = (∑ d : Fin 1024, x0 (ix2 p d) * x1 (ix2 d e)) + x2 (ix2 p e) := by
  unfold pre2
  rw [addf_apply, matmul2_apply]
  simp only [shapeCast_self, truncf_apply]

/-- A reciprocal square root taken entry by entry. -/
theorem rsqrt2_apply (a : FVec Ideal S512x1 .f32) (i : S512x1.Idx) : rsqrt a i = Ideal.rsqrt (a i) := rfl

/-- The body's payload is the normalisation below of that block. -/
def norm2 (v8 : FVec Ideal S512x1024 .f32) (v27 v31 : Vec Ideal S1x1024 .f32) : FVec Ideal S512x1024 .f32 :=
  have v9 : FVec Ideal S512 .f32 := multiReduction .add [1] S512 v8 0x00000000#32 reduces_S512x1024_S512 (.inl rfl) rfl
  have v10 : FVec Ideal S512x1 .f32 := shapeCast S512x1 v9 shapeCasts_S512_S512x1
  have v12 : FVec Ideal S512x1 .f32 := divf v10 (broadcast S512x1 (Scalar.ofBits .f32 0x44800000#32))
  have v14 : FVec Ideal S512x1024 .f32 := subf v8 (broadcastTo S512x1024 v12 broadcasts_S512x1_S512x1024)
  have v16 : FVec Ideal S512 .f32 := multiReduction .add [1] S512 (mulf v14 v14) 0x00000000#32 reduces_S512x1024_S512 (.inl rfl) rfl
  have v17 : FVec Ideal S512x1 .f32 := shapeCast S512x1 v16 shapeCasts_S512_S512x1
  have v19 : FVec Ideal S512x1 .f32 := divf v17 (broadcast S512x1 (Scalar.ofBits .f32 0x44800000#32))
  have v21 : FVec Ideal S512x1024 .f32 := subf v8 (broadcastTo S512x1024 v12 broadcasts_S512x1_S512x1024)
  have v24 : FVec Ideal S512x1 .f32 := rsqrt (addf v19 (broadcast S512x1 (Scalar.ofBits .f32 0x3727C5AC#32)))
  have v26 : FVec Ideal S512x1024 .f32 := mulf v21 (broadcastTo S512x1024 v24 broadcasts_S512x1_S512x1024)
  have v30 : FVec Ideal S512x1024 .f32 := mulf v26 (broadcastTo S512x1024 (shapeCast S1x1024 v27 shapeCasts_S1x1024_S1x1024) broadcasts_S1x1024_S512x1024)
  addf v30 (broadcastTo S512x1024 (shapeCast S1x1024 v31 shapeCasts_S1x1024_S1x1024) broadcasts_S1x1024_S512x1024)

theorem k2_pay1_eq (x0 : Vec Ideal S512x1024 .f32) (x1 : Vec Ideal S1024x1024 .bf16) (x2 : Vec Ideal S512x1024 .f32)
    (x3 x4 : Vec Ideal S1x1024 .f32) : k2_pay1 x0 x1 x2 x3 x4 = norm2 (pre2 x0 x1 x2) x3 x4 := rfl

/-- Entry `(p, q)` of a normalised block depends on row `p` alone: that row minus its mean, times the reciprocal
    square root of its variance plus the small constant, scaled by the first parameter row's lane `q` and shifted by
    the second's. -/
theorem norm2_apply (z : FVec Ideal S512x1024 .f32) (g b : Vec Ideal S1x1024 .f32) (p : Fin 512) (q : Fin 1024) :
    norm2 z g b (ix2 p q)
      = lnorm (fun e => z (ix2 p e)) (fun e => g (ix2 (0 : Fin 1) e)) (fun e => b (ix2 (0 : Fin 1) e)) q := by
  unfold norm2 lnorm variance mean rowLen eps
  simp only [addf_apply, mulf_apply, subf_apply, divf_apply, broadcast_apply, broadcastTo2_col_apply,
    broadcastTo_1b_ab_apply, shapeCast2_col_apply, shapeCast_self, rsqrt2_apply]
  rw [laneSum2_apply, laneSum2_apply]
  simp only [mulf_apply, subf_apply, divf_apply, broadcast_apply, broadcastTo2_col_apply, shapeCast2_col_apply]
  rw [laneSum2_apply]
  rfl

/-- The payload at row `p`, lane `q`, from the five loaded blocks: the projected-plus-residual row `p`, normalised,
    scaled and shifted at lane `q`. -/
theorem pay2_apply (x0 : Vec Ideal S512x1024 .f32) (x1 : Vec Ideal S1024x1024 .bf16) (x2 : Vec Ideal S512x1024 .f32)
    (x3 x4 : Vec Ideal S1x1024 .f32) (p : Fin 512) (q : Fin 1024) :
    k2_pay1 x0 x1 x2 x3 x4 (ix2 p q)
      = lnorm (fun e => (∑ d : Fin 1024, x0 (ix2 p d) * x1 (ix2 d e)) + x2 (ix2 p e))
          (fun e => x3 (ix2 (0 : Fin 1) e)) (fun e => x4 (ix2 (0 : Fin 1) e)) q := by
  rw [k2_pay1_eq, norm2_apply]
  exact congrFun (lnorm_congr (fun e => pre2_apply x0 x1 x2 p e) _ _) q

/-! ## The blocks, read off the arrays -/

/-- The index maps over the eight grid points: the two row-block inputs and the output sit at block
    `(t, 0)`; the matrix and the two parameter rows at block `(0, 0)`. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of the block at grid point `t` is row `512 t + p` of the array. -/
def row2 (t : Fin cfg2.N) (p : Fin 512) : Fin 4096 :=
  ⟨t.val * 512 + p.val, by have h8 : t.val < 8 := t.isLt.trans_eq N_2; have := p.isLt; omega⟩

/-- The context row block at point `t`: entry `(p, d)` is the context array's entry `(512 t + p, d)`. -/
theorem iblk2_0_apply (c : Dev nD) (t : Fin cfg2.N) (p : Fin 512) (d : Fin 1024) :
    iblk2 V c 0 t (ix2 p d) = V c main_v22 (ix2 (row2 t p) d) := by
  obtain ⟨e0, e1, -⟩ := idx_facts2 t
  unfold iblk2
  rw [View.read_apply]
  show V c main_v22 _ = V c main_v22 _
  congr 1
  funext a; apply Fin.ext
  match a with
  | ⟨0, _⟩ => show win2_0.index t 0 * 512 + 1 * p.val = t.val * 512 + p.val; rw [e0]; omega
  | ⟨1, _⟩ => show win2_0.index t 1 * 1024 + 1 * d.val = d.val; rw [e1]; omega

/-- The projection matrix is fetched whole: its block is the array at every point. -/
theorem iblk2_1_apply (c : Dev nD) (t : Fin cfg2.N) (d e : Fin 1024) :
    iblk2 V c 1 t (ix2 d e) = V c main_v4 (ix2 d e) := by
  obtain ⟨-, -, e0, e1, -⟩ := idx_facts2 t
  unfold iblk2
  rw [View.read_apply]
  show V c main_v4 _ = V c main_v4 _
  congr 1
  funext a; apply Fin.ext
  match a with
  | ⟨0, _⟩ => show win2_1.index t 0 * 1024 + 1 * d.val = d.val; rw [e0]; omega
  | ⟨1, _⟩ => show win2_1.index t 1 * 1024 + 1 * e.val = e.val; rw [e1]; omega

/-- The residual row block at point `t`: entry `(p, e)` is the residual array's entry `(512 t + p, e)`. -/
theorem iblk2_2_apply (c : Dev nD) (t : Fin cfg2.N) (p : Fin 512) (e : Fin 1024) :
    iblk2 V c 2 t (ix2 p e) = V c main_v0 (ix2 (row2 t p) e) := by
  obtain ⟨-, -, -, -, e0, e1, -⟩ := idx_facts2 t
  unfold iblk2
  rw [View.read_apply]
  show V c main_v0 _ = V c main_v0 _
  congr 1
  funext a; apply Fin.ext
  match a with
  | ⟨0, _⟩ => show win2_2.index t 0 * 512 + 1 * p.val = t.val * 512 + p.val; rw [e0]; omega
  | ⟨1, _⟩ => show win2_2.index t 1 * 1024 + 1 * e.val = e.val; rw [e1]; omega

/-- The scaling row is fetched whole. -/
theorem iblk2_3_apply (c : Dev nD) (t : Fin cfg2.N) (u : Fin 1) (e : Fin 1024) :
    iblk2 V c 3 t (ix2 u e) = V c main_v23 (ix2 u e) := by
  obtain ⟨-, -, -, -, -, -, e0, e1, -⟩ := idx_facts2 t
  unfold iblk2
  rw [View.read_apply]
  show V c main_v23 _ = V c main_v23 _
  congr 1
  funext a; apply Fin.ext
  match a with
  | ⟨0, _⟩ => show win2_3.index t 0 * 1 + 1 * u.val = u.val; rw [e0]; omega
  | ⟨1, _⟩ => show win2_3.index t 1 * 1024 + 1 * e.val = e.val; rw [e1]; omega

/-- The shifting row is fetched whole. -/
theorem iblk2_4_apply (c : Dev nD) (t : Fin cfg2.N) (u : Fin 1) (e : Fin 1024) :
    iblk2 V c 4 t (ix2 u e) = V c main_v24 (ix2 u e) := by
  obtain ⟨-, -, -, -, -, -, -, -, e0, e1, -⟩ := idx_facts2 t
  unfold iblk2
  rw [View.read_apply]
  show V c main_v24 _ = V c main_v24 _
  congr 1
  funext a; apply Fin.ext
  match a with
  | ⟨0, _⟩ => show win2_4.index t 0 * 1 + 1 * u.val = u.val; rw [e0]; omega
  | ⟨1, _⟩ => show win2_4.index t 1 * 1024 + 1 * e.val = e.val; rw [e1]; omega

/-! ## The output array after the region -/

/-- The whole output as one function of the arrays the region is entered from: row `s` is the projected context
    row plus the residual row, normalised, scaled and shifted. Entry `(s, e)` depends on row `s` of the context and
    of the residual, on the whole matrix and on the two parameter rows. -/
def G2 (c : Dev nD) : S4096x1024.Idx → EReal := fun i =>
  lnorm (fun e' => proj (fun s d => V c main_v22 (ix2 s d)) (fun d e => V c main_v4 (ix2 d e)) (i 0) e' + V c main_v0 (ix2 (i 0) e'))
    (fun e' => V c main_v23 (ix2 0 e')) (fun e' => V c main_v24 (ix2 0 e')) (i 1)

/-- What grid point `t` writes back is block `t` of that function: rows `512 t` to `512 t + 511`. -/
theorem flushed2_5 (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  unfold out2_5
  rw [View.canon_unit_zero hz2]
  simp only [View.ld_unit_zero (S := S512x1024) hz2, View.ld_unit_zero (S := S1024x1024) hz2, View.ld_unit_zero (S := S1x1024) hz2]
  funext j
  obtain ⟨p, q, rfl⟩ : ∃ (p : Fin 512) (q : Fin 1024), j = ix2 p q := ⟨j 0, j 1, eq_ix2 j⟩
  obtain ⟨-, -, -, -, -, -, -, -, -, -, e0, e1⟩ := idx_facts2 t
  rw [View.read_apply]
  show k2_pay1 (iblk2 V c 0 t) (iblk2 V c 1 t) (iblk2 V c 2 t) (iblk2 V c 3 t) (iblk2 V c 4 t) (ix2 p q) = G2 V c _
  refine (pay2_apply (iblk2 V c 0 t) (iblk2 V c 1 t) (iblk2 V c 2 t) (iblk2 V c 3 t) (iblk2 V c 4 t) p q).trans ?_
  have hemb : ((cfg2.win 5).blk t).view.emb (ix2 p q) = ix2 (row2 t p) q := by
    funext a; apply Fin.ext
    match a with
    | ⟨0, _⟩ => show win2_5.index t 0 * 512 + 1 * p.val = t.val * 512 + p.val; rw [e0]; omega
    | ⟨1, _⟩ => show win2_5.index t 1 * 1024 + 1 * q.val = q.val; rw [e1]; omega
  rw [hemb]
  unfold G2
  simp only [iblk2_0_apply, iblk2_1_apply, iblk2_2_apply, iblk2_3_apply, iblk2_4_apply]
  rfl

/-- An entry of the array lies in point `t`'s block when each coordinate lies in the block's range on its axis. -/
theorem mem_blk2_5 (t : Fin cfg2.N) (i : S4096x1024.Idx) :
    i ∈ ((cfg2.win 5).blk t).view.set ↔ ∀ a : Fin 2, win2_5.index t a * S512x1024.size a ≤ (i a).val
      ∧ (i a).val < win2_5.index t a * S512x1024.size a + S512x1024.size a := by
  show i ∈ ((View.whole main_v25).slice (win2_5.rect t)).set ↔ _
  rw [View.set_slice_whole, Rect.mem_set_unit]
  exact Iff.rfl

/-- The eight row blocks cover the array: row `r` lies in the block of point `r / 512`, and every point writes back. -/
theorem cover2_5 (i : S4096x1024.Idx) :
    ∃ t : Fin cfg2.N, (cfg2.win 5).flush t = true ∧ i ∈ ((cfg2.win 5).blk t).view.set := by
  have h0 : (i 0).val < 4096 := (i 0).isLt
  have h1 : (i 1).val < 1024 := (i 1).isLt
  have hN : cfg2.N = 8 := N_2
  have ht : (i 0).val / 512 < cfg2.N := by rw [hN]; omega
  obtain ⟨-, -, -, -, -, -, -, -, -, -, e0, e1⟩ := idx_facts2 ⟨(i 0).val / 512, ht⟩
  refine ⟨⟨(i 0).val / 512, ht⟩, flush2_5 _, ?_⟩
  rw [mem_blk2_5]
  intro a
  match a with
  | ⟨0, _⟩ =>
    show win2_5.index ⟨(i 0).val / 512, ht⟩ 0 * 512 ≤ (i 0).val ∧ (i 0).val < win2_5.index ⟨(i 0).val / 512, ht⟩ 0 * 512 + 512
    rw [e0]
    show (i 0).val / 512 * 512 ≤ (i 0).val ∧ (i 0).val < (i 0).val / 512 * 512 + 512
    omega
  | ⟨1, _⟩ =>
    show win2_5.index ⟨(i 0).val / 512, ht⟩ 1 * 1024 ≤ (i 1).val ∧ (i 1).val < win2_5.index ⟨(i 0).val / 512, ht⟩ 1 * 1024 + 1024
    rw [e1]
    omega

/-- So the output array ends holding that function. -/
theorem arr2_5_eq (c : Dev nD) : (dat2 V c).arrAt 5 cfg2.N = G2 V c :=
  (dat2 V c).arrAt_eq_of_cover 5 (G2 V c) (fun t _ => flushed2_5 V c t) cover2_5

/-- Entry `(s, e)` of the output after the region: row `s` of the context against the projection matrix plus row `s`
    of the residual, normalised along the row, scaled by the first parameter row and shifted by the second, at lane `e`. -/
theorem arr2_5 (c : Dev nD) (s : Fin 4096) (e : Fin 1024) :
    (dat2 V c).arrAt 5 cfg2.N (ix2 s e)
      = lnorm (fun e' => proj (fun s d => V c main_v22 (ix2 s d)) (fun d e => V c main_v4 (ix2 d e)) s e' + V c main_v0 (ix2 s e'))
          (fun e' => V c main_v23 (ix2 0 e')) (fun e' => V c main_v24 (ix2 0 e')) e :=
  (congrFun (arr2_5_eq V c) (ix2 s e)).trans rfl

end Cert.KernelIdeal.Val

end
-- ==== Proof.Val3.lean ====
/-
  The value of the last fused region's output array at the ideal instance, entry by entry, as a plain function of the
  arrays the region is entered from. Entry (s, e) of the output is: row s of the activations against the weight matrix,
  plus the bias row, plus row s of the activations again; that row of 1024 numbers brought to mean zero and unit
  variance (its mean and variance taken over the 1024 entries, the small constant added under the root), scaled by one
  parameter row and shifted by another, read at e; and the maximum of that with zero. First the operations of the body
  that are not entry-by-entry (the matrix product, the sum along a row, a vector of row values viewed as a column and
  spread along the rows, a parameter row spread down the rows) are read at explicit coordinates; then the body's block
  at an entry; then the eight row blocks the grid points write back are seen to tile the array.
-/
import proofs.«420769_j82386062672326_3_alg».proof.Proof.Region3
import proofs.«420769_j82386062672326_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Cert.KernelIdeal.Fr Cert.Spec
open Idealize.ShloMosaic Idealize.ShloMosaic.TcCoe Idealize.ShloMosaic.ValueIdx Idealize.SL.Sem

variable (V : (c : Dev nD) → (b : Ref sig .tc) → Buf (Elt Ideal) ((c : Thread nD τ).loc b))

/-! ## The operations of the body that are not entry-by-entry, each read at explicit coordinates -/

/-- The product's left operand is read at the output's row … -/
theorem lhs_dot3_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- … and the summation index's column; -/
theorem lhs_dot3_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- the right operand at the summation index's row … -/
theorem rhs_dot3_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- … and the output's column. -/
theorem rhs_dot3_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The matrix product into the zero block, at row `p` and column `q`: row `p` of the left block against column `q`
    of the right matrix, summed over the 1024 shared coordinates. -/
theorem matmul3_apply (a : FVec Ideal S512x1024 .bf16) (b : FVec Ideal S1024x1024 .bf16) (p : Fin 512) (q : Fin 1024) :
    matmul dot_S512x1024_S1024x1024_S512x1024_1_0_0_1_n_n none a b (constant S512x1024 .f32 0x00000000#32) (ix2 p q)
      = ∑ d : Fin 1024, a (ix2 p d) * b (ix2 d q) := by
  show FloatOps.matmul dot_S512x1024_S1024x1024_S512x1024_1_0_0_1_n_n none a b (constant S512x1024 .f32 0x00000000#32) (ix2 p q) = _
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q) ((contrEquiv1 dot_S512x1024_S1024x1024_S512x1024_1_0_0_1_n_n 1024 rfl rfl).symm k) = ix2 p k := funext fun ax => Fin.ext (by
    match ax with
    | ⟨0, _⟩ => exact lhs_dot3_0 _ _
    | ⟨1, _⟩ => exact (lhs_dot3_1 _ _).trans hk)
  have er : dot_S512x1024_S1024x1024_S512x1024_1_0_0_1_n_n.rhsIdx (ix2 p q) ((contrEquiv1 dot_S512x1024_S1024x1024_S512x1024_1_0_0_1_n_n 1024 rfl rfl).symm k) = ix2 k q := funext fun ax => Fin.ext (by
    match ax with
    | ⟨0, _⟩ => exact (rhs_dot3_0 _ _).trans hk
    | ⟨1, _⟩ => exact rhs_dot3_1 _ _)
  rw [el, er]

/-- The sum along a row of a block, at row `p`: the 1024 entries of that row added. -/
theorem rowSum3_apply (v : FVec Ideal S512x1024 .f32) (p : Fin 512) :
    multiReduction .add [1] S512 v 0x00000000#32 reduces_S512x1024_S512 (.inl rfl) rfl (ix1 p) = ∑ k : Fin 1024, v (ix2 p k) := by
  refine (Ideal.multiReduction_add_single (φ := .f32) v 0x00000000#32 reduces_S512x1024_S512 (.inl rfl) rfl (ix1 p)).trans ?_
  refine Finset.sum_congr rfl fun k _ => congrArg v (funext fun ax => Fin.ext ?_)
  match ax with
  | ⟨0, _⟩ => rfl
  | ⟨1, _⟩ => rfl

/-- A vector of 512 row values viewed as a column: its entry in row `p` is the vector's entry `p`. -/
theorem column3_apply {α : Type} (v : S512.Idx → α) (p : Fin 512) (u : Fin 1) :
    shapeCast S512x1 v shapeCasts_S512_S512x1 (ix2 p u) = v (ix1 p) :=
  shapeCast_apply v shapeCasts_S512_S512x1 _ _ (by
    have hu : u.val = 0 := by omega
    rw [Shape.rowMajor_val_one, Shape.rowMajor_val_two]
    show p.val = p.val * 1 + u.val
    rw [hu, Nat.mul_one, Nat.add_zero])

/-- A column of 512 row values spread along the rows: entry `(p, q)` is the column's entry in row `p`. -/
theorem spreadColumn3_apply {α : Type} (v : S512x1.Idx → α) (p : Fin 512) (q : Fin 1024) :
    broadcastTo S512x1024 v broadcasts_S512x1_S512x1024 (ix2 p q) = v (ix2 p (0 : Fin 1)) := by
  refine broadcastTo_apply v broadcasts_S512x1_S512x1024 (ix2 p q) (ix2 p (0 : Fin 1)) fun ax => ?_
  match ax with
  | ⟨0, _⟩ =>
    show p.val = if (512 : Nat) = 1 then 0 else p.val
    rw [if_neg (by decide)]
  | ⟨1, _⟩ => rfl

/-- A parameter row spread down the 512 rows: entry `(p, q)` is the row's entry `q`. -/
theorem spreadRow3_apply {α : Type} (v : S1x1024.Idx → α) (p : Fin 512) (q : Fin 1024) :
    broadcastTo S512x1024 v broadcasts_S1x1024_S512x1024 (ix2 p q) = v (ix2 (0 : Fin 1) q) :=
  broadcastTo_1b_ab_apply v broadcasts_S1x1024_S512x1024 p q

/-! ## The normalised block at an entry -/

/-- The column of row means of a block: each row's sum divided by the row length, 1024. -/
abbrev meanCol3 (z : FVec Ideal S512x1024 .f32) : FVec Ideal S512x1 .f32 :=
  divf (shapeCast S512x1 (multiReduction .add [1] S512 z 0x00000000#32 reduces_S512x1024_S512 (.inl rfl) rfl) shapeCasts_S512_S512x1)
    (broadcast S512x1 (FloatOps.ofBits .f32 0x44800000#32))

/-- The block with each row's mean taken off every entry of the row. -/
abbrev centred3 (z : FVec Ideal S512x1024 .f32) : FVec Ideal S512x1024 .f32 :=
  subf z (broadcastTo S512x1024 (meanCol3 z) broadcasts_S512x1_S512x1024)

/-- The column of reciprocal square roots of each row's variance plus the small constant. -/
abbrev invStdCol3 (z : FVec Ideal S512x1024 .f32) : FVec Ideal S512x1 .f32 :=
  rsqrt (addf (meanCol3 (mulf (centred3 z) (centred3 z))) (broadcast S512x1 (FloatOps.ofBits .f32 0x3727C5AC#32)))

/-- The mean column in row `p` is the mean of row `p`. -/
theorem meanCol3_apply (z : FVec Ideal S512x1024 .f32) (p : Fin 512) (u : Fin 1) :
    meanCol3 z (ix2 p u) = mean (fun e' => z (ix2 p e')) := by
  show divf _ _ (ix2 p u) = _
  rw [divf_apply, column3_apply, rowSum3_apply, broadcast_apply]
  rfl

/-- The centred block at `(p, q)` is the entry less the mean of its row. -/
theorem centred3_apply (z : FVec Ideal S512x1024 .f32) (p : Fin 512) (q : Fin 1024) :
    centred3 z (ix2 p q) = z (ix2 p q) - mean (fun e' => z (ix2 p e')) := by
  show subf _ _ (ix2 p q) = _
  rw [subf_apply, spreadColumn3_apply, meanCol3_apply]

/-- The scaling column in row `p` is the reciprocal root of row `p`'s variance plus the small constant. -/
theorem invStdCol3_apply (z : FVec Ideal S512x1024 .f32) (p : Fin 512) (u : Fin 1) :
    invStdCol3 z (ix2 p u) = Ideal.rsqrt (variance (fun e' => z (ix2 p e')) + eps) := by
  show Ideal.rsqrt (meanCol3 (mulf (centred3 z) (centred3 z)) (ix2 p u) + Ideal.ofBits .f32 0x3727C5AC#32) = _
  rw [meanCol3_apply]
  unfold variance mean eps
  simp only [mulf_apply, centred3_apply]
  rfl

/-- A block normalised along its rows, scaled by one parameter row and shifted by another, at `(p, q)`: the row-wise
    normalisation of row `p` read at `q`. -/
theorem norm3_apply (z : FVec Ideal S512x1024 .f32) (g b : FVec Ideal S1x1024 .f32) (p : Fin 512) (q : Fin 1024) :
    addf (mulf (mulf (centred3 z) (broadcastTo S512x1024 (invStdCol3 z) broadcasts_S512x1_S512x1024))
        (broadcastTo S512x1024 g broadcasts_S1x1024_S512x1024)) (broadcastTo S512x1024 b broadcasts_S1x1024_S512x1024) (ix2 p q)
      = lnorm (fun e' => z (ix2 p e')) (fun e' => g (ix2 (0 : Fin 1) e')) (fun e' => b (ix2 (0 : Fin 1) e')) q := by
  rw [addf_apply, mulf_apply, mulf_apply, spreadRow3_apply, spreadRow3_apply, spreadColumn3_apply, centred3_apply, invStdCol3_apply]
  rfl

/-- Row `p` of the block before it is normalised: row `p` of the left block against the weight matrix, plus the bias row,
    plus row `p` of the block added back. -/
def preRow3 (x0 : Vec Ideal S512x1024 .f32) (x1 : Vec Ideal S1024x1024 .bf16) (x2 : Vec Ideal S1x1024 .f32)
    (x10 : Vec Ideal S512x1024 .f32) (p : Fin 512) : Row :=
  fun e' => (∑ d : Fin 1024, x0 (ix2 p d) * x1 (ix2 d e') + x2 (ix2 (0 : Fin 1) e')) + x10 (ix2 p e')

/-- The block before normalisation at `(p, q)`. -/
theorem pre3_apply (x0 : FVec Ideal S512x1024 .f32) (x1 : FVec Ideal S1024x1024 .bf16) (x2 : FVec Ideal S1x1024 .f32)
    (x10 : FVec Ideal S512x1024 .f32) (p : Fin 512) (q : Fin 1024) :
    addf (F := Ideal) (addf (matmul dot_S512x1024_S1024x1024_S512x1024_1_0_0_1_n_n none (truncf (F := Ideal) .bf16 x0 bitsLt_bf16_f32) x1 (constant S512x1024 .f32 0x00000000#32))
        (broadcastTo S512x1024 x2 broadcasts_S1x1024_S512x1024)) x10 (ix2 p q)
      = preRow3 x0 x1 x2 x10 p q := by
  rw [addf_apply, addf_apply, matmul3_apply, spreadRow3_apply]
  rfl

/-- The normalised block the body computes, at `(p, q)`. -/
theorem pay3_2_apply (x0 : Vec Ideal S512x1024 .f32) (x1 : Vec Ideal S1024x1024 .bf16) (x2 : Vec Ideal S1x1024 .f32)
    (x10 : Vec Ideal S512x1024 .f32) (x3 x4 : Vec Ideal S1x1024 .f32) (p : Fin 512) (q : Fin 1024) :
    k3_pay2 x0 x1 x2 x10 x3 x4 (ix2 p q)
      = lnorm (preRow3 x0 x1 x2 x10 p) (fun e' => x3 (ix2 (0 : Fin 1) e')) (fun e' => x4 (ix2 (0 : Fin 1) e')) q := by
  unfold k3_pay2
  simp only [shapeCast_self]
  refine (norm3_apply _ x3 x4 p q).trans ?_
  exact congrFun (lnorm_congr (fun e' => pre3_apply x0 x1 x2 x10 p e') _ _) q

/-- The maximum of two blocks, entry by entry. -/
theorem pay3_1_apply (a b : FVec Ideal S512x1024 .f32) (i : S512x1024.Idx) : k3_pay1 a b i = max (a i) (b i) := rfl

/-- The zero block holds the extended real zero at every entry. -/
theorem pay3_3_apply (i : S512x1024.Idx) : k3_pay3 (F := Ideal) i = 0 := by
  show Ideal.ofBits .f32 0x00000000#32 = 0
  exact Ideal.ofBits_zero_f32

/-! ## The output array after the region -/

theorem hz3 : (![0, 0] : Fin 2 → Nat) = fun _ => 0 := funext fun a => by fin_cases a <;> rfl

/-- What the output array holds after the region, entry `(s, e)`: row `s` of the activations against the weight matrix,
    plus the bias row, plus row `s` itself; that row normalised, scaled and shifted by the two parameter rows, read at
    `e`; and the maximum of that with zero. An entry depends on row `s` of the activations only. -/
def G3 (c : Dev nD) : S4096x1024.Idx → EReal := fun i =>
  max (lnorm (fun e' => (proj (fun s d => V c main_v25 (ix2 s d)) (fun d e => V c main_v6 (ix2 d e)) (i 0) e' + V c main_v28 (ix2 0 e'))
      + V c main_v25 (ix2 (i 0) e'))
    (fun e' => V c main_v26 (ix2 0 e')) (fun e' => V c main_v27 (ix2 0 e')) (i 1)) 0

/-- The windows' block indices at the eight grid points: the activations' window and the output's sit at row block `t`,
    the weight matrix and the three parameter rows are one block each. -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row block `t` of the activations: its entry `(p, d)` is the array's entry in row `512 t + p`. -/
theorem iblk3_0_apply (c : Dev nD) (t : Fin cfg3.N) (p : Fin 512) (d : Fin 1024) (r : Fin 4096) (hr : r.val = t.val * 512 + p.val) :
    iblk3 V c 0 t (ix2 p d) = V c main_v25 (ix2 r d) := by
  obtain ⟨e00, e01, -⟩ := idx3 t
  show V c main_v25 (((cfg3.win 0).blk t).view.emb (ix2 p d)) = _
  congr 1
  funext a; apply Fin.ext
  match a with
  | ⟨0, _⟩ => show win3_0.index t (0 : Fin 2) * 512 + 1 * p.val = r.val; omega
  | ⟨1, _⟩ => show win3_0.index t (1 : Fin 2) * 1024 + 1 * d.val = d.val; omega

/-- The weight matrix is one block: its entry `(d, e)` is the array's. -/
theorem iblk3_1_apply (c : Dev nD) (t : Fin cfg3.N) (d e : Fin 1024) :
    iblk3 V c 1 t (ix2 d e) = V c main_v6 (ix2 d e) := by
  obtain ⟨-, -, e10, e11, -⟩ := idx3 t
  show V c main_v6 (((cfg3.win 1).blk t).view.emb (ix2 d e)) = _
  congr 1
  funext a; apply Fin.ext
  match a with
  | ⟨0, _⟩ => show win3_1.index t (0 : Fin 2) * 1024 + 1 * d.val = d.val; omega
  | ⟨1, _⟩ => show win3_1.index t (1 : Fin 2) * 1024 + 1 * e.val = e.val; omega

/-- The bias row is one block. -/
theorem iblk3_2_apply (c : Dev nD) (t : Fin cfg3.N) (u : Fin 1) (e : Fin 1024) :
    iblk3 V c 2 t (ix2 u e) = V c main_v28 (ix2 u e) := by
  obtain ⟨-, -, -, -, e20, e21, -⟩ := idx3 t
  show V c main_v28 (((cfg3.win 2).blk t).view.emb (ix2 u e)) = _
  congr 1
  funext a; apply Fin.ext
  match a with
  | ⟨0, _⟩ => show win3_2.index t (0 : Fin 2) * 1 + 1 * u.val = u.val; omega
  | ⟨1, _⟩ => show win3_2.index t (1 : Fin 2) * 1024 + 1 * e.val = e.val; omega

/-- The scale row is one block. -/
theorem iblk3_3_apply (c : Dev nD) (t : Fin cfg3.N) (u : Fin 1) (e : Fin 1024) :
    iblk3 V c 3 t (ix2 u e) = V c main_v26 (ix2 u e) := by
  obtain ⟨-, -, -, -, -, -, e30, e31, -⟩ := idx3 t
  show V c main_v26 (((cfg3.win 3).blk t).view.emb (ix2 u e)) = _
  congr 1
  funext a; apply Fin.ext
  match a with
  | ⟨0, _⟩ => show win3_3.index t (0 : Fin 2) * 1 + 1 * u.val = u.val; omega
  | ⟨1, _⟩ => show win3_3.index t (1 : Fin 2) * 1024 + 1 * e.val = e.val; omega

/-- The shift row is one block. -/
theorem iblk3_4_apply (c : Dev nD) (t : Fin cfg3.N) (u : Fin 1) (e : Fin 1024) :
    iblk3 V c 4 t (ix2 u e) = V c main_v27 (ix2 u e) := by
  obtain ⟨-, -, -, -, -, -, -, -, e40, e41, -⟩ := idx3 t
  show V c main_v27 (((cfg3.win 4).blk t).view.emb (ix2 u e)) = _
  congr 1
  funext a; apply Fin.ext
  match a with
  | ⟨0, _⟩ => show win3_4.index t (0 : Fin 2) * 1 + 1 * u.val = u.val; omega
  | ⟨1, _⟩ => show win3_4.index t (1 : Fin 2) * 1024 + 1 * e.val = e.val; omega

/-- What grid point `t` writes back is row block `t` of `G3`: the body's block at `(p, q)` is the normalised, clamped
    row `512 t + p` read at `q`. -/
theorem flushed3_5_eq (c : Dev nD) (t : Fin cfg3.N) :
    (dat3 V c).flushed 5 t = ((cfg3.win 5).blk t).view.read (Elt Ideal) (G3 V c) := by
  show (cfg3.win 5).cut (grid3.coords t) ((dat3 V c).after 5 t) = _
  rw [after3_5]
  unfold out3_5
  rw [View.canon_unit_zero hz3]
  simp only [View.ld_unit_zero (S := S512x1024) hz3, View.ld_unit_zero (S := S1024x1024) hz3, View.ld_unit_zero (S := S1x1024) hz3]
  funext j
  obtain ⟨p, q, rfl⟩ : ∃ (p : Fin 512) (q : Fin 1024), j = ix2 p q := ⟨j 0, j 1, eq_ix2 j⟩
  obtain ⟨-, -, -, -, -, -, -, -, -, -, e50, e51⟩ := idx3 t
  have ht : t.val < 8 := t.isLt
  -- the array row and column under the block's entry (p, q)
  have hr : (((cfg3.win 5).blk t).view.emb (ix2 p q) 0).val = t.val * 512 + p.val := by
    show win3_5.index t (0 : Fin 2) * 512 + 1 * p.val = _; omega
  have hq : ((cfg3.win 5).blk t).view.emb (ix2 p q) 1 = q := by
    apply Fin.ext
    show win3_5.index t (1 : Fin 2) * 1024 + 1 * q.val = q.val; omega
  show k3_pay1 (k3_pay2 (iblk3 V c 0 t) (iblk3 V c 1 t) (iblk3 V c 2 t) (iblk3 V c 0 t) (iblk3 V c 3 t) (iblk3 V c 4 t)) (k3_pay3 (F := Ideal)) (ix2 p q)
    = G3 V c (((cfg3.win 5).blk t).view.emb (ix2 p q))
  refine (pay3_1_apply _ _ _).trans ?_
  refine (congrArg₂ max (pay3_2_apply (iblk3 V c 0 t) (iblk3 V c 1 t) (iblk3 V c 2 t) (iblk3 V c 0 t) (iblk3 V c 3 t) (iblk3 V c 4 t) p q)
    (pay3_3_apply _)).trans ?_
  unfold G3
  rw [hq]
  refine congrArg (max · 0) (congrFun ?_ q)
  have hg : (fun e' => iblk3 V c 3 t (ix2 (0 : Fin 1) e')) = fun e' => V c main_v26 (ix2 0 e') :=
    funext fun e' => iblk3_3_apply V c t 0 e'
  have hb : (fun e' => iblk3 V c 4 t (ix2 (0 : Fin 1) e')) = fun e' => V c main_v27 (ix2 0 e') :=
    funext fun e' => iblk3_4_apply V c t 0 e'
  rw [hg, hb]
  refine lnorm_congr (fun e' => ?_) _ _
  unfold preRow3 proj
  rw [iblk3_2_apply, iblk3_0_apply V c t p e' _ hr]
  refine congrArg (· + _ + _) (Finset.sum_congr rfl fun d _ => ?_)
  rw [iblk3_0_apply V c t p d _ hr, iblk3_1_apply]

/-- An entry of the array lies in grid point `t`'s block exactly when each coordinate lies in the block's range. -/
theorem mem_blk3_5 (t : Fin cfg3.N) (i : S4096x1024.Idx) :
    i ∈ ((cfg3.win 5).blk t).view.set ↔ ∀ a : Fin 2, win3_5.index t a * S512x1024.size a ≤ (i a).val
      ∧ (i a).val < win3_5.index t a * S512x1024.size a + S512x1024.size a := by
  show i ∈ ((View.whole main_v29).slice (win3_5.rect t)).set ↔ _
  rw [View.set_slice_whole, Rect.mem_set_unit]
  exact Iff.rfl

/-- The eight row blocks tile the array: row `r` lies in the block of grid point `r / 512`, and every point writes back. -/
theorem cover3_5 (i : S4096x1024.Idx) :
    ∃ t : Fin cfg3.N, (cfg3.win 5).flush t = true ∧ i ∈ ((cfg3.win 5).blk t).view.set := by
  have h0 : (i 0).val < 4096 := (i 0).isLt
  have h1 : (i 1).val < 1024 := (i 1).isLt
  have hlt : (i 0).val / 512 < cfg3.N := by show _ < 8; omega
  obtain ⟨-, -, -, -, -, -, -, -, -, -, e50, e51⟩ := idx3 ⟨(i 0).val / 512, hlt⟩
  refine ⟨⟨(i 0).val / 512, hlt⟩, flush3_5 _, ?_⟩
  rw [mem_blk3_5]
  intro a
  match a with
  | ⟨0, _⟩ =>
    show win3_5.index ⟨(i 0).val / 512, hlt⟩ (0 : Fin 2) * 512 ≤ (i 0).val
      ∧ (i 0).val < win3_5.index ⟨(i 0).val / 512, hlt⟩ (0 : Fin 2) * 512 + 512
    rw [e50]; show (i 0).val / 512 * 512 ≤ (i 0).val ∧ (i 0).val < (i 0).val / 512 * 512 + 512; omega
  | ⟨1, _⟩ =>
    show win3_5.index ⟨(i 0).val / 512, hlt⟩ (1 : Fin 2) * 1024 ≤ (i 1).val
      ∧ (i 1).val < win3_5.index ⟨(i 0).val / 512, hlt⟩ (1 : Fin 2) * 1024 + 1024
    rw [e51]; omega

/-- The output array after the region is `G3` of the arrays the region was entered from. -/
theorem arrAt3_5_eq (c : Dev nD) : (dat3 V c).arrAt 5 cfg3.N = G3 V c :=
  (dat3 V c).arrAt_eq_of_cover 5 (G3 V c) (fun t _ => flushed3_5_eq V c t) cover3_5

/-- The output array after the region, entry by entry. -/
theorem arr3_5 (c : Dev nD) (s : Fin 4096) (e : Fin 1024) :
    (dat3 V c).arrAt 5 cfg3.N (ix2 s e)
      = max (lnorm (fun e' => (proj (fun s d => V c main_v25 (ix2 s d)) (fun d e => V c main_v6 (ix2 d e)) s e' + V c main_v28 (ix2 0 e')) + V c main_v25 (ix2 s e'))
          (fun e' => V c main_v26 (ix2 0 e')) (fun e' => V c main_v27 (ix2 0 e')) e) 0 := by
  rw [arrAt3_5_eq]
  rfl

end Cert.KernelIdeal.Val

end
-- ==== Proof.KernelValue.lean ====
/-
  The kernel program's result at the ideal values, entry by entry, as the layer of its eleven argument arrays. The
  program is five stretches of layout and format operations around four computing regions. Going forwards from the
  launch, each lemma says what one buffer holds at one point between two items, as a plain function of the arguments:
  the three projections of the activations, their cut into sixteen heads, the attention of the heads, the heads merged
  back into rows, the output projection added to the input and normalised along each row, the transposed projection
  with its bias added to its own input and normalised again and clamped at zero, and last the unit axis put back.
  An item leaves a buffer it does not write as it found it, so an argument read late is the argument as launched.
-/
import proofs.«420769_j82386062672326_3_alg».proof.Proof.Gen.KernelIdeal.Regions
import proofs.«420769_j82386062672326_3_alg».proof.Proof.Spec
import proofs.«420769_j82386062672326_3_alg».proof.Proof.KernelRun
import proofs.«420769_j82386062672326_3_alg».proof.Proof.HostStretch
import proofs.«420769_j82386062672326_3_alg».proof.Proof.Val0
import proofs.«420769_j82386062672326_3_alg».proof.Proof.Val1
import proofs.«420769_j82386062672326_3_alg».proof.Proof.Val2
import proofs.«420769_j82386062672326_3_alg».proof.Proof.Val3
import proofs.«420769_j82386062672326_3_alg».proof.Proof.OnlineSoftmax

noncomputable section

namespace Cert.KernelIdeal.Val

open Cert.KernelIdeal Cert.KernelIdeal.Gen Cert.KernelIdeal.Fr Cert.Spec
open Idealize.ShloMosaic Idealize.ShloMosaic.TcCoe Idealize.ShloMosaic.ValueIdx Idealize.SL.Sem

variable (m : (ℓ : Loc nD τ sig) → Buf (Elt Ideal) ℓ) (c : Dev nD)

/-! ## The eleven arguments as plain arrays -/

/-- The activations, their leading unit axis dropped. -/
abbrev argX : Mat 4096 1024 := fun s d => m ((c : Thread nD τ).loc main_arg0) (ix3 0 s d)
/-- The query, key, value and output weight matrices. -/
abbrev argWq : Mat 1024 1024 := fun d e => m ((c : Thread nD τ).loc main_arg1) (ix2 d e)
abbrev argWk : Mat 1024 1024 := fun d e => m ((c : Thread nD τ).loc main_arg2) (ix2 d e)
abbrev argWv : Mat 1024 1024 := fun d e => m ((c : Thread nD τ).loc main_arg3) (ix2 d e)
abbrev argWo : Mat 1024 1024 := fun d e => m ((c : Thread nD τ).loc main_arg4) (ix2 d e)
/-- The last weight matrix, used row against row. -/
abbrev argW5 : Mat 1024 1024 := fun d e => m ((c : Thread nD τ).loc main_arg5) (ix2 d e)
/-- The bias and the two pairs of scale and shift rows. -/
abbrev argB6 : Row := fun e => m ((c : Thread nD τ).loc main_arg6) (ix1 e)
abbrev argG7 : Row := fun e => m ((c : Thread nD τ).loc main_arg7) (ix1 e)
abbrev argB8 : Row := fun e => m ((c : Thread nD τ).loc main_arg8) (ix1 e)
abbrev argG9 : Row := fun e => m ((c : Thread nD τ).loc main_arg9) (ix1 e)
abbrev argB10 : Row := fun e => m ((c : Thread nD τ).loc main_arg10) (ix1 e)

/-! ## Two congruences: arrays equal entry by entry give equal projections and equal normalised rows -/

theorem proj_eq {x x' : Mat 4096 1024} {W W' : Mat 1024 1024} (hx : ∀ s d, x s d = x' s d) (hW : ∀ d e, W d e = W' d e) :
    proj x W = proj x' W' := by
  obtain rfl : x = x' := funext fun s => funext fun d => hx s d
  obtain rfl : W = W' := funext fun d => funext fun e => hW d e
  rfl

theorem lnorm_eq {z z' g g' b b' : Row} (hz : ∀ e, z e = z' e) (hg : ∀ e, g e = g' e) (hb : ∀ e, b e = b' e) :
    lnorm z g b = lnorm z' g' b' := by
  obtain rfl : z = z' := funext hz
  obtain rfl : g = g' := funext hg
  obtain rfl : b = b' := funext hb
  rfl

/-- A projection of real arrays is real. -/
theorem proj_real {x : Mat 4096 1024} {W : Mat 1024 1024} (hx : ∀ s d, ∃ r : ℝ, x s d = (r : EReal))
    (hW : ∀ d e, ∃ r : ℝ, W d e = (r : EReal)) (s : Fin 4096) (e : Fin 1024) : ∃ r : ℝ, proj x W s e = (r : EReal) :=
  Cert.Online.sum_mul_real (fun d => x s d) (fun d => W d e) (hx s) (fun d => hW d e)

/-! ## Stage 1: the three projections, as the first region leaves them -/

theorem v7_0_at2 (s : Fin 4096) (e : Fin 1024) :
    Gen.V2 m (outs m) c main_v7_0 (ix2 s e) = proj (argX m c) (argWq m c) s e := by
  have h2 : Gen.V2 m (outs m) c main_v7_0 = outs m 2 main_v7_0 c := by
    simp only [Gen.V2, Function.update_of_ne (StableHlo.devRef_ne_of_ne (by decide) : (Proc.devRef .tc main_v7_0 : DevRef τ sig) ≠ Proc.devRef .tc main_v7_2), Function.update_of_ne (StableHlo.devRef_ne_of_ne (by decide) : (Proc.devRef .tc main_v7_0 : DevRef τ sig) ≠ Proc.devRef .tc main_v7_1), Function.update_self]
  rw [h2, outs_v7_0, arr0_4 (ent0 m) c s e]
  exact congrFun (congrFun (proj_eq (fun s d => hs0_v0 m c s d) (fun d e => hs0_v1 m c d e)) s) e

theorem v7_1_at2 (s : Fin 4096) (e : Fin 1024) :
    Gen.V2 m (outs m) c main_v7_1 (ix2 s e) = proj (argX m c) (argWk m c) s e := by
  have h2 : Gen.V2 m (outs m) c main_v7_1 = outs m 2 main_v7_1 c := by
    simp only [Gen.V2, Function.update_of_ne (StableHlo.devRef_ne_of_ne (by decide) : (Proc.devRef .tc main_v7_1 : DevRef τ sig) ≠ Proc.devRef .tc main_v7_2), Function.update_self]
  rw [h2, outs_v7_1, arr0_5 (ent0 m) c s e]
  exact congrFun (congrFun (proj_eq (fun s d => hs0_v0 m c s d) (fun d e => hs0_v2 m c d e)) s) e

theorem v7_2_at2 (s : Fin 4096) (e : Fin 1024) :
    Gen.V2 m (outs m) c main_v7_2 (ix2 s e) = proj (argX m c) (argWv m c) s e := by
  have h2 : Gen.V2 m (outs m) c main_v7_2 = outs m 2 main_v7_2 c := by
    simp only [Gen.V2, Function.update_self]
  rw [h2, outs_v7_2, arr0_6 (ent0 m) c s e]
  exact congrFun (congrFun (proj_eq (fun s d => hs0_v0 m c s d) (fun d e => hs0_v3 m c d e)) s) e

/-! ## Stage 2: the projections cut into sixteen heads, as the second region finds them -/

theorem v10_at3 (h : Fin 16) (i : Fin 4096) (d : Fin 64) :
    Gen.V3 m (outs m) c main_v10 (ix3 h i d) = heads (proj (argX m c) (argWq m c)) h i d :=
  (hs1_v10 m (outs m) c h i d).trans (v7_0_at2 m c i (headCol h d))

theorem v14_at3 (h : Fin 16) (i : Fin 4096) (d : Fin 64) :
    Gen.V3 m (outs m) c main_v14 (ix3 h i d) = heads (proj (argX m c) (argWk m c)) h i d :=
  (hs1_v14 m (outs m) c h i d).trans (v7_1_at2 m c i (headCol h d))

theorem v18_at3 (h : Fin 16) (i : Fin 4096) (d : Fin 64) :
    Gen.V3 m (outs m) c main_v18 (ix3 h i d) = heads (proj (argX m c) (argWv m c)) h i d :=
  (hs1_v18 m (outs m) c h i d).trans (v7_2_at2 m c i (headCol h d))

/-- With real activations and real weights every entry of a head array is real. -/
theorem heads_proj_real {W : Mat 1024 1024}
    (hx : ∀ i, ∃ r : ℝ, m ((c : Thread nD τ).loc main_arg0) i = (r : EReal)) (hW : ∀ d e, ∃ r : ℝ, W d e = (r : EReal))
    (h : Fin 16) (i : Fin 4096) (d : Fin 64) : ∃ r : ℝ, heads (proj (argX m c) W) h i d = (r : EReal) :=
  proj_real (fun s d => hx (ix3 0 s d)) hW i (headCol h d)

/-! ## Buffers that wait: what a later item reads of an earlier one's work, or of the launch

No item writes an argument, and the arrays the first stretch makes ready are written by nothing after it: each is read
later as it was left. -/

/-- No item up to the second region writes the seventh or eighth argument: the third stretch reads them as launched. -/
theorem arg7_at4 : Gen.V4 m (outs m) c main_arg7 = m ((c : Thread nD τ).loc main_arg7) :=
  (Gen.V4_of m (outs m) c main_arg7 (by decide)).trans <| (Gen.V3_of m (outs m) c main_arg7 (by decide)).trans <|
    (Gen.V2_of m (outs m) c main_arg7 (by decide)).trans <| (Gen.V1_of m c main_arg7 (by decide)).trans rfl

theorem arg8_at4 : Gen.V4 m (outs m) c main_arg8 = m ((c : Thread nD τ).loc main_arg8) :=
  (Gen.V4_of m (outs m) c main_arg8 (by decide)).trans <| (Gen.V3_of m (outs m) c main_arg8 (by decide)).trans <|
    (Gen.V2_of m (outs m) c main_arg8 (by decide)).trans <| (Gen.V1_of m c main_arg8 (by decide)).trans rfl

/-- The activations and the output weights made ready by the first stretch are still there when the third region runs. -/
theorem v0_at5 : Gen.V5 m (outs m) c main_v0 = Gen.V1 m c main_v0 :=
  (Gen.V5_of m (outs m) c main_v0 (by decide)).trans <| (Gen.V4_of m (outs m) c main_v0 (by decide)).trans <|
    (Gen.V3_of m (outs m) c main_v0 (by decide)).trans (Gen.V2_of m (outs m) c main_v0 (by decide))

theorem v4_at5 : Gen.V5 m (outs m) c main_v4 = Gen.V1 m c main_v4 :=
  (Gen.V5_of m (outs m) c main_v4 (by decide)).trans <| (Gen.V4_of m (outs m) c main_v4 (by decide)).trans <|
    (Gen.V3_of m (outs m) c main_v4 (by decide)).trans (Gen.V2_of m (outs m) c main_v4 (by decide))

/-- The fourth stretch reads the last three row arguments as launched. -/
theorem arg9_at6 : Gen.V6 m (outs m) c main_arg9 = m ((c : Thread nD τ).loc main_arg9) :=
  (Gen.V6_of m (outs m) c main_arg9 (by decide)).trans <| (Gen.V5_of m (outs m) c main_arg9 (by decide)).trans <|
    (Gen.V4_of m (outs m) c main_arg9 (by decide)).trans <| (Gen.V3_of m (outs m) c main_arg9 (by decide)).trans <|
    (Gen.V2_of m (outs m) c main_arg9 (by decide)).trans <| (Gen.V1_of m c main_arg9 (by decide)).trans rfl

theorem arg10_at6 : Gen.V6 m (outs m) c main_arg10 = m ((c : Thread nD τ).loc main_arg10) :=
  (Gen.V6_of m (outs m) c main_arg10 (by decide)).trans <| (Gen.V5_of m (outs m) c main_arg10 (by decide)).trans <|
    (Gen.V4_of m (outs m) c main_arg10 (by decide)).trans <| (Gen.V3_of m (outs m) c main_arg10 (by decide)).trans <|
    (Gen.V2_of m (outs m) c main_arg10 (by decide)).trans <| (Gen.V1_of m c main_arg10 (by decide)).trans rfl

theorem arg6_at6 : Gen.V6 m (outs m) c main_arg6 = m ((c : Thread nD τ).loc main_arg6) :=
  (Gen.V6_of m (outs m) c main_arg6 (by decide)).trans <| (Gen.V5_of m (outs m) c main_arg6 (by decide)).trans <|
    (Gen.V4_of m (outs m) c main_arg6 (by decide)).trans <| (Gen.V3_of m (outs m) c main_arg6 (by decide)).trans <|
    (Gen.V2_of m (outs m) c main_arg6 (by decide)).trans <| (Gen.V1_of m c main_arg6 (by decide)).trans rfl

/-- The transposed weight matrix made ready by the first stretch is still there when the fourth region runs. -/
theorem v6_at7 : Gen.V7 m (outs m) c main_v6 = Gen.V1 m c main_v6 :=
  (Gen.V7_of m (outs m) c main_v6 (by decide)).trans <| (Gen.V6_of m (outs m) c main_v6 (by decide)).trans <|
    (Gen.V5_of m (outs m) c main_v6 (by decide)).trans <| (Gen.V4_of m (outs m) c main_v6 (by decide)).trans <|
    (Gen.V3_of m (outs m) c main_v6 (by decide)).trans (Gen.V2_of m (outs m) c main_v6 (by decide))

/-- The fourth stretch leaves the first normalised sum where the third region put it. -/
theorem v25_at7 : Gen.V7 m (outs m) c main_v25 = Gen.V6 m (outs m) c main_v25 :=
  Gen.V7_of m (outs m) c main_v25 (by decide)

/-! ## Stage 3: attention, as the second region leaves it -/

section Attention

variable
    (hread : ∀ (t : Fin cfg1.N) (x0 : Vec Ideal S16x256x64 .f32) (x1 x2 : Vec Ideal S16x4096x64 .bf16), out1_3 c t x0 x1 x2 = flashOut x0 x1 x2)
    (hout : ∀ (x0 : Vec Ideal S16x256x64 .f32) (x1 x2 : Vec Ideal S16x4096x64 .bf16) (h : Fin 16) (i : Fin 256) (d : Fin 64),
        flashOut x0 x1 x2 (ix3 h i d)
          = Ideal.div (Cert.Online.state (fun j => (∑ d' : Fin 64, x0 (ix3 h i d') * x1 (ix3 h j d')) * Ideal.ofBits .f32 0x3E000000#32) (fun j => x2 (ix3 h j d)) 16).2.2
                      (Cert.Online.state (fun j => (∑ d' : Fin 64, x0 (ix3 h i d') * x1 (ix3 h j d')) * Ideal.ofBits .f32 0x3E000000#32) (fun j => x2 (ix3 h j d)) 16).2.1)
    (hx : ∀ i, ∃ r : ℝ, m ((c : Thread nD τ).loc main_arg0) i = (r : EReal))
    (hq : ∀ i, ∃ r : ℝ, m ((c : Thread nD τ).loc main_arg1) i = (r : EReal))
    (hk : ∀ i, ∃ r : ℝ, m ((c : Thread nD τ).loc main_arg2) i = (r : EReal))
    (hv : ∀ i, ∃ r : ℝ, m ((c : Thread nD τ).loc main_arg3) i = (r : EReal))

include hread hout hx hq hk hv

theorem v19_at4 (h : Fin 16) (s : Fin 4096) (d : Fin 64) :
    Gen.V4 m (outs m) c main_v19 (ix3 h s d)
      = attend (heads (proj (argX m c) (argWq m c))) (heads (proj (argX m c) (argWk m c))) (heads (proj (argX m c) (argWv m c))) h s d := by
  have h4 : Gen.V4 m (outs m) c main_v19 = outs m 4 main_v19 c := by
    simp only [Gen.V4, Function.update_self]
  have eQ : (fun h s d => ent1 m c main_v10 (ix3 h s d)) = heads (proj (argX m c) (argWq m c)) :=
    funext fun h => funext fun s => funext fun d => v10_at3 m c h s d
  have eK : (fun h s d => ent1 m c main_v14 (ix3 h s d)) = heads (proj (argX m c) (argWk m c)) :=
    funext fun h => funext fun s => funext fun d => v14_at3 m c h s d
  have eV : (fun h s d => ent1 m c main_v18 (ix3 h s d)) = heads (proj (argX m c) (argWv m c)) :=
    funext fun h => funext fun s => funext fun d => v18_at3 m c h s d
  have hQ : ∀ h s d, ∃ r : ℝ, ent1 m c main_v10 (ix3 h s d) = (r : EReal) := fun h s d =>
    (heads_proj_real m c hx (fun d e => hq (ix2 d e)) h s d).imp fun r hr => (v10_at3 m c h s d).trans hr
  have hK : ∀ h s d, ∃ r : ℝ, ent1 m c main_v14 (ix3 h s d) = (r : EReal) := fun h s d =>
    (heads_proj_real m c hx (fun d e => hk (ix2 d e)) h s d).imp fun r hr => (v14_at3 m c h s d).trans hr
  have hV : ∀ h s d, ∃ r : ℝ, ent1 m c main_v18 (ix3 h s d) = (r : EReal) := fun h s d =>
    (heads_proj_real m c hx (fun d e => hv (ix2 d e)) h s d).imp fun r hr => (v18_at3 m c h s d).trans hr
  rw [h4, outs_v19, arr1_3 (ent1 m) c hread hout hQ hK hV h s d, eQ, eK, eV]

/-! ## Stage 4: the heads merged back into rows -/

theorem v22_at5 (s : Fin 4096) (e : Fin 1024) :
    Gen.V5 m (outs m) c main_v22 (ix2 s e) = context (argX m c) (argWq m c) (argWk m c) (argWv m c) s e :=
  (hs2_v22 m (outs m) c s e).trans (v19_at4 m c hread hout hx hq hk hv (colHead e) s (colLane e))

/-! ## Stage 5: the first normalised sum, as the third region leaves it -/

theorem v25_at6 (s : Fin 4096) (e : Fin 1024) :
    Gen.V6 m (outs m) c main_v25 (ix2 s e)
      = attnOut (argX m c) (argWq m c) (argWk m c) (argWv m c) (argWo m c) (argG7 m c) (argB8 m c) s e := by
  have h6 : Gen.V6 m (outs m) c main_v25 = outs m 6 main_v25 c := by
    simp only [Gen.V6, Function.update_self]
  rw [h6, outs_v25, arr2_5 (ent2 m) c s e]
  unfold attnOut
  refine congrFun (lnorm_eq (fun e' => ?_) (fun e' => ?_) (fun e' => ?_)) e
  · -- the region adds the input to the projected context; the layer is written with the input first
    have hP : proj (fun s d => ent2 m c main_v22 (ix2 s d)) (fun d e => ent2 m c main_v4 (ix2 d e))
        = proj (context (argX m c) (argWq m c) (argWk m c) (argWv m c)) (argWo m c) :=
      proj_eq (fun s d => v22_at5 m c hread hout hx hq hk hv s d)
        (fun d e => (congrFun (v4_at5 m c) (ix2 d e)).trans (hs0_v4 m c d e))
    have hX : ent2 m c main_v0 (ix2 s e') = argX m c s e' :=
      (congrFun (v0_at5 m c) (ix2 s e')).trans (hs0_v0 m c s e')
    rw [hP, hX]
    exact add_comm _ _
  · exact (hs2_v23 m (outs m) c e').trans (congrFun (arg7_at4 m c) (ix1 e'))
  · exact (hs2_v24 m (outs m) c e').trans (congrFun (arg8_at4 m c) (ix1 e'))

/-! ## Stage 6: the transposed projection, the second normalised sum and the clamp, as the fourth region leaves them -/

theorem v29_at8 (s : Fin 4096) (e : Fin 1024) :
    Gen.V8 m (outs m) c main_v29 (ix2 s e)
      = layer (argX m c) (argWq m c) (argWk m c) (argWv m c) (argWo m c) (argW5 m c)
          (argB6 m c) (argG7 m c) (argB8 m c) (argG9 m c) (argB10 m c) s e := by
  have h8 : Gen.V8 m (outs m) c main_v29 = outs m 8 main_v29 c := by
    simp only [Gen.V8, Function.update_self]
  have hA : ∀ s e, ent3 m c main_v25 (ix2 s e)
      = attnOut (argX m c) (argWq m c) (argWk m c) (argWv m c) (argWo m c) (argG7 m c) (argB8 m c) s e := fun s e =>
    (congrFun (v25_at7 m c) (ix2 s e)).trans (v25_at6 m c hread hout hx hq hk hv s e)
  rw [h8, outs_v29, arr3_5 (ent3 m) c s e]
  unfold layer
  refine congrArg (fun t : EReal => max t 0) (congrFun (lnorm_eq (fun e' => ?_) (fun e' => ?_) (fun e' => ?_)) e)
  · -- the weight matrix was transposed by the first stretch: its column e' is the argument's row e'
    have hP : proj (fun s d => ent3 m c main_v25 (ix2 s d)) (fun d e => ent3 m c main_v6 (ix2 d e))
        = projT (attnOut (argX m c) (argWq m c) (argWk m c) (argWv m c) (argWo m c) (argG7 m c) (argB8 m c)) (argW5 m c) :=
      (proj_eq hA (fun d e => (congrFun (v6_at7 m c) (ix2 d e)).trans (hs0_v6 m c d e))).trans rfl
    have hB : ent3 m c main_v28 (ix2 0 e') = argB6 m c e' :=
      (hs3_v28 m (outs m) c e').trans (congrFun (arg6_at6 m c) (ix1 e'))
    rw [hP, hB, hA s e']
  · exact (hs3_v26 m (outs m) c e').trans (congrFun (arg9_at6 m c) (ix1 e'))
  · exact (hs3_v27 m (outs m) c e').trans (congrFun (arg10_at6 m c) (ix1 e'))

/-! ## Stage 7: the result, its leading unit axis restored -/

/-- The kernel program's result, entry by entry, is the layer of its eleven arguments. -/
theorem kernel_value (s : Fin 4096) (e : Fin 1024) :
    Gen.V9 m (outs m) c main_v30 (ix3 0 s e)
      = layer (fun s d => m ((c : Thread nD τ).loc main_arg0) (ix3 0 s d))
          (fun d e => m ((c : Thread nD τ).loc main_arg1) (ix2 d e)) (fun d e => m ((c : Thread nD τ).loc main_arg2) (ix2 d e))
          (fun d e => m ((c : Thread nD τ).loc main_arg3) (ix2 d e)) (fun d e => m ((c : Thread nD τ).loc main_arg4) (ix2 d e))
          (fun d e => m ((c : Thread nD τ).loc main_arg5) (ix2 d e))
          (fun e => m ((c : Thread nD τ).loc main_arg6) (ix1 e)) (fun e => m ((c : Thread nD τ).loc main_arg7) (ix1 e))
          (fun e => m ((c : Thread nD τ).loc main_arg8) (ix1 e)) (fun e => m ((c : Thread nD τ).loc main_arg9) (ix1 e))
          (fun e => m ((c : Thread nD τ).loc main_arg10) (ix1 e)) s e :=
  (hs4_v30 m (outs m) c s e).trans (v29_at8 m c hread hout hx hq hk hv s e)

end Attention

end Cert.KernelIdeal.Val

end
-- ==== Proof.FlashRead.lean ====
/-
  Reading what the attention kernel's run leaves in its output block. The run's three scratch buffers — running maximum
  and normaliser per (head, query row), weighted sum per (head, query row, lane) — are stored whole before the
  key-tile loop, loaded whole and stored whole by every trip, and loaded whole after it; so each trip is a function of
  the state the trip before left, the loop is the pure sixteen-step iteration, and the output block is that
  iteration's weighted sum divided by its normaliser. For any float instance: nothing here reads a payload.
-/
import proofs.«420769_j82386062672326_3_alg».proof.Proof.Region1
import proofs.«420769_j82386062672326_3_alg».proof.Proof.FlashStep
import proofs.«420769_j82386062672326_3_alg».proof.Proof.Gen.KernelIdeal.Loops
import Idealize.ShloMosaic.Lib.Pipeline.FrameBody
import Idealize.ShloMosaic.Lib.Pipeline.Value
import Idealize.ShloMosaic.Lib.Writes
import Idealize.ShloMosaic.Lib.Tactic
import Mathlib.Tactic.FinCases

noncomputable section

namespace Cert.KernelIdeal.Val

open Cert.KernelIdeal Cert.KernelIdeal.Gen Cert.KernelIdeal.Fr
open Idealize.ShloMosaic Idealize.ShloMosaic.TcCoe Idealize.ShloMosaic.Tactic

variable {F : FTy → Type} [FloatOps F]

private theorem offsets2_zero : (![0, 0] : Fin 2 → Nat) = fun _ => 0 := funext fun a => by fin_cases a <;> rfl
private theorem offsets3_zero : (![0, 0, 0] : Fin 3 → Nat) = fun _ => 0 := funext fun a => by fin_cases a <;> rfl

/-- The whole [16, 256] buffer (one number per head and query row), as a rectangle. -/
abbrev rRows1 : Rect S16x256 := Rect.unit (s := S16x256) ![0, 0] S16x256.size inb_S16x256_S16x256_0_0

/-- ONE TRIP, read. Whatever the three scratch buffers hold when trip `k` starts — read whole: a maximum, a
    normaliser, a weighted sum — the trip stores each buffer whole, once: into the first the new maximum over the
    tile's scores, into the second the normaliser rescaled plus the tile's exponentials, into the third the weighted sum
    rescaled plus the tile's weighted values. The key and value tiles are rows `256 k … 256 k + 255` of what the two
    arrays read; the query block enters as its bf16 rounding. -/
theorem trip_stores (𝒱 : Variants) (c : Dev nD) (bd : Option 𝒱.V) (i : grid1.Coords) (arg1 : Memref sig .tc .vmem S16x256x64 .f32) (harg1 : arg1.IsWhole) (arg2 : Memref sig .tc .vmem S16x4096x64 .bf16) (harg2 : arg2.IsWhole) (arg3 : Memref sig .tc .vmem S16x4096x64 .bf16) (harg3 : arg3.IsWhole) (arg4 : Memref sig .tc .vmem S16x256x64 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x256x64 .f32) (harg7 : arg7.IsWhole) (v12 : Vec F S16x256x64 .f32) (X2 : BufTy.Contents (Elt F) arg2.view.ty) (X3 : BufTy.Contents (Elt F) arg3.view.ty) (k : Fin k1_t1_loop.trips) (f5 : BufTy.Contents (Elt F) arg5.view.ty) (f6 : BufTy.Contents (Elt F) arg6.view.ty) (f7 : BufTy.Contents (Elt F) arg7.view.ty) :
    tripL_k1_t1 (F := F) 𝒱 c bd i arg1 harg1 arg2 harg2 arg3 harg3 arg4 harg4 arg5 harg5 arg6 harg6 arg7 harg7 v12 X2 X3 k f5 f6 f7
      = ([⟨rRows1, k1_pay6 (k1_pay9 (k1_pay4 v12) (tileOf (arg2.view.read (Elt F) X2) k) (arg5.view.read (Elt F) f5))⟩],
         [⟨rRows1, k1_pay12 (k1_pay4 v12) (tileOf (arg2.view.read (Elt F) X2) k) (arg5.view.read (Elt F) f5) (arg6.view.read (Elt F) f6)⟩],
         [⟨rQ1, k1_pay5 (k1_pay13 (k1_pay4 v12) (tileOf (arg2.view.read (Elt F) X2) k) (tileOf (arg3.view.read (Elt F) X3) k) (arg5.view.read (Elt F) f5) (arg7.view.read (Elt F) f7))⟩]) := by
  unfold tripL_k1_t1 trip_k1_t1
  dsimp only
  sl_unfold_run_names
  simp only [View.readAt_eq_ld, View.ld_unit_zero (S := S16x256) offsets2_zero, View.ld_unit_zero (S := S16x256x64) offsets3_zero]
  rfl

/-- A store of the whole [16, 256] buffer decides it: read back whole it holds the stored vector, whatever the
    buffer held and whatever was stored into it before. -/
theorem read_whole_store_rows (v : View sig .tc .vmem S16x256 .f32) (f : v.ty.Contents (Elt F)) (p : Vec F S16x256 .f32)
    (L : List (View.Piece (Elt F) S16x256 .f32)) :
    v.read (Elt F) (v.writes (Elt F) f (⟨rRows1, p⟩ :: L)) = p := by
  rw [View.read_writes_eq_canon _ _ _ (fun y => ⟨⟨rRows1, p⟩, List.mem_cons_self, View.mem_set_unit_zero offsets2_zero inb_S16x256_S16x256_0_0 y⟩)]
  exact View.canon_cons_unit_zero offsets2_zero _ p L

/-- The same of the whole [16, 256, 64] buffer. -/
theorem read_whole_store_block (v : View sig .tc .vmem S16x256x64 .f32) (f : v.ty.Contents (Elt F)) (p : Vec F S16x256x64 .f32)
    (L : List (View.Piece (Elt F) S16x256x64 .f32)) :
    v.read (Elt F) (v.writes (Elt F) f (⟨rQ1, p⟩ :: L)) = p := by
  rw [View.read_writes_eq_canon _ _ _ (fun y => ⟨⟨rQ1, p⟩, List.mem_cons_self, View.mem_set_unit_zero offsets3_zero inb_S16x256x64_S16x256x64_0_0_0 y⟩)]
  exact View.canon_cons_unit_zero offsets3_zero _ p L

/-- THE TRIPS, read. When the loop is entered with the three buffers reading (minus infinity, zero, zero), after `n` of
    its sixteen trips they read, whole, the `n`-th state of the pure iteration over the query block and what the key
    and value arrays read: a trip's three whole stores decide the three buffers, and what the trip loaded from them is
    the state the trips before it left. -/
theorem buffers_after_trips (𝒱 : Variants) (c : Dev nD) (bd : Option 𝒱.V) (i : grid1.Coords) (arg1 : Memref sig .tc .vmem S16x256x64 .f32) (harg1 : arg1.IsWhole) (arg2 : Memref sig .tc .vmem S16x4096x64 .bf16) (harg2 : arg2.IsWhole) (arg3 : Memref sig .tc .vmem S16x4096x64 .bf16) (harg3 : arg3.IsWhole) (arg4 : Memref sig .tc .vmem S16x256x64 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x256x64 .f32) (harg7 : arg7.IsWhole) (v12 : Vec F S16x256x64 .f32) (X2 : BufTy.Contents (Elt F) arg2.view.ty) (X3 : BufTy.Contents (Elt F) arg3.view.ty) (G5 : BufTy.Contents (Elt F) arg5.view.ty) (G6 : BufTy.Contents (Elt F) arg6.view.ty) (G7 : BufTy.Contents (Elt F) arg7.view.ty)
    (h5 : arg5.view.read (Elt F) G5 = k1_pay1) (h6 : arg6.view.read (Elt F) G6 = k1_pay2) (h7 : arg7.view.read (Elt F) G7 = k1_pay3) :
    ∀ n, n ≤ k1_t1_loop.trips →
      (arg5.view.read (Elt F) (arg5.view.writes (Elt F) G5 (pb_k1_t1 (F := F) 𝒱 c bd i arg1 harg1 arg2 harg2 arg3 harg3 arg4 harg4 arg5 harg5 arg6 harg6 arg7 harg7 v12 X2 X3 G5 G6 G7 n).1),
       arg6.view.read (Elt F) (arg6.view.writes (Elt F) G6 (pb_k1_t1 (F := F) 𝒱 c bd i arg1 harg1 arg2 harg2 arg3 harg3 arg4 harg4 arg5 harg5 arg6 harg6 arg7 harg7 v12 X2 X3 G5 G6 G7 n).2.1),
       arg7.view.read (Elt F) (arg7.view.writes (Elt F) G7 (pb_k1_t1 (F := F) 𝒱 c bd i arg1 harg1 arg2 harg2 arg3 harg3 arg4 harg4 arg5 harg5 arg6 harg6 arg7 harg7 v12 X2 X3 G5 G6 G7 n).2.2))
      = flashIter (k1_pay4 v12) (arg2.view.read (Elt F) X2) (arg3.view.read (Elt F) X3) n
  | 0, _ => by
    -- before the first trip nothing is stored over the entry contents
    rw [pb_k1_t1.eq_1]
    simp only [View.writes_nil, h5, h6, h7]
    rfl
  | n + 1, hn => by
    have hlt : n < k1_t1_loop.trips := hn
    have ih := buffers_after_trips 𝒱 c bd i arg1 harg1 arg2 harg2 arg3 harg3 arg4 harg4 arg5 harg5 arg6 harg6 arg7 harg7 v12 X2 X3 G5 G6 G7 h5 h6 h7 n (Nat.le_of_lt hlt)
    -- trip `n`'s stores go in front of the earlier trips'
    rw [pb_k1_t1_succ (F := F) 𝒱 c bd i arg1 harg1 arg2 harg2 arg3 harg3 arg4 harg4 arg5 harg5 arg6 harg6 arg7 harg7 v12 X2 X3 G5 G6 G7 ⟨n, hlt⟩]
    generalize pb_k1_t1 (F := F) 𝒱 c bd i arg1 harg1 arg2 harg2 arg3 harg3 arg4 harg4 arg5 harg5 arg6 harg6 arg7 harg7 v12 X2 X3 G5 G6 G7 n = P at ih ⊢
    have e5 := congrArg (fun s => s.1) ih
    have e6 := congrArg (fun s => s.2.1) ih
    have e7 := congrArg (fun s => s.2.2) ih
    dsimp only at e5 e6 e7
    -- what trip `n` loads is the state after `n` trips; what it stores whole is what the buffers then read
    rw [trip_stores, e5, e6, e7]
    simp only [List.cons_append, List.nil_append, read_whole_store_rows, read_whole_store_block]
    rw [flashIter, dif_pos hlt]
    rfl

/-- THE RUN, read. The body's vector in the output block is the weighted sum divided by the normaliser after the
    sixteenth trip. The three stores before the loop set the buffers whole to (minus infinity, zero, zero), so nothing
    the buffers held on entry is read; the loop takes them through the pure iteration over the query block, read whole,
    and the key and value arrays; the two loads after the loop read the normaliser and the weighted sum whole; the one
    store into the output block is whole. -/
theorem kernelRun1_eq_flashOut (c : Dev nD) (i : grid1.Coords) (arg1 : Memref sig .tc .vmem S16x256x64 .f32) (harg1 : arg1.IsWhole) (arg2 : Memref sig .tc .vmem S16x4096x64 .bf16) (harg2 : arg2.IsWhole) (arg3 : Memref sig .tc .vmem S16x4096x64 .bf16) (harg3 : arg3.IsWhole) (arg4 : Memref sig .tc .vmem S16x256x64 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x256x64 .f32) (harg7 : arg7.IsWhole) (x0 : Vec F S16x256x64 .f32) (x1 x2 : Vec F S16x4096x64 .bf16) :
    (kernelRun1 c i arg1 harg1 arg2 harg2 arg3 harg3 arg4 harg4 arg5 harg5 arg6 harg6 arg7 harg7 x0 x1 x2).1 = flashOut x0 x1 x2 := by
  unfold kernelRun1
  dsimp only
  sl_unfold_run_names
  rw [View.canon_unit_zero offsets3_zero]
  simp only [View.readAt_eq_ld, View.ld_unit_zero (S := S16x256) offsets2_zero, View.ld_unit_zero (S := S16x256x64) offsets3_zero,
    harg1.read_unread, View.writes_append]
  have hb := buffers_after_trips (F := F) Variants.none c none i arg1 harg1 arg2 harg2 arg3 harg3 arg4 harg4 arg5 harg5 arg6 harg6 arg7 harg7 x0 (harg2.unread x1) (harg3.unread x2)
    (arg5.view.writes (Elt F) arg5.view.junk [⟨rRows1, k1_pay1⟩]) (arg6.view.writes (Elt F) arg6.view.junk [⟨rRows1, k1_pay2⟩])
    (arg7.view.writes (Elt F) arg7.view.junk [⟨rQ1, k1_pay3⟩])
    (read_whole_store_rows _ _ _ []) (read_whole_store_rows _ _ _ []) (read_whole_store_block _ _ _ []) k1_t1_loop.trips (Nat.le_refl _)
  rw [harg2.read_unread, harg3.read_unread] at hb
  have e6 := congrArg (fun s => s.2.1) hb
  have e7 := congrArg (fun s => s.2.2) hb
  dsimp only at e6 e7
  unfold flashOut
  rw [← e6, ← e7]

/-- What the attention region's body leaves in its output block at any grid point is the pure tile-by-tile iteration
    on the three input blocks: neither the point nor the staging buffers enter. -/
theorem out1_3_eq (c : Dev nD) (t : Fin cfg1.N) (x0 : Vec F S16x256x64 .f32) (x1 x2 : Vec F S16x4096x64 .bf16) :
    out1_3 c t x0 x1 x2 = flashOut x0 x1 x2 := by
  unfold out1_3
  exact kernelRun1_eq_flashOut ..

end Cert.KernelIdeal.Val

end
-- ==== Proof.FlashTile.lean ====
/-
  The attention kernel's tile-by-tile iteration read at one index, on the extended reals (format changes are the
  identity there). For one head, one query row of the block and one lane, each trip's new maximum, normaliser and
  weighted sum are the scalar step of the running softmax on that row's 4096 scores and that lane's 4096 values, so
  the iteration is the scalar recursion and the output is its weighted sum over its normaliser. Unfolding and
  re-indexing only: nothing here asks the data to be finite.
-/
import proofs.«420769_j82386062672326_3_alg».proof.Proof.FlashStep
import proofs.«420769_j82386062672326_3_alg».proof.Proof.OnlineSoftmax
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Cert.Online
open Idealize.ShloMosaic Idealize.ShloMosaic.TcCoe Idealize.ShloMosaic.ValueIdx

/-- The scores' product: the head is the batch axis of both operands. -/
theorem scoreDot_lhs_head (j : S16x256x256.Idx) (q : dot_S16x256x64_S16x256x64_S16x256x256_2_2_1_1_0_0.contr.Idx) :
    (dot_S16x256x64_S16x256x64_S16x256x256_2_2_1_1_0_0.lhsIdx j q 0).val = (j 0).val := by
  unfold DotDims.lhsIdx
  rw [dif_pos (show (0 : Fin S16x256x64.rank) ∈ dot_S16x256x64_S16x256x64_S16x256x256_2_2_1_1_0_0.lhsBatch by decide)]
  rfl
theorem scoreDot_lhs_row (j : S16x256x256.Idx) (q : dot_S16x256x64_S16x256x64_S16x256x256_2_2_1_1_0_0.contr.Idx) :
    (dot_S16x256x64_S16x256x64_S16x256x256_2_2_1_1_0_0.lhsIdx j q 1).val = (j 1).val := by
  unfold DotDims.lhsIdx
  rw [dif_neg (show ¬(1 : Fin S16x256x64.rank) ∈ dot_S16x256x64_S16x256x64_S16x256x256_2_2_1_1_0_0.lhsBatch by decide),
    dif_pos (show (1 : Fin S16x256x64.rank) ∈ dot_S16x256x64_S16x256x64_S16x256x256_2_2_1_1_0_0.lhsNonContracting by decide)]
  rfl
theorem scoreDot_lhs_lane (j : S16x256x256.Idx) (q : dot_S16x256x64_S16x256x64_S16x256x256_2_2_1_1_0_0.contr.Idx) :
    (dot_S16x256x64_S16x256x64_S16x256x256_2_2_1_1_0_0.lhsIdx j q 2).val = (q ⟨0, by decide⟩).val :=
  dot_S16x256x64_S16x256x64_S16x256x256_2_2_1_1_0_0.lhsIdx_val_of_single rfl j q
theorem scoreDot_rhs_head (j : S16x256x256.Idx) (q : dot_S16x256x64_S16x256x64_S16x256x256_2_2_1_1_0_0.contr.Idx) :
    (dot_S16x256x64_S16x256x64_S16x256x256_2_2_1_1_0_0.rhsIdx j q 0).val = (j 0).val := by
  unfold DotDims.rhsIdx
  rw [dif_pos (show (0 : Fin S16x256x64.rank) ∈ dot_S16x256x64_S16x256x64_S16x256x256_2_2_1_1_0_0.rhsBatch by decide)]
  rfl
theorem scoreDot_rhs_key (j : S16x256x256.Idx) (q : dot_S16x256x64_S16x256x64_S16x256x256_2_2_1_1_0_0.contr.Idx) :
    (dot_S16x256x64_S16x256x64_S16x256x256_2_2_1_1_0_0.rhsIdx j q 1).val = (j 2).val := by
  unfold DotDims.rhsIdx
  rw [dif_neg (show ¬(1 : Fin S16x256x64.rank) ∈ dot_S16x256x64_S16x256x64_S16x256x256_2_2_1_1_0_0.rhsBatch by decide),
    dif_pos (show (1 : Fin S16x256x64.rank) ∈ dot_S16x256x64_S16x256x64_S16x256x256_2_2_1_1_0_0.rhsNonContracting by decide)]
  rfl
theorem scoreDot_rhs_lane (j : S16x256x256.Idx) (q : dot_S16x256x64_S16x256x64_S16x256x256_2_2_1_1_0_0.contr.Idx) :
    (dot_S16x256x64_S16x256x64_S16x256x256_2_2_1_1_0_0.rhsIdx j q 2).val = (q ⟨0, by decide⟩).val :=
  dot_S16x256x64_S16x256x64_S16x256x256_2_2_1_1_0_0.rhsIdx_val_of_single rfl j q

/-- The scaled scores at (head, query row, key of the tile): the lane sum of query times key, times one eighth. -/
theorem pay8_apply (q : FVec Ideal S16x256x64 .bf16) (t : Vec Ideal S16x256x64 .bf16) (h : Fin 16) (i jj : Fin 256) :
    k1_pay8 q t (ix3 h i jj) = (∑ d : Fin 64, q (ix3 h i d) * t (ix3 h jj d)) * Ideal.ofBits .f32 0x3E000000#32 := by
  unfold k1_pay8
  rw [shapeCast_self]
  refine (mulf_apply _ _ _).trans ?_
  refine congrArg (· * _) ?_
  simp only [matmul]
  rw [Ideal.matmul_constant_zero_apply, ← Equiv.sum_comp (contrEquiv1 dot_S16x256x64_S16x256x64_S16x256x256_2_2_1_1_0_0 64 rfl rfl).symm]
  refine Finset.sum_congr rfl fun d _ => ?_
  have hd := contrEquiv1_symm_val dot_S16x256x64_S16x256x64_S16x256x256_2_2_1_1_0_0 64 rfl rfl d
  have el : dot_S16x256x64_S16x256x64_S16x256x256_2_2_1_1_0_0.lhsIdx (ix3 h i jj) ((contrEquiv1 dot_S16x256x64_S16x256x64_S16x256x256_2_2_1_1_0_0 64 rfl rfl).symm d) = ix3 h i d :=
    funext fun a => Fin.ext (by
      match a with
      | ⟨0, _⟩ => exact scoreDot_lhs_head _ _
      | ⟨1, _⟩ => exact scoreDot_lhs_row _ _
      | ⟨2, _⟩ => exact (scoreDot_lhs_lane _ _).trans hd)
  have er : dot_S16x256x64_S16x256x64_S16x256x256_2_2_1_1_0_0.rhsIdx (ix3 h i jj) ((contrEquiv1 dot_S16x256x64_S16x256x64_S16x256x256_2_2_1_1_0_0 64 rfl rfl).symm d) = ix3 h jj d :=
    funext fun a => Fin.ext (by
      match a with
      | ⟨0, _⟩ => exact scoreDot_rhs_head _ _
      | ⟨1, _⟩ => exact scoreDot_rhs_key _ _
      | ⟨2, _⟩ => exact (scoreDot_rhs_lane _ _).trans hd)
  rw [el, er]

/-- The new running maximum at (head, query row): the old one against the maximum of the row's scores over the tile. -/
theorem pay9_apply (q : FVec Ideal S16x256x64 .bf16) (t : Vec Ideal S16x256x64 .bf16) (m : Vec Ideal S16x256 .f32) (h : Fin 16) (i : Fin 256) :
    k1_pay9 q t m (ix2 h i)
      = max (m (ix2 h i)) ((Finset.univ : Finset (Fin 256)).fold max (⊥ : EReal) (fun jj => k1_pay8 q t (ix3 h i jj))) := by
  unfold k1_pay9
  generalize k1_pay8 q t = s
  refine (maximumf_apply _ _ _).trans ?_
  refine congrArg (max _) ?_
  refine (Ideal.multiReduction_maximumf_single s _ reduces_S16x256x256_S16x256 _ _ (ix2 h i)).trans ?_
  rw [show FloatOps.ofBits (F := Ideal) .f32 0xFF800000#32 = (⊥ : EReal) from negInf_word]
  refine congrArg (Finset.fold max ⊥ · Finset.univ) (funext fun jj => ?_)
  exact congrArg s (funext fun a => Fin.ext (by match a with | ⟨0, _⟩ => rfl | ⟨1, _⟩ => rfl | ⟨2, _⟩ => rfl))

/-- A per-(head, row) quantity given a unit key axis and spread along the 256 keys reads the quantity at (head, row). -/
theorem spreadKeys_apply {α : Type} (v : S16x256.Idx → α) (h : Fin 16) (i jj : Fin 256) :
    broadcastTo S16x256x256 (shapeCast S16x256x1 v shapeCasts_S16x256_S16x256x1) broadcasts_S16x256x1_S16x256x256 (ix3 h i jj)
      = v (ix2 h i) := by
  refine (broadcastTo_apply _ broadcasts_S16x256x1_S16x256x256 (ix3 h i jj) (ix3 h i (0 : Fin 1)) fun a => ?_).trans ?_
  · match a with
    | ⟨0, _⟩ => show h.val = if (16 : ℕ) = 1 then 0 else h.val; rw [if_neg (by decide)]
    | ⟨1, _⟩ => show i.val = if (256 : ℕ) = 1 then 0 else i.val; rw [if_neg (by decide)]
    | ⟨2, _⟩ => show 0 = if (1 : ℕ) = 1 then 0 else jj.val; rw [if_pos rfl]
  · refine shapeCast_apply v shapeCasts_S16x256_S16x256x1 (ix3 h i (0 : Fin 1)) (ix2 h i) ?_
    rw [Shape.rowMajor_val_two, Shape.rowMajor_val_three]
    show h.val * 256 + i.val = (h.val * 256 + i.val) * 1 + 0
    omega

/-- The same spread along the 64 lanes. -/
theorem spreadLanes_apply {α : Type} (v : S16x256.Idx → α) (h : Fin 16) (i : Fin 256) (d : Fin 64) :
    broadcastTo S16x256x64 (shapeCast S16x256x1 v shapeCasts_S16x256_S16x256x1) broadcasts_S16x256x1_S16x256x64 (ix3 h i d)
      = v (ix2 h i) := by
  refine (broadcastTo_apply _ broadcasts_S16x256x1_S16x256x64 (ix3 h i d) (ix3 h i (0 : Fin 1)) fun a => ?_).trans ?_
  · match a with
    | ⟨0, _⟩ => show h.val = if (16 : ℕ) = 1 then 0 else h.val; rw [if_neg (by decide)]
    | ⟨1, _⟩ => show i.val = if (256 : ℕ) = 1 then 0 else i.val; rw [if_neg (by decide)]
    | ⟨2, _⟩ => show 0 = if (1 : ℕ) = 1 then 0 else d.val; rw [if_pos rfl]
  · refine shapeCast_apply v shapeCasts_S16x256_S16x256x1 (ix3 h i (0 : Fin 1)) (ix2 h i) ?_
    rw [Shape.rowMajor_val_two, Shape.rowMajor_val_three]
    show h.val * 256 + i.val = (h.val * 256 + i.val) * 1 + 0
    omega

/-- The rescaling factor at (head, query row): the exponential of the old maximum minus the new one. -/
theorem pay10_apply (q : FVec Ideal S16x256x64 .bf16) (t : Vec Ideal S16x256x64 .bf16) (m : Vec Ideal S16x256 .f32) (h : Fin 16) (i : Fin 256) :
    k1_pay10 q t m (ix2 h i) = Ideal.exp (m (ix2 h i) - k1_pay9 q t m (ix2 h i)) := rfl

/-- The tile's exponentials at (head, query row, key): the exponential of the score minus the new maximum of the row. -/
theorem pay11_apply (q : FVec Ideal S16x256x64 .bf16) (t : Vec Ideal S16x256x64 .bf16) (m : Vec Ideal S16x256 .f32) (h : Fin 16) (i jj : Fin 256) :
    k1_pay11 q t m (ix3 h i jj) = Ideal.exp (k1_pay8 q t (ix3 h i jj) - k1_pay9 q t m (ix2 h i)) := by
  unfold k1_pay11
  generalize k1_pay8 q t = s
  generalize k1_pay9 q t m = m'
  show Ideal.exp (s (ix3 h i jj) - _) = _
  rw [spreadKeys_apply]

/-- The new normaliser at (head, query row): the old one rescaled plus the tile's exponentials summed over its keys. -/
theorem pay12_apply (q : FVec Ideal S16x256x64 .bf16) (t : Vec Ideal S16x256x64 .bf16) (m n : Vec Ideal S16x256 .f32) (h : Fin 16) (i : Fin 256) :
    k1_pay12 q t m n (ix2 h i)
      = k1_pay10 q t m (ix2 h i) * n (ix2 h i) + ∑ jj : Fin 256, k1_pay11 q t m (ix3 h i jj) := by
  unfold k1_pay12
  generalize k1_pay10 q t m = r
  generalize k1_pay11 q t m = p
  rw [shapeCast_self]
  refine (addf_apply _ _ _).trans ?_
  refine congrArg (r (ix2 h i) * n (ix2 h i) + ·) ?_
  refine (Ideal.multiReduction_add_single p _ reduces_S16x256x256_S16x256 _ _ (ix2 h i)).trans ?_
  refine Finset.sum_congr rfl fun jj _ => ?_
  exact congrArg p (funext fun a => Fin.ext (by match a with | ⟨0, _⟩ => rfl | ⟨1, _⟩ => rfl | ⟨2, _⟩ => rfl))

/-- The weighted values' product: the head is the batch axis; the tile's key axis is contracted. -/
theorem valueDot_lhs_head (j : S16x256x64.Idx) (q : dot_S16x256x256_S16x256x64_S16x256x64_2_1_1_2_0_0.contr.Idx) :
    (dot_S16x256x256_S16x256x64_S16x256x64_2_1_1_2_0_0.lhsIdx j q 0).val = (j 0).val := by
  unfold DotDims.lhsIdx
  rw [dif_pos (show (0 : Fin S16x256x256.rank) ∈ dot_S16x256x256_S16x256x64_S16x256x64_2_1_1_2_0_0.lhsBatch by decide)]
  rfl
theorem valueDot_lhs_row (j : S16x256x64.Idx) (q : dot_S16x256x256_S16x256x64_S16x256x64_2_1_1_2_0_0.contr.Idx) :
    (dot_S16x256x256_S16x256x64_S16x256x64_2_1_1_2_0_0.lhsIdx j q 1).val = (j 1).val := by
  unfold DotDims.lhsIdx
  rw [dif_neg (show ¬(1 : Fin S16x256x256.rank) ∈ dot_S16x256x256_S16x256x64_S16x256x64_2_1_1_2_0_0.lhsBatch by decide),
    dif_pos (show (1 : Fin S16x256x256.rank) ∈ dot_S16x256x256_S16x256x64_S16x256x64_2_1_1_2_0_0.lhsNonContracting by decide)]
  rfl
theorem valueDot_lhs_key (j : S16x256x64.Idx) (q : dot_S16x256x256_S16x256x64_S16x256x64_2_1_1_2_0_0.contr.Idx) :
    (dot_S16x256x256_S16x256x64_S16x256x64_2_1_1_2_0_0.lhsIdx j q 2).val = (q ⟨0, by decide⟩).val :=
  dot_S16x256x256_S16x256x64_S16x256x64_2_1_1_2_0_0.lhsIdx_val_of_single rfl j q
theorem valueDot_rhs_head (j : S16x256x64.Idx) (q : dot_S16x256x256_S16x256x64_S16x256x64_2_1_1_2_0_0.contr.Idx) :
    (dot_S16x256x256_S16x256x64_S16x256x64_2_1_1_2_0_0.rhsIdx j q 0).val = (j 0).val := by
  unfold DotDims.rhsIdx
  rw [dif_pos (show (0 : Fin S16x256x64.rank) ∈ dot_S16x256x256_S16x256x64_S16x256x64_2_1_1_2_0_0.rhsBatch by decide)]
  rfl
theorem valueDot_rhs_key (j : S16x256x64.Idx) (q : dot_S16x256x256_S16x256x64_S16x256x64_2_1_1_2_0_0.contr.Idx) :
    (dot_S16x256x256_S16x256x64_S16x256x64_2_1_1_2_0_0.rhsIdx j q 1).val = (q ⟨0, by decide⟩).val :=
  dot_S16x256x256_S16x256x64_S16x256x64_2_1_1_2_0_0.rhsIdx_val_of_single rfl j q
theorem valueDot_rhs_lane (j : S16x256x64.Idx) (q : dot_S16x256x256_S16x256x64_S16x256x64_2_1_1_2_0_0.contr.Idx) :
    (dot_S16x256x256_S16x256x64_S16x256x64_2_1_1_2_0_0.rhsIdx j q 2).val = (j 2).val := by
  unfold DotDims.rhsIdx
  rw [dif_neg (show ¬(2 : Fin S16x256x64.rank) ∈ dot_S16x256x256_S16x256x64_S16x256x64_2_1_1_2_0_0.rhsBatch by decide),
    dif_pos (show (2 : Fin S16x256x64.rank) ∈ dot_S16x256x256_S16x256x64_S16x256x64_2_1_1_2_0_0.rhsNonContracting by decide)]
  rfl

/-- The new weighted sum at (head, query row, lane): the old one rescaled plus the tile's exponentials times its values,
    summed over its keys. -/
theorem pay13_apply (q : FVec Ideal S16x256x64 .bf16) (t v : Vec Ideal S16x256x64 .bf16) (m : Vec Ideal S16x256 .f32)
    (a : Vec Ideal S16x256x64 .f32) (h : Fin 16) (i : Fin 256) (d : Fin 64) :
    k1_pay13 q t v m a (ix3 h i d)
      = k1_pay10 q t m (ix2 h i) * a (ix3 h i d) + ∑ jj : Fin 256, k1_pay11 q t m (ix3 h i jj) * v (ix3 h jj d) := by
  unfold k1_pay13
  generalize k1_pay10 q t m = r
  generalize k1_pay11 q t m = p
  rw [shapeCast_self]
  refine (addf_apply _ _ _).trans ?_
  refine congr (congrArg HAdd.hAdd ?_) ?_
  · refine (mulf_apply _ _ _).trans ?_
    rw [spreadLanes_apply]
  · simp only [matmul]
    rw [Ideal.matmul_constant_zero_apply, ← Equiv.sum_comp (contrEquiv1 dot_S16x256x256_S16x256x64_S16x256x64_2_1_1_2_0_0 256 rfl rfl).symm]
    refine Finset.sum_congr rfl fun jj _ => ?_
    have hj := contrEquiv1_symm_val dot_S16x256x256_S16x256x64_S16x256x64_2_1_1_2_0_0 256 rfl rfl jj
    have el : dot_S16x256x256_S16x256x64_S16x256x64_2_1_1_2_0_0.lhsIdx (ix3 h i d) ((contrEquiv1 dot_S16x256x256_S16x256x64_S16x256x64_2_1_1_2_0_0 256 rfl rfl).symm jj) = ix3 h i jj :=
      funext fun b => Fin.ext (by
        match b with
        | ⟨0, _⟩ => exact valueDot_lhs_head _ _
        | ⟨1, _⟩ => exact valueDot_lhs_row _ _
        | ⟨2, _⟩ => exact (valueDot_lhs_key _ _).trans hj)
    have er : dot_S16x256x256_S16x256x64_S16x256x64_2_1_1_2_0_0.rhsIdx (ix3 h i d) ((contrEquiv1 dot_S16x256x256_S16x256x64_S16x256x64_2_1_1_2_0_0 256 rfl rfl).symm jj) = ix3 h jj d :=
      funext fun b => Fin.ext (by
        match b with
        | ⟨0, _⟩ => exact valueDot_rhs_head _ _
        | ⟨1, _⟩ => exact (valueDot_rhs_key _ _).trans hj
        | ⟨2, _⟩ => exact valueDot_rhs_lane _ _)
    rw [el, er]
    rfl

/-- The output at (head, query row, lane): the weighted sum over the normaliser of the row. -/
theorem pay7_apply (n : Vec Ideal S16x256 .f32) (a : Vec Ideal S16x256x64 .f32) (h : Fin 16) (i : Fin 256) (d : Fin 64) :
    k1_pay7 n a (ix3 h i d) = Ideal.div (a (ix3 h i d)) (n (ix2 h i)) := by
  unfold k1_pay7
  refine (divf_apply _ _ _).trans ?_
  rw [spreadLanes_apply]

/-- Trip `k`'s tile at (head, key `jj` of the tile, lane): the whole array at key `256 k + jj`. -/
theorem tileOf_apply {F : FTy → Type} [FloatOps F] (x : Vec F S16x4096x64 .bf16) (k : Fin k1_t1_loop.trips)
    (h : Fin 16) (jj : Fin 256) (d : Fin 64) :
    tileOf x k (ix3 h jj d) = x (ix3 h (keyAt k.val jj) d) := by
  have hk : k.val < 16 := trips_eq ▸ k.isLt
  have e0 : k1_off1 k 0 = 0 := congrFun (k1_off1_eq k) 0
  have e1 : k1_off1 k 1 = 256 * k.val := congrFun (k1_off1_eq k) 1
  have e2 : k1_off1 k 2 = 0 := congrFun (k1_off1_eq k) 2
  unfold tileOf
  show x _ = x _
  refine congrArg x (funext fun a => Fin.ext ?_)
  match a with
  | ⟨0, _⟩ => show k1_off1 k 0 + 1 * h.val = h.val; omega
  | ⟨1, _⟩ => show k1_off1 k 1 + 1 * jj.val = (256 * k.val + jj.val) % 4096; have := jj.isLt; omega
  | ⟨2, _⟩ => show k1_off1 k 2 + 1 * d.val = d.val; omega

/-- The query block's format change is the identity on extended reals. -/
theorem pay4_eq (x0 : Vec Ideal S16x256x64 .f32) : k1_pay4 x0 = fun j => x0 j := by
  unfold k1_pay4
  rw [shapeCast_self]
  rfl

/-- The two casts that carry the new maximum and the new weighted sum to their stores are identities. -/
theorem pay5_eq (a : FVec Ideal S16x256x64 .f32) : k1_pay5 a = a := shapeCast_self _ _
theorem pay6_eq (m : FVec Ideal S16x256 .f32) : k1_pay6 m = m := shapeCast_self _ _

/-- Before the first tile: the maximum is minus infinity, the normaliser and the weighted sum are zero. -/
theorem pay1_apply (j : S16x256.Idx) : k1_pay1 (F := Ideal) j = (⊥ : EReal) := by
  unfold k1_pay1
  rw [shapeCast_self]
  exact negInf_word
theorem flash_pay2_apply (j : S16x256.Idx) : k1_pay2 (F := Ideal) j = (0 : EReal) := by
  unfold k1_pay2
  rw [shapeCast_self]
  exact Ideal.ofBits_zero_f32
theorem pay3_apply (j : S16x256x64.Idx) : k1_pay3 (F := Ideal) j = (0 : EReal) := by
  unfold k1_pay3
  rw [shapeCast_self]
  exact Ideal.ofBits_zero_f32

/-- One query row's scores against all 4096 keys of its head (the product with one eighth, as the kernel spells it), and one lane of the values. -/
def scoreRow (q : FVec Ideal S16x256x64 .bf16) (x1 : Vec Ideal S16x4096x64 .bf16) (h : Fin 16) (i : Fin 256) : Fin 4096 → EReal :=
  fun j => (∑ d : Fin 64, q (ix3 h i d) * x1 (ix3 h j d)) * Ideal.ofBits .f32 0x3E000000#32

def valueLane (x2 : Vec Ideal S16x4096x64 .bf16) (h : Fin 16) (d : Fin 64) : Fin 4096 → EReal := fun j => x2 (ix3 h j d)

/-- The scores of trip `k`'s tile are the row's scores at the tile's keys. -/
theorem pay8_tile (q : FVec Ideal S16x256x64 .bf16) (x1 : Vec Ideal S16x4096x64 .bf16) (k : Fin k1_t1_loop.trips)
    (h : Fin 16) (i jj : Fin 256) :
    k1_pay8 q (tileOf x1 k) (ix3 h i jj) = scoreRow q x1 h i (keyAt k.val jj) := by
  rw [pay8_apply]
  unfold scoreRow
  refine congrArg (· * _) (Finset.sum_congr rfl fun d _ => ?_)
  rw [tileOf_apply]

/-- The new maximum after trip `k`, from the row's scores. -/
theorem pay9_tile (q : FVec Ideal S16x256x64 .bf16) (x1 : Vec Ideal S16x4096x64 .bf16) (k : Fin k1_t1_loop.trips)
    (m : Vec Ideal S16x256 .f32) (h : Fin 16) (i : Fin 256) :
    k1_pay9 q (tileOf x1 k) m (ix2 h i) = max (m (ix2 h i)) (tileMax (scoreRow q x1 h i) k.val) := by
  rw [pay9_apply]
  unfold tileMax
  refine congrArg (max _) (congrArg (Finset.fold max ⊥ · Finset.univ) (funext fun jj => ?_))
  exact pay8_tile q x1 k h i jj

/-- One trip read at (head, query row, lane): the scalar recursion's step from the old state's three entries. -/
theorem flashStep_apply (q : FVec Ideal S16x256x64 .bf16) (x1 x2 : Vec Ideal S16x4096x64 .bf16) (k : Fin k1_t1_loop.trips)
    (st : FlashState Ideal) (h : Fin 16) (i : Fin 256) (d : Fin 64) :
    (flashStep q x1 x2 k st).1 (ix2 h i) = max (st.1 (ix2 h i)) (tileMax (scoreRow q x1 h i) k.val)
    ∧ (flashStep q x1 x2 k st).2.1 (ix2 h i)
        = Ideal.exp (st.1 (ix2 h i) - max (st.1 (ix2 h i)) (tileMax (scoreRow q x1 h i) k.val)) * st.2.1 (ix2 h i)
          + ∑ jj : Fin 256, Ideal.exp (scoreRow q x1 h i (keyAt k.val jj) - max (st.1 (ix2 h i)) (tileMax (scoreRow q x1 h i) k.val))
    ∧ (flashStep q x1 x2 k st).2.2 (ix3 h i d)
        = Ideal.exp (st.1 (ix2 h i) - max (st.1 (ix2 h i)) (tileMax (scoreRow q x1 h i) k.val)) * st.2.2 (ix3 h i d)
          + ∑ jj : Fin 256, Ideal.exp (scoreRow q x1 h i (keyAt k.val jj) - max (st.1 (ix2 h i)) (tileMax (scoreRow q x1 h i) k.val))
              * valueLane x2 h d (keyAt k.val jj) := by
  unfold flashStep
  refine ⟨?_, ?_, ?_⟩
  · show k1_pay6 (k1_pay9 q (tileOf x1 k) st.1) (ix2 h i) = _
    rw [pay6_eq, pay9_tile]
  · show k1_pay12 q (tileOf x1 k) st.1 st.2.1 (ix2 h i) = _
    rw [pay12_apply, pay10_apply, pay9_tile]
    refine congrArg (_ + ·) (Finset.sum_congr rfl fun jj _ => ?_)
    rw [pay11_apply, pay8_tile, pay9_tile]
  · show k1_pay5 (k1_pay13 q (tileOf x1 k) (tileOf x2 k) st.1 st.2.2) (ix3 h i d) = _
    rw [pay5_eq, pay13_apply, pay10_apply, pay9_tile]
    refine congrArg (_ + ·) (Finset.sum_congr rfl fun jj _ => ?_)
    rw [pay11_apply, pay8_tile, pay9_tile, tileOf_apply]
    rfl

/-- The tile-by-tile iteration read at (head, query row, lane) is the scalar recursion on the row's scores and the
    lane's values: the maximum, the normaliser and the weighted sum together, since the last two read the first. -/
theorem flashIter_apply (q : FVec Ideal S16x256x64 .bf16) (x1 x2 : Vec Ideal S16x4096x64 .bf16) (n : ℕ) (hn : n ≤ 16)
    (h : Fin 16) (i : Fin 256) (d : Fin 64) :
    (flashIter q x1 x2 n).1 (ix2 h i) = (state (scoreRow q x1 h i) (valueLane x2 h d) n).1
    ∧ (flashIter q x1 x2 n).2.1 (ix2 h i) = (state (scoreRow q x1 h i) (valueLane x2 h d) n).2.1
    ∧ (flashIter q x1 x2 n).2.2 (ix3 h i d) = (state (scoreRow q x1 h i) (valueLane x2 h d) n).2.2 := by
  induction n with
  | zero => exact ⟨pay1_apply (ix2 h i), flash_pay2_apply (ix2 h i), pay3_apply (ix3 h i d)⟩
  | succ n ih =>
    obtain ⟨ihm, ihn, iha⟩ := ih (Nat.le_of_succ_le hn)
    have hlt : n < k1_t1_loop.trips := trips_eq ▸ hn
    obtain ⟨sm, sn, sa⟩ := flashStep_apply q x1 x2 ⟨n, hlt⟩ (flashIter q x1 x2 n) h i d
    rw [ihm] at sm sn sa
    rw [ihn] at sn
    rw [iha] at sa
    rw [flashIter, dif_pos hlt, state]
    exact ⟨sm, sn, sa⟩

/-- The output block at (head, query row, lane): after the sixteen tiles, the weighted sum over the normaliser. -/
theorem flashOut_apply (x0 : Vec Ideal S16x256x64 .f32) (x1 x2 : Vec Ideal S16x4096x64 .bf16) (h : Fin 16) (i : Fin 256) (d : Fin 64) :
    flashOut x0 x1 x2 (ix3 h i d)
      = Ideal.div (state (scoreRow (fun j => x0 j) x1 h i) (valueLane x2 h d) 16).2.2
          (state (scoreRow (fun j => x0 j) x1 h i) (valueLane x2 h d) 16).2.1 := by
  unfold flashOut
  rw [pay7_apply, pay4_eq, trips_eq]
  obtain ⟨_, en, ea⟩ := flashIter_apply (fun j => x0 j) x1 x2 16 (Nat.le_refl 16) h i d
  rw [en, ea]

end Cert.KernelIdeal.Val

end
-- ==== Proof.Finite.lean ====
import proofs.«420769_j82386062672326_3_alg».proof.Defs
import proofs.«420769_j82386062672326_3_alg».proof.Proof.Gen.Pre_finite_inputs
import Idealize.ShloMosaic.Lib.ReduceAll
import Idealize.ShloMosaic.Lib.ValueIdx

noncomputable section

namespace Cert.KernelIdeal.Val

open Idealize.ShloMosaic Idealize.SL.Sem Idealize.ShloMosaic.ValueIdx
open Cert.Pre_finite_inputs (S_)

/-- The scalar shape has exactly one index. -/
instance scalarIdxSubsingleton : Subsingleton S_.Idx := ⟨fun a b => funext fun d => d.elim0⟩

/-- The f32 word `0x7F800000` denotes `+∞`. -/
theorem posInf_eq_top : Ideal.ofBits .f32 0x7F800000#32 = (⊤ : EReal) := by
  simp [Ideal.ofBits, Ideal.ieee]

/-- An extended real whose absolute value `max x (-x)` compares strictly below `+∞` is a real number:
    at `⊥` and at `⊤` the absolute value is `⊤`, which is not below `⊤`. -/
theorem real_of_abs_lt_posInf (x : EReal)
    (h : Ideal.cmp .olt (max x (-x)) (Ideal.ofBits .f32 0x7F800000#32) = 1#1) : ∃ r : ℝ, x = (r : EReal) := by
  rw [posInf_eq_top] at h
  induction x using EReal.rec with
  | bot => simp [Ideal.cmp] at h
  | coe r => exact ⟨r, rfl⟩
  | top => simp [Ideal.cmp] at h

/-- One array of the precondition: if the `and` over all entries of `|x| < +∞` is 1, every entry of `x` is real. -/
theorem entries_real_of_all_abs_lt_posInf {s : Shape} {axes : List (Fin s.rank)}
    (hb : S_.BroadcastsInDim s (![] : Fin 0 → Fin s.rank)) (hr : s.ReducesTo axes S_) (hu : 0 < S_.numel)
    (x : FVec Ideal s .f32)
    (e : Host.reduce IntOp.andi
          (cmpf .olt (Host.absf x) (broadcastInDim s ![] hb (constant (F := Ideal) S_ .f32 0x7F800000#32)))
          (constantI S_ 1 1#1) hr hu ix0 = 1#1) :
    ∀ i, ∃ r : ℝ, x i = (r : EReal) := by
  intro i
  have hi := Host.reduce_andi_all _ _ hr hu ix0 e i
  exact real_of_abs_lt_posInf (x i) hi

/-- From the precondition (every float argument has `all (|x| < +∞)`), every entry of every argument array is a
    real number. -/
theorem finite_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
      (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal))
      ∧ (∀ i, ∃ r : ℝ, m ((c.tc : Thread Cert.KernelIdeal.nD Cert.KernelIdeal.τ).loc Cert.KernelIdeal.main_arg5) i = (r : EReal))
      ∧ (∀ i, ∃ r : ℝ, m ((c.tc : Thread Cert.KernelIdeal.nD Cert.KernelIdeal.τ).loc Cert.KernelIdeal.main_arg6) i = (r : EReal))
      ∧ (∀ i, ∃ r : ℝ, m ((c.tc : Thread Cert.KernelIdeal.nD Cert.KernelIdeal.τ).loc Cert.KernelIdeal.main_arg7) i = (r : EReal))
      ∧ (∀ i, ∃ r : ℝ, m ((c.tc : Thread Cert.KernelIdeal.nD Cert.KernelIdeal.τ).loc Cert.KernelIdeal.main_arg8) i = (r : EReal))
      ∧ (∀ i, ∃ r : ℝ, m ((c.tc : Thread Cert.KernelIdeal.nD Cert.KernelIdeal.τ).loc Cert.KernelIdeal.main_arg9) i = (r : EReal))
      ∧ (∀ i, ∃ r : ℝ, m ((c.tc : Thread Cert.KernelIdeal.nD Cert.KernelIdeal.τ).loc Cert.KernelIdeal.main_arg10) i = (r : EReal)) := by
  have h0 := congrFun (h c) ix0
  dsimp only [Cert.Pre_finite_inputs.fn, Cert.Pre_finite_inputs.fn_part1, Cert.Pre_finite_inputs.fn_part2,
    Cert.Pre_finite_inputs.fn_part3, andi] at h0
  simp only [IntOp.andi_eq_one] at h0
  obtain ⟨⟨⟨⟨⟨⟨⟨⟨⟨⟨e0, e1⟩, e2⟩, e3⟩, e4⟩, e5⟩, e6⟩, e7⟩, e8⟩, e9⟩, e10⟩ := h0
  exact ⟨entries_real_of_all_abs_lt_posInf _ _ _ _ e0, entries_real_of_all_abs_lt_posInf _ _ _ _ e1,
    entries_real_of_all_abs_lt_posInf _ _ _ _ e2, entries_real_of_all_abs_lt_posInf _ _ _ _ e3,
    entries_real_of_all_abs_lt_posInf _ _ _ _ e4, entries_real_of_all_abs_lt_posInf _ _ _ _ e5,
    entries_real_of_all_abs_lt_posInf _ _ _ _ e6, entries_real_of_all_abs_lt_posInf _ _ _ _ e7,
    entries_real_of_all_abs_lt_posInf _ _ _ _ e8, entries_real_of_all_abs_lt_posInf _ _ _ _ e9,
    entries_real_of_all_abs_lt_posInf _ _ _ _ e10⟩

end Cert.KernelIdeal.Val

end
-- ==== Proof.RefRun.lean ====
import proofs.«420769_j82386062672326_3_alg».proof.Proof.RefReadP

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! The reference program is one transformer block on a `1×4096×1024` activation: sixteen-head attention with a
residual, a normalisation over the last axis, a linear layer with bias and a second residual, a second normalisation,
and a clamp at zero. Its @main is a straight line of 98 host operations. The line is read in four stretches; each
stretch is run from ANY entry contents `W`, and what it leaves at the one buffer the next stretch reads is the stage
function of that buffer (`ReadP.val_main_vN`) of the eleven arguments. No stretch ever spells the composed term of
an earlier one: an earlier result enters only through a hypothesis about `W`. -/

/-- Stretch one, 30 operations: the three projections of the input (queries, keys, values), each split into 16 heads
    of width 64; the scores (queries against keys, over the width) divided by 8; the softmax over the last axis
    (running maximum subtracted, exponential, division by the row sum); the probabilities against the values; the
    heads merged back into `1×4096×1024` (`main_v25`). -/
abbrev opsAttention : List (HloOp τ sig (Elt F)) :=
  [ binary main_arg0 main_arg1 main_v0 ((fun l r => Host.dotGeneral dot_S1x4096x1024_S1024x1024_S1x4096x1024_2_0_01_1_n_n none l r) : (⟨S1x4096x1024, .f32⟩ : BufTy).Contents (Elt F) → (⟨S1024x1024, .f32⟩ : BufTy).Contents (Elt F) → (⟨S1x4096x1024, .f32⟩ : BufTy).Contents (Elt F)),
    binary main_arg0 main_arg2 main_v1 ((fun l r => Host.dotGeneral dot_S1x4096x1024_S1024x1024_S1x4096x1024_2_0_01_1_n_n none l r) : (⟨S1x4096x1024, .f32⟩ : BufTy).Contents (Elt F) → (⟨S1024x1024, .f32⟩ : BufTy).Contents (Elt F) → (⟨S1x4096x1024, .f32⟩ : BufTy).Contents (Elt F)),
    binary main_arg0 main_arg3 main_v2 ((fun l r => Host.dotGeneral dot_S1x4096x1024_S1024x1024_S1x4096x1024_2_0_01_1_n_n none l r) : (⟨S1x4096x1024, .f32⟩ : BufTy).Contents (Elt F) → (⟨S1024x1024, .f32⟩ : BufTy).Contents (Elt F) → (⟨S1x4096x1024, .f32⟩ : BufTy).Contents (Elt F)),
    reshape main_v0 main_v3 rfl shapeCasts_S1x4096x1024_S1x4096x16x64,
    unary main_v3 main_v4 ((transpose S1x16x4096x64 [0, 2, 1, 3] · transposes_S1x4096x16x64_S1x16x4096x64_0_2_1_3) : (⟨S1x4096x16x64, .f32⟩ : BufTy).Contents (Elt F) → (⟨S1x16x4096x64, .f32⟩ : BufTy).Contents (Elt F)),
    reshape main_v1 main_v5 rfl shapeCasts_S1x4096x1024_S1x4096x16x64,
    unary main_v5 main_v6 ((transpose S1x16x4096x64 [0, 2, 1, 3] · transposes_S1x4096x16x64_S1x16x4096x64_0_2_1_3) : (⟨S1x4096x16x64, .f32⟩ : BufTy).Contents (Elt F) → (⟨S1x16x4096x64, .f32⟩ : BufTy).Contents (Elt F)),
    reshape main_v2 main_v7 rfl shapeCasts_S1x4096x1024_S1x4096x16x64,
    unary main_v7 main_v8 ((transpose S1x16x4096x64 [0, 2, 1, 3] · transposes_S1x4096x16x64_S1x16x4096x64_0_2_1_3) : (⟨S1x4096x16x64, .f32⟩ : BufTy).Contents (Elt F) → (⟨S1x16x4096x64, .f32⟩ : BufTy).Contents (Elt F)),
    binary main_v4 main_v6 main_v9 ((fun l r => Host.dotGeneral dot_S1x16x4096x64_S1x16x4096x64_S1x16x4096x4096_3_3_2_2_01_01 none l r) : (⟨S1x16x4096x64, .f32⟩ : BufTy).Contents (Elt F) → (⟨S1x16x4096x64, .f32⟩ : BufTy).Contents (Elt F) → (⟨S1x16x4096x4096, .f32⟩ : BufTy).Contents (Elt F)),
    nullary main_cst (constant S_ .f32 0x41000000#32),
    unary main_cst main_v10 (broadcastInDim S1x16x4096x4096 ![] bcast_S_S1x16x4096x4096 : (⟨S_, .f32⟩ : BufTy).Contents (Elt F) → (⟨S1x16x4096x4096, .f32⟩ : BufTy).Contents (Elt F)),
    binary main_v9 main_v10 main_v11 (Host.divf : (⟨S1x16x4096x4096, .f32⟩ : BufTy).Contents (Elt F) → (⟨S1x16x4096x4096, .f32⟩ : BufTy).Contents (Elt F) → (⟨S1x16x4096x4096, .f32⟩ : BufTy).Contents (Elt F)),
    nullary main_cst_0 (constant S_ .f32 0xFF800000#32),
    binary main_v11 main_cst_0 main_v12 ((fun x v => Host.reduce FloatOps.maximumf x v reducesTo_S1x16x4096x4096_S1x16x4096_d3 h_S_) : (⟨S1x16x4096x4096, .f32⟩ : BufTy).Contents (Elt F) → (⟨S_, .f32⟩ : BufTy).Contents (Elt F) → (⟨S1x16x4096, .f32⟩ : BufTy).Contents (Elt F)),
    nullary main_cst_1 (constant S_ .f32 0xFF800000#32),
    unary main_cst_1 main_v13 (broadcastInDim S1x16x4096 ![] bcast_S_S1x16x4096 : (⟨S_, .f32⟩ : BufTy).Contents (Elt F) → (⟨S1x16x4096, .f32⟩ : BufTy).Contents (Elt F)),
    binary main_v13 main_v12 main_v14 (maximumf : (⟨S1x16x4096, .f32⟩ : BufTy).Contents (Elt F) → (⟨S1x16x4096, .f32⟩ : BufTy).Contents (Elt F) → (⟨S1x16x4096, .f32⟩ : BufTy).Contents (Elt F)),
    unary main_v14 main_v15 (broadcastInDim S1x16x4096x1 ![0, 1, 2] bcast_S1x16x4096_S1x16x4096x1_0_1_2 : (⟨S1x16x4096, .f32⟩ : BufTy).Contents (Elt F) → (⟨S1x16x4096x1, .f32⟩ : BufTy).Contents (Elt F)),
    unary main_v15 main_v16 (broadcastInDim S1x16x4096x4096 ![0, 1, 2, 3] bcast_S1x16x4096x1_S1x16x4096x4096_0_1_2_3 : (⟨S1x16x4096x1, .f32⟩ : BufTy).Contents (Elt F) → (⟨S1x16x4096x4096, .f32⟩ : BufTy).Contents (Elt F)),
    binary main_v11 main_v16 main_v17 (subf : (⟨S1x16x4096x4096, .f32⟩ : BufTy).Contents (Elt F) → (⟨S1x16x4096x4096, .f32⟩ : BufTy).Contents (Elt F) → (⟨S1x16x4096x4096, .f32⟩ : BufTy).Contents (Elt F)),
    unary main_v17 main_v18 (Host.exp : (⟨S1x16x4096x4096, .f32⟩ : BufTy).Contents (Elt F) → (⟨S1x16x4096x4096, .f32⟩ : BufTy).Contents (Elt F)),
    nullary main_cst_2 (constant S_ .f32 0x00000000#32),
    binary main_v18 main_cst_2 main_v19 ((fun x v => Host.reduceAdd x v reducesTo_S1x16x4096x4096_S1x16x4096_d3 h_S_) : (⟨S1x16x4096x4096, .f32⟩ : BufTy).Contents (Elt F) → (⟨S_, .f32⟩ : BufTy).Contents (Elt F) → (⟨S1x16x4096, .f32⟩ : BufTy).Contents (Elt F)),
    unary main_v19 main_v20 (broadcastInDim S1x16x4096x1 ![0, 1, 2] bcast_S1x16x4096_S1x16x4096x1_0_1_2 : (⟨S1x16x4096, .f32⟩ : BufTy).Contents (Elt F) → (⟨S1x16x4096x1, .f32⟩ : BufTy).Contents (Elt F)),
    unary main_v20 main_v21 (broadcastInDim S1x16x4096x4096 ![0, 1, 2, 3] bcast_S1x16x4096x1_S1x16x4096x4096_0_1_2_3 : (⟨S1x16x4096x1, .f32⟩ : BufTy).Contents (Elt F) → (⟨S1x16x4096x4096, .f32⟩ : BufTy).Contents (Elt F)),
    binary main_v18 main_v21 main_v22 (Host.divf : (⟨S1x16x4096x4096, .f32⟩ : BufTy).Contents (Elt F) → (⟨S1x16x4096x4096, .f32⟩ : BufTy).Contents (Elt F) → (⟨S1x16x4096x4096, .f32⟩ : BufTy).Contents (Elt F)),
    binary main_v22 main_v8 main_v23 ((fun l r => Host.dotGeneral dot_S1x16x4096x4096_S1x16x4096x64_S1x16x4096x64_3_2_2_3_01_01 none l r) : (⟨S1x16x4096x4096, .f32⟩ : BufTy).Contents (Elt F) → (⟨S1x16x4096x64, .f32⟩ : BufTy).Contents (Elt F) → (⟨S1x16x4096x64, .f32⟩ : BufTy).Contents (Elt F)),
    unary main_v23 main_v24 ((transpose S1x4096x16x64 [0, 2, 1, 3] · transposes_S1x16x4096x64_S1x4096x16x64_0_2_1_3) : (⟨S1x16x4096x64, .f32⟩ : BufTy).Contents (Elt F) → (⟨S1x4096x16x64, .f32⟩ : BufTy).Contents (Elt F)),
    reshape main_v24 main_v25 rfl shapeCasts_S1x4096x16x64_S1x4096x1024 ]

/-- Stretch two, 31 operations: the output projection of `main_v25` (argument 4), the residual with the input
    (`main_v27`), its mean over the last axis (sum divided by 1024), the centred square's mean, the reciprocal root of
    that variance plus `1e-5`, the centred value times it, scaled by argument 7 and shifted by argument 8 (`main_v51`). -/
abbrev opsNormOne : List (HloOp τ sig (Elt F)) :=
  [ binary main_v25 main_arg4 main_v26 ((fun l r => Host.dotGeneral dot_S1x4096x1024_S1024x1024_S1x4096x1024_2_0_01_1_n_n none l r) : (⟨S1x4096x1024, .f32⟩ : BufTy).Contents (Elt F) → (⟨S1024x1024, .f32⟩ : BufTy).Contents (Elt F) → (⟨S1x4096x1024, .f32⟩ : BufTy).Contents (Elt F)),
    binary main_arg0 main_v26 main_v27 (addf : (⟨S1x4096x1024, .f32⟩ : BufTy).Contents (Elt F) → (⟨S1x4096x1024, .f32⟩ : BufTy).Contents (Elt F) → (⟨S1x4096x1024, .f32⟩ : BufTy).Contents (Elt F)),
    nullary main_cst_3 (constant S_ .f32 0x00000000#32),
    binary main_v27 main_cst_3 main_v28 ((fun x v => Host.reduceAdd x v reducesTo_S1x4096x1024_S1x4096_d2 h_S_) : (⟨S1x4096x1024, .f32⟩ : BufTy).Contents (Elt F) → (⟨S_, .f32⟩ : BufTy).Contents (Elt F) → (⟨S1x4096, .f32⟩ : BufTy).Contents (Elt F)),
    unary main_v28 main_v29 (broadcastInDim S1x4096x1 ![0, 1] bcast_S1x4096_S1x4096x1_0_1 : (⟨S1x4096, .f32⟩ : BufTy).Contents (Elt F) → (⟨S1x4096x1, .f32⟩ : BufTy).Contents (Elt F)),
    nullary main_cst_4 (constant S_ .f32 0x44800000#32),
    unary main_cst_4 main_v30 (broadcastInDim S1x4096x1 ![] bcast_S_S1x4096x1 : (⟨S_, .f32⟩ : BufTy).Contents (Elt F) → (⟨S1x4096x1, .f32⟩ : BufTy).Contents (Elt F)),
    binary main_v29 main_v30 main_v31 (Host.divf : (⟨S1x4096x1, .f32⟩ : BufTy).Contents (Elt F) → (⟨S1x4096x1, .f32⟩ : BufTy).Contents (Elt F) → (⟨S1x4096x1, .f32⟩ : BufTy).Contents (Elt F)),
    unary main_v31 main_v32 (broadcastInDim S1x4096x1024 ![0, 1, 2] bcast_S1x4096x1_S1x4096x1024_0_1_2 : (⟨S1x4096x1, .f32⟩ : BufTy).Contents (Elt F) → (⟨S1x4096x1024, .f32⟩ : BufTy).Contents (Elt F)),
    binary main_v27 main_v32 main_v33 (subf : (⟨S1x4096x1024, .f32⟩ : BufTy).Contents (Elt F) → (⟨S1x4096x1024, .f32⟩ : BufTy).Contents (Elt F) → (⟨S1x4096x1024, .f32⟩ : BufTy).Contents (Elt F)),
    binary main_v33 main_v33 main_v34 (mulf : (⟨S1x4096x1024, .f32⟩ : BufTy).Contents (Elt F) → (⟨S1x4096x1024, .f32⟩ : BufTy).Contents (Elt F) → (⟨S1x4096x1024, .f32⟩ : BufTy).Contents (Elt F)),
    nullary main_cst_5 (constant S_ .f32 0x00000000#32),
    binary main_v34 main_cst_5 main_v35 ((fun x v => Host.reduceAdd x v reducesTo_S1x4096x1024_S1x4096_d2 h_S_) : (⟨S1x4096x1024, .f32⟩ : BufTy).Contents (Elt F) → (⟨S_, .f32⟩ : BufTy).Contents (Elt F) → (⟨S1x4096, .f32⟩ : BufTy).Contents (Elt F)),
    unary main_v35 main_v36 (broadcastInDim S1x4096x1 ![0, 1] bcast_S1x4096_S1x4096x1_0_1 : (⟨S1x4096, .f32⟩ : BufTy).Contents (Elt F) → (⟨S1x4096x1, .f32⟩ : BufTy).Contents (Elt F)),
    nullary main_cst_6 (constant S_ .f32 0x44800000#32),
    unary main_cst_6 main_v37 (broadcastInDim S1x4096x1 ![] bcast_S_S1x4096x1 : (⟨S_, .f32⟩ : BufTy).Contents (Elt F) → (⟨S1x4096x1, .f32⟩ : BufTy).Contents (Elt F)),
    binary main_v36 main_v37 main_v38 (Host.divf : (⟨S1x4096x1, .f32⟩ : BufTy).Contents (Elt F) → (⟨S1x4096x1, .f32⟩ : BufTy).Contents (Elt F) → (⟨S1x4096x1, .f32⟩ : BufTy).Contents (Elt F)),
    unary main_v31 main_v39 (broadcastInDim S1x4096x1024 ![0, 1, 2] bcast_S1x4096x1_S1x4096x1024_0_1_2 : (⟨S1x4096x1, .f32⟩ : BufTy).Contents (Elt F) → (⟨S1x4096x1024, .f32⟩ : BufTy).Contents (Elt F)),
    binary main_v27 main_v39 main_v40 (subf : (⟨S1x4096x1024, .f32⟩ : BufTy).Contents (Elt F) → (⟨S1x4096x1024, .f32⟩ : BufTy).Contents (Elt F) → (⟨S1x4096x1024, .f32⟩ : BufTy).Contents (Elt F)),
    nullary main_cst_7 (constant S_ .f32 0x3727C5AC#32),
    unary main_cst_7 main_v41 (broadcastInDim S1x4096x1 ![] bcast_S_S1x4096x1 : (⟨S_, .f32⟩ : BufTy).Contents (Elt F) → (⟨S1x4096x1, .f32⟩ : BufTy).Contents (Elt F)),
    binary main_v38 main_v41 main_v42 (addf : (⟨S1x4096x1, .f32⟩ : BufTy).Contents (Elt F) → (⟨S1x4096x1, .f32⟩ : BufTy).Contents (Elt F) → (⟨S1x4096x1, .f32⟩ : BufTy).Contents (Elt F)),
    unary main_v42 main_v43 (Host.rsqrt : (⟨S1x4096x1, .f32⟩ : BufTy).Contents (Elt F) → (⟨S1x4096x1, .f32⟩ : BufTy).Contents (Elt F)),
    unary main_v43 main_v44 (broadcastInDim S1x4096x1024 ![0, 1, 2] bcast_S1x4096x1_S1x4096x1024_0_1_2 : (⟨S1x4096x1, .f32⟩ : BufTy).Contents (Elt F) → (⟨S1x4096x1024, .f32⟩ : BufTy).Contents (Elt F)),
    binary main_v40 main_v44 main_v45 (mulf : (⟨S1x4096x1024, .f32⟩ : BufTy).Contents (Elt F) → (⟨S1x4096x1024, .f32⟩ : BufTy).Contents (Elt F) → (⟨S1x4096x1024, .f32⟩ : BufTy).Contents (Elt F)),
    unary main_arg7 main_v46 (broadcastInDim S1x1x1024 ![2] bcast_S1024_S1x1x1024_2 : (⟨S1024, .f32⟩ : BufTy).Contents (Elt F) → (⟨S1x1x1024, .f32⟩ : BufTy).Contents (Elt F)),
    unary main_v46 main_v47 (broadcastInDim S1x4096x1024 ![0, 1, 2] bcast_S1x1x1024_S1x4096x1024_0_1_2 : (⟨S1x1x1024, .f32⟩ : BufTy).Contents (Elt F) → (⟨S1x4096x1024, .f32⟩ : BufTy).Contents (Elt F)),
    binary main_v45 main_v47 main_v48 (mulf : (⟨S1x4096x1024, .f32⟩ : BufTy).Contents (Elt F) → (⟨S1x4096x1024, .f32⟩ : BufTy).Contents (Elt F) → (⟨S1x4096x1024, .f32⟩ : BufTy).Contents (Elt F)),
    unary main_arg8 main_v49 (broadcastInDim S1x1x1024 ![2] bcast_S1024_S1x1x1024_2 : (⟨S1024, .f32⟩ : BufTy).Contents (Elt F) → (⟨S1x1x1024, .f32⟩ : BufTy).Contents (Elt F)),
    unary main_v49 main_v50 (broadcastInDim S1x4096x1024 ![0, 1, 2] bcast_S1x1x1024_S1x4096x1024_0_1_2 : (⟨S1x1x1024, .f32⟩ : BufTy).Contents (Elt F) → (⟨S1x4096x1024, .f32⟩ : BufTy).Contents (Elt F)),
    binary main_v48 main_v50 main_v51 (addf : (⟨S1x4096x1024, .f32⟩ : BufTy).Contents (Elt F) → (⟨S1x4096x1024, .f32⟩ : BufTy).Contents (Elt F) → (⟨S1x4096x1024, .f32⟩ : BufTy).Contents (Elt F)) ]

/-- Stretch three, 34 operations: `main_v51` against argument 5 (contracted over argument 5's second axis) plus the bias
    argument 6, the residual with `main_v51` (`main_v56`), and the same normalisation over the last axis, scaled by
    argument 9 and shifted by argument 10 (`main_v80`). -/
abbrev opsNormTwo : List (HloOp τ sig (Elt F)) :=
  [ binary main_v51 main_arg5 main_v52 ((fun l r => Host.dotGeneral dot_S1x4096x1024_S1024x1024_S1x4096x1024_2_1_01_0_n_n none l r) : (⟨S1x4096x1024, .f32⟩ : BufTy).Contents (Elt F) → (⟨S1024x1024, .f32⟩ : BufTy).Contents (Elt F) → (⟨S1x4096x1024, .f32⟩ : BufTy).Contents (Elt F)),
    unary main_arg6 main_v53 (broadcastInDim S1x1x1024 ![2] bcast_S1024_S1x1x1024_2 : (⟨S1024, .f32⟩ : BufTy).Contents (Elt F) → (⟨S1x1x1024, .f32⟩ : BufTy).Contents (Elt F)),
    unary main_v53 main_v54 (broadcastInDim S1x4096x1024 ![0, 1, 2] bcast_S1x1x1024_S1x4096x1024_0_1_2 : (⟨S1x1x1024, .f32⟩ : BufTy).Contents (Elt F) → (⟨S1x4096x1024, .f32⟩ : BufTy).Contents (Elt F)),
    binary main_v52 main_v54 main_v55 (addf : (⟨S1x4096x1024, .f32⟩ : BufTy).Contents (Elt F) → (⟨S1x4096x1024, .f32⟩ : BufTy).Contents (Elt F) → (⟨S1x4096x1024, .f32⟩ : BufTy).Contents (Elt F)),
    binary main_v55 main_v51 main_v56 (addf : (⟨S1x4096x1024, .f32⟩ : BufTy).Contents (Elt F) → (⟨S1x4096x1024, .f32⟩ : BufTy).Contents (Elt F) → (⟨S1x4096x1024, .f32⟩ : BufTy).Contents (Elt F)),
    nullary main_cst_8 (constant S_ .f32 0x00000000#32),
    binary main_v56 main_cst_8 main_v57 ((fun x v => Host.reduceAdd x v reducesTo_S1x4096x1024_S1x4096_d2 h_S_) : (⟨S1x4096x1024, .f32⟩ : BufTy).Contents (Elt F) → (⟨S_, .f32⟩ : BufTy).Contents (Elt F) → (⟨S1x4096, .f32⟩ : BufTy).Contents (Elt F)),
    unary main_v57 main_v58 (broadcastInDim S1x4096x1 ![0, 1] bcast_S1x4096_S1x4096x1_0_1 : (⟨S1x4096, .f32⟩ : BufTy).Contents (Elt F) → (⟨S1x4096x1, .f32⟩ : BufTy).Contents (Elt F)),
    nullary main_cst_9 (constant S_ .f32 0x44800000#32),
    unary main_cst_9 main_v59 (broadcastInDim S1x4096x1 ![] bcast_S_S1x4096x1 : (⟨S_, .f32⟩ : BufTy).Contents (Elt F) → (⟨S1x4096x1, .f32⟩ : BufTy).Contents (Elt F)),
    binary main_v58 main_v59 main_v60 (Host.divf : (⟨S1x4096x1, .f32⟩ : BufTy).Contents (Elt F) → (⟨S1x4096x1, .f32⟩ : BufTy).Contents (Elt F) → (⟨S1x4096x1, .f32⟩ : BufTy).Contents (Elt F)),
    unary main_v60 main_v61 (broadcastInDim S1x4096x1024 ![0, 1, 2] bcast_S1x4096x1_S1x4096x1024_0_1_2 : (⟨S1x4096x1, .f32⟩ : BufTy).Contents (Elt F) → (⟨S1x4096x1024, .f32⟩ : BufTy).Contents (Elt F)),
    binary main_v56 main_v61 main_v62 (subf : (⟨S1x4096x1024, .f32⟩ : BufTy).Contents (Elt F) → (⟨S1x4096x1024, .f32⟩ : BufTy).Contents (Elt F) → (⟨S1x4096x1024, .f32⟩ : BufTy).Contents (Elt F)),
    binary main_v62 main_v62 main_v63 (mulf : (⟨S1x4096x1024, .f32⟩ : BufTy).Contents (Elt F) → (⟨S1x4096x1024, .f32⟩ : BufTy).Contents (Elt F) → (⟨S1x4096x1024, .f32⟩ : BufTy).Contents (Elt F)),
    nullary main_cst_10 (constant S_ .f32 0x00000000#32),
    binary main_v63 main_cst_10 main_v64 ((fun x v => Host.reduceAdd x v reducesTo_S1x4096x1024_S1x4096_d2 h_S_) : (⟨S1x4096x1024, .f32⟩ : BufTy).Contents (Elt F) → (⟨S_, .f32⟩ : BufTy).Contents (Elt F) → (⟨S1x4096, .f32⟩ : BufTy).Contents (Elt F)),
    unary main_v64 main_v65 (broadcastInDim S1x4096x1 ![0, 1] bcast_S1x4096_S1x4096x1_0_1 : (⟨S1x4096, .f32⟩ : BufTy).Contents (Elt F) → (⟨S1x4096x1, .f32⟩ : BufTy).Contents (Elt F)),
    nullary main_cst_11 (constant S_ .f32 0x44800000#32),
    unary main_cst_11 main_v66 (broadcastInDim S1x4096x1 ![] bcast_S_S1x4096x1 : (⟨S_, .f32⟩ : BufTy).Contents (Elt F) → (⟨S1x4096x1, .f32⟩ : BufTy).Contents (Elt F)),
    binary main_v65 main_v66 main_v67 (Host.divf : (⟨S1x4096x1, .f32⟩ : BufTy).Contents (Elt F) → (⟨S1x4096x1, .f32⟩ : BufTy).Contents (Elt F) → (⟨S1x4096x1, .f32⟩ : BufTy).Contents (Elt F)),
    unary main_v60 main_v68 (broadcastInDim S1x4096x1024 ![0, 1, 2] bcast_S1x4096x1_S1x4096x1024_0_1_2 : (⟨S1x4096x1, .f32⟩ : BufTy).Contents (Elt F) → (⟨S1x4096x1024, .f32⟩ : BufTy).Contents (Elt F)),
    binary main_v56 main_v68 main_v69 (subf : (⟨S1x4096x1024, .f32⟩ : BufTy).Contents (Elt F) → (⟨S1x4096x1024, .f32⟩ : BufTy).Contents (Elt F) → (⟨S1x4096x1024, .f32⟩ : BufTy).Contents (Elt F)),
    nullary main_cst_12 (constant S_ .f32 0x3727C5AC#32),
    unary main_cst_12 main_v70 (broadcastInDim S1x4096x1 ![] bcast_S_S1x4096x1 : (⟨S_, .f32⟩ : BufTy).Contents (Elt F) → (⟨S1x4096x1, .f32⟩ : BufTy).Contents (Elt F)),
    binary main_v67 main_v70 main_v71 (addf : (⟨S1x4096x1, .f32⟩ : BufTy).Contents (Elt F) → (⟨S1x4096x1, .f32⟩ : BufTy).Contents (Elt F) → (⟨S1x4096x1, .f32⟩ : BufTy).Contents (Elt F)),
    unary main_v71 main_v72 (Host.rsqrt : (⟨S1x4096x1, .f32⟩ : BufTy).Contents (Elt F) → (⟨S1x4096x1, .f32⟩ : BufTy).Contents (Elt F)),
    unary main_v72 main_v73 (broadcastInDim S1x4096x1024 ![0, 1, 2] bcast_S1x4096x1_S1x4096x1024_0_1_2 : (⟨S1x4096x1, .f32⟩ : BufTy).Contents (Elt F) → (⟨S1x4096x1024, .f32⟩ : BufTy).Contents (Elt F)),
    binary main_v69 main_v73 main_v74 (mulf : (⟨S1x4096x1024, .f32⟩ : BufTy).Contents (Elt F) → (⟨S1x4096x1024, .f32⟩ : BufTy).Contents (Elt F) → (⟨S1x4096x1024, .f32⟩ : BufTy).Contents (Elt F)),
    unary main_arg9 main_v75 (broadcastInDim S1x1x1024 ![2] bcast_S1024_S1x1x1024_2 : (⟨S1024, .f32⟩ : BufTy).Contents (Elt F) → (⟨S1x1x1024, .f32⟩ : BufTy).Contents (Elt F)),
    unary main_v75 main_v76 (broadcastInDim S1x4096x1024 ![0, 1, 2] bcast_S1x1x1024_S1x4096x1024_0_1_2 : (⟨S1x1x1024, .f32⟩ : BufTy).Contents (Elt F) → (⟨S1x4096x1024, .f32⟩ : BufTy).Contents (Elt F)),
    binary main_v74 main_v76 main_v77 (mulf : (⟨S1x4096x1024, .f32⟩ : BufTy).Contents (Elt F) → (⟨S1x4096x1024, .f32⟩ : BufTy).Contents (Elt F) → (⟨S1x4096x1024, .f32⟩ : BufTy).Contents (Elt F)),
    unary main_arg10 main_v78 (broadcastInDim S1x1x1024 ![2] bcast_S1024_S1x1x1024_2 : (⟨S1024, .f32⟩ : BufTy).Contents (Elt F) → (⟨S1x1x1024, .f32⟩ : BufTy).Contents (Elt F)),
    unary main_v78 main_v79 (broadcastInDim S1x4096x1024 ![0, 1, 2] bcast_S1x1x1024_S1x4096x1024_0_1_2 : (⟨S1x1x1024, .f32⟩ : BufTy).Contents (Elt F) → (⟨S1x4096x1024, .f32⟩ : BufTy).Contents (Elt F)),
    binary main_v77 main_v79 main_v80 (addf : (⟨S1x4096x1024, .f32⟩ : BufTy).Contents (Elt F) → (⟨S1x4096x1024, .f32⟩ : BufTy).Contents (Elt F) → (⟨S1x4096x1024, .f32⟩ : BufTy).Contents (Elt F)) ]

/-- Stretch four, the outlined clamp's 3 operations in its call's place: a zero, broadcast to `1×4096×1024`, and the
    maximum of `main_v80` with it (`main_v81`). -/
abbrev opsClamp : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S1x4096x1024, .f32⟩) main_call0_v0) (broadcastInDim S1x4096x1024 ![] bcast_S_S1x4096x1024),
    TRef.binary (TRef.of (T := ⟨S1x4096x1024, .f32⟩) main_v80) (TRef.of (T := ⟨S1x4096x1024, .f32⟩) main_call0_v0) (TRef.of (T := ⟨S1x4096x1024, .f32⟩) main_v81) maximumf ]

/-- @main's 98 operations, in order (the called clamp's operations stand in its call's place). -/
abbrev ops : List (HloOp τ sig (Elt F)) :=
  [ binary main_arg0 main_arg1 main_v0 ((fun l r => Host.dotGeneral dot_S1x4096x1024_S1024x1024_S1x4096x1024_2_0_01_1_n_n none l r) : (⟨S1x4096x1024, .f32⟩ : BufTy).Contents (Elt F) → (⟨S1024x1024, .f32⟩ : BufTy).Contents (Elt F) → (⟨S1x4096x1024, .f32⟩ : BufTy).Contents (Elt F)),
    binary main_arg0 main_arg2 main_v1 ((fun l r => Host.dotGeneral dot_S1x4096x1024_S1024x1024_S1x4096x1024_2_0_01_1_n_n none l r) : (⟨S1x4096x1024, .f32⟩ : BufTy).Contents (Elt F) → (⟨S1024x1024, .f32⟩ : BufTy).Contents (Elt F) → (⟨S1x4096x1024, .f32⟩ : BufTy).Contents (Elt F)),
    binary main_arg0 main_arg3 main_v2 ((fun l r => Host.dotGeneral dot_S1x4096x1024_S1024x1024_S1x4096x1024_2_0_01_1_n_n none l r) : (⟨S1x4096x1024, .f32⟩ : BufTy).Contents (Elt F) → (⟨S1024x1024, .f32⟩ : BufTy).Contents (Elt F) → (⟨S1x4096x1024, .f32⟩ : BufTy).Contents (Elt F)),
    reshape main_v0 main_v3 rfl shapeCasts_S1x4096x1024_S1x4096x16x64,
    unary main_v3 main_v4 ((transpose S1x16x4096x64 [0, 2, 1, 3] · transposes_S1x4096x16x64_S1x16x4096x64_0_2_1_3) : (⟨S1x4096x16x64, .f32⟩ : BufTy).Contents (Elt F) → (⟨S1x16x4096x64, .f32⟩ : BufTy).Contents (Elt F)),
    reshape main_v1 main_v5 rfl shapeCasts_S1x4096x1024_S1x4096x16x64,
    unary main_v5 main_v6 ((transpose S1x16x4096x64 [0, 2, 1, 3] · transposes_S1x4096x16x64_S1x16x4096x64_0_2_1_3) : (⟨S1x4096x16x64, .f32⟩ : BufTy).Contents (Elt F) → (⟨S1x16x4096x64, .f32⟩ : BufTy).Contents (Elt F)),
    reshape main_v2 main_v7 rfl shapeCasts_S1x4096x1024_S1x4096x16x64,
    unary main_v7 main_v8 ((transpose S1x16x4096x64 [0, 2, 1, 3] · transposes_S1x4096x16x64_S1x16x4096x64_0_2_1_3) : (⟨S1x4096x16x64, .f32⟩ : BufTy).Contents (Elt F) → (⟨S1x16x4096x64, .f32⟩ : BufTy).Contents (Elt F)),
    binary main_v4 main_v6 main_v9 ((fun l r => Host.dotGeneral dot_S1x16x4096x64_S1x16x4096x64_S1x16x4096x4096_3_3_2_2_01_01 none l r) : (⟨S1x16x4096x64, .f32⟩ : BufTy).Contents (Elt F) → (⟨S1x16x4096x64, .f32⟩ : BufTy).Contents (Elt F) → (⟨S1x16x4096x4096, .f32⟩ : BufTy).Contents (Elt F)),
    nullary main_cst (constant S_ .f32 0x41000000#32),
    unary main_cst main_v10 (broadcastInDim S1x16x4096x4096 ![] bcast_S_S1x16x4096x4096 : (⟨S_, .f32⟩ : BufTy).Contents (Elt F) → (⟨S1x16x4096x4096, .f32⟩ : BufTy).Contents (Elt F)),
    binary main_v9 main_v10 main_v11 (Host.divf : (⟨S1x16x4096x4096, .f32⟩ : BufTy).Contents (Elt F) → (⟨S1x16x4096x4096, .f32⟩ : BufTy).Contents (Elt F) → (⟨S1x16x4096x4096, .f32⟩ : BufTy).Contents (Elt F)),
    nullary main_cst_0 (constant S_ .f32 0xFF800000#32),
    binary main_v11 main_cst_0 main_v12 ((fun x v => Host.reduce FloatOps.maximumf x v reducesTo_S1x16x4096x4096_S1x16x4096_d3 h_S_) : (⟨S1x16x4096x4096, .f32⟩ : BufTy).Contents (Elt F) → (⟨S_, .f32⟩ : BufTy).Contents (Elt F) → (⟨S1x16x4096, .f32⟩ : BufTy).Contents (Elt F)),
    nullary main_cst_1 (constant S_ .f32 0xFF800000#32),
    unary main_cst_1 main_v13 (broadcastInDim S1x16x4096 ![] bcast_S_S1x16x4096 : (⟨S_, .f32⟩ : BufTy).Contents (Elt F) → (⟨S1x16x4096, .f32⟩ : BufTy).Contents (Elt F)),
    binary main_v13 main_v12 main_v14 (maximumf : (⟨S1x16x4096, .f32⟩ : BufTy).Contents (Elt F) → (⟨S1x16x4096, .f32⟩ : BufTy).Contents (Elt F) → (⟨S1x16x4096, .f32⟩ : BufTy).Contents (Elt F)),
    unary main_v14 main_v15 (broadcastInDim S1x16x4096x1 ![0, 1, 2] bcast_S1x16x4096_S1x16x4096x1_0_1_2 : (⟨S1x16x4096, .f32⟩ : BufTy).Contents (Elt F) → (⟨S1x16x4096x1, .f32⟩ : BufTy).Contents (Elt F)),
    unary main_v15 main_v16 (broadcastInDim S1x16x4096x4096 ![0, 1, 2, 3] bcast_S1x16x4096x1_S1x16x4096x4096_0_1_2_3 : (⟨S1x16x4096x1, .f32⟩ : BufTy).Contents (Elt F) → (⟨S1x16x4096x4096, .f32⟩ : BufTy).Contents (Elt F)),
    binary main_v11 main_v16 main_v17 (subf : (⟨S1x16x4096x4096, .f32⟩ : BufTy).Contents (Elt F) → (⟨S1x16x4096x4096, .f32⟩ : BufTy).Contents (Elt F) → (⟨S1x16x4096x4096, .f32⟩ : BufTy).Contents (Elt F)),
    unary main_v17 main_v18 (Host.exp : (⟨S1x16x4096x4096, .f32⟩ : BufTy).Contents (Elt F) → (⟨S1x16x4096x4096, .f32⟩ : BufTy).Contents (Elt F)),
    nullary main_cst_2 (constant S_ .f32 0x00000000#32),
    binary main_v18 main_cst_2 main_v19 ((fun x v => Host.reduceAdd x v reducesTo_S1x16x4096x4096_S1x16x4096_d3 h_S_) : (⟨S1x16x4096x4096, .f32⟩ : BufTy).Contents (Elt F) → (⟨S_, .f32⟩ : BufTy).Contents (Elt F) → (⟨S1x16x4096, .f32⟩ : BufTy).Contents (Elt F)),
    unary main_v19 main_v20 (broadcastInDim S1x16x4096x1 ![0, 1, 2] bcast_S1x16x4096_S1x16x4096x1_0_1_2 : (⟨S1x16x4096, .f32⟩ : BufTy).Contents (Elt F) → (⟨S1x16x4096x1, .f32⟩ : BufTy).Contents (Elt F)),
    unary main_v20 main_v21 (broadcastInDim S1x16x4096x4096 ![0, 1, 2, 3] bcast_S1x16x4096x1_S1x16x4096x4096_0_1_2_3 : (⟨S1x16x4096x1, .f32⟩ : BufTy).Contents (Elt F) → (⟨S1x16x4096x4096, .f32⟩ : BufTy).Contents (Elt F)),
    binary main_v18 main_v21 main_v22 (Host.divf : (⟨S1x16x4096x4096, .f32⟩ : BufTy).Contents (Elt F) → (⟨S1x16x4096x4096, .f32⟩ : BufTy).Contents (Elt F) → (⟨S1x16x4096x4096, .f32⟩ : BufTy).Contents (Elt F)),
    binary main_v22 main_v8 main_v23 ((fun l r => Host.dotGeneral dot_S1x16x4096x4096_S1x16x4096x64_S1x16x4096x64_3_2_2_3_01_01 none l r) : (⟨S1x16x4096x4096, .f32⟩ : BufTy).Contents (Elt F) → (⟨S1x16x4096x64, .f32⟩ : BufTy).Contents (Elt F) → (⟨S1x16x4096x64, .f32⟩ : BufTy).Contents (Elt F)),
    unary main_v23 main_v24 ((transpose S1x4096x16x64 [0, 2, 1, 3] · transposes_S1x16x4096x64_S1x4096x16x64_0_2_1_3) : (⟨S1x16x4096x64, .f32⟩ : BufTy).Contents (Elt F) → (⟨S1x4096x16x64, .f32⟩ : BufTy).Contents (Elt F)),
    reshape main_v24 main_v25 rfl shapeCasts_S1x4096x16x64_S1x4096x1024,
    binary main_v25 main_arg4 main_v26 ((fun l r => Host.dotGeneral dot_S1x4096x1024_S1024x1024_S1x4096x1024_2_0_01_1_n_n none l r) : (⟨S1x4096x1024, .f32⟩ : BufTy).Contents (Elt F) → (⟨S1024x1024, .f32⟩ : BufTy).Contents (Elt F) → (⟨S1x4096x1024, .f32⟩ : BufTy).Contents (Elt F)),
    binary main_arg0 main_v26 main_v27 (addf : (⟨S1x4096x1024, .f32⟩ : BufTy).Contents (Elt F) → (⟨S1x4096x1024, .f32⟩ : BufTy).Contents (Elt F) → (⟨S1x4096x1024, .f32⟩ : BufTy).Contents (Elt F)),
    nullary main_cst_3 (constant S_ .f32 0x00000000#32),
    binary main_v27 main_cst_3 main_v28 ((fun x v => Host.reduceAdd x v reducesTo_S1x4096x1024_S1x4096_d2 h_S_) : (⟨S1x4096x1024, .f32⟩ : BufTy).Contents (Elt F) → (⟨S_, .f32⟩ : BufTy).Contents (Elt F) → (⟨S1x4096, .f32⟩ : BufTy).Contents (Elt F)),
    unary main_v28 main_v29 (broadcastInDim S1x4096x1 ![0, 1] bcast_S1x4096_S1x4096x1_0_1 : (⟨S1x4096, .f32⟩ : BufTy).Contents (Elt F) → (⟨S1x4096x1, .f32⟩ : BufTy).Contents (Elt F)),
    nullary main_cst_4 (constant S_ .f32 0x44800000#32),
    unary main_cst_4 main_v30 (broadcastInDim S1x4096x1 ![] bcast_S_S1x4096x1 : (⟨S_, .f32⟩ : BufTy).Contents (Elt F) → (⟨S1x4096x1, .f32⟩ : BufTy).Contents (Elt F)),
    binary main_v29 main_v30 main_v31 (Host.divf : (⟨S1x4096x1, .f32⟩ : BufTy).Contents (Elt F) → (⟨S1x4096x1, .f32⟩ : BufTy).Contents (Elt F) → (⟨S1x4096x1, .f32⟩ : BufTy).Contents (Elt F)),
    unary main_v31 main_v32 (broadcastInDim S1x4096x1024 ![0, 1, 2] bcast_S1x4096x1_S1x4096x1024_0_1_2 : (⟨S1x4096x1, .f32⟩ : BufTy).Contents (Elt F) → (⟨S1x4096x1024, .f32⟩ : BufTy).Contents (Elt F)),
    binary main_v27 main_v32 main_v33 (subf : (⟨S1x4096x1024, .f32⟩ : BufTy).Contents (Elt F) → (⟨S1x4096x1024, .f32⟩ : BufTy).Contents (Elt F) → (⟨S1x4096x1024, .f32⟩ : BufTy).Contents (Elt F)),
    binary main_v33 main_v33 main_v34 (mulf : (⟨S1x4096x1024, .f32⟩ : BufTy).Contents (Elt F) → (⟨S1x4096x1024, .f32⟩ : BufTy).Contents (Elt F) → (⟨S1x4096x1024, .f32⟩ : BufTy).Contents (Elt F)),
    nullary main_cst_5 (constant S_ .f32 0x00000000#32),
    binary main_v34 main_cst_5 main_v35 ((fun x v => Host.reduceAdd x v reducesTo_S1x4096x1024_S1x4096_d2 h_S_) : (⟨S1x4096x1024, .f32⟩ : BufTy).Contents (Elt F) → (⟨S_, .f32⟩ : BufTy).Contents (Elt F) → (⟨S1x4096, .f32⟩ : BufTy).Contents (Elt F)),
    unary main_v35 main_v36 (broadcastInDim S1x4096x1 ![0, 1] bcast_S1x4096_S1x4096x1_0_1 : (⟨S1x4096, .f32⟩ : BufTy).Contents (Elt F) → (⟨S1x4096x1, .f32⟩ : BufTy).Contents (Elt F)),
    nullary main_cst_6 (constant S_ .f32 0x44800000#32),
    unary main_cst_6 main_v37 (broadcastInDim S1x4096x1 ![] bcast_S_S1x4096x1 : (⟨S_, .f32⟩ : BufTy).Contents (Elt F) → (⟨S1x4096x1, .f32⟩ : BufTy).Contents (Elt F)),
    binary main_v36 main_v37 main_v38 (Host.divf : (⟨S1x4096x1, .f32⟩ : BufTy).Contents (Elt F) → (⟨S1x4096x1, .f32⟩ : BufTy).Contents (Elt F) → (⟨S1x4096x1, .f32⟩ : BufTy).Contents (Elt F)),
    unary main_v31 main_v39 (broadcastInDim S1x4096x1024 ![0, 1, 2] bcast_S1x4096x1_S1x4096x1024_0_1_2 : (⟨S1x4096x1, .f32⟩ : BufTy).Contents (Elt F) → (⟨S1x4096x1024, .f32⟩ : BufTy).Contents (Elt F)),
    binary main_v27 main_v39 main_v40 (subf : (⟨S1x4096x1024, .f32⟩ : BufTy).Contents (Elt F) → (⟨S1x4096x1024, .f32⟩ : BufTy).Contents (Elt F) → (⟨S1x4096x1024, .f32⟩ : BufTy).Contents (Elt F)),
    nullary main_cst_7 (constant S_ .f32 0x3727C5AC#32),
    unary main_cst_7 main_v41 (broadcastInDim S1x4096x1 ![] bcast_S_S1x4096x1 : (⟨S_, .f32⟩ : BufTy).Contents (Elt F) → (⟨S1x4096x1, .f32⟩ : BufTy).Contents (Elt F)),
    binary main_v38 main_v41 main_v42 (addf : (⟨S1x4096x1, .f32⟩ : BufTy).Contents (Elt F) → (⟨S1x4096x1, .f32⟩ : BufTy).Contents (Elt F) → (⟨S1x4096x1, .f32⟩ : BufTy).Contents (Elt F)),
    unary main_v42 main_v43 (Host.rsqrt : (⟨S1x4096x1, .f32⟩ : BufTy).Contents (Elt F) → (⟨S1x4096x1, .f32⟩ : BufTy).Contents (Elt F)),
    unary main_v43 main_v44 (broadcastInDim S1x4096x1024 ![0, 1, 2] bcast_S1x4096x1_S1x4096x1024_0_1_2 : (⟨S1x4096x1, .f32⟩ : BufTy).Contents (Elt F) → (⟨S1x4096x1024, .f32⟩ : BufTy).Contents (Elt F)),
    binary main_v40 main_v44 main_v45 (mulf : (⟨S1x4096x1024, .f32⟩ : BufTy).Contents (Elt F) → (⟨S1x4096x1024, .f32⟩ : BufTy).Contents (Elt F) → (⟨S1x4096x1024, .f32⟩ : BufTy).Contents (Elt F)),
    unary main_arg7 main_v46 (broadcastInDim S1x1x1024 ![2] bcast_S1024_S1x1x1024_2 : (⟨S1024, .f32⟩ : BufTy).Contents (Elt F) → (⟨S1x1x1024, .f32⟩ : BufTy).Contents (Elt F)),
    unary main_v46 main_v47 (broadcastInDim S1x4096x1024 ![0, 1, 2] bcast_S1x1x1024_S1x4096x1024_0_1_2 : (⟨S1x1x1024, .f32⟩ : BufTy).Contents (Elt F) → (⟨S1x4096x1024, .f32⟩ : BufTy).Contents (Elt F)),
    binary main_v45 main_v47 main_v48 (mulf : (⟨S1x4096x1024, .f32⟩ : BufTy).Contents (Elt F) → (⟨S1x4096x1024, .f32⟩ : BufTy).Contents (Elt F) → (⟨S1x4096x1024, .f32⟩ : BufTy).Contents (Elt F)),
    unary main_arg8 main_v49 (broadcastInDim S1x1x1024 ![2] bcast_S1024_S1x1x1024_2 : (⟨S1024, .f32⟩ : BufTy).Contents (Elt F) → (⟨S1x1x1024, .f32⟩ : BufTy).Contents (Elt F)),
    unary main_v49 main_v50 (broadcastInDim S1x4096x1024 ![0, 1, 2] bcast_S1x1x1024_S1x4096x1024_0_1_2 : (⟨S1x1x1024, .f32⟩ : BufTy).Contents (Elt F) → (⟨S1x4096x1024, .f32⟩ : BufTy).Contents (Elt F)),
    binary main_v48 main_v50 main_v51 (addf : (⟨S1x4096x1024, .f32⟩ : BufTy).Contents (Elt F) → (⟨S1x4096x1024, .f32⟩ : BufTy).Contents (Elt F) → (⟨S1x4096x1024, .f32⟩ : BufTy).Contents (Elt F)),
    binary main_v51 main_arg5 main_v52 ((fun l r => Host.dotGeneral dot_S1x4096x1024_S1024x1024_S1x4096x1024_2_1_01_0_n_n none l r) : (⟨S1x4096x1024, .f32⟩ : BufTy).Contents (Elt F) → (⟨S1024x1024, .f32⟩ : BufTy).Contents (Elt F) → (⟨S1x4096x1024, .f32⟩ : BufTy).Contents (Elt F)),
    unary main_arg6 main_v53 (broadcastInDim S1x1x1024 ![2] bcast_S1024_S1x1x1024_2 : (⟨S1024, .f32⟩ : BufTy).Contents (Elt F) → (⟨S1x1x1024, .f32⟩ : BufTy).Contents (Elt F)),
    unary main_v53 main_v54 (broadcastInDim S1x4096x1024 ![0, 1, 2] bcast_S1x1x1024_S1x4096x1024_0_1_2 : (⟨S1x1x1024, .f32⟩ : BufTy).Contents (Elt F) → (⟨S1x4096x1024, .f32⟩ : BufTy).Contents (Elt F)),
    binary main_v52 main_v54 main_v55 (addf : (⟨S1x4096x1024, .f32⟩ : BufTy).Contents (Elt F) → (⟨S1x4096x1024, .f32⟩ : BufTy).Contents (Elt F) → (⟨S1x4096x1024, .f32⟩ : BufTy).Contents (Elt F)),
    binary main_v55 main_v51 main_v56 (addf : (⟨S1x4096x1024, .f32⟩ : BufTy).Contents (Elt F) → (⟨S1x4096x1024, .f32⟩ : BufTy).Contents (Elt F) → (⟨S1x4096x1024, .f32⟩ : BufTy).Contents (Elt F)),
    nullary main_cst_8 (constant S_ .f32 0x00000000#32),
    binary main_v56 main_cst_8 main_v57 ((fun x v => Host.reduceAdd x v reducesTo_S1x4096x1024_S1x4096_d2 h_S_) : (⟨S1x4096x1024, .f32⟩ : BufTy).Contents (Elt F) → (⟨S_, .f32⟩ : BufTy).Contents (Elt F) → (⟨S1x4096, .f32⟩ : BufTy).Contents (Elt F)),
    unary main_v57 main_v58 (broadcastInDim S1x4096x1 ![0, 1] bcast_S1x4096_S1x4096x1_0_1 : (⟨S1x4096, .f32⟩ : BufTy).Contents (Elt F) → (⟨S1x4096x1, .f32⟩ : BufTy).Contents (Elt F)),
    nullary main_cst_9 (constant S_ .f32 0x44800000#32),
    unary main_cst_9 main_v59 (broadcastInDim S1x4096x1 ![] bcast_S_S1x4096x1 : (⟨S_, .f32⟩ : BufTy).Contents (Elt F) → (⟨S1x4096x1, .f32⟩ : BufTy).Contents (Elt F)),
    binary main_v58 main_v59 main_v60 (Host.divf : (⟨S1x4096x1, .f32⟩ : BufTy).Contents (Elt F) → (⟨S1x4096x1, .f32⟩ : BufTy).Contents (Elt F) → (⟨S1x4096x1, .f32⟩ : BufTy).Contents (Elt F)),
    unary main_v60 main_v61 (broadcastInDim S1x4096x1024 ![0, 1, 2] bcast_S1x4096x1_S1x4096x1024_0_1_2 : (⟨S1x4096x1, .f32⟩ : BufTy).Contents (Elt F) → (⟨S1x4096x1024, .f32⟩ : BufTy).Contents (Elt F)),
    binary main_v56 main_v61 main_v62 (subf : (⟨S1x4096x1024, .f32⟩ : BufTy).Contents (Elt F) → (⟨S1x4096x1024, .f32⟩ : BufTy).Contents (Elt F) → (⟨S1x4096x1024, .f32⟩ : BufTy).Contents (Elt F)),
    binary main_v62 main_v62 main_v63 (mulf : (⟨S1x4096x1024, .f32⟩ : BufTy).Contents (Elt F) → (⟨S1x4096x1024, .f32⟩ : BufTy).Contents (Elt F) → (⟨S1x4096x1024, .f32⟩ : BufTy).Contents (Elt F)),
    nullary main_cst_10 (constant S_ .f32 0x00000000#32),
    binary main_v63 main_cst_10 main_v64 ((fun x v => Host.reduceAdd x v reducesTo_S1x4096x1024_S1x4096_d2 h_S_) : (⟨S1x4096x1024, .f32⟩ : BufTy).Contents (Elt F) → (⟨S_, .f32⟩ : BufTy).Contents (Elt F) → (⟨S1x4096, .f32⟩ : BufTy).Contents (Elt F)),
    unary main_v64 main_v65 (broadcastInDim S1x4096x1 ![0, 1] bcast_S1x4096_S1x4096x1_0_1 : (⟨S1x4096, .f32⟩ : BufTy).Contents (Elt F) → (⟨S1x4096x1, .f32⟩ : BufTy).Contents (Elt F)),
    nullary main_cst_11 (constant S_ .f32 0x44800000#32),
    unary main_cst_11 main_v66 (broadcastInDim S1x4096x1 ![] bcast_S_S1x4096x1 : (⟨S_, .f32⟩ : BufTy).Contents (Elt F) → (⟨S1x4096x1, .f32⟩ : BufTy).Contents (Elt F)),
    binary main_v65 main_v66 main_v67 (Host.divf : (⟨S1x4096x1, .f32⟩ : BufTy).Contents (Elt F) → (⟨S1x4096x1, .f32⟩ : BufTy).Contents (Elt F) → (⟨S1x4096x1, .f32⟩ : BufTy).Contents (Elt F)),
    unary main_v60 main_v68 (broadcastInDim S1x4096x1024 ![0, 1, 2] bcast_S1x4096x1_S1x4096x1024_0_1_2 : (⟨S1x4096x1, .f32⟩ : BufTy).Contents (Elt F) → (⟨S1x4096x1024, .f32⟩ : BufTy).Contents (Elt F)),
    binary main_v56 main_v68 main_v69 (subf : (⟨S1x4096x1024, .f32⟩ : BufTy).Contents (Elt F) → (⟨S1x4096x1024, .f32⟩ : BufTy).Contents (Elt F) → (⟨S1x4096x1024, .f32⟩ : BufTy).Contents (Elt F)),
    nullary main_cst_12 (constant S_ .f32 0x3727C5AC#32),
    unary main_cst_12 main_v70 (broadcastInDim S1x4096x1 ![] bcast_S_S1x4096x1 : (⟨S_, .f32⟩ : BufTy).Contents (Elt F) → (⟨S1x4096x1, .f32⟩ : BufTy).Contents (Elt F)),
    binary main_v67 main_v70 main_v71 (addf : (⟨S1x4096x1, .f32⟩ : BufTy).Contents (Elt F) → (⟨S1x4096x1, .f32⟩ : BufTy).Contents (Elt F) → (⟨S1x4096x1, .f32⟩ : BufTy).Contents (Elt F)),
    unary main_v71 main_v72 (Host.rsqrt : (⟨S1x4096x1, .f32⟩ : BufTy).Contents (Elt F) → (⟨S1x4096x1, .f32⟩ : BufTy).Contents (Elt F)),
    unary main_v72 main_v73 (broadcastInDim S1x4096x1024 ![0, 1, 2] bcast_S1x4096x1_S1x4096x1024_0_1_2 : (⟨S1x4096x1, .f32⟩ : BufTy).Contents (Elt F) → (⟨S1x4096x1024, .f32⟩ : BufTy).Contents (Elt F)),
    binary main_v69 main_v73 main_v74 (mulf : (⟨S1x4096x1024, .f32⟩ : BufTy).Contents (Elt F) → (⟨S1x4096x1024, .f32⟩ : BufTy).Contents (Elt F) → (⟨S1x4096x1024, .f32⟩ : BufTy).Contents (Elt F)),
    unary main_arg9 main_v75 (broadcastInDim S1x1x1024 ![2] bcast_S1024_S1x1x1024_2 : (⟨S1024, .f32⟩ : BufTy).Contents (Elt F) → (⟨S1x1x1024, .f32⟩ : BufTy).Contents (Elt F)),
    unary main_v75 main_v76 (broadcastInDim S1x4096x1024 ![0, 1, 2] bcast_S1x1x1024_S1x4096x1024_0_1_2 : (⟨S1x1x1024, .f32⟩ : BufTy).Contents (Elt F) → (⟨S1x4096x1024, .f32⟩ : BufTy).Contents (Elt F)),
    binary main_v74 main_v76 main_v77 (mulf : (⟨S1x4096x1024, .f32⟩ : BufTy).Contents (Elt F) → (⟨S1x4096x1024, .f32⟩ : BufTy).Contents (Elt F) → (⟨S1x4096x1024, .f32⟩ : BufTy).Contents (Elt F)),
    unary main_arg10 main_v78 (broadcastInDim S1x1x1024 ![2] bcast_S1024_S1x1x1024_2 : (⟨S1024, .f32⟩ : BufTy).Contents (Elt F) → (⟨S1x1x1024, .f32⟩ : BufTy).Contents (Elt F)),
    unary main_v78 main_v79 (broadcastInDim S1x4096x1024 ![0, 1, 2] bcast_S1x1x1024_S1x4096x1024_0_1_2 : (⟨S1x1x1024, .f32⟩ : BufTy).Contents (Elt F) → (⟨S1x4096x1024, .f32⟩ : BufTy).Contents (Elt F)),
    binary main_v77 main_v79 main_v80 (addf : (⟨S1x4096x1024, .f32⟩ : BufTy).Contents (Elt F) → (⟨S1x4096x1024, .f32⟩ : BufTy).Contents (Elt F) → (⟨S1x4096x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1x4096x1024, .f32⟩) main_call0_v0) (broadcastInDim S1x4096x1024 ![] bcast_S_S1x4096x1024),
    TRef.binary (TRef.of (T := ⟨S1x4096x1024, .f32⟩) main_v80) (TRef.of (T := ⟨S1x4096x1024, .f32⟩) main_call0_v0) (TRef.of (T := ⟨S1x4096x1024, .f32⟩) main_v81) maximumf ]

set_option maxRecDepth 8192 in
set_option maxHeartbeats 4000000 in
/-- @main is that straight line. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
/-- Every operation of the line touches TensorCore references only. -/
theorem ops_sub : (ops : List (HloOp τ sig (Elt F))).Forall fun op => op.bufs ⊆ tcRefs τ sig :=
  ⟨binary_bufs_sub .., binary_bufs_sub .., binary_bufs_sub .., reshape_bufs_sub .., unary_bufs_sub .., reshape_bufs_sub .., unary_bufs_sub .., reshape_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., reshape_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
set_option maxHeartbeats 4000000 in
/-- The line is its four stretches in a row. -/
theorem ops_split : (ops : List (HloOp τ sig (Elt F))) = opsAttention ++ (opsNormOne ++ (opsNormTwo ++ opsClamp)) := rfl

/-! ## Stretch one: attention -/

set_option maxRecDepth 8192 in
set_option maxHeartbeats 4000000 in
/-- From any contents, the merged heads are `val_main_v25` of what the entry holds at arguments 0 … 3. -/
theorem attention_eq (W : Valuation τ sig (Elt F)) :
    after opsAttention W (Proc.devRef .tc main_v25 : DevRef τ sig)
      = ReadP.val_main_v25 (F := F) (W (Proc.devRef .tc main_arg0 : DevRef τ sig)) (W (Proc.devRef .tc main_arg1 : DevRef τ sig)) (W (Proc.devRef .tc main_arg2 : DevRef τ sig)) (W (Proc.devRef .tc main_arg3 : DevRef τ sig)) := by
  after_results_simp
  rfl

/-! The stretch writes no argument the later stretches read. -/
set_option maxRecDepth 8192 in
set_option maxHeartbeats 4000000 in
theorem attention_keeps_arg0 (W : Valuation τ sig (Elt F)) :
    after opsAttention W (Proc.devRef .tc main_arg0 : DevRef τ sig) = W (Proc.devRef .tc main_arg0 : DevRef τ sig) := by
  after_results_simp
set_option maxRecDepth 8192 in
set_option maxHeartbeats 4000000 in
theorem attention_keeps_arg4 (W : Valuation τ sig (Elt F)) :
    after opsAttention W (Proc.devRef .tc main_arg4 : DevRef τ sig) = W (Proc.devRef .tc main_arg4 : DevRef τ sig) := by
  after_results_simp
set_option maxRecDepth 8192 in
set_option maxHeartbeats 4000000 in
theorem attention_keeps_arg5 (W : Valuation τ sig (Elt F)) :
    after opsAttention W (Proc.devRef .tc main_arg5 : DevRef τ sig) = W (Proc.devRef .tc main_arg5 : DevRef τ sig) := by
  after_results_simp
set_option maxRecDepth 8192 in
set_option maxHeartbeats 4000000 in
theorem attention_keeps_arg6 (W : Valuation τ sig (Elt F)) :
    after opsAttention W (Proc.devRef .tc main_arg6 : DevRef τ sig) = W (Proc.devRef .tc main_arg6 : DevRef τ sig) := by
  after_results_simp
set_option maxRecDepth 8192 in
set_option maxHeartbeats 4000000 in
theorem attention_keeps_arg7 (W : Valuation τ sig (Elt F)) :
    after opsAttention W (Proc.devRef .tc main_arg7 : DevRef τ sig) = W (Proc.devRef .tc main_arg7 : DevRef τ sig) := by
  after_results_simp
set_option maxRecDepth 8192 in
set_option maxHeartbeats 4000000 in
theorem attention_keeps_arg8 (W : Valuation τ sig (Elt F)) :
    after opsAttention W (Proc.devRef .tc main_arg8 : DevRef τ sig) = W (Proc.devRef .tc main_arg8 : DevRef τ sig) := by
  after_results_simp
set_option maxRecDepth 8192 in
set_option maxHeartbeats 4000000 in
theorem attention_keeps_arg9 (W : Valuation τ sig (Elt F)) :
    after opsAttention W (Proc.devRef .tc main_arg9 : DevRef τ sig) = W (Proc.devRef .tc main_arg9 : DevRef τ sig) := by
  after_results_simp
set_option maxRecDepth 8192 in
set_option maxHeartbeats 4000000 in
theorem attention_keeps_arg10 (W : Valuation τ sig (Elt F)) :
    after opsAttention W (Proc.devRef .tc main_arg10 : DevRef τ sig) = W (Proc.devRef .tc main_arg10 : DevRef τ sig) := by
  after_results_simp

/-! ## Stretch two: projection, residual, first normalisation -/

-- stretch one's result stays folded: the entry's `main_v25` is one opaque value here
attribute [local irreducible] ReadP.val_main_v25 in
set_option maxRecDepth 8192 in
set_option maxHeartbeats 4000000 in
/-- From contents holding stretch one's result at `main_v25` and arguments 0, 4, 7, 8, the first normalised activation is
    `val_main_v51` of the arguments. -/
theorem normOne_eq (W : Valuation τ sig (Elt F)) (x0 : (⟨S1x4096x1024, .f32⟩ : BufTy).Contents (Elt F)) (x1 x2 x3 x4 : (⟨S1024x1024, .f32⟩ : BufTy).Contents (Elt F)) (x7 x8 : (⟨S1024, .f32⟩ : BufTy).Contents (Elt F))
    (h25 : W (Proc.devRef .tc main_v25 : DevRef τ sig) = ReadP.val_main_v25 (F := F) x0 x1 x2 x3)
    (h0 : W (Proc.devRef .tc main_arg0 : DevRef τ sig) = x0) (h4 : W (Proc.devRef .tc main_arg4 : DevRef τ sig) = x4)
    (h7 : W (Proc.devRef .tc main_arg7 : DevRef τ sig) = x7) (h8 : W (Proc.devRef .tc main_arg8 : DevRef τ sig) = x8) :
    after opsNormOne W (Proc.devRef .tc main_v51 : DevRef τ sig) = ReadP.val_main_v51 (F := F) x0 x1 x2 x3 x4 x7 x8 := by
  subst h0 h4 h7 h8
  after_results_simp
  rw [h25]
  rfl

set_option maxRecDepth 8192 in
set_option maxHeartbeats 4000000 in
theorem normOne_keeps_arg5 (W : Valuation τ sig (Elt F)) :
    after opsNormOne W (Proc.devRef .tc main_arg5 : DevRef τ sig) = W (Proc.devRef .tc main_arg5 : DevRef τ sig) := by
  after_results_simp
set_option maxRecDepth 8192 in
set_option maxHeartbeats 4000000 in
theorem normOne_keeps_arg6 (W : Valuation τ sig (Elt F)) :
    after opsNormOne W (Proc.devRef .tc main_arg6 : DevRef τ sig) = W (Proc.devRef .tc main_arg6 : DevRef τ sig) := by
  after_results_simp
set_option maxRecDepth 8192 in
set_option maxHeartbeats 4000000 in
theorem normOne_keeps_arg9 (W : Valuation τ sig (Elt F)) :
    after opsNormOne W (Proc.devRef .tc main_arg9 : DevRef τ sig) = W (Proc.devRef .tc main_arg9 : DevRef τ sig) := by
  after_results_simp
set_option maxRecDepth 8192 in
set_option maxHeartbeats 4000000 in
theorem normOne_keeps_arg10 (W : Valuation τ sig (Elt F)) :
    after opsNormOne W (Proc.devRef .tc main_arg10 : DevRef τ sig) = W (Proc.devRef .tc main_arg10 : DevRef τ sig) := by
  after_results_simp

/-! ## Stretch three: linear layer, residual, second normalisation -/

attribute [local irreducible] ReadP.val_main_v51 in
set_option maxRecDepth 8192 in
set_option maxHeartbeats 4000000 in
/-- From contents holding stretch two's result at `main_v51` and arguments 5, 6, 9, 10, the second normalised activation
    is `val_main_v80` of the arguments. -/
theorem normTwo_eq (W : Valuation τ sig (Elt F)) (x0 : (⟨S1x4096x1024, .f32⟩ : BufTy).Contents (Elt F)) (x1 x2 x3 x4 x5 : (⟨S1024x1024, .f32⟩ : BufTy).Contents (Elt F)) (x6 x7 x8 x9 x10 : (⟨S1024, .f32⟩ : BufTy).Contents (Elt F))
    (h51 : W (Proc.devRef .tc main_v51 : DevRef τ sig) = ReadP.val_main_v51 (F := F) x0 x1 x2 x3 x4 x7 x8)
    (h5 : W (Proc.devRef .tc main_arg5 : DevRef τ sig) = x5) (h6 : W (Proc.devRef .tc main_arg6 : DevRef τ sig) = x6)
    (h9 : W (Proc.devRef .tc main_arg9 : DevRef τ sig) = x9) (h10 : W (Proc.devRef .tc main_arg10 : DevRef τ sig) = x10) :
    after opsNormTwo W (Proc.devRef .tc main_v80 : DevRef τ sig) = ReadP.val_main_v80 (F := F) x0 x1 x2 x3 x4 x5 x6 x7 x8 x9 x10 := by
  subst h5 h6 h9 h10
  after_results_simp
  rw [h51]
  rfl

/-! ## Stretch four: the clamp -/

attribute [local irreducible] ReadP.val_main_v80 in
set_option maxRecDepth 8192 in
set_option maxHeartbeats 4000000 in
/-- From contents holding stretch three's result at `main_v80`, the clamped activation is `val_main_v81`. -/
theorem clamp_eq (W : Valuation τ sig (Elt F)) (x0 : (⟨S1x4096x1024, .f32⟩ : BufTy).Contents (Elt F)) (x1 x2 x3 x4 x5 : (⟨S1024x1024, .f32⟩ : BufTy).Contents (Elt F)) (x6 x7 x8 x9 x10 : (⟨S1024, .f32⟩ : BufTy).Contents (Elt F))
    (h80 : W (Proc.devRef .tc main_v80 : DevRef τ sig) = ReadP.val_main_v80 (F := F) x0 x1 x2 x3 x4 x5 x6 x7 x8 x9 x10) :
    after opsClamp W (Proc.devRef .tc main_v81 : DevRef τ sig) = ReadP.val_main_v81 (F := F) x0 x1 x2 x3 x4 x5 x6 x7 x8 x9 x10 := by
  after_results_simp
  rw [h80]
  rfl

/-! ## The whole line -/

/-- From any contents `V`, the line leaves `val_main_v81` of `V`'s arguments at the result buffer: the four stretches
    chained, each entered with the one earlier result it reads and the arguments the earlier stretches kept. -/
theorem result_eq (V : Valuation τ sig (Elt F)) :
    after ops V (Proc.devRef .tc main_v81 : DevRef τ sig)
      = ReadP.val_main_v81 (F := F) (V (Proc.devRef .tc main_arg0 : DevRef τ sig)) (V (Proc.devRef .tc main_arg1 : DevRef τ sig)) (V (Proc.devRef .tc main_arg2 : DevRef τ sig)) (V (Proc.devRef .tc main_arg3 : DevRef τ sig)) (V (Proc.devRef .tc main_arg4 : DevRef τ sig)) (V (Proc.devRef .tc main_arg5 : DevRef τ sig)) (V (Proc.devRef .tc main_arg6 : DevRef τ sig)) (V (Proc.devRef .tc main_arg7 : DevRef τ sig)) (V (Proc.devRef .tc main_arg8 : DevRef τ sig)) (V (Proc.devRef .tc main_arg9 : DevRef τ sig)) (V (Proc.devRef .tc main_arg10 : DevRef τ sig)) := by
  rw [ops_split, StableHlo.after_append, StableHlo.after_append, StableHlo.after_append]
  refine clamp_eq _ _ _ _ _ _ _ _ _ _ _ _ ?_
  refine normTwo_eq _ _ _ _ _ _ _ _ _ _ _ _ ?_ ?_ ?_ ?_ ?_
  · exact normOne_eq _ _ _ _ _ _ _ _ (attention_eq V) (attention_keeps_arg0 V) (attention_keeps_arg4 V)
      (attention_keeps_arg7 V) (attention_keeps_arg8 V)
  · rw [normOne_keeps_arg5, attention_keeps_arg5]
  · rw [normOne_keeps_arg6, attention_keeps_arg6]
  · rw [normOne_keeps_arg9, attention_keeps_arg9]
  · rw [normOne_keeps_arg10, attention_keeps_arg10]

/-! The line writes no argument. -/
set_option maxRecDepth 8192 in
set_option maxHeartbeats 4000000 in
theorem keeps_arg0 (V : Valuation τ sig (Elt F)) :
    after ops V (Proc.devRef .tc main_arg0 : DevRef τ sig) = V (Proc.devRef .tc main_arg0 : DevRef τ sig) := by
  after_results_simp
set_option maxRecDepth 8192 in
set_option maxHeartbeats 4000000 in
theorem keeps_arg1 (V : Valuation τ sig (Elt F)) :
    after ops V (Proc.devRef .tc main_arg1 : DevRef τ sig) = V (Proc.devRef .tc main_arg1 : DevRef τ sig) := by
  after_results_simp
set_option maxRecDepth 8192 in
set_option maxHeartbeats 4000000 in
theorem keeps_arg2 (V : Valuation τ sig (Elt F)) :
    after ops V (Proc.devRef .tc main_arg2 : DevRef τ sig) = V (Proc.devRef .tc main_arg2 : DevRef τ sig) := by
  after_results_simp
set_option maxRecDepth 8192 in
set_option maxHeartbeats 4000000 in
theorem keeps_arg3 (V : Valuation τ sig (Elt F)) :
    after ops V (Proc.devRef .tc main_arg3 : DevRef τ sig) = V (Proc.devRef .tc main_arg3 : DevRef τ sig) := by
  after_results_simp
set_option maxRecDepth 8192 in
set_option maxHeartbeats 4000000 in
theorem keeps_arg4 (V : Valuation τ sig (Elt F)) :
    after ops V (Proc.devRef .tc main_arg4 : DevRef τ sig) = V (Proc.devRef .tc main_arg4 : DevRef τ sig) := by
  after_results_simp
set_option maxRecDepth 8192 in
set_option maxHeartbeats 4000000 in
theorem keeps_arg5 (V : Valuation τ sig (Elt F)) :
    after ops V (Proc.devRef .tc main_arg5 : DevRef τ sig) = V (Proc.devRef .tc main_arg5 : DevRef τ sig) := by
  after_results_simp
set_option maxRecDepth 8192 in
set_option maxHeartbeats 4000000 in
theorem keeps_arg6 (V : Valuation τ sig (Elt F)) :
    after ops V (Proc.devRef .tc main_arg6 : DevRef τ sig) = V (Proc.devRef .tc main_arg6 : DevRef τ sig) := by
  after_results_simp
set_option maxRecDepth 8192 in
set_option maxHeartbeats 4000000 in
theorem keeps_arg7 (V : Valuation τ sig (Elt F)) :
    after ops V (Proc.devRef .tc main_arg7 : DevRef τ sig) = V (Proc.devRef .tc main_arg7 : DevRef τ sig) := by
  after_results_simp
set_option maxRecDepth 8192 in
set_option maxHeartbeats 4000000 in
theorem keeps_arg8 (V : Valuation τ sig (Elt F)) :
    after ops V (Proc.devRef .tc main_arg8 : DevRef τ sig) = V (Proc.devRef .tc main_arg8 : DevRef τ sig) := by
  after_results_simp
set_option maxRecDepth 8192 in
set_option maxHeartbeats 4000000 in
theorem keeps_arg9 (V : Valuation τ sig (Elt F)) :
    after ops V (Proc.devRef .tc main_arg9 : DevRef τ sig) = V (Proc.devRef .tc main_arg9 : DevRef τ sig) := by
  after_results_simp
set_option maxRecDepth 8192 in
set_option maxHeartbeats 4000000 in
theorem keeps_arg10 (V : Valuation τ sig (Elt F)) :
    after ops V (Proc.devRef .tc main_arg10 : DevRef τ sig) = V (Proc.devRef .tc main_arg10 : DevRef τ sig) := by
  after_results_simp

/-- On every device, for any float values, from any memory with zero counters: every weakly fair execution of
    @main terminates with the result buffer at `val_main_v81` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v81) = Cert.ReferenceIdeal.ReadP.val_main_v81 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v81).trans (result_eq _),
      (h c main_arg0).trans (keeps_arg0 _),
      (h c main_arg1).trans (keeps_arg1 _),
      (h c main_arg2).trans (keeps_arg2 _),
      (h c main_arg3).trans (keeps_arg3 _),
      (h c main_arg4).trans (keeps_arg4 _),
      (h c main_arg5).trans (keeps_arg5 _),
      (h c main_arg6).trans (keeps_arg6 _),
      (h c main_arg7).trans (keeps_arg7 _),
      (h c main_arg8).trans (keeps_arg8 _),
      (h c main_arg9).trans (keeps_arg9 _),
      (h c main_arg10).trans (keeps_arg10 _)⟩)
    (run_seq scopedRefs_eq scopedSems_eq defs main (fun _ => ops) main_eq (fun _ => ops_sub) m ρ)

end Cert.ReferenceIdeal.RefRun

end
-- ==== Proof.RefAttn.lean ====
/-
  The reference program's attention half, read one element at a time on the extended reals: the three projections of
  the activations, their split into sixteen heads of width sixty-four, the scores divided by eight, each row's maximum,
  the shifted exponentials and their row sum, the softmax weights, the weighted values, and the heads merged back into
  rows of 1024. Each stage at an index built from explicit coordinates is the plain function of the specification with
  the same name.
-/
import proofs.«420769_j82386062672326_3_alg».proof.Proof.RefReadP
import proofs.«420769_j82386062672326_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefVal

open Cert.ReferenceIdeal Cert.ReferenceIdeal.ReadP Cert.Spec
open Idealize.ShloMosaic Idealize.ShloMosaic.TcCoe Idealize.ShloMosaic.ValueIdx

/-- The activations [1,4096,1024] and a weight matrix [1024,1024] as arrays of extended reals. -/
abbrev Act : Type := (⟨S1x4096x1024, .f32⟩ : BufTy).Contents (Elt Ideal)
abbrev Wgt : Type := (⟨S1024x1024, .f32⟩ : BufTy).Contents (Elt Ideal)

/-- The activations as a 4096 by 1024 matrix (the leading axis has one entry), a weight array as a matrix. -/
abbrev actMat (x : Act) : Mat 4096 1024 := fun s d => x (ix3 0 s d)
abbrev wgtMat (w : Wgt) : Mat 1024 1024 := fun d e => w (ix2 d e)

/-- A projection split into heads: what the queries, the keys and the values are. -/
abbrev headsOf (x : Act) (w : Wgt) : Heads := heads (proj (actMat x) (wgtMat w))

/-! ## The projections -/

/-- Entry (s, e) of the activations times a weight matrix is row s of the activations against column e of the matrix. -/
theorem ref_proj (x0 : Act) (w : Wgt) (s : Fin 4096) (e : Fin 1024) :
    val_main_v0 (F := Ideal) x0 w (ix3 0 s e) = proj (actMat x0) (wgtMat w) s e := by
  rw [val_main_v0_apply]
  unfold proj
  refine Finset.sum_congr rfl fun k _ => ?_
  have rowAt : lidx_main_v0 (ix3 (0 : Fin 1) s e) k = ix3 0 s k :=
    funext fun a => Fin.ext (by match a with | ⟨0, _⟩ => rfl | ⟨1, _⟩ => rfl | ⟨2, _⟩ => rfl)
  have colAt : ridx_main_v0 (ix3 (0 : Fin 1) s e) k = ix2 k e :=
    funext fun a => Fin.ext (by match a with | ⟨0, _⟩ => rfl | ⟨1, _⟩ => rfl)
  rw [rowAt, colAt]

/-! ## The split into heads -/

/-- Row-major position ((0·4096 + i)·16 + h)·64 + d of a [1,4096,16,64] array is row i, column 64 h + d of the
    [1,4096,1024] array with the same entries. -/
theorem split_row (i h d : ℕ) (hi : i < 4096) (hh : h < 16) (hd : d < 64) :
    (((0 * 4096 + i) * 16 + h) * 64 + d) / 1024 % 4096 = i ∧ (((0 * 4096 + i) * 16 + h) * 64 + d) % 1024 = h * 64 + d := by
  omega

/-- Entry (h, i, d) of a projection split into heads (each row reshaped into sixteen by sixty-four, then the head axis
    moved in front of the row axis) is entry (i, 64 h + d) of the projection. -/
theorem ref_heads (x0 : Act) (w : Wgt) (h : Fin 16) (i : Fin 4096) (d : Fin 64) :
    val_main_v4 (F := Ideal) x0 w (ix4 0 h i d) = headsOf x0 w h i d := by
  rw [val_main_v4_apply, val_main_v3_apply]
  have rowColAt : idx_main_v3 (idx_main_v4 (ix4 (0 : Fin 1) h i d)) = ix3 0 i (headCol h d) :=
    funext fun a => Fin.ext (by
      match a with
      | ⟨0, _⟩ => rfl
      | ⟨1, _⟩ => exact (split_row i.val h.val d.val i.isLt h.isLt d.isLt).1
      | ⟨2, _⟩ => exact (split_row i.val h.val d.val i.isLt h.isLt d.isLt).2)
  rw [rowColAt, ref_proj]
  rfl

/-- The keys and the values are split the same way. -/
theorem ref_heads_k (x0 : Act) (w : Wgt) (h : Fin 16) (i : Fin 4096) (d : Fin 64) :
    val_main_v6 (F := Ideal) x0 w (ix4 0 h i d) = headsOf x0 w h i d := ref_heads x0 w h i d
theorem ref_heads_v (x0 : Act) (w : Wgt) (h : Fin 16) (i : Fin 4096) (d : Fin 64) :
    val_main_v8 (F := Ideal) x0 w (ix4 0 h i d) = headsOf x0 w h i d := ref_heads x0 w h i d

/-! ## The scores -/

/-- Entry (h, i, j) of the scores: query i against key j in head h, over the sixty-four lanes, divided by eight. -/
theorem ref_score (x0 : Act) (x1 x2 : Wgt) (h : Fin 16) (i j : Fin 4096) :
    val_main_v11 (F := Ideal) x0 x1 x2 (ix4 0 h i j) = score (headsOf x0 x1) (headsOf x0 x2) h i j := by
  rw [val_main_v11_apply, val_main_v9_apply, val_main_v10_apply, val_main_cst_apply]
  simp only [Ideal.hostDivf_def, Ideal.ofBits_def]
  unfold score eight
  refine congrArg (fun t => Ideal.div t _) (Finset.sum_congr rfl fun k _ => ?_)
  have queryAt : lidx_main_v9 (ix4 (0 : Fin 1) h i j) k = ix4 0 h i k :=
    funext fun a => Fin.ext (by match a with | ⟨0, _⟩ => rfl | ⟨1, _⟩ => rfl | ⟨2, _⟩ => rfl | ⟨3, _⟩ => rfl)
  have keyAt : ridx_main_v9 (ix4 (0 : Fin 1) h i j) k = ix4 0 h j k :=
    funext fun a => Fin.ext (by match a with | ⟨0, _⟩ => rfl | ⟨1, _⟩ => rfl | ⟨2, _⟩ => rfl | ⟨3, _⟩ => rfl)
  rw [queryAt, keyAt, ref_heads, ref_heads_k]

/-! ## The row maximum -/

/-- Dropping the last axis of [1,16,4096,4096] leaves [1,16,4096]. -/
theorem scoreRows : S1x16x4096x4096.Reduces [3] S1x16x4096 := by decide

/-- Row (h, i) with the column j put back on the dropped axis is (h, i, j). -/
theorem scoreRows_lift (h : Fin 16) (i : Fin 4096) (j : Fin (S1x16x4096x4096.size 3)) :
    scoreRows.lift (ix3 (0 : Fin 1) h i) j = ix4 0 h i (⟨j.val, j.isLt⟩ : Fin 4096) := by
  funext c; apply Fin.ext
  fin_cases c <;> rfl

/-- The reduction by maximum over a row of scores, started at minus infinity, is the fold of max over that row. -/
theorem ref_scoreMax (x0 : Act) (x1 x2 : Wgt) (h : Fin 16) (i : Fin 4096) :
    val_main_v12 (F := Ideal) x0 x1 x2 (ix3 0 h i)
      = (Finset.univ : Finset (Fin 4096)).fold max negInf fun j => score (headsOf x0 x1) (headsOf x0 x2) h i j := by
  unfold val_main_v12
  rw [Host.reduce_eq_fold_single FloatOps.maximumf _ _ Gen.reducesTo_S1x16x4096x4096_S1x16x4096_d3 scoreRows Gen.h_S_]
  have rowIs : (val_main_v11 (F := Ideal) x0 x1 x2 ∘ scoreRows.lift (ix3 (0 : Fin 1) h i))
      = fun j : Fin 4096 => score (headsOf x0 x1) (headsOf x0 x2) h i j :=
    funext fun j => (congrArg (val_main_v11 (F := Ideal) x0 x1 x2) (scoreRows_lift h i j)).trans (ref_score x0 x1 x2 h i j)
  exact congrArg (fun f => Finset.fold max negInf f (Finset.univ : Finset (Fin 4096))) rowIs

/-- The row maximum the program keeps: the larger of minus infinity and that fold. -/
theorem ref_rowMax (x0 : Act) (x1 x2 : Wgt) (h : Fin 16) (i : Fin 4096) :
    val_main_v14 (F := Ideal) x0 x1 x2 (ix3 0 h i) = rowMax (headsOf x0 x1) (headsOf x0 x2) h i := by
  rw [val_main_v14_apply, val_main_v13_apply, val_main_cst_1_apply, ref_scoreMax]
  rfl

/-! ## The exponentials, their row sum and the softmax weights -/

/-- Entry (h, i, j) of the exponentials: the score less its row's maximum, exponentiated. -/
theorem ref_expo (x0 : Act) (x1 x2 : Wgt) (h : Fin 16) (i j : Fin 4096) :
    val_main_v18 (F := Ideal) x0 x1 x2 (ix4 0 h i j) = expo (headsOf x0 x1) (headsOf x0 x2) h i j := by
  rw [val_main_v18_apply, val_main_v17_apply, val_main_v16_apply, val_main_v15_apply]
  have rowAt : idx_main_v15 (idx_main_v16 (ix4 (0 : Fin 1) h i j)) = ix3 0 h i :=
    funext fun a => Fin.ext (by match a with | ⟨0, _⟩ => rfl | ⟨1, _⟩ => rfl | ⟨2, _⟩ => rfl)
  rw [rowAt, ref_score, ref_rowMax]
  rfl

/-- Entry (h, i) of the row sums: zero plus the exponentials of row (h, i), summed. -/
theorem ref_rowSum (x0 : Act) (x1 x2 : Wgt) (h : Fin 16) (i : Fin 4096) :
    val_main_v19 (F := Ideal) x0 x1 x2 (ix3 0 h i) = rowSum (headsOf x0 x1) (headsOf x0 x2) h i := by
  rw [val_main_v19_apply, val_main_cst_2_apply]
  simp only [Ideal.ofBits_def, Ideal.ofBits_zero_f32, zero_add]
  unfold rowSum
  refine Finset.sum_congr rfl fun j _ => ?_
  have entryAt : idx_main_v19 (ix3 (0 : Fin 1) h i) j = ix4 0 h i j :=
    funext fun a => Fin.ext (by match a with | ⟨0, _⟩ => rfl | ⟨1, _⟩ => rfl | ⟨2, _⟩ => rfl | ⟨3, _⟩ => rfl)
  rw [entryAt, ref_expo]

/-- Entry (h, i, j) of the softmax weights: the exponential divided by its row's sum. -/
theorem ref_weight (x0 : Act) (x1 x2 : Wgt) (h : Fin 16) (i j : Fin 4096) :
    val_main_v22 (F := Ideal) x0 x1 x2 (ix4 0 h i j)
      = Ideal.div (expo (headsOf x0 x1) (headsOf x0 x2) h i j) (rowSum (headsOf x0 x1) (headsOf x0 x2) h i) := by
  rw [val_main_v22_apply, val_main_v21_apply, val_main_v20_apply]
  have rowAt : idx_main_v20 (idx_main_v21 (ix4 (0 : Fin 1) h i j)) = ix3 0 h i :=
    funext fun a => Fin.ext (by match a with | ⟨0, _⟩ => rfl | ⟨1, _⟩ => rfl | ⟨2, _⟩ => rfl)
  rw [rowAt, ref_expo, ref_rowSum]
  rfl

/-! ## The weighted values -/

/-- Entry (h, i, d) of the attention output: the softmax weights of row (h, i) against lane d of the values. -/
theorem ref_attend (x0 : Act) (x1 x2 x3 : Wgt) (h : Fin 16) (i : Fin 4096) (d : Fin 64) :
    val_main_v23 (F := Ideal) x0 x1 x2 x3 (ix4 0 h i d) = attend (headsOf x0 x1) (headsOf x0 x2) (headsOf x0 x3) h i d := by
  rw [val_main_v23_apply]
  unfold attend
  refine Finset.sum_congr rfl fun j _ => ?_
  have weightAt : lidx_main_v23 (ix4 (0 : Fin 1) h i d) j = ix4 0 h i j :=
    funext fun a => Fin.ext (by match a with | ⟨0, _⟩ => rfl | ⟨1, _⟩ => rfl | ⟨2, _⟩ => rfl | ⟨3, _⟩ => rfl)
  have valueAt : ridx_main_v23 (ix4 (0 : Fin 1) h i d) j = ix4 0 h j d :=
    funext fun a => Fin.ext (by match a with | ⟨0, _⟩ => rfl | ⟨1, _⟩ => rfl | ⟨2, _⟩ => rfl | ⟨3, _⟩ => rfl)
  rw [weightAt, valueAt, ref_weight, ref_heads_v]

/-! ## The heads merged -/

/-- Row-major position (0·4096 + s)·1024 + e of a [1,4096,1024] array is row s, head e / 64, lane e % 64 of the
    [1,4096,16,64] array with the same entries. -/
theorem merge_row (s e : ℕ) (hs : s < 4096) (he : e < 1024) :
    ((0 * 4096 + s) * 1024 + e) / 1024 % 4096 = s ∧ ((0 * 4096 + s) * 1024 + e) / 64 % 16 = e / 64
      ∧ ((0 * 4096 + s) * 1024 + e) % 64 = e % 64 := by
  omega

/-- The attention context: entry (s, e) of the merged heads is entry (s, e % 64) of head e / 64. -/
theorem ref_context (x0 : (⟨S1x4096x1024, .f32⟩ : BufTy).Contents (Elt Ideal)) (x1 x2 x3 : (⟨S1024x1024, .f32⟩ : BufTy).Contents (Elt Ideal)) (s : Fin 4096) (e : Fin 1024) :
    val_main_v25 (F := Ideal) x0 x1 x2 x3 (ix3 0 s e)
      = context (fun s d => x0 (ix3 0 s d)) (fun d e => x1 (ix2 d e)) (fun d e => x2 (ix2 d e)) (fun d e => x3 (ix2 d e)) s e := by
  rw [val_main_v25_apply, val_main_v24_apply]
  have headLaneAt : idx_main_v24 (idx_main_v25 (ix3 (0 : Fin 1) s e)) = ix4 0 (colHead e) s (colLane e) :=
    funext fun a => Fin.ext (by
      match a with
      | ⟨0, _⟩ => rfl
      | ⟨1, _⟩ => exact (merge_row s.val e.val s.isLt e.isLt).2.1
      | ⟨2, _⟩ => exact (merge_row s.val e.val s.isLt e.isLt).1
      | ⟨3, _⟩ => exact (merge_row s.val e.val s.isLt e.isLt).2.2)
  rw [headLaneAt, ref_attend]
  rfl

end Cert.ReferenceIdeal.RefVal

end
-- ==== Proof.RefNormA.lean ====
/-
  The reference program from the output projection to the first row normalisation, read at one entry: the merged
  context times the output weights, added to the input, then each row centred by its mean, scaled by the inverse
  square root of its variance plus a small constant, multiplied by a scale row and shifted by a bias row. Each
  stage, read at row `s` and column `e`, is the plain function of the specification.
-/
import proofs.«420769_j82386062672326_3_alg».proof.Proof.RefReadP
import proofs.«420769_j82386062672326_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefVal

open Cert.ReferenceIdeal Cert.ReferenceIdeal.ReadP Cert.Spec
open Idealize.ShloMosaic Idealize.ShloMosaic.TcCoe Idealize.ShloMosaic.ValueIdx

/-! ## Where the composed index functions land at row `s`, column `e` -/

/-- The output projection's contraction reads row `s` of the context at column `k`. -/
theorem lidx_v26_at (s : Fin 4096) (e k : Fin 1024) : lidx_main_v26 (ix3 (0 : Fin 1) s e) k = ix3 0 s k :=
  funext fun a => Fin.ext (by match a with | ⟨0, _⟩ => rfl | ⟨1, _⟩ => rfl | ⟨2, _⟩ => rfl)
/-- … and row `k` of the weights at column `e`. -/
theorem ridx_v26_at (s : Fin 4096) (e k : Fin 1024) : ridx_main_v26 (ix3 (0 : Fin 1) s e) k = ix2 k e :=
  funext fun a => Fin.ext (by match a with | ⟨0, _⟩ => rfl | ⟨1, _⟩ => rfl)

/-- The input plus the projected context, at row `s` and column `e`. -/
theorem ref_resid (x0 : (⟨S1x4096x1024, .f32⟩ : BufTy).Contents (Elt Ideal)) (x1 x2 x3 x4 : (⟨S1024x1024, .f32⟩ : BufTy).Contents (Elt Ideal))
    (C : Mat 4096 1024) (hC : ∀ s e, val_main_v25 (F := Ideal) x0 x1 x2 x3 (ix3 0 s e) = C s e) (s : Fin 4096) (e : Fin 1024) :
    val_main_v27 (F := Ideal) x0 x1 x2 x3 x4 (ix3 0 s e) = x0 (ix3 0 s e) + proj C (fun d e => x4 (ix2 d e)) s e := by
  rw [val_main_v27_apply, val_main_v26_apply]
  simp only [lidx_v26_at, ridx_v26_at, hC, Ideal.addf_def]
  rfl

/-- A row sum's `k`-th term, reached from the kept-axis entry of row `s`, is row `s` at column `k`. -/
theorem idx_v28_at (s : Fin 4096) (k : Fin 1024) : idx_main_v28 (idx_main_v29 (ix3 (0 : Fin 1) s (0 : Fin 1))) k = ix3 0 s k :=
  funext fun a => Fin.ext (by match a with | ⟨0, _⟩ => rfl | ⟨1, _⟩ => rfl | ⟨2, _⟩ => rfl)
/-- The same for the sum of squares. -/
theorem idx_v35_at (s : Fin 4096) (k : Fin 1024) : idx_main_v35 (idx_main_v36 (ix3 (0 : Fin 1) s (0 : Fin 1))) k = ix3 0 s k :=
  funext fun a => Fin.ext (by match a with | ⟨0, _⟩ => rfl | ⟨1, _⟩ => rfl | ⟨2, _⟩ => rfl)
/-- A per-row quantity spread along the row is read at the row's one kept-axis entry (three stages do this). -/
theorem idx_v32_at (s : Fin 4096) (e : Fin 1024) : idx_main_v32 (ix3 (0 : Fin 1) s e) = ix3 0 s 0 :=
  funext fun a => Fin.ext (by match a with | ⟨0, _⟩ => rfl | ⟨1, _⟩ => rfl | ⟨2, _⟩ => rfl)
theorem idx_v39_at (s : Fin 4096) (e : Fin 1024) : idx_main_v39 (ix3 (0 : Fin 1) s e) = ix3 0 s 0 :=
  funext fun a => Fin.ext (by match a with | ⟨0, _⟩ => rfl | ⟨1, _⟩ => rfl | ⟨2, _⟩ => rfl)
theorem idx_v44_at (s : Fin 4096) (e : Fin 1024) : idx_main_v44 (ix3 (0 : Fin 1) s e) = ix3 0 s 0 :=
  funext fun a => Fin.ext (by match a with | ⟨0, _⟩ => rfl | ⟨1, _⟩ => rfl | ⟨2, _⟩ => rfl)
/-- The scale and the shift rows, spread over every row, are read at column `e`. -/
theorem idx_v46_at (s : Fin 4096) (e : Fin 1024) : idx_main_v46 (idx_main_v47 (ix3 (0 : Fin 1) s e)) = ix1 e :=
  funext fun a => Fin.ext (by match a with | ⟨0, _⟩ => rfl)
theorem idx_v49_at (s : Fin 4096) (e : Fin 1024) : idx_main_v49 (idx_main_v50 (ix3 (0 : Fin 1) s e)) = ix1 e :=
  funext fun a => Fin.ext (by match a with | ⟨0, _⟩ => rfl)

/-! ## The row statistics, for a row `z` known entry by entry -/

/-- The row's sum divided by its length is the mean. -/
theorem ref_mean (x0 : (⟨S1x4096x1024, .f32⟩ : BufTy).Contents (Elt Ideal)) (x1 x2 x3 x4 : (⟨S1024x1024, .f32⟩ : BufTy).Contents (Elt Ideal))
    (s : Fin 4096) (z : Row) (hz : ∀ e', val_main_v27 (F := Ideal) x0 x1 x2 x3 x4 (ix3 0 s e') = z e') :
    val_main_v31 (F := Ideal) x0 x1 x2 x3 x4 (ix3 0 s 0) = mean z := by
  rw [val_main_v31_apply, val_main_v29_apply, val_main_v28_apply, val_main_v30_apply, val_main_cst_4_apply, val_main_cst_3_apply]
  simp only [idx_v28_at, hz, Ideal.hostDivf_def, Ideal.ofBits_def, Ideal.ofBits_zero_f32, zero_add]
  rfl

/-- The centred entries squared, summed and divided by the row's length, are the variance. -/
theorem ref_variance (x0 : (⟨S1x4096x1024, .f32⟩ : BufTy).Contents (Elt Ideal)) (x1 x2 x3 x4 : (⟨S1024x1024, .f32⟩ : BufTy).Contents (Elt Ideal))
    (s : Fin 4096) (z : Row) (hz : ∀ e', val_main_v27 (F := Ideal) x0 x1 x2 x3 x4 (ix3 0 s e') = z e') :
    val_main_v38 (F := Ideal) x0 x1 x2 x3 x4 (ix3 0 s 0) = variance z := by
  rw [val_main_v38_apply, val_main_v36_apply, val_main_v35_apply, val_main_v37_apply, val_main_cst_6_apply, val_main_cst_5_apply]
  simp only [val_main_v34_apply, val_main_v33_apply, val_main_v32_apply, idx_v35_at, idx_v32_at, hz, ref_mean x0 x1 x2 x3 x4 s z hz,
    Ideal.hostDivf_def, Ideal.mulf_def, Ideal.subf_def, Ideal.ofBits_def, Ideal.ofBits_zero_f32, zero_add]
  rfl

/-! ## The normalised row -/

theorem ref_attnOut (x0 : (⟨S1x4096x1024, .f32⟩ : BufTy).Contents (Elt Ideal)) (x1 x2 x3 x4 : (⟨S1024x1024, .f32⟩ : BufTy).Contents (Elt Ideal)) (x7 x8 : (⟨S1024, .f32⟩ : BufTy).Contents (Elt Ideal))
    (C : Mat 4096 1024) (hC : ∀ s e, val_main_v25 (F := Ideal) x0 x1 x2 x3 (ix3 0 s e) = C s e) (s : Fin 4096) (e : Fin 1024) :
    val_main_v51 (F := Ideal) x0 x1 x2 x3 x4 x7 x8 (ix3 0 s e)
      = lnorm (fun e' => x0 (ix3 0 s e') + proj C (fun d e => x4 (ix2 d e)) s e') (fun e' => x7 (ix1 e')) (fun e' => x8 (ix1 e')) e := by
  have hz : ∀ e', val_main_v27 (F := Ideal) x0 x1 x2 x3 x4 (ix3 0 s e')
      = (fun e' => x0 (ix3 0 s e') + proj C (fun d e => x4 (ix2 d e)) s e') e' := fun e' => ref_resid x0 x1 x2 x3 x4 C hC s e'
  rw [val_main_v51_apply, val_main_v48_apply, val_main_v45_apply, val_main_v40_apply, val_main_v39_apply, val_main_v44_apply,
    val_main_v43_apply, val_main_v42_apply, val_main_v41_apply, val_main_cst_7_apply, val_main_v47_apply, val_main_v46_apply,
    val_main_v50_apply, val_main_v49_apply]
  simp only [idx_v39_at, idx_v44_at, idx_v46_at, idx_v49_at, hz, ref_mean x0 x1 x2 x3 x4 s _ hz, ref_variance x0 x1 x2 x3 x4 s _ hz,
    Ideal.addf_def, Ideal.mulf_def, Ideal.subf_def, Ideal.hostUnary_rsqrt_def, Ideal.ofBits_def]
  rfl

end Cert.ReferenceIdeal.RefVal

end
-- ==== Proof.RefNormB.lean ====
/-
  The second half of the reference's closing stages, read at one entry of the ideal instance. Given what the first
  normalised sum holds at every row and column (a matrix `A`), the remaining operations compute, at row `s` and column `e`:
  the row `z = A · W₅ᵀ + b₆ + A` (the contraction runs over the SECOND axis of `W₅`, so entry `e` pairs row `s` of `A`
  with row `e` of `W₅`); its mean (the row's sum over its length) and its variance (the sum of squared distances to
  the mean over its length); the centred entry times the reciprocal square root of the variance plus the small
  constant, times the scale, plus the shift; and the larger of that and zero. Each per-row quantity is stored in a
  width-one column and broadcast back, so it is read at `(0, s, 0)`; each vector over the columns is broadcast
  along the rows, so it is read at `e`.
-/
import proofs.«420769_j82386062672326_3_alg».proof.Proof.RefReadP
import proofs.«420769_j82386062672326_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefVal

open Cert.ReferenceIdeal Cert.ReferenceIdeal.ReadP Cert.Spec
open Idealize.ShloMosaic Idealize.ShloMosaic.TcCoe Idealize.ShloMosaic.ValueIdx

/-! ### Where the composed index functions land, at an index given by its coordinates -/

/-- The contraction reads its left operand along row `s`. -/
theorem lidx52 (s : Fin 4096) (e k : Fin 1024) :
    lidx_main_v52 (ix3 (0 : Fin 1) s e) k = ix3 (0 : Fin 1) s k :=
  funext fun a => Fin.ext (by match a with | ⟨0, _⟩ => rfl | ⟨1, _⟩ => rfl | ⟨2, _⟩ => rfl)

/-- The contraction reads its right operand along ROW `e`: its second axis is the summed one. -/
theorem ridx52 (s : Fin 4096) (e k : Fin 1024) :
    ridx_main_v52 (ix3 (0 : Fin 1) s e) k = ix2 e k :=
  funext fun a => Fin.ext (by match a with | ⟨0, _⟩ => rfl | ⟨1, _⟩ => rfl)

/-- A vector broadcast along the rows is read at the column. -/
theorem idx53 (s : Fin 4096) (e : Fin 1024) :
    idx_main_v53 (idx_main_v54 (ix3 (0 : Fin 1) s e)) = ix1 e :=
  funext fun a => Fin.ext (by match a with | ⟨0, _⟩ => rfl)
theorem idx75 (s : Fin 4096) (e : Fin 1024) :
    idx_main_v75 (idx_main_v76 (ix3 (0 : Fin 1) s e)) = ix1 e :=
  funext fun a => Fin.ext (by match a with | ⟨0, _⟩ => rfl)
theorem idx78 (s : Fin 4096) (e : Fin 1024) :
    idx_main_v78 (idx_main_v79 (ix3 (0 : Fin 1) s e)) = ix1 e :=
  funext fun a => Fin.ext (by match a with | ⟨0, _⟩ => rfl)

/-- A per-row quantity broadcast along the columns is read at the row. -/
theorem idx61 (s : Fin 4096) (e : Fin 1024) :
    idx_main_v61 (ix3 (0 : Fin 1) s e) = ix3 (0 : Fin 1) s (0 : Fin 1) :=
  funext fun a => Fin.ext (by match a with | ⟨0, _⟩ => rfl | ⟨1, _⟩ => rfl | ⟨2, _⟩ => rfl)
theorem idx68 (s : Fin 4096) (e : Fin 1024) :
    idx_main_v68 (ix3 (0 : Fin 1) s e) = ix3 (0 : Fin 1) s (0 : Fin 1) :=
  funext fun a => Fin.ext (by match a with | ⟨0, _⟩ => rfl | ⟨1, _⟩ => rfl | ⟨2, _⟩ => rfl)
theorem idx73 (s : Fin 4096) (e : Fin 1024) :
    idx_main_v73 (ix3 (0 : Fin 1) s e) = ix3 (0 : Fin 1) s (0 : Fin 1) :=
  funext fun a => Fin.ext (by match a with | ⟨0, _⟩ => rfl | ⟨1, _⟩ => rfl | ⟨2, _⟩ => rfl)

/-- A row's sum runs over the row's entries. -/
theorem idx57 (s : Fin 4096) (k : Fin 1024) :
    idx_main_v57 (idx_main_v58 (ix3 (0 : Fin 1) s (0 : Fin 1))) k = ix3 (0 : Fin 1) s k :=
  funext fun a => Fin.ext (by match a with | ⟨0, _⟩ => rfl | ⟨1, _⟩ => rfl | ⟨2, _⟩ => rfl)
theorem idx64 (s : Fin 4096) (k : Fin 1024) :
    idx_main_v64 (idx_main_v65 (ix3 (0 : Fin 1) s (0 : Fin 1))) k = ix3 (0 : Fin 1) s k :=
  funext fun a => Fin.ext (by match a with | ⟨0, _⟩ => rfl | ⟨1, _⟩ => rfl | ⟨2, _⟩ => rfl)

section
variable (x0 : (⟨S1x4096x1024, .f32⟩ : BufTy).Contents (Elt Ideal)) (x1 x2 x3 x4 x5 : (⟨S1024x1024, .f32⟩ : BufTy).Contents (Elt Ideal)) (x6 x7 x8 x9 x10 : (⟨S1024, .f32⟩ : BufTy).Contents (Elt Ideal))

/-- The row that is normalised: the transposed projection of the earlier stage, plus the bias, plus that stage again. -/
theorem v56_at (A : Mat 4096 1024) (hA : ∀ s e, val_main_v51 (F := Ideal) x0 x1 x2 x3 x4 x7 x8 (ix3 0 s e) = A s e) (s : Fin 4096) (e : Fin 1024) :
    val_main_v56 (F := Ideal) x0 x1 x2 x3 x4 x5 x6 x7 x8 (ix3 0 s e)
      = (projT A (fun d e => x5 (ix2 d e)) s e + x6 (ix1 e)) + A s e := by
  rw [val_main_v56_apply, val_main_v55_apply, val_main_v52_apply, val_main_v54_apply, val_main_v53_apply]
  simp only [Ideal.addf_def, lidx52, ridx52, idx53, hA]
  rfl

/-- The row's sum over its length is the mean of the row. -/
theorem v60_at (s : Fin 4096) :
    val_main_v60 (F := Ideal) x0 x1 x2 x3 x4 x5 x6 x7 x8 (ix3 0 s 0)
      = mean (fun e' => val_main_v56 (F := Ideal) x0 x1 x2 x3 x4 x5 x6 x7 x8 (ix3 0 s e')) := by
  rw [val_main_v60_apply, val_main_v58_apply, val_main_v57_apply, val_main_v59_apply, val_main_cst_9_apply, val_main_cst_8_apply]
  simp only [Ideal.hostDivf_def, Ideal.ofBits_def, Ideal.ofBits_zero_f32, zero_add, idx57]
  rfl

/-- The sum of the squared distances to the mean over the row's length is the variance of the row. -/
theorem v67_at (s : Fin 4096) :
    val_main_v67 (F := Ideal) x0 x1 x2 x3 x4 x5 x6 x7 x8 (ix3 0 s 0)
      = variance (fun e' => val_main_v56 (F := Ideal) x0 x1 x2 x3 x4 x5 x6 x7 x8 (ix3 0 s e')) := by
  rw [val_main_v67_apply, val_main_v65_apply, val_main_v64_apply, val_main_v66_apply, val_main_cst_11_apply, val_main_cst_10_apply]
  simp only [val_main_v63_apply, val_main_v62_apply, val_main_v61_apply, Ideal.hostDivf_def, Ideal.mulf_def, Ideal.subf_def,
    Ideal.ofBits_def, Ideal.ofBits_zero_f32, zero_add, idx64, idx61, v60_at]
  rfl

end

/-- The reference's last stage at row `s`, column `e`: the row `projT A W₅ + b₆ + A` normalised with scale and shift, clamped at zero. -/
theorem ref_layer (x0 : (⟨S1x4096x1024, .f32⟩ : BufTy).Contents (Elt Ideal)) (x1 x2 x3 x4 x5 : (⟨S1024x1024, .f32⟩ : BufTy).Contents (Elt Ideal)) (x6 x7 x8 x9 x10 : (⟨S1024, .f32⟩ : BufTy).Contents (Elt Ideal))
    (A : Mat 4096 1024) (hA : ∀ s e, val_main_v51 (F := Ideal) x0 x1 x2 x3 x4 x7 x8 (ix3 0 s e) = A s e) (s : Fin 4096) (e : Fin 1024) :
    val_main_v81 (F := Ideal) x0 x1 x2 x3 x4 x5 x6 x7 x8 x9 x10 (ix3 0 s e)
      = max (lnorm (fun e' => (projT A (fun d e => x5 (ix2 d e)) s e' + x6 (ix1 e')) + A s e') (fun e' => x9 (ix1 e')) (fun e' => x10 (ix1 e')) e) 0 := by
  have hrow : (fun e' => val_main_v56 (F := Ideal) x0 x1 x2 x3 x4 x5 x6 x7 x8 (ix3 0 s e'))
      = fun e' => (projT A (fun d e => x5 (ix2 d e)) s e' + x6 (ix1 e')) + A s e' :=
    funext fun e' => v56_at x0 x1 x2 x3 x4 x5 x6 x7 x8 A hA s e'
  rw [val_main_v81_apply, val_main_v80_apply, val_main_v77_apply, val_main_v74_apply, val_main_v69_apply, val_main_v68_apply,
    val_main_v73_apply, val_main_v72_apply, val_main_v71_apply, val_main_v70_apply, val_main_cst_12_apply,
    val_main_v76_apply, val_main_v75_apply, val_main_v79_apply, val_main_v78_apply,
    val_main_call0_v0_apply, val_main_call0_cst_apply]
  simp only [Ideal.maximumf_def, Ideal.addf_def, Ideal.mulf_def, Ideal.subf_def, Ideal.hostUnary_rsqrt_def, Ideal.ofBits_def,
    Ideal.ofBits_zero_f32, idx68, idx73, idx75, idx78, v60_at, v67_at]
  rw [hrow, v56_at x0 x1 x2 x3 x4 x5 x6 x7 x8 A hA s e]
  rfl

end Cert.ReferenceIdeal.RefVal

end
-- ==== Proof.RefValue.lean ====
/-
  The reference program's result, entry by entry, is the layer function of its arguments: the attention context, the
  first normalised sum over it, and the second normalised sum clamped at zero, composed.
-/
import proofs.«420769_j82386062672326_3_alg».proof.Proof.RefAttn
import proofs.«420769_j82386062672326_3_alg».proof.Proof.RefNormA
import proofs.«420769_j82386062672326_3_alg».proof.Proof.RefNormB

noncomputable section

namespace Cert.ReferenceIdeal.RefVal

open Cert.ReferenceIdeal Cert.ReferenceIdeal.ReadP Cert.Spec
open Idealize.ShloMosaic Idealize.ShloMosaic.TcCoe Idealize.ShloMosaic.ValueIdx

/-- Every stage of the reference read at an index and composed: the last stage at row `s`, column `e` is the layer. -/
theorem ref_value (x0 : (⟨S1x4096x1024, .f32⟩ : BufTy).Contents (Elt Ideal)) (x1 x2 x3 x4 x5 : (⟨S1024x1024, .f32⟩ : BufTy).Contents (Elt Ideal))
    (x6 x7 x8 x9 x10 : (⟨S1024, .f32⟩ : BufTy).Contents (Elt Ideal)) (s : Fin 4096) (e : Fin 1024) :
    val_main_v81 (F := Ideal) x0 x1 x2 x3 x4 x5 x6 x7 x8 x9 x10 (ix3 0 s e)
      = layer (fun s d => x0 (ix3 0 s d)) (fun d e => x1 (ix2 d e)) (fun d e => x2 (ix2 d e)) (fun d e => x3 (ix2 d e)) (fun d e => x4 (ix2 d e)) (fun d e => x5 (ix2 d e))
          (fun e => x6 (ix1 e)) (fun e => x7 (ix1 e)) (fun e => x8 (ix1 e)) (fun e => x9 (ix1 e)) (fun e => x10 (ix1 e)) s e := by
  have hC := ref_context x0 x1 x2 x3
  have hA : ∀ s e, val_main_v51 (F := Ideal) x0 x1 x2 x3 x4 x7 x8 (ix3 0 s e)
      = attnOut (fun s d => x0 (ix3 0 s d)) (fun d e => x1 (ix2 d e)) (fun d e => x2 (ix2 d e)) (fun d e => x3 (ix2 d e)) (fun d e => x4 (ix2 d e))
          (fun e => x7 (ix1 e)) (fun e => x8 (ix1 e)) s e :=
    fun s e => ref_attnOut x0 x1 x2 x3 x4 x7 x8 _ hC s e
  exact ref_layer x0 x1 x2 x3 x4 x5 x6 x7 x8 x9 x10 _ hA s e

end Cert.ReferenceIdeal.RefVal

end
-- ==== Proof.lean ====
/-
  The certificate: both kernel programs run to the end, fault nowhere and leave their arguments unchanged (four kernel
  regions among stretches of host operations, launched together); the reference, a pure host program, likewise; the
  idealization rewrote nothing; and at the ideal instance the kernel's tile-by-tile attention with its two fused
  normalisations computes, entry by entry, the same extended reals as the reference's plain softmax layer: both results
  are one function of the eleven argument arrays, the kernel's under the finiteness of the activations and the three
  projection weights, which keeps every score and value a real number.
-/
import proofs.«420769_j82386062672326_3_alg».proof.Defs
import proofs.«420769_j82386062672326_3_alg».proof.Proof.Gen.Kernel
import proofs.«420769_j82386062672326_3_alg».proof.Proof.Gen.KernelIdeal
import proofs.«420769_j82386062672326_3_alg».proof.Proof.Gen.ReferenceIdeal
import proofs.«420769_j82386062672326_3_alg».proof.Proof.Gen.Pre_finite_inputs
import proofs.«420769_j82386062672326_3_alg».proof.Proof.KKernelRun
import proofs.«420769_j82386062672326_3_alg».proof.Proof.KernelRun
import proofs.«420769_j82386062672326_3_alg».proof.Proof.KernelValue
import proofs.«420769_j82386062672326_3_alg».proof.Proof.FlashRead
import proofs.«420769_j82386062672326_3_alg».proof.Proof.FlashTile
import proofs.«420769_j82386062672326_3_alg».proof.Proof.Finite
import proofs.«420769_j82386062672326_3_alg».proof.Proof.RefRun
import proofs.«420769_j82386062672326_3_alg».proof.Proof.RefValue

noncomputable section

namespace Cert.Proof

open Idealize.ShloMosaic Idealize.ShloMosaic.TcCoe Idealize.ShloMosaic.ValueIdx Idealize.SL.Sem

/-- The word-level kernel program: the launch of its four regions, at the word-level instance. -/
theorem frame_word : Cert.frame_Kernel := fun m ρ _ => Cert.Kernel.Fr.frame m ρ

/-- The idealized kernel program: the same launch at the ideal instance. -/
theorem frame_ideal : Cert.frame_KernelIdeal := fun m ρ _ => Cert.KernelIdeal.Fr.frame m ρ

/-- The reference: its run, the result dropped. -/
theorem frame_ref : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- Both programs end with the layer function of the arguments in their result buffer: the kernel's named run and its
    value, the reference's run and its value, the arguments of the two memories identified. -/
theorem algebraic : Cert.algebraic_KernelIdeal_ReferenceIdeal := by
  intro m ρ m' ρ' hpre hagree
  refine ⟨fun c => Cert.KernelIdeal.Gen.V9 m (Cert.KernelIdeal.Fr.outs m) c Cert.KernelIdeal.main_v30, Cert.KernelIdeal.Fr.run_named m ρ, ?_⟩
  refine (θ_run Cert.ReferenceIdeal.defs _ _).mono (fun _ h c => ⟨(h c).1.trans ?_, (h c).2⟩)
    (Cert.ReferenceIdeal.RefRun.run (F := Ideal) m' ρ')
  obtain ⟨a0, a1, a2, a3, a4, a5, a6, a7, a8, a9, a10⟩ := hagree c
  rw [a0, a1, a2, a3, a4, a5, a6, a7, a8, a9, a10]
  obtain ⟨hx, hq, hk, hv, -⟩ := Cert.KernelIdeal.Val.finite_of_pre m hpre c
  funext i
  obtain ⟨z, s, e, rfl⟩ : ∃ (z : Fin 1) (s : Fin 4096) (e : Fin 1024), i = ix3 z s e := ⟨i 0, i 1, i 2, eq_ix3 i⟩
  obtain rfl : z = 0 := Subsingleton.elim _ _
  rw [Cert.ReferenceIdeal.RefVal.ref_value]
  exact (Cert.KernelIdeal.Val.kernel_value m c
    (fun t x0 x1 x2 => Cert.KernelIdeal.Val.out1_3_eq c t x0 x1 x2)
    (fun x0 x1 x2 h i d => Cert.KernelIdeal.Val.flashOut_apply x0 x1 x2 h i d) hx hq hk hv s e).symm

theorem claim : Cert.Claim :=
  ⟨Cert.Kernel.Gen.facts, Cert.KernelIdeal.Gen.facts, Cert.ReferenceIdeal.Gen.facts, Cert.Pre_finite_inputs.Gen.facts,
    frame_word, frame_ideal, frame_ref, preserves, algebraic⟩

end Cert.Proof

end
